-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 256, 128]⟩ ⟨3, ![4, 256, 4096]⟩ 2 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 128]⟩ ⟨2, ![128, 4096]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 128]⟩ ⟨2, ![128, 4096]⟩ 1 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 256, 128]⟩ ⟨3, ![4, 256, 4096]⟩ 2 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x256x128 : Shape := ⟨3, ![4, 256, 128]⟩
abbrev S4x128 : Shape := ⟨2, ![4, 128]⟩
abbrev S128x128 : Shape := ⟨2, ![128, 128]⟩
abbrev S_ : Shape := ⟨0, ![]⟩

class Facts : Prop where
  bcast_S_S4x256x128 : S_.BroadcastsInDim S4x256x128 (![] : Fin 0 → Fin S4x256x128.rank)
  reducesTo_S4x256x128_S_d0_1_2 : S4x256x128.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S4x256x128 .f32) (main_arg1 : FVec F S4x128 .f32) (main_arg2 : FVec F S128x128 .f32) (main_arg3 : FVec F S128x128 .f32) : IVec S_ 1 :=
  let main_v0 : FVec F S4x256x128 .f32 := Host.absf main_arg0
  let main_cst : FVec F S_ .f32 := constant S_ .f32 0x7F800000#32
  let main_v1 : FVec F S4x256x128 .f32 := broadcastInDim S4x256x128 ![] bcast_S_S4x256x128 main_cst
  let main_v2 : IVec S4x256x128 1 := cmpf .olt main_v0 main_v1
  let main_c : IVec S_ 1 := constantI S_ 1 1#1
  let main_v3 : IVec S_ 1 := (fun x v => Host.reduce IntOp.andi x v reducesTo_S4x256x128_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Pre_finite_inputs_ReferenceIdeal.lean ====
abbrev S4x256x4096 : Shape := ⟨3, ![4, 256, 4096]⟩
abbrev S4x128 : Shape := ⟨2, ![4, 128]⟩
abbrev S128x4096 : Shape := ⟨2, ![128, 4096]⟩
abbrev S_ : Shape := ⟨0, ![]⟩

class Facts : Prop where
  bcast_S_S4x256x4096 : S_.BroadcastsInDim S4x256x4096 (![] : Fin 0 → Fin S4x256x4096.rank)
  reducesTo_S4x256x4096_S_d0_1_2 : S4x256x4096.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x4096 : S_.BroadcastsInDim S128x4096 (![] : Fin 0 → Fin S128x4096.rank)
  reducesTo_S128x4096_S_d0_1 : S128x4096.ReducesTo [0, 1] S_

variable [Facts]

def fn_part1 {F : FTy → Type} [FloatOps F] (main_v13 : IVec S_ 1) (main_v16 : IVec S128x4096 1) : IVec S_ 1 :=
  let main_c_5 : IVec S_ 1 := constantI S_ 1 1#1
  let main_v17 : IVec S_ 1 := (fun x v => Host.reduce IntOp.andi x v reducesTo_S128x4096_S_d0_1 h_S_) main_v16 main_c_5
  let main_v18 : IVec S_ 1 := andi main_v13 main_v17
  main_v18

def fn {F : FTy → Type} [FloatOps F] (main_arg0 : FVec F S4x256x4096 .f32) (main_arg1 : FVec F S4x128 .f32) (main_arg2 : FVec F S128x4096 .f32) (main_arg3 : FVec F S128x4096 .f32) : IVec S_ 1 :=
  let main_v0 : FVec F S4x256x4096 .f32 := Host.absf main_arg0
  let main_cst : FVec F S_ .f32 := constant S_ .f32 0x7F800000#32
  let main_v1 : FVec F S4x256x4096 .f32 := broadcastInDim S4x256x4096 ![] bcast_S_S4x256x4096 main_cst
  let main_v2 : IVec S4x256x4096 1 := cmpf .olt main_v0 main_v1
  let main_c : IVec S_ 1 := constantI S_ 1 1#1
  let main_v3 : IVec S_ 1 := (fun x v => Host.reduce IntOp.andi x v reducesTo_S4x256x4096_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  let main_v14 : FVec F S128x4096 .f32 := Host.absf main_arg3
  let main_cst_4 : FVec F S_ .f32 := constant S_ .f32 0x7F800000#32
  let main_v15 : FVec F S128x4096 .f32 := broadcastInDim S128x4096 ![] bcast_S_S128x4096 main_cst_4
  let main_v16 : IVec S128x4096 1 := cmpf .olt main_v14 main_v15
  fn_part1 (F := F) main_v13 main_v16
-- ==== Kernel.lean ====
abbrev S4x256x128 : Shape := ⟨3, ![4, 256, 128]⟩
abbrev S4x128 : Shape := ⟨2, ![4, 128]⟩
abbrev S128x128 : Shape := ⟨2, ![128, 128]⟩
abbrev S8x256 : Shape := ⟨2, ![8, 256]⟩
abbrev S3x8x256 : Shape := ⟨3, ![3, 8, 256]⟩
abbrev S7x8x256 : Shape := ⟨3, ![7, 8, 256]⟩
abbrev S3 : Shape := ⟨1, ![3]⟩
abbrev S7 : Shape := ⟨1, ![7]⟩
abbrev S_ : Shape := ⟨0, ![]⟩
abbrev S4x256 : Shape := ⟨2, ![4, 256]⟩
abbrev S1 : Shape := ⟨1, ![1]⟩
abbrev S1x8x256 : Shape := ⟨3, ![1, 8, 256]⟩
abbrev S4x256x1 : Shape := ⟨3, ![4, 256, 1]⟩
abbrev S4x1x128 : Shape := ⟨3, ![4, 1, 128]⟩

abbrev nBuf : Space → Nat
  | .hbm => 5
  | .vmem => 9
  | .smem => 0
  | _ => 0

abbrev bufTy : (tb : Table) → Fin (tcTables nBuf tb) → BufTy
  | .hbm, ⟨0, _⟩ => ⟨S4x256x128, .f32⟩
  | .hbm, ⟨1, _⟩ => ⟨S4x128, .f32⟩
  | .hbm, ⟨2, _⟩ => ⟨S128x128, .f32⟩
  | .hbm, ⟨3, _⟩ => ⟨S128x128, .f32⟩
  | .hbm, ⟨4, _⟩ => ⟨S4x256x128, .f32⟩
  | .local _ .vmem, ⟨0, _⟩ => ⟨S4x256x128, .f32⟩
  | .local _ .vmem, ⟨1, _⟩ => ⟨S4x128, .f32⟩
  | .local _ .vmem, ⟨2, _⟩ => ⟨S128x128, .f32⟩
  | .local _ .vmem, ⟨3, _⟩ => ⟨S128x128, .f32⟩
  | .local _ .vmem, ⟨4, _⟩ => ⟨S4x256x128, .f32⟩
  | .local _ .vmem, ⟨5, _⟩ => ⟨S8x256, .f32⟩
  | .local _ .vmem, ⟨6, _⟩ => ⟨S8x256, .f32⟩
  | .local _ .vmem, ⟨7, _⟩ => ⟨S3x8x256, .f32⟩
  | .local _ .vmem, ⟨8, _⟩ => ⟨S7x8x256, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 1 25 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c8_i32_17 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_11 : BitVec 32 := 1#32
  let v31 : BitVec 32 := Scalar.addi v19 c1_i32_11
  let c4_i32 : BitVec 32 := 4#32
  let c0_i32_12 : BitVec 32 := 0#32
  let v32 : BitVec 1 := Scalar.cmpi .eq c4_i32 c0_i32_12
  let c1_i32_13 : BitVec 32 := 1#32
  let v33 : BitVec 32 := Scalar.select v32 c1_i32_13 c4_i32
  let v34 : BitVec 32 := Scalar.remsi v31 v33
  let c0_i32_15 : BitVec 32 := 0#32
  let v36 : BitVec 1 := Scalar.cmpi .slt v34 c0_i32_15
  let c0_i32_16 : BitVec 32 := 0#32
  let v37 : BitVec 1 := Scalar.cmpi .slt v33 c0_i32_16
  let v38 : BitVec 1 := Scalar.xori v36 v37
  let c0_i32_14 : BitVec 32 := 0#32
  let v35 : BitVec 1 := Scalar.cmpi .ne v34 c0_i32_14
  let v39 : BitVec 1 := Scalar.andi v38 v35
  let v40 : BitVec 32 := Scalar.addi v34 v33
  let v41 : BitVec 32 := Scalar.select v39 v40 v34
  let v42 : BitVec 32 := Scalar.muli c8_i32_17 v41
  let v43 : BitVec 32 := Scalar.addi v29 v42
  let c1_i32_19 : BitVec 32 := 1#32
  let v44 : BitVec 32 := Scalar.muli v43 c1_i32_19
  let v45 : BitVec 32 := Scalar.addi c0_i32_20 v44
  v45.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c8_i32_27 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32 : BitVec 32 := 2#32
  let v46 : BitVec 32 := Scalar.addi v19 c2_i32
  let c4_i32_21 : BitVec 32 := 4#32
  let c0_i32_22 : BitVec 32 := 0#32
  let v47 : BitVec 1 := Scalar.cmpi .eq c4_i32_21 c0_i32_22
  let c1_i32_23 : BitVec 32 := 1#32
  let v48 : BitVec 32 := Scalar.select v47 c1_i32_23 c4_i32_21
  let v49 : BitVec 32 := Scalar.remsi v46 v48
  let c0_i32_25 : BitVec 32 := 0#32
  let v51 : BitVec 1 := Scalar.cmpi .slt v49 c0_i32_25
  let c0_i32_26 : BitVec 32 := 0#32
  let v52 : BitVec 1 := Scalar.cmpi .slt v48 c0_i32_26
  let v53 : BitVec 1 := Scalar.xori v51 v52
  let c0_i32_24 : BitVec 32 := 0#32
  let v50 : BitVec 1 := Scalar.cmpi .ne v49 c0_i32_24
  let v54 : BitVec 1 := Scalar.andi v53 v50
  let v55 : BitVec 32 := Scalar.addi v49 v48
  let v56 : BitVec 32 := Scalar.select v54 v55 v49
  let v57 : BitVec 32 := Scalar.muli c8_i32_27 v56
  let v58 : BitVec 32 := Scalar.addi v29 v57
  let c1_i32_29 : BitVec 32 := 1#32
  let v59 : BitVec 32 := Scalar.muli v58 c1_i32_29
  let v60 : BitVec 32 := Scalar.addi c0_i32_30 v59
  v60.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c8_i32_37 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32 : BitVec 32 := 3#32
  let v61 : BitVec 32 := Scalar.addi v19 c3_i32
  let c4_i32_31 : BitVec 32 := 4#32
  let c0_i32_32 : BitVec 32 := 0#32
  let v62 : BitVec 1 := Scalar.cmpi .eq c4_i32_31 c0_i32_32
  let c1_i32_33 : BitVec 32 := 1#32
  let v63 : BitVec 32 := Scalar.select v62 c1_i32_33 c4_i32_31
  let v64 : BitVec 32 := Scalar.remsi v61 v63
  let c0_i32_35 : BitVec 32 := 0#32
  let v66 : BitVec 1 := Scalar.cmpi .slt v64 c0_i32_35
  let c0_i32_36 : BitVec 32 := 0#32
  let v67 : BitVec 1 := Scalar.cmpi .slt v63 c0_i32_36
  let v68 : BitVec 1 := Scalar.xori v66 v67
  let c0_i32_34 : BitVec 32 := 0#32
  let v65 : BitVec 1 := Scalar.cmpi .ne v64 c0_i32_34
  let v69 : BitVec 1 := Scalar.andi v68 v65
  let v70 : BitVec 32 := Scalar.addi v64 v63
  let v71 : BitVec 32 := Scalar.select v69 v70 v64
  let v72 : BitVec 32 := Scalar.muli c8_i32_37 v71
  let v73 : BitVec 32 := Scalar.addi v29 v72
  let c1_i32_39 : BitVec 32 := 1#32
  let v74 : BitVec 32 := Scalar.muli v73 c1_i32_39
  let v75 : BitVec 32 := Scalar.addi c0_i32_40 v74
  v75.toNat
def k0_dev4 (d0 : Dev nD) : Nat :=
  let c0_i32_51 : BitVec 32 := 0#32
  let c8_i32_41 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v76 : BitVec 32 := Scalar.muli c8_i32_41 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_42 : BitVec 32 := 1#32
  let v77 : BitVec 32 := Scalar.addi v29 c1_i32_42
  let c8_i32_43 : BitVec 32 := 8#32
  let c0_i32_44 : BitVec 32 := 0#32
  let v78 : BitVec 1 := Scalar.cmpi .eq c8_i32_43 c0_i32_44
  let c1_i32_45 : BitVec 32 := 1#32
  let v79 : BitVec 32 := Scalar.select v78 c1_i32_45 c8_i32_43
  let v80 : BitVec 32 := Scalar.remsi v77 v79
  let c0_i32_47 : BitVec 32 := 0#32
  let v82 : BitVec 1 := Scalar.cmpi .slt v80 c0_i32_47
  let c0_i32_48 : BitVec 32 := 0#32
  let v83 : BitVec 1 := Scalar.cmpi .slt v79 c0_i32_48
  let v84 : BitVec 1 := Scalar.xori v82 v83
  let c0_i32_46 : BitVec 32 := 0#32
  let v81 : BitVec 1 := Scalar.cmpi .ne v80 c0_i32_46
  let v85 : BitVec 1 := Scalar.andi v84 v81
  let v86 : BitVec 32 := Scalar.addi v80 v79
  let v87 : BitVec 32 := Scalar.select v85 v86 v80
  let v88 : BitVec 32 := Scalar.addi v76 v87
  let c1_i32_50 : BitVec 32 := 1#32
  let v89 : BitVec 32 := Scalar.muli v88 c1_i32_50
  let v90 : BitVec 32 := Scalar.addi c0_i32_51 v89
  v90.toNat
def k0_dev5 (d0 : Dev nD) : Nat :=
  let c0_i32_62 : BitVec 32 := 0#32
  let c8_i32_52 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v91 : BitVec 32 := Scalar.muli c8_i32_52 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_53 : BitVec 32 := 2#32
  let v92 : BitVec 32 := Scalar.addi v29 c2_i32_53
  let c8_i32_54 : BitVec 32 := 8#32
  let c0_i32_55 : BitVec 32 := 0#32
  let v93 : BitVec 1 := Scalar.cmpi .eq c8_i32_54 c0_i32_55
  let c1_i32_56 : BitVec 32 := 1#32
  let v94 : BitVec 32 := Scalar.select v93 c1_i32_56 c8_i32_54
  let v95 : BitVec 32 := Scalar.remsi v92 v94
  let c0_i32_58 : BitVec 32 := 0#32
  let v97 : BitVec 1 := Scalar.cmpi .slt v95 c0_i32_58
  let c0_i32_59 : BitVec 32 := 0#32
  let v98 : BitVec 1 := Scalar.cmpi .slt v94 c0_i32_59
  let v99 : BitVec 1 := Scalar.xori v97 v98
  let c0_i32_57 : BitVec 32 := 0#32
  let v96 : BitVec 1 := Scalar.cmpi .ne v95 c0_i32_57
  let v100 : BitVec 1 := Scalar.andi v99 v96
  let v101 : BitVec 32 := Scalar.addi v95 v94
  let v102 : BitVec 32 := Scalar.select v100 v101 v95
  let v103 : BitVec 32 := Scalar.addi v91 v102
  let c1_i32_61 : BitVec 32 := 1#32
  let v104 : BitVec 32 := Scalar.muli v103 c1_i32_61
  let v105 : BitVec 32 := Scalar.addi c0_i32_62 v104
  v105.toNat
def k0_dev6 (d0 : Dev nD) : Nat :=
  let c0_i32_73 : BitVec 32 := 0#32
  let c8_i32_63 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v106 : BitVec 32 := Scalar.muli c8_i32_63 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_64 : BitVec 32 := 3#32
  let v107 : BitVec 32 := Scalar.addi v29 c3_i32_64
  let c8_i32_65 : BitVec 32 := 8#32
  let c0_i32_66 : BitVec 32 := 0#32
  let v108 : BitVec 1 := Scalar.cmpi .eq c8_i32_65 c0_i32_66
  let c1_i32_67 : BitVec 32 := 1#32
  let v109 : BitVec 32 := Scalar.select v108 c1_i32_67 c8_i32_65
  let v110 : BitVec 32 := Scalar.remsi v107 v109
  let c0_i32_69 : BitVec 32 := 0#32
  let v112 : BitVec 1 := Scalar.cmpi .slt v110 c0_i32_69
  let c0_i32_70 : BitVec 32 := 0#32
  let v113 : BitVec 1 := Scalar.cmpi .slt v109 c0_i32_70
  let v114 : BitVec 1 := Scalar.xori v112 v113
  let c0_i32_68 : BitVec 32 := 0#32
  let v111 : BitVec 1 := Scalar.cmpi .ne v110 c0_i32_68
  let v115 : BitVec 1 := Scalar.andi v114 v111
  let v116 : BitVec 32 := Scalar.addi v110 v109
  let v117 : BitVec 32 := Scalar.select v115 v116 v110
  let v118 : BitVec 32 := Scalar.addi v106 v117
  let c1_i32_72 : BitVec 32 := 1#32
  let v119 : BitVec 32 := Scalar.muli v118 c1_i32_72
  let v120 : BitVec 32 := Scalar.addi c0_i32_73 v119
  v120.toNat
def k0_dev7 (d0 : Dev nD) : Nat :=
  let c0_i32_84 : BitVec 32 := 0#32
  let c8_i32_74 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v121 : BitVec 32 := Scalar.muli c8_i32_74 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_75 : BitVec 32 := 4#32
  let v122 : BitVec 32 := Scalar.addi v29 c4_i32_75
  let c8_i32_76 : BitVec 32 := 8#32
  let c0_i32_77 : BitVec 32 := 0#32
  let v123 : BitVec 1 := Scalar.cmpi .eq c8_i32_76 c0_i32_77
  let c1_i32_78 : BitVec 32 := 1#32
  let v124 : BitVec 32 := Scalar.select v123 c1_i32_78 c8_i32_76
  let v125 : BitVec 32 := Scalar.remsi v122 v124
  let c0_i32_80 : BitVec 32 := 0#32
  let v127 : BitVec 1 := Scalar.cmpi .slt v125 c0_i32_80
  let c0_i32_81 : BitVec 32 := 0#32
  let v128 : BitVec 1 := Scalar.cmpi .slt v124 c0_i32_81
  let v129 : BitVec 1 := Scalar.xori v127 v128
  let c0_i32_79 : BitVec 32 := 0#32
  let v126 : BitVec 1 := Scalar.cmpi .ne v125 c0_i32_79
  let v130 : BitVec 1 := Scalar.andi v129 v126
  let v131 : BitVec 32 := Scalar.addi v125 v124
  let v132 : BitVec 32 := Scalar.select v130 v131 v125
  let v133 : BitVec 32 := Scalar.addi v121 v132
  let c1_i32_83 : BitVec 32 := 1#32
  let v134 : BitVec 32 := Scalar.muli v133 c1_i32_83
  let v135 : BitVec 32 := Scalar.addi c0_i32_84 v134
  v135.toNat
def k0_dev8 (d0 : Dev nD) : Nat :=
  let c0_i32_94 : BitVec 32 := 0#32
  let c8_i32_85 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v136 : BitVec 32 := Scalar.muli c8_i32_85 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32 : BitVec 32 := 5#32
  let v137 : BitVec 32 := Scalar.addi v29 c5_i32
  let c8_i32_86 : BitVec 32 := 8#32
  let c0_i32_87 : BitVec 32 := 0#32
  let v138 : BitVec 1 := Scalar.cmpi .eq c8_i32_86 c0_i32_87
  let c1_i32_88 : BitVec 32 := 1#32
  let v139 : BitVec 32 := Scalar.select v138 c1_i32_88 c8_i32_86
  let v140 : BitVec 32 := Scalar.remsi v137 v139
  let c0_i32_90 : BitVec 32 := 0#32
  let v142 : BitVec 1 := Scalar.cmpi .slt v140 c0_i32_90
  let c0_i32_91 : BitVec 32 := 0#32
  let v143 : BitVec 1 := Scalar.cmpi .slt v139 c0_i32_91
  let v144 : BitVec 1 := Scalar.xori v142 v143
  let c0_i32_89 : BitVec 32 := 0#32
  let v141 : BitVec 1 := Scalar.cmpi .ne v140 c0_i32_89
  let v145 : BitVec 1 := Scalar.andi v144 v141
  let v146 : BitVec 32 := Scalar.addi v140 v139
  let v147 : BitVec 32 := Scalar.select v145 v146 v140
  let v148 : BitVec 32 := Scalar.addi v136 v147
  let c1_i32_93 : BitVec 32 := 1#32
  let v149 : BitVec 32 := Scalar.muli v148 c1_i32_93
  let v150 : BitVec 32 := Scalar.addi c0_i32_94 v149
  v150.toNat
def k0_dev9 (d0 : Dev nD) : Nat :=
  let c0_i32_104 : BitVec 32 := 0#32
  let c8_i32_95 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v151 : BitVec 32 := Scalar.muli c8_i32_95 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32 : BitVec 32 := 6#32
  let v152 : BitVec 32 := Scalar.addi v29 c6_i32
  let c8_i32_96 : BitVec 32 := 8#32
  let c0_i32_97 : BitVec 32 := 0#32
  let v153 : BitVec 1 := Scalar.cmpi .eq c8_i32_96 c0_i32_97
  let c1_i32_98 : BitVec 32 := 1#32
  let v154 : BitVec 32 := Scalar.select v153 c1_i32_98 c8_i32_96
  let v155 : BitVec 32 := Scalar.remsi v152 v154
  let c0_i32_100 : BitVec 32 := 0#32
  let v157 : BitVec 1 := Scalar.cmpi .slt v155 c0_i32_100
  let c0_i32_101 : BitVec 32 := 0#32
  let v158 : BitVec 1 := Scalar.cmpi .slt v154 c0_i32_101
  let v159 : BitVec 1 := Scalar.xori v157 v158
  let c0_i32_99 : BitVec 32 := 0#32
  let v156 : BitVec 1 := Scalar.cmpi .ne v155 c0_i32_99
  let v160 : BitVec 1 := Scalar.andi v159 v156
  let v161 : BitVec 32 := Scalar.addi v155 v154
  let v162 : BitVec 32 := Scalar.select v160 v161 v155
  let v163 : BitVec 32 := Scalar.addi v151 v162
  let c1_i32_103 : BitVec 32 := 1#32
  let v164 : BitVec 32 := Scalar.muli v163 c1_i32_103
  let v165 : BitVec 32 := Scalar.addi c0_i32_104 v164
  v165.toNat
def k0_dev10 (d0 : Dev nD) : Nat :=
  let c0_i32_114 : BitVec 32 := 0#32
  let c8_i32_105 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v166 : BitVec 32 := Scalar.muli c8_i32_105 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32 : BitVec 32 := 7#32
  let v167 : BitVec 32 := Scalar.addi v29 c7_i32
  let c8_i32_106 : BitVec 32 := 8#32
  let c0_i32_107 : BitVec 32 := 0#32
  let v168 : BitVec 1 := Scalar.cmpi .eq c8_i32_106 c0_i32_107
  let c1_i32_108 : BitVec 32 := 1#32
  let v169 : BitVec 32 := Scalar.select v168 c1_i32_108 c8_i32_106
  let v170 : BitVec 32 := Scalar.remsi v167 v169
  let c0_i32_110 : BitVec 32 := 0#32
  let v172 : BitVec 1 := Scalar.cmpi .slt v170 c0_i32_110
  let c0_i32_111 : BitVec 32 := 0#32
  let v173 : BitVec 1 := Scalar.cmpi .slt v169 c0_i32_111
  let v174 : BitVec 1 := Scalar.xori v172 v173
  let c0_i32_109 : BitVec 32 := 0#32
  let v171 : BitVec 1 := Scalar.cmpi .ne v170 c0_i32_109
  let v175 : BitVec 1 := Scalar.andi v174 v171
  let v176 : BitVec 32 := Scalar.addi v170 v169
  let v177 : BitVec 32 := Scalar.select v175 v176 v170
  let v178 : BitVec 32 := Scalar.addi v166 v177
  let c1_i32_113 : BitVec 32 := 1#32
  let v179 : BitVec 32 := Scalar.muli v178 c1_i32_113
  let v180 : BitVec 32 := Scalar.addi c0_i32_114 v179
  v180.toNat
def k0_dev11 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c8_i32_136 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_129 : BitVec 32 := 1#32
  let v200 : BitVec 32 := Scalar.addi v19 c1_i32_129
  let c4_i32_130 : BitVec 32 := 4#32
  let c0_i32_131 : BitVec 32 := 0#32
  let v201 : BitVec 1 := Scalar.cmpi .eq c4_i32_130 c0_i32_131
  let c1_i32_132 : BitVec 32 := 1#32
  let v202 : BitVec 32 := Scalar.select v201 c1_i32_132 c4_i32_130
  let v203 : BitVec 32 := Scalar.remsi v200 v202
  let c0_i32_134 : BitVec 32 := 0#32
  let v205 : BitVec 1 := Scalar.cmpi .slt v203 c0_i32_134
  let c0_i32_135 : BitVec 32 := 0#32
  let v206 : BitVec 1 := Scalar.cmpi .slt v202 c0_i32_135
  let v207 : BitVec 1 := Scalar.xori v205 v206
  let c0_i32_133 : BitVec 32 := 0#32
  let v204 : BitVec 1 := Scalar.cmpi .ne v203 c0_i32_133
  let v208 : BitVec 1 := Scalar.andi v207 v204
  let v209 : BitVec 32 := Scalar.addi v203 v202
  let v210 : BitVec 32 := Scalar.select v208 v209 v203
  let v211 : BitVec 32 := Scalar.muli c8_i32_136 v210
  let v212 : BitVec 32 := Scalar.addi v29 v211
  let c1_i32_140 : BitVec 32 := 1#32
  let v213 : BitVec 32 := Scalar.muli v212 c1_i32_140
  let v214 : BitVec 32 := Scalar.addi c0_i32_141 v213
  v214.toNat
def k0_dev12 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c8_i32_151 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_144 : BitVec 32 := 2#32
  let v221 : BitVec 32 := Scalar.addi v19 c2_i32_144
  let c4_i32_145 : BitVec 32 := 4#32
  let c0_i32_146 : BitVec 32 := 0#32
  let v222 : BitVec 1 := Scalar.cmpi .eq c4_i32_145 c0_i32_146
  let c1_i32_147 : BitVec 32 := 1#32
  let v223 : BitVec 32 := Scalar.select v222 c1_i32_147 c4_i32_145
  let v224 : BitVec 32 := Scalar.remsi v221 v223
  let c0_i32_149 : BitVec 32 := 0#32
  let v226 : BitVec 1 := Scalar.cmpi .slt v224 c0_i32_149
  let c0_i32_150 : BitVec 32 := 0#32
  let v227 : BitVec 1 := Scalar.cmpi .slt v223 c0_i32_150
  let v228 : BitVec 1 := Scalar.xori v226 v227
  let c0_i32_148 : BitVec 32 := 0#32
  let v225 : BitVec 1 := Scalar.cmpi .ne v224 c0_i32_148
  let v229 : BitVec 1 := Scalar.andi v228 v225
  let v230 : BitVec 32 := Scalar.addi v224 v223
  let v231 : BitVec 32 := Scalar.select v229 v230 v224
  let v232 : BitVec 32 := Scalar.muli c8_i32_151 v231
  let v233 : BitVec 32 := Scalar.addi v29 v232
  let c1_i32_155 : BitVec 32 := 1#32
  let v234 : BitVec 32 := Scalar.muli v233 c1_i32_155
  let v235 : BitVec 32 := Scalar.addi c0_i32_156 v234
  v235.toNat
def k0_dev13 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c8_i32_166 : BitVec 32 := 8#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_159 : BitVec 32 := 3#32
  let v242 : BitVec 32 := Scalar.addi v19 c3_i32_159
  let c4_i32_160 : BitVec 32 := 4#32
  let c0_i32_161 : BitVec 32 := 0#32
  let v243 : BitVec 1 := Scalar.cmpi .eq c4_i32_160 c0_i32_161
  let c1_i32_162 : BitVec 32 := 1#32
  let v244 : BitVec 32 := Scalar.select v243 c1_i32_162 c4_i32_160
  let v245 : BitVec 32 := Scalar.remsi v242 v244
  let c0_i32_164 : BitVec 32 := 0#32
  let v247 : BitVec 1 := Scalar.cmpi .slt v245 c0_i32_164
  let c0_i32_165 : BitVec 32 := 0#32
  let v248 : BitVec 1 := Scalar.cmpi .slt v244 c0_i32_165
  let v249 : BitVec 1 := Scalar.xori v247 v248
  let c0_i32_163 : BitVec 32 := 0#32
  let v246 : BitVec 1 := Scalar.cmpi .ne v245 c0_i32_163
  let v250 : BitVec 1 := Scalar.andi v249 v246
  let v251 : BitVec 32 := Scalar.addi v245 v244
  let v252 : BitVec 32 := Scalar.select v250 v251 v245
  let v253 : BitVec 32 := Scalar.muli c8_i32_166 v252
  let v254 : BitVec 32 := Scalar.addi v29 v253
  let c1_i32_170 : BitVec 32 := 1#32
  let v255 : BitVec 32 := Scalar.muli v254 c1_i32_170
  let v256 : BitVec 32 := Scalar.addi c0_i32_171 v255
  v256.toNat
def k0_dev14 (d0 : Dev nD) : Nat :=
  let c0_i32_215 : BitVec 32 := 0#32
  let c8_i32_203 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v288 : BitVec 32 := Scalar.muli c8_i32_203 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_204 : BitVec 32 := 1#32
  let v289 : BitVec 32 := Scalar.addi v29 c1_i32_204
  let c8_i32_205 : BitVec 32 := 8#32
  let c0_i32_206 : BitVec 32 := 0#32
  let v290 : BitVec 1 := Scalar.cmpi .eq c8_i32_205 c0_i32_206
  let c1_i32_207 : BitVec 32 := 1#32
  let v291 : BitVec 32 := Scalar.select v290 c1_i32_207 c8_i32_205
  let v292 : BitVec 32 := Scalar.remsi v289 v291
  let c0_i32_209 : BitVec 32 := 0#32
  let v294 : BitVec 1 := Scalar.cmpi .slt v292 c0_i32_209
  let c0_i32_210 : BitVec 32 := 0#32
  let v295 : BitVec 1 := Scalar.cmpi .slt v291 c0_i32_210
  let v296 : BitVec 1 := Scalar.xori v294 v295
  let c0_i32_208 : BitVec 32 := 0#32
  let v293 : BitVec 1 := Scalar.cmpi .ne v292 c0_i32_208
  let v297 : BitVec 1 := Scalar.andi v296 v293
  let v298 : BitVec 32 := Scalar.addi v292 v291
  let v299 : BitVec 32 := Scalar.select v297 v298 v292
  let v300 : BitVec 32 := Scalar.addi v288 v299
  let c1_i32_214 : BitVec 32 := 1#32
  let v301 : BitVec 32 := Scalar.muli v300 c1_i32_214
  let v302 : BitVec 32 := Scalar.addi c0_i32_215 v301
  v302.toNat
def k0_dev15 (d0 : Dev nD) : Nat :=
  let c0_i32_230 : BitVec 32 := 0#32
  let c8_i32_218 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v309 : BitVec 32 := Scalar.muli c8_i32_218 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_219 : BitVec 32 := 2#32
  let v310 : BitVec 32 := Scalar.addi v29 c2_i32_219
  let c8_i32_220 : BitVec 32 := 8#32
  let c0_i32_221 : BitVec 32 := 0#32
  let v311 : BitVec 1 := Scalar.cmpi .eq c8_i32_220 c0_i32_221
  let c1_i32_222 : BitVec 32 := 1#32
  let v312 : BitVec 32 := Scalar.select v311 c1_i32_222 c8_i32_220
  let v313 : BitVec 32 := Scalar.remsi v310 v312
  let c0_i32_224 : BitVec 32 := 0#32
  let v315 : BitVec 1 := Scalar.cmpi .slt v313 c0_i32_224
  let c0_i32_225 : BitVec 32 := 0#32
  let v316 : BitVec 1 := Scalar.cmpi .slt v312 c0_i32_225
  let v317 : BitVec 1 := Scalar.xori v315 v316
  let c0_i32_223 : BitVec 32 := 0#32
  let v314 : BitVec 1 := Scalar.cmpi .ne v313 c0_i32_223
  let v318 : BitVec 1 := Scalar.andi v317 v314
  let v319 : BitVec 32 := Scalar.addi v313 v312
  let v320 : BitVec 32 := Scalar.select v318 v319 v313
  let v321 : BitVec 32 := Scalar.addi v309 v320
  let c1_i32_229 : BitVec 32 := 1#32
  let v322 : BitVec 32 := Scalar.muli v321 c1_i32_229
  let v323 : BitVec 32 := Scalar.addi c0_i32_230 v322
  v323.toNat
def k0_dev16 (d0 : Dev nD) : Nat :=
  let c0_i32_245 : BitVec 32 := 0#32
  let c8_i32_233 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v330 : BitVec 32 := Scalar.muli c8_i32_233 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_234 : BitVec 32 := 3#32
  let v331 : BitVec 32 := Scalar.addi v29 c3_i32_234
  let c8_i32_235 : BitVec 32 := 8#32
  let c0_i32_236 : BitVec 32 := 0#32
  let v332 : BitVec 1 := Scalar.cmpi .eq c8_i32_235 c0_i32_236
  let c1_i32_237 : BitVec 32 := 1#32
  let v333 : BitVec 32 := Scalar.select v332 c1_i32_237 c8_i32_235
  let v334 : BitVec 32 := Scalar.remsi v331 v333
  let c0_i32_239 : BitVec 32 := 0#32
  let v336 : BitVec 1 := Scalar.cmpi .slt v334 c0_i32_239
  let c0_i32_240 : BitVec 32 := 0#32
  let v337 : BitVec 1 := Scalar.cmpi .slt v333 c0_i32_240
  let v338 : BitVec 1 := Scalar.xori v336 v337
  let c0_i32_238 : BitVec 32 := 0#32
  let v335 : BitVec 1 := Scalar.cmpi .ne v334 c0_i32_238
  let v339 : BitVec 1 := Scalar.andi v338 v335
  let v340 : BitVec 32 := Scalar.addi v334 v333
  let v341 : BitVec 32 := Scalar.select v339 v340 v334
  let v342 : BitVec 32 := Scalar.addi v330 v341
  let c1_i32_244 : BitVec 32 := 1#32
  let v343 : BitVec 32 := Scalar.muli v342 c1_i32_244
  let v344 : BitVec 32 := Scalar.addi c0_i32_245 v343
  v344.toNat
def k0_dev17 (d0 : Dev nD) : Nat :=
  let c0_i32_260 : BitVec 32 := 0#32
  let c8_i32_248 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v351 : BitVec 32 := Scalar.muli c8_i32_248 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_249 : BitVec 32 := 4#32
  let v352 : BitVec 32 := Scalar.addi v29 c4_i32_249
  let c8_i32_250 : BitVec 32 := 8#32
  let c0_i32_251 : BitVec 32 := 0#32
  let v353 : BitVec 1 := Scalar.cmpi .eq c8_i32_250 c0_i32_251
  let c1_i32_252 : BitVec 32 := 1#32
  let v354 : BitVec 32 := Scalar.select v353 c1_i32_252 c8_i32_250
  let v355 : BitVec 32 := Scalar.remsi v352 v354
  let c0_i32_254 : BitVec 32 := 0#32
  let v357 : BitVec 1 := Scalar.cmpi .slt v355 c0_i32_254
  let c0_i32_255 : BitVec 32 := 0#32
  let v358 : BitVec 1 := Scalar.cmpi .slt v354 c0_i32_255
  let v359 : BitVec 1 := Scalar.xori v357 v358
  let c0_i32_253 : BitVec 32 := 0#32
  let v356 : BitVec 1 := Scalar.cmpi .ne v355 c0_i32_253
  let v360 : BitVec 1 := Scalar.andi v359 v356
  let v361 : BitVec 32 := Scalar.addi v355 v354
  let v362 : BitVec 32 := Scalar.select v360 v361 v355
  let v363 : BitVec 32 := Scalar.addi v351 v362
  let c1_i32_259 : BitVec 32 := 1#32
  let v364 : BitVec 32 := Scalar.muli v363 c1_i32_259
  let v365 : BitVec 32 := Scalar.addi c0_i32_260 v364
  v365.toNat
def k0_dev18 (d0 : Dev nD) : Nat :=
  let c0_i32_275 : BitVec 32 := 0#32
  let c8_i32_263 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v372 : BitVec 32 := Scalar.muli c8_i32_263 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_264 : BitVec 32 := 5#32
  let v373 : BitVec 32 := Scalar.addi v29 c5_i32_264
  let c8_i32_265 : BitVec 32 := 8#32
  let c0_i32_266 : BitVec 32 := 0#32
  let v374 : BitVec 1 := Scalar.cmpi .eq c8_i32_265 c0_i32_266
  let c1_i32_267 : BitVec 32 := 1#32
  let v375 : BitVec 32 := Scalar.select v374 c1_i32_267 c8_i32_265
  let v376 : BitVec 32 := Scalar.remsi v373 v375
  let c0_i32_269 : BitVec 32 := 0#32
  let v378 : BitVec 1 := Scalar.cmpi .slt v376 c0_i32_269
  let c0_i32_270 : BitVec 32 := 0#32
  let v379 : BitVec 1 := Scalar.cmpi .slt v375 c0_i32_270
  let v380 : BitVec 1 := Scalar.xori v378 v379
  let c0_i32_268 : BitVec 32 := 0#32
  let v377 : BitVec 1 := Scalar.cmpi .ne v376 c0_i32_268
  let v381 : BitVec 1 := Scalar.andi v380 v377
  let v382 : BitVec 32 := Scalar.addi v376 v375
  let v383 : BitVec 32 := Scalar.select v381 v382 v376
  let v384 : BitVec 32 := Scalar.addi v372 v383
  let c1_i32_274 : BitVec 32 := 1#32
  let v385 : BitVec 32 := Scalar.muli v384 c1_i32_274
  let v386 : BitVec 32 := Scalar.addi c0_i32_275 v385
  v386.toNat
def k0_dev19 (d0 : Dev nD) : Nat :=
  let c0_i32_290 : BitVec 32 := 0#32
  let c8_i32_278 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v393 : BitVec 32 := Scalar.muli c8_i32_278 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_279 : BitVec 32 := 6#32
  let v394 : BitVec 32 := Scalar.addi v29 c6_i32_279
  let c8_i32_280 : BitVec 32 := 8#32
  let c0_i32_281 : BitVec 32 := 0#32
  let v395 : BitVec 1 := Scalar.cmpi .eq c8_i32_280 c0_i32_281
  let c1_i32_282 : BitVec 32 := 1#32
  let v396 : BitVec 32 := Scalar.select v395 c1_i32_282 c8_i32_280
  let v397 : BitVec 32 := Scalar.remsi v394 v396
  let c0_i32_284 : BitVec 32 := 0#32
  let v399 : BitVec 1 := Scalar.cmpi .slt v397 c0_i32_284
  let c0_i32_285 : BitVec 32 := 0#32
  let v400 : BitVec 1 := Scalar.cmpi .slt v396 c0_i32_285
  let v401 : BitVec 1 := Scalar.xori v399 v400
  let c0_i32_283 : BitVec 32 := 0#32
  let v398 : BitVec 1 := Scalar.cmpi .ne v397 c0_i32_283
  let v402 : BitVec 1 := Scalar.andi v401 v398
  let v403 : BitVec 32 := Scalar.addi v397 v396
  let v404 : BitVec 32 := Scalar.select v402 v403 v397
  let v405 : BitVec 32 := Scalar.addi v393 v404
  let c1_i32_289 : BitVec 32 := 1#32
  let v406 : BitVec 32 := Scalar.muli v405 c1_i32_289
  let v407 : BitVec 32 := Scalar.addi c0_i32_290 v406
  v407.toNat
def k0_dev20 (d0 : Dev nD) : Nat :=
  let c0_i32_305 : BitVec 32 := 0#32
  let c8_i32_293 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v414 : BitVec 32 := Scalar.muli c8_i32_293 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_294 : BitVec 32 := 7#32
  let v415 : BitVec 32 := Scalar.addi v29 c7_i32_294
  let c8_i32_295 : BitVec 32 := 8#32
  let c0_i32_296 : BitVec 32 := 0#32
  let v416 : BitVec 1 := Scalar.cmpi .eq c8_i32_295 c0_i32_296
  let c1_i32_297 : BitVec 32 := 1#32
  let v417 : BitVec 32 := Scalar.select v416 c1_i32_297 c8_i32_295
  let v418 : BitVec 32 := Scalar.remsi v415 v417
  let c0_i32_299 : BitVec 32 := 0#32
  let v420 : BitVec 1 := Scalar.cmpi .slt v418 c0_i32_299
  let c0_i32_300 : BitVec 32 := 0#32
  let v421 : BitVec 1 := Scalar.cmpi .slt v417 c0_i32_300
  let v422 : BitVec 1 := Scalar.xori v420 v421
  let c0_i32_298 : BitVec 32 := 0#32
  let v419 : BitVec 1 := Scalar.cmpi .ne v418 c0_i32_298
  let v423 : BitVec 1 := Scalar.andi v422 v419
  let v424 : BitVec 32 := Scalar.addi v418 v417
  let v425 : BitVec 32 := Scalar.select v423 v424 v418
  let v426 : BitVec 32 := Scalar.addi v414 v425
  let c1_i32_304 : BitVec 32 := 1#32
  let v427 : BitVec 32 := Scalar.muli v426 c1_i32_304
  let v428 : BitVec 32 := Scalar.addi c0_i32_305 v427
  v428.toNat
abbrev stage0_0 : Fin 1 → Memref sig .tc .vmem S4x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  inb_S4x256x128_S4x256x128_0_0_0 : ∀ a, (![0, 0, 0] : Fin 3 → Nat) a + S4x256x128.size a ≤ S4x256x128.size a
  h_S4x256x128 : 0 < S4x256x128.numel
  shapeCasts_S4x256x128_S4x256x128 : S4x256x128.ShapeCasts S4x256x128
  reduces_S4x256x128_S4x256 : S4x256x128.Reduces [2] S4x256
  inb_S8x256_S4x256_0_0 : ∀ a, (![0, 0] : Fin 2 → Nat) a + S4x256.size a ≤ S8x256.size a
  h_S4x256 : 0 < S4x256.numel
  shapeCasts_S4x256_S4x256 : S4x256.ShapeCasts S4x256
  inb_S8x256_S4x256_4_0 : ∀ a, (![4, 0] : Fin 2 → Nat) a + S4x256.size a ≤ S8x256.size a
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  hamt_10 : (10#32 : BitVec 32).msb = false
  inb_S3_S1_0 : ∀ a, (![0] : Fin 1 → Nat) a + S1.size a ≤ S3.size a
  squeezes_S1_S_ : S1.Squeezes S_
  inb_S3x8x256_S1x8x256_0_0_0 : ∀ a, (![0, 0, 0] : Fin 3 → Nat) a + S1x8x256.size a ≤ S3x8x256.size a
  squeezes_S1x8x256_S8x256 : S1x8x256.Squeezes S8x256
  inb_S3_S1_1 : ∀ a, (![1] : Fin 1 → Nat) a + S1.size a ≤ S3.size a
  inb_S3x8x256_S1x8x256_1_0_0 : ∀ a, (![1, 0, 0] : Fin 3 → Nat) a + S1x8x256.size a ≤ S3x8x256.size a
  inb_S3_S1_2 : ∀ a, (![2] : Fin 1 → Nat) a + S1.size a ≤ S3.size a
  inb_S3x8x256_S1x8x256_2_0_0 : ∀ a, (![2, 0, 0] : Fin 3 → Nat) a + S1x8x256.size a ≤ S3x8x256.size a
  inb_S8x256_S8x256_0_0 : ∀ a, (![0, 0] : Fin 2 → Nat) a + S8x256.size a ≤ S8x256.size a
  h_S8x256 : 0 < S8x256.numel
  inb_S3x8x256_S3x8x256_0_0_0 : ∀ a, (![0, 0, 0] : Fin 3 → Nat) a + S3x8x256.size a ≤ S3x8x256.size a
  h_S3x8x256 : 0 < S3x8x256.numel
  reduces_S3x8x256_S8x256 : S3x8x256.Reduces [0] S8x256
  shapeCasts_S8x256_S8x256 : S8x256.ShapeCasts S8x256
  inb_S7_S1_0 : ∀ a, (![0] : Fin 1 → Nat) a + S1.size a ≤ S7.size a
  inb_S7x8x256_S1x8x256_0_0_0 : ∀ a, (![0, 0, 0] : Fin 3 → Nat) a + S1x8x256.size a ≤ S7x8x256.size a
  inb_S7_S1_1 : ∀ a, (![1] : Fin 1 → Nat) a + S1.size a ≤ S7.size a
  inb_S7x8x256_S1x8x256_1_0_0 : ∀ a, (![1, 0, 0] : Fin 3 → Nat) a + S1x8x256.size a ≤ S7x8x256.size a
  inb_S7_S1_2 : ∀ a, (![2] : Fin 1 → Nat) a + S1.size a ≤ S7.size a
  inb_S7x8x256_S1x8x256_2_0_0 : ∀ a, (![2, 0, 0] : Fin 3 → Nat) a + S1x8x256.size a ≤ S7x8x256.size a
  inb_S7_S1_3 : ∀ a, (![3] : Fin 1 → Nat) a + S1.size a ≤ S7.size a
  inb_S7x8x256_S1x8x256_3_0_0 : ∀ a, (![3, 0, 0] : Fin 3 → Nat) a + S1x8x256.size a ≤ S7x8x256.size a
  inb_S7_S1_4 : ∀ a, (![4] : Fin 1 → Nat) a + S1.size a ≤ S7.size a
  inb_S7x8x256_S1x8x256_4_0_0 : ∀ a, (![4, 0, 0] : Fin 3 → Nat) a + S1x8x256.size a ≤ S7x8x256.size a
  inb_S7_S1_5 : ∀ a, (![5] : Fin 1 → Nat) a + S1.size a ≤ S7.size a
  inb_S7x8x256_S1x8x256_5_0_0 : ∀ a, (![5, 0, 0] : Fin 3 → Nat) a + S1x8x256.size a ≤ S7x8x256.size a
  inb_S7_S1_6 : ∀ a, (![6] : Fin 1 → Nat) a + S1.size a ≤ S7.size a
  inb_S7x8x256_S1x8x256_6_0_0 : ∀ a, (![6, 0, 0] : Fin 3 → Nat) a + S1x8x256.size a ≤ S7x8x256.size a
  inb_S7x8x256_S7x8x256_0_0_0 : ∀ a, (![0, 0, 0] : Fin 3 → Nat) a + S7x8x256.size a ≤ S7x8x256.size a
  h_S7x8x256 : 0 < S7x8x256.numel
  reduces_S7x8x256_S8x256 : S7x8x256.Reduces [0] S8x256
  slices_S8x256_o0_0_S4x256 : S8x256.Slices ![0, 0] S4x256
  slices_S8x256_o4_0_S4x256 : S8x256.Slices ![4, 0] S4x256
  shapeCasts_S4x256_S4x256x1 : S4x256.ShapeCasts S4x256x1
  broadcasts_S4x256x1_S4x256x128 : S4x256x1.Broadcasts S4x256x128
  shapeCasts_S4x128_S4x1x128 : S4x128.ShapeCasts S4x1x128
  broadcasts_S4x1x128_S4x256x128 : S4x1x128.Broadcasts S4x256x128
  dot_S4x128_S128x128_S4x128_1_0_0_1_n_n_wf : DotDims.WF S4x128 S128x128 S4x128 [1] [0] [0] [1] [] []
  hcc0_scratch4 : 5 + S3.numel ≤ 25
  hcc0_scratch5 : 8 + S3.numel ≤ 25
  hcc0_scratch6 : 11 + S7.numel ≤ 25
  hcc0_scratch7 : 18 + S7.numel ≤ 25
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch4 : DmaSems sig S3 := SemArray.consecutive 5 S3 hcc0_scratch4
abbrev cc0_scratch5 : DmaSems sig S3 := SemArray.consecutive 8 S3 hcc0_scratch5
abbrev cc0_scratch6 : DmaSems sig S7 := SemArray.consecutive 11 S7 hcc0_scratch6
abbrev cc0_scratch7 : DmaSems sig S7 := SemArray.consecutive 18 S7 hcc0_scratch7
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x4096 : Shape := ⟨3, ![4, 256, 4096]⟩
abbrev S4x128 : Shape := ⟨2, ![4, 128]⟩
abbrev S128x4096 : Shape := ⟨2, ![128, 4096]⟩
abbrev S_ : Shape := ⟨0, ![]⟩
abbrev S4x256 : Shape := ⟨2, ![4, 256]⟩
abbrev S4x256x1 : Shape := ⟨3, ![4, 256, 1]⟩
abbrev S4x4096 : Shape := ⟨2, ![4, 4096]⟩
abbrev S4x1x4096 : Shape := ⟨3, ![4, 1, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4x128, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .i32⟩
  | .hbm, ⟨11, _⟩ => ⟨S_, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x4096, .f32⟩
  | .hbm, ⟨18, _⟩ => ⟨S4x256x4096, .f32⟩
  | .hbm, ⟨19, _⟩ => ⟨S4x256x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x256, .f32⟩
  | .hbm, ⟨25, _⟩ => ⟨S4x256x1, .f32⟩
  | .hbm, ⟨26, _⟩ => ⟨S4x256x1, .f32⟩
  | .hbm, ⟨27, _⟩ => ⟨S4x256x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x256x1, .f32⟩
  | .hbm, ⟨33, _⟩ => ⟨S4x256x1, .f32⟩
  | .hbm, ⟨34, _⟩ => ⟨S4x256x4096, .f32⟩
  | .hbm, ⟨35, _⟩ => ⟨S4x256x4096, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S4x256x1, .f32⟩
  | .hbm, ⟨40, _⟩ => ⟨S4x256x4096, .f32⟩
  | .hbm, ⟨41, _⟩ => ⟨S4x256x4096, .f32⟩
  | .hbm, ⟨42, _⟩ => ⟨S4x4096, .f32⟩
  | .hbm, ⟨43, _⟩ => ⟨S4x4096, .f32⟩
  | .hbm, ⟨44, _⟩ => ⟨S4x1x4096, .f32⟩
  | .hbm, ⟨45, _⟩ => ⟨S_, .f32⟩
  | .hbm, ⟨46, _⟩ => ⟨S4x1x4096, .f32⟩
  | .hbm, ⟨47, _⟩ => ⟨S4x1x4096, .f32⟩
  | .hbm, ⟨48, _⟩ => ⟨S4x256x4096, .f32⟩
  | .hbm, ⟨49, _⟩ => ⟨S4x256x4096, .f32⟩
  | .hbm, ⟨50, _⟩ => ⟨S4x1x4096, .f32⟩
  | .hbm, ⟨51, _⟩ => ⟨S4x256x4096, .f32⟩
  | .hbm, ⟨52, _⟩ => ⟨S4x256x4096, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  reducesTo_S4x256x4096_S4x256_d2 : S4x256x4096.ReducesTo [2] S4x256
  h_S_ : 0 < S_.numel
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x4096_0_1_2 : S4x256x1.BroadcastsInDim S4x256x4096 (![0, 1, 2] : Fin 3 → Fin S4x256x4096.rank)
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x256x4096_0_1_2 : S4x1x4096.BroadcastsInDim S4x256x4096 (![0, 1, 2] : Fin 3 → Fin S4x256x4096.rank)
  dot_S4x128_S128x4096_S4x4096_1_0_0_1_n_n_wf : DotDims.WF S4x128 S128x4096 S4x4096 [1] [0] [0] [1] [] []

variable [Facts₀]

def dot_S4x128_S128x4096_S4x4096_1_0_0_1_n_n : DotDims S4x128 S128x4096 S4x4096 where
  lhsContracting := [1]
  rhsContracting := [0]
  lhsNonContracting := [0]
  rhsNonContracting := [1]
  lhsBatch := []
  rhsBatch := []
  wf := dot_S4x128_S128x4096_S4x4096_1_0_0_1_n_n_wf

class Facts : Prop extends Facts₀ where

variable [Facts]
-- ==== Proof.Mesh.lean ====
/-
  The mesh of the kernel: 32 devices laid out as 4 columns-of-8 ("z" = c / 8, "pos" = c % 8).
  Device c addresses ten peers, in this order: the three other devices of its column position
  (same pos, z advanced by 1, 2, 3 modulo 4), then the seven other devices of its row
  (same z, pos advanced by 1 … 7 modulo 8). `peer c i` is the i-th of them, `src c i` the device
  whose i-th peer is c (the inverse permutation), and `inv i` the index under which `src c i`
  appears among c's own peers.
-/
import Mathlib.Data.Fin.Basic
import Mathlib.Tactic.DeriveFintype

namespace Cert.Mesh

/-- The i-th device that device c signals and copies to. -/
def peer (c : Fin 32) (i : Fin 10) : Fin 32 :=
  if i.val < 3 then ⟨c.val % 8 + 8 * ((c.val / 8 + i.val + 1) % 4), by omega⟩
  else ⟨8 * (c.val / 8) + (c.val % 8 + (i.val - 2)) % 8, by omega⟩

/-- The device whose i-th peer is c: it signals c with its i-th signal and its i-th copy lands in c's slot i. -/
def src (c : Fin 32) (i : Fin 10) : Fin 32 :=
  if i.val < 3 then ⟨c.val % 8 + 8 * ((c.val / 8 + 3 - i.val) % 4), by omega⟩
  else ⟨8 * (c.val / 8) + (c.val % 8 + (10 - i.val)) % 8, by omega⟩

/-- `src c i` is c's own `inv i`-th peer. -/
def inv (i : Fin 10) : Fin 10 :=
  if h : i.val < 3 then ⟨2 - i.val, by omega⟩ else ⟨12 - i.val, by omega⟩

theorem peer_src : ∀ (c : Fin 32) (i : Fin 10), peer (src c i) i = c := by decide
theorem src_peer : ∀ (c : Fin 32) (i : Fin 10), src (peer c i) i = c := by decide
theorem peer_inv : ∀ (c : Fin 32) (i : Fin 10), peer c (inv i) = src c i := by decide
theorem inv_inv : ∀ i : Fin 10, inv (inv i) = i := by decide
theorem peer_ne : ∀ (c : Fin 32) (i : Fin 10), peer c i ≠ c := by decide
theorem src_ne : ∀ (c : Fin 32) (i : Fin 10), src c i ≠ c := by decide
theorem peer_inj : ∀ (c : Fin 32) (i j : Fin 10), peer c i = peer c j → i = j := by decide
theorem src_inj : ∀ (c : Fin 32) (i j : Fin 10), src c i = src c j → i = j := by decide

/-- For each i, `peer · i` is a permutation of the devices, `src · i` its inverse. -/
def perm (i : Fin 10) : Fin 32 ≃ Fin 32 := ⟨fun c => peer c i, fun c => src c i, fun c => src_peer c i, fun c => peer_src c i⟩

end Cert.Mesh
-- ==== Proof.KernelDevEq.lean ====
import proofs.«900767_g7700000000000768_dist_diff_adaln_cshard_i_b4_s256_c128_v7x_i32_bf16_1_alg».proof.Proof.Gen.Kernel
import proofs.«900767_g7700000000000768_dist_diff_adaln_cshard_i_b4_s256_c128_v7x_i32_bf16_1_alg».proof.Proof.Mesh

set_option Elab.async false

namespace Cert.KernelProof

open Cert.Kernel Cert.Kernel.Gen Cert.Mesh
open Idealize.ShloMosaic Idealize.SL.Sem

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 7 := by revert c; decide +kernel
theorem dev9_eq (c : Dev nD) : (⟨k0_dev9 c, k0_dev9_lt c⟩ : Dev nD) = peer c 8 := by revert c; decide +kernel
theorem dev10_eq (c : Dev nD) : (⟨k0_dev10 c, k0_dev10_lt c⟩ : Dev nD) = peer c 9 := by revert c; decide +kernel
theorem dev11_eq (c : Dev nD) : (⟨k0_dev11 c, k0_dev11_lt c⟩ : Dev nD) = peer c 0 := by revert c; decide +kernel
theorem dev12_eq (c : Dev nD) : (⟨k0_dev12 c, k0_dev12_lt c⟩ : Dev nD) = peer c 1 := by revert c; decide +kernel
theorem dev13_eq (c : Dev nD) : (⟨k0_dev13 c, k0_dev13_lt c⟩ : Dev nD) = peer c 2 := by revert c; decide +kernel
theorem dev14_eq (c : Dev nD) : (⟨k0_dev14 c, k0_dev14_lt c⟩ : Dev nD) = peer c 3 := by revert c; decide +kernel
theorem dev15_eq (c : Dev nD) : (⟨k0_dev15 c, k0_dev15_lt c⟩ : Dev nD) = peer c 4 := by revert c; decide +kernel
theorem dev16_eq (c : Dev nD) : (⟨k0_dev16 c, k0_dev16_lt c⟩ : Dev nD) = peer c 5 := by revert c; decide +kernel
theorem dev17_eq (c : Dev nD) : (⟨k0_dev17 c, k0_dev17_lt c⟩ : Dev nD) = peer c 6 := by revert c; decide +kernel
theorem dev18_eq (c : Dev nD) : (⟨k0_dev18 c, k0_dev18_lt c⟩ : Dev nD) = peer c 7 := by revert c; decide +kernel
theorem dev19_eq (c : Dev nD) : (⟨k0_dev19 c, k0_dev19_lt c⟩ : Dev nD) = peer c 8 := by revert c; decide +kernel
theorem dev20_eq (c : Dev nD) : (⟨k0_dev20 c, k0_dev20_lt c⟩ : Dev nD) = peer c 9 := by revert c; decide +kernel

end Cert.KernelProof
-- ==== Proof.KernelCells.lean ====
import proofs.«900767_g7700000000000768_dist_diff_adaln_cshard_i_b4_s256_c128_v7x_i32_bf16_1_alg».proof.Proof.Gen.Kernel

noncomputable section

namespace Cert.KernelProof

open Cert.Kernel Cert.Kernel.Gen
open Idealize.ShloMosaic Idealize.SL.Sem

abbrev xM : Memref sig .tc .vmem S4x256x128 .f32 := Memref.whole cc0_stg0_0
abbrev tM : Memref sig .tc .vmem S4x128 .f32 := Memref.whole cc0_stg1_0
abbrev wsM : Memref sig .tc .vmem S128x128 .f32 := Memref.whole cc0_stg2_0
abbrev wshM : Memref sig .tc .vmem S128x128 .f32 := Memref.whole cc0_stg3_0
abbrev oM : Memref sig .tc .vmem S4x256x128 .f32 := Memref.whole cc0_stg4_0
abbrev mineM : Memref sig .tc .vmem S8x256 .f32 := Memref.whole cc0_scratch0
abbrev colM : Memref sig .tc .vmem S8x256 .f32 := Memref.whole cc0_scratch1
abbrev czM : Memref sig .tc .vmem S3x8x256 .f32 := Memref.whole cc0_scratch2
abbrev cpM : Memref sig .tc .vmem S7x8x256 .f32 := Memref.whole cc0_scratch3

abbrev slotM : Fin 10 → Memref sig .tc .vmem S8x256 .f32
  | 0 => (czM.slice (Rect.unit (s := S3x8x256) ![0, 0, 0] S1x8x256.size inb_S3x8x256_S1x8x256_0_0_0) (fun _ => rfl)).squeeze S8x256 squeezes_S1x8x256_S8x256
  | 1 => (czM.slice (Rect.unit (s := S3x8x256) ![1, 0, 0] S1x8x256.size inb_S3x8x256_S1x8x256_1_0_0) (fun _ => rfl)).squeeze S8x256 squeezes_S1x8x256_S8x256
  | 2 => (czM.slice (Rect.unit (s := S3x8x256) ![2, 0, 0] S1x8x256.size inb_S3x8x256_S1x8x256_2_0_0) (fun _ => rfl)).squeeze S8x256 squeezes_S1x8x256_S8x256
  | 3 => (cpM.slice (Rect.unit (s := S7x8x256) ![0, 0, 0] S1x8x256.size inb_S7x8x256_S1x8x256_0_0_0) (fun _ => rfl)).squeeze S8x256 squeezes_S1x8x256_S8x256
  | 4 => (cpM.slice (Rect.unit (s := S7x8x256) ![1, 0, 0] S1x8x256.size inb_S7x8x256_S1x8x256_1_0_0) (fun _ => rfl)).squeeze S8x256 squeezes_S1x8x256_S8x256
  | 5 => (cpM.slice (Rect.unit (s := S7x8x256) ![2, 0, 0] S1x8x256.size inb_S7x8x256_S1x8x256_2_0_0) (fun _ => rfl)).squeeze S8x256 squeezes_S1x8x256_S8x256
  | 6 => (cpM.slice (Rect.unit (s := S7x8x256) ![3, 0, 0] S1x8x256.size inb_S7x8x256_S1x8x256_3_0_0) (fun _ => rfl)).squeeze S8x256 squeezes_S1x8x256_S8x256
  | 7 => (cpM.slice (Rect.unit (s := S7x8x256) ![4, 0, 0] S1x8x256.size inb_S7x8x256_S1x8x256_4_0_0) (fun _ => rfl)).squeeze S8x256 squeezes_S1x8x256_S8x256
  | 8 => (cpM.slice (Rect.unit (s := S7x8x256) ![5, 0, 0] S1x8x256.size inb_S7x8x256_S1x8x256_5_0_0) (fun _ => rfl)).squeeze S8x256 squeezes_S1x8x256_S8x256
  | 9 => (cpM.slice (Rect.unit (s := S7x8x256) ![6, 0, 0] S1x8x256.size inb_S7x8x256_S1x8x256_6_0_0) (fun _ => rfl)).squeeze S8x256 squeezes_S1x8x256_S8x256
  | ⟨_ + 10, h⟩ => absurd h (Nat.not_lt.2 (Nat.le_add_left _ _))

abbrev srcM : Fin 10 → Memref sig .tc .vmem S8x256 .f32
  | 0 => mineM
  | 1 => mineM
  | 2 => mineM
  | 3 => colM
  | 4 => colM
  | 5 => colM
  | 6 => colM
  | 7 => colM
  | 8 => colM
  | 9 => colM
  | ⟨_ + 10, h⟩ => absurd h (Nat.not_lt.2 (Nat.le_add_left _ _))

abbrev sendS : Fin 10 → DmaSems sig S_
  | 0 => (cc0_scratch4.slice (Rect.unit (s := S3) ![0] S1.size inb_S3_S1_0)).squeeze S_ squeezes_S1_S_
  | 1 => (cc0_scratch4.slice (Rect.unit (s := S3) ![1] S1.size inb_S3_S1_1)).squeeze S_ squeezes_S1_S_
  | 2 => (cc0_scratch4.slice (Rect.unit (s := S3) ![2] S1.size inb_S3_S1_2)).squeeze S_ squeezes_S1_S_
  | 3 => (cc0_scratch6.slice (Rect.unit (s := S7) ![0] S1.size inb_S7_S1_0)).squeeze S_ squeezes_S1_S_
  | 4 => (cc0_scratch6.slice (Rect.unit (s := S7) ![1] S1.size inb_S7_S1_1)).squeeze S_ squeezes_S1_S_
  | 5 => (cc0_scratch6.slice (Rect.unit (s := S7) ![2] S1.size inb_S7_S1_2)).squeeze S_ squeezes_S1_S_
  | 6 => (cc0_scratch6.slice (Rect.unit (s := S7) ![3] S1.size inb_S7_S1_3)).squeeze S_ squeezes_S1_S_
  | 7 => (cc0_scratch6.slice (Rect.unit (s := S7) ![4] S1.size inb_S7_S1_4)).squeeze S_ squeezes_S1_S_
  | 8 => (cc0_scratch6.slice (Rect.unit (s := S7) ![5] S1.size inb_S7_S1_5)).squeeze S_ squeezes_S1_S_
  | 9 => (cc0_scratch6.slice (Rect.unit (s := S7) ![6] S1.size inb_S7_S1_6)).squeeze S_ squeezes_S1_S_
  | ⟨_ + 10, h⟩ => absurd h (Nat.not_lt.2 (Nat.le_add_left _ _))

abbrev recvS : Fin 10 → DmaSems sig S_
  | 0 => (cc0_scratch5.slice (Rect.unit (s := S3) ![0] S1.size inb_S3_S1_0)).squeeze S_ squeezes_S1_S_
  | 1 => (cc0_scratch5.slice (Rect.unit (s := S3) ![1] S1.size inb_S3_S1_1)).squeeze S_ squeezes_S1_S_
  | 2 => (cc0_scratch5.slice (Rect.unit (s := S3) ![2] S1.size inb_S3_S1_2)).squeeze S_ squeezes_S1_S_
  | 3 => (cc0_scratch7.slice (Rect.unit (s := S7) ![0] S1.size inb_S7_S1_0)).squeeze S_ squeezes_S1_S_
  | 4 => (cc0_scratch7.slice (Rect.unit (s := S7) ![1] S1.size inb_S7_S1_1)).squeeze S_ squeezes_S1_S_
  | 5 => (cc0_scratch7.slice (Rect.unit (s := S7) ![2] S1.size inb_S7_S1_2)).squeeze S_ squeezes_S1_S_
  | 6 => (cc0_scratch7.slice (Rect.unit (s := S7) ![3] S1.size inb_S7_S1_3)).squeeze S_ squeezes_S1_S_
  | 7 => (cc0_scratch7.slice (Rect.unit (s := S7) ![4] S1.size inb_S7_S1_4)).squeeze S_ squeezes_S1_S_
  | 8 => (cc0_scratch7.slice (Rect.unit (s := S7) ![5] S1.size inb_S7_S1_5)).squeeze S_ squeezes_S1_S_
  | 9 => (cc0_scratch7.slice (Rect.unit (s := S7) ![6] S1.size inb_S7_S1_6)).squeeze S_ squeezes_S1_S_
  | ⟨_ + 10, h⟩ => absurd h (Nat.not_lt.2 (Nat.le_add_left _ _))

abbrev barS : Sem sig := (SemArray.scalar (sig.barrier 0 rfl) : Sems sig S_).sem

abbrev csem : Fin 21 → SemLoc sig
  | 0 => .reg barS
  | 1 => .dma (sendS 0).sem
  | 2 => .dma (sendS 1).sem
  | 3 => .dma (sendS 2).sem
  | 4 => .dma (sendS 3).sem
  | 5 => .dma (sendS 4).sem
  | 6 => .dma (sendS 5).sem
  | 7 => .dma (sendS 6).sem
  | 8 => .dma (sendS 7).sem
  | 9 => .dma (sendS 8).sem
  | 10 => .dma (sendS 9).sem
  | 11 => .dma (recvS 0).sem
  | 12 => .dma (recvS 1).sem
  | 13 => .dma (recvS 2).sem
  | 14 => .dma (recvS 3).sem
  | 15 => .dma (recvS 4).sem
  | 16 => .dma (recvS 5).sem
  | 17 => .dma (recvS 6).sem
  | 18 => .dma (recvS 7).sem
  | 19 => .dma (recvS 8).sem
  | 20 => .dma (recvS 9).sem
  | ⟨_ + 21, h⟩ => absurd h (Nat.not_lt.2 (Nat.le_add_left _ _))

abbrev osem : Fin 20 → SemLoc sig
  | 0 => .dma (sendS 0).sem
  | 1 => .dma (sendS 1).sem
  | 2 => .dma (sendS 2).sem
  | 3 => .dma (sendS 3).sem
  | 4 => .dma (sendS 4).sem
  | 5 => .dma (sendS 5).sem
  | 6 => .dma (sendS 6).sem
  | 7 => .dma (sendS 7).sem
  | 8 => .dma (sendS 8).sem
  | 9 => .dma (sendS 9).sem
  | 10 => .dma (recvS 0).sem
  | 11 => .dma (recvS 1).sem
  | 12 => .dma (recvS 2).sem
  | 13 => .dma (recvS 3).sem
  | 14 => .dma (recvS 4).sem
  | 15 => .dma (recvS 5).sem
  | 16 => .dma (recvS 6).sem
  | 17 => .dma (recvS 7).sem
  | 18 => .dma (recvS 8).sem
  | 19 => .dma (recvS 9).sem
  | ⟨_ + 20, h⟩ => absurd h (Nat.not_lt.2 (Nat.le_add_left _ _))

end Cert.KernelProof

end
-- ==== Proof.KernelSched.lean ====
/-
  The cross-device protocol of the kernel under the rounds discipline.

  Every device c owns 21 semaphore cells: its barrier cell, and for each of its ten peers i a SEND cell
  (credited when copy i has been read out of its source on c) and a RECEIVE cell (credited when the
  copy of `src c i` has been written into c's landing slot i). Each cell has ONE round.
  * The barrier round has ten duties of one unit, duty i paid by `src c i` (its i-th signal addresses c).
    With it comes what c needs for ITS copy number `inv i`, which goes to that same device: that device's
    landing slot `inv i` and the fact that its receive cell `inv i` is open.
  * A receive cell's one duty hands c its slot i holding what the sender copied: the sender's row sums
    ("mine") for the column group (i < 3), its column-group sums ("col") for the row group (3 ≤ i).
  * A send cell's one duty hands c back the read share of the source it lent to copy i.
  Deadlock freedom is by levels: a device waits on its barrier (level 1) owing only receive credits,
  on its column-group receives (level 2) owing only row-group receive credits (level 3), and on
  everything else owing nothing.
-/
import proofs.«900767_g7700000000000768_dist_diff_adaln_cshard_i_b4_s256_c128_v7x_i32_bf16_1_alg».proof.Proof.Gen.Kernel
import proofs.«900767_g7700000000000768_dist_diff_adaln_cshard_i_b4_s256_c128_v7x_i32_bf16_1_alg».proof.Proof.Gen.Kernel.Skeleton
import proofs.«900767_g7700000000000768_dist_diff_adaln_cshard_i_b4_s256_c128_v7x_i32_bf16_1_alg».proof.Proof.Gen.Kernel.Launch
import proofs.«900767_g7700000000000768_dist_diff_adaln_cshard_i_b4_s256_c128_v7x_i32_bf16_1_alg».proof.Proof.Gen.Kernel.Points
import proofs.«900767_g7700000000000768_dist_diff_adaln_cshard_i_b4_s256_c128_v7x_i32_bf16_1_alg».proof.Proof.Mesh
import proofs.«900767_g7700000000000768_dist_diff_adaln_cshard_i_b4_s256_c128_v7x_i32_bf16_1_alg».proof.Proof.KernelDevEq
import proofs.«900767_g7700000000000768_dist_diff_adaln_cshard_i_b4_s256_c128_v7x_i32_bf16_1_alg».proof.Proof.KernelCells
import Idealize.ShloMosaic.Lib.Pipeline.Launch
import Idealize.ShloMosaic.Lib.Pipeline.Kit
import Idealize.ShloMosaic.Lib.Transfers
import Idealize.ShloMosaic.Lib.Tactic

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

/-! ## The resource algebra: the pipeline's copy (duties `Unit`) beside the protocol's (duties `Fin 10`) -/

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells (the memrefs, landing slots and semaphores by peer index are the Cells tables) -/

abbrev barCell (c : Dev nD) : GSem nD τ sig := ((c : Thread nD τ), .reg barS)
abbrev sendCell (c : Dev nD) (i : Fin 10) : GSem nD τ sig := ((c : Thread nD τ), .dma (sendS i).sem)
abbrev recvCell (c : Dev nD) (i : Fin 10) : GSem nD τ sig := ((c : Thread nD τ), .dma (recvS i).sem)

/-- One copy's credit: the units a [8, 256] page of f32 contributes to a DMA semaphore. -/
abbrev N : ℕ := (mineM : Memref sig .tc .vmem S8x256 .f32).view.dmaCredit
theorem N_pos : 0 < N := View.dmaCredit_pos _ (by decide)

/-! ## Contents -/

/-- Device c's blocks of the four arguments as the pipeline stages them. -/
def xb (c : Dev nD) : (cc0_stg0_0 : Ref sig .tc).ty.Contents (Elt F) :=
  (win0_0.blk (0 : Fin 1)).view.read (Elt F) ((s₀ m ρ).mem ((c : Thread nD τ).loc main_arg0))
def tb (c : Dev nD) : (cc0_stg1_0 : Ref sig .tc).ty.Contents (Elt F) :=
  (win0_1.blk (0 : Fin 1)).view.read (Elt F) ((s₀ m ρ).mem ((c : Thread nD τ).loc main_arg1))
def wsb (c : Dev nD) : (cc0_stg2_0 : Ref sig .tc).ty.Contents (Elt F) :=
  (win0_2.blk (0 : Fin 1)).view.read (Elt F) ((s₀ m ρ).mem ((c : Thread nD τ).loc main_arg2))
def wshb (c : Dev nD) : (cc0_stg3_0 : Ref sig .tc).ty.Contents (Elt F) :=
  (win0_3.blk (0 : Fin 1)).view.read (Elt F) ((s₀ m ρ).mem ((c : Thread nD τ).loc main_arg3))

abbrev rLo : Rect S8x256 := Rect.unit (s := S8x256) ![0, 0] S4x256.size inb_S8x256_S4x256_0_0
abbrev rHi : Rect S8x256 := Rect.unit (s := S8x256) ![4, 0] S4x256.size inb_S8x256_S4x256_4_0

/-- A zero page: the contents the canonical values below are written over (every element of them is overwritten). -/
def z8 : (cc0_scratch0 : Ref sig .tc).ty.Contents (Elt F) := fun _ => Scalar.ofBits .f32 0x00000000#32
def z3 : (cc0_scratch2 : Ref sig .tc).ty.Contents (Elt F) := fun _ => Scalar.ofBits .f32 0x00000000#32
def z7 : (cc0_scratch3 : Ref sig .tc).ty.Contents (Elt F) := fun _ => Scalar.ofBits .f32 0x00000000#32

/-- The row-sum buffer after the kernel's two stores over contents `f0`: rows 0–3 the sums of the block's
    entries over its 128 columns, rows 4–7 the sums of their squares. -/
def mineOf (f0 : (cc0_scratch0 : Ref sig .tc).ty.Contents (Elt F)) (x : (cc0_stg0_0 : Ref sig .tc).ty.Contents (Elt F)) :
    (cc0_scratch0 : Ref sig .tc).ty.Contents (Elt F) :=
  ((mineM : Memref sig .tc .vmem S8x256 .f32).access rHi : View sig .tc _ _ _).write (Elt F)
    (((mineM : Memref sig .tc .vmem S8x256 .f32).access rLo : View sig .tc _ _ _).write (Elt F) f0 (k0_pay2 x) Finset.univ) (k0_pay3 x) Finset.univ

def mineV (c : Dev nD) : (cc0_scratch0 : Ref sig .tc).ty.Contents (Elt F) := mineOf z8 (xb m ρ c)

/-- The column-group landing buffer once its three pages have landed: page k holds the row sums of `src c k`. -/
def czV (c : Dev nD) : (cc0_scratch2 : Ref sig .tc).ty.Contents (Elt F) :=
  (slotM 2).view.write (Elt F) ((slotM 1).view.write (Elt F) ((slotM 0).view.write (Elt F) z3
    ((mineM : Memref sig .tc .vmem S8x256 .f32).view.read (Elt F) (mineV m ρ (src c 0))) Finset.univ)
    ((mineM : Memref sig .tc .vmem S8x256 .f32).view.read (Elt F) (mineV m ρ (src c 1))) Finset.univ)
    ((mineM : Memref sig .tc .vmem S8x256 .f32).view.read (Elt F) (mineV m ρ (src c 2))) Finset.univ

/-- The column group's sums on device c: its own row sums plus the three landed pages. -/
def colV (c : Dev nD) : (cc0_scratch1 : Ref sig .tc).ty.Contents (Elt F) := k0_pay7 (mineV m ρ c) (czV m ρ c)

/-- The row-group landing buffer once its seven pages have landed: page j holds the column-group sums of `src c (j + 3)`. -/
def cpV (c : Dev nD) : (cc0_scratch3 : Ref sig .tc).ty.Contents (Elt F) :=
  (slotM 9).view.write (Elt F) ((slotM 8).view.write (Elt F) ((slotM 7).view.write (Elt F) ((slotM 6).view.write (Elt F)
    ((slotM 5).view.write (Elt F) ((slotM 4).view.write (Elt F) ((slotM 3).view.write (Elt F) z7
    ((colM : Memref sig .tc .vmem S8x256 .f32).view.read (Elt F) (colV m ρ (src c 3))) Finset.univ)
    ((colM : Memref sig .tc .vmem S8x256 .f32).view.read (Elt F) (colV m ρ (src c 4))) Finset.univ)
    ((colM : Memref sig .tc .vmem S8x256 .f32).view.read (Elt F) (colV m ρ (src c 5))) Finset.univ)
    ((colM : Memref sig .tc .vmem S8x256 .f32).view.read (Elt F) (colV m ρ (src c 6))) Finset.univ)
    ((colM : Memref sig .tc .vmem S8x256 .f32).view.read (Elt F) (colV m ρ (src c 7))) Finset.univ)
    ((colM : Memref sig .tc .vmem S8x256 .f32).view.read (Elt F) (colV m ρ (src c 8))) Finset.univ)
    ((colM : Memref sig .tc .vmem S8x256 .f32).view.read (Elt F) (colV m ρ (src c 9))) Finset.univ

/-- The kernel's result block on device c. -/
def outV (c : Dev nD) : (cc0_stg4_0 : Ref sig .tc).ty.Contents (Elt F) :=
  k0_pay11 (k0_pay1 (xb m ρ c)) (k0_pay5 (tb m ρ c) (wsb m ρ c)) (k0_pay6 (tb m ρ c) (wshb m ρ c))
    (k0_pay9 (colV m ρ c) (cpV m ρ c)) (k0_pay10 (colV m ρ c) (cpV m ρ c)) (Scalar.ofBits .f32 0x45800000#32)

/-! ## Payloads -/

/-- What the signal of `peer X j` (duty j of X's barrier cell) hands X: that device's landing slot j, over some
    contents, and that its receive cell j is open — what X's copy number j, which goes there, needs. -/
def barPay (X : Dev nD) : Fin 10 → sProp 𝕄
  | 0 => iprop((∃ f : (cc0_scratch2 : Ref sig .tc).ty.Contents (Elt F), ((slotM 0).view.loc (peer X 0 : Thread nD τ) ↦[(slotM 0).view.set]{fullShare} f)) ∗ reached ER (recvCell (peer X 0) 0) 0)
  | 1 => iprop((∃ f : (cc0_scratch2 : Ref sig .tc).ty.Contents (Elt F), ((slotM 1).view.loc (peer X 1 : Thread nD τ) ↦[(slotM 1).view.set]{fullShare} f)) ∗ reached ER (recvCell (peer X 1) 1) 0)
  | 2 => iprop((∃ f : (cc0_scratch2 : Ref sig .tc).ty.Contents (Elt F), ((slotM 2).view.loc (peer X 2 : Thread nD τ) ↦[(slotM 2).view.set]{fullShare} f)) ∗ reached ER (recvCell (peer X 2) 2) 0)
  | 3 => iprop((∃ f : (cc0_scratch3 : Ref sig .tc).ty.Contents (Elt F), ((slotM 3).view.loc (peer X 3 : Thread nD τ) ↦[(slotM 3).view.set]{fullShare} f)) ∗ reached ER (recvCell (peer X 3) 3) 0)
  | 4 => iprop((∃ f : (cc0_scratch3 : Ref sig .tc).ty.Contents (Elt F), ((slotM 4).view.loc (peer X 4 : Thread nD τ) ↦[(slotM 4).view.set]{fullShare} f)) ∗ reached ER (recvCell (peer X 4) 4) 0)
  | 5 => iprop((∃ f : (cc0_scratch3 : Ref sig .tc).ty.Contents (Elt F), ((slotM 5).view.loc (peer X 5 : Thread nD τ) ↦[(slotM 5).view.set]{fullShare} f)) ∗ reached ER (recvCell (peer X 5) 5) 0)
  | 6 => iprop((∃ f : (cc0_scratch3 : Ref sig .tc).ty.Contents (Elt F), ((slotM 6).view.loc (peer X 6 : Thread nD τ) ↦[(slotM 6).view.set]{fullShare} f)) ∗ reached ER (recvCell (peer X 6) 6) 0)
  | 7 => iprop((∃ f : (cc0_scratch3 : Ref sig .tc).ty.Contents (Elt F), ((slotM 7).view.loc (peer X 7 : Thread nD τ) ↦[(slotM 7).view.set]{fullShare} f)) ∗ reached ER (recvCell (peer X 7) 7) 0)
  | 8 => iprop((∃ f : (cc0_scratch3 : Ref sig .tc).ty.Contents (Elt F), ((slotM 8).view.loc (peer X 8 : Thread nD τ) ↦[(slotM 8).view.set]{fullShare} f)) ∗ reached ER (recvCell (peer X 8) 8) 0)
  | 9 => iprop((∃ f : (cc0_scratch3 : Ref sig .tc).ty.Contents (Elt F), ((slotM 9).view.loc (peer X 9 : Thread nD τ) ↦[(slotM 9).view.set]{fullShare} f)) ∗ reached ER (recvCell (peer X 9) 9) 0)
  | ⟨_ + 10, h⟩ => iprop(emp)

/-- What the landing of copy i hands its target: slot i of the landing buffer at its final contents. -/
def recvPay (X : Dev nD) : Fin 10 → sProp 𝕄
  | 0 => ((slotM 0).view.loc (X : Thread nD τ) ↦[(slotM 0).view.set]{fullShare} czV m ρ X)
  | 1 => ((slotM 1).view.loc (X : Thread nD τ) ↦[(slotM 1).view.set]{fullShare} czV m ρ X)
  | 2 => ((slotM 2).view.loc (X : Thread nD τ) ↦[(slotM 2).view.set]{fullShare} czV m ρ X)
  | 3 => ((slotM 3).view.loc (X : Thread nD τ) ↦[(slotM 3).view.set]{fullShare} cpV m ρ X)
  | 4 => ((slotM 4).view.loc (X : Thread nD τ) ↦[(slotM 4).view.set]{fullShare} cpV m ρ X)
  | 5 => ((slotM 5).view.loc (X : Thread nD τ) ↦[(slotM 5).view.set]{fullShare} cpV m ρ X)
  | 6 => ((slotM 6).view.loc (X : Thread nD τ) ↦[(slotM 6).view.set]{fullShare} cpV m ρ X)
  | 7 => ((slotM 7).view.loc (X : Thread nD τ) ↦[(slotM 7).view.set]{fullShare} cpV m ρ X)
  | 8 => ((slotM 8).view.loc (X : Thread nD τ) ↦[(slotM 8).view.set]{fullShare} cpV m ρ X)
  | 9 => ((slotM 9).view.loc (X : Thread nD τ) ↦[(slotM 9).view.set]{fullShare} cpV m ρ X)
  | ⟨_ + 10, h⟩ => iprop(emp)

/-- What the read-out of copy i hands its issuer back: the read share of the source it lent. -/
def sendPay (X : Dev nD) : Fin 10 → sProp 𝕄
  | 0 => ((mineM : Memref sig .tc .vmem S8x256 .f32).view.loc (X : Thread nD τ) ↦[(mineM : Memref sig .tc .vmem S8x256 .f32).view.set]{shareTok fullShare 3 0} mineV m ρ X)
  | 1 => ((mineM : Memref sig .tc .vmem S8x256 .f32).view.loc (X : Thread nD τ) ↦[(mineM : Memref sig .tc .vmem S8x256 .f32).view.set]{shareTok fullShare 3 1} mineV m ρ X)
  | 2 => ((mineM : Memref sig .tc .vmem S8x256 .f32).view.loc (X : Thread nD τ) ↦[(mineM : Memref sig .tc .vmem S8x256 .f32).view.set]{shareTok fullShare 3 2} mineV m ρ X)
  | 3 => ((colM : Memref sig .tc .vmem S8x256 .f32).view.loc (X : Thread nD τ) ↦[(colM : Memref sig .tc .vmem S8x256 .f32).view.set]{shareTok fullShare 7 0} colV m ρ X)
  | 4 => ((colM : Memref sig .tc .vmem S8x256 .f32).view.loc (X : Thread nD τ) ↦[(colM : Memref sig .tc .vmem S8x256 .f32).view.set]{shareTok fullShare 7 1} colV m ρ X)
  | 5 => ((colM : Memref sig .tc .vmem S8x256 .f32).view.loc (X : Thread nD τ) ↦[(colM : Memref sig .tc .vmem S8x256 .f32).view.set]{shareTok fullShare 7 2} colV m ρ X)
  | 6 => ((colM : Memref sig .tc .vmem S8x256 .f32).view.loc (X : Thread nD τ) ↦[(colM : Memref sig .tc .vmem S8x256 .f32).view.set]{shareTok fullShare 7 3} colV m ρ X)
  | 7 => ((colM : Memref sig .tc .vmem S8x256 .f32).view.loc (X : Thread nD τ) ↦[(colM : Memref sig .tc .vmem S8x256 .f32).view.set]{shareTok fullShare 7 4} colV m ρ X)
  | 8 => ((colM : Memref sig .tc .vmem S8x256 .f32).view.loc (X : Thread nD τ) ↦[(colM : Memref sig .tc .vmem S8x256 .f32).view.set]{shareTok fullShare 7 5} colV m ρ X)
  | 9 => ((colM : Memref sig .tc .vmem S8x256 .f32).view.loc (X : Thread nD τ) ↦[(colM : Memref sig .tc .vmem S8x256 .f32).view.set]{shareTok fullShare 7 6} colV m ρ X)
  | ⟨_ + 10, h⟩ => iprop(emp)

/-! ## The schedule: one round per cell -/

/-- Which receive / send cell a DMA semaphore is, by its number. -/
def recvIdx (q : DmaSem sig) : Option (Fin 10) :=
  match q.val with
  | 8 => some 0 | 9 => some 1 | 10 => some 2 | 18 => some 3 | 19 => some 4 | 20 => some 5 | 21 => some 6 | 22 => some 7 | 23 => some 8 | 24 => some 9
  | _ => none
def sendIdx (q : DmaSem sig) : Option (Fin 10) :=
  match q.val with
  | 5 => some 0 | 6 => some 1 | 7 => some 2 | 11 => some 3 | 12 => some 4 | 13 => some 5 | 14 => some 6 | 15 => some 7 | 16 => some 8 | 17 => some 9
  | _ => none

theorem recvIdx_recvS : ∀ i : Fin 10, recvIdx (recvS i).sem = some i := by decide
theorem recvIdx_sendS : ∀ i : Fin 10, recvIdx (sendS i).sem = none := by decide
theorem sendIdx_sendS : ∀ i : Fin 10, sendIdx (sendS i).sem = some i := by decide

abbrev IsBar (g : GSem nD τ sig) : Prop := g.1.2 = .tc ∧ g.2 = .reg barS
/-- a send or receive cell of the protocol -/
def xferOf : SemLoc sig → Bool
  | .dma q => (recvIdx q).isSome || (sendIdx q).isSome
  | _ => false
abbrev IsXfer (g : GSem nD τ sig) : Prop := g.1.2 = .tc ∧ xferOf g.2 = true

def payOf (X : Dev nD) (s : SemLoc sig) (d : Fin 10) : sProp 𝕄 :=
  match s with
  | .reg _ => barPay X d
  | .dma q => match recvIdx q with
    | some i => recvPay m ρ X i
    | none => match sendIdx q with
      | some i => sendPay m ρ X i
      | none => iprop(emp)

/-- Round 0 only: a barrier cell has the ten unit duties, a send or receive cell the duty 0 of one copy's credit. -/
def rd : Rounds.Schedule (GSem nD τ sig) (Fin 10) 𝕄 where
  duties g r := if r = 0 ∧ IsBar g then Finset.univ else if r = 0 ∧ IsXfer g then {0} else ∅
  unitless _ := False
  amount g _ _ := if g.2 = .reg barS then 1 else N
  payload g _ d := payOf m ρ g.1.1 g.2 d
  amount_pos g _ _ _ := by
    by_cases h : g.2 = .reg barS
    · rw [if_pos h]; exact Nat.one_pos
    · rw [if_neg h]; exact N_pos

instance rd_payload_storable (g : GSem nD τ sig) (r : ℕ) (d : Fin 10) :
    BI.Storable (upEmb : UEmb _ 𝕄) ((rd (F := F) m ρ).payload g r d) := by
  show BI.Storable upEmb (payOf m ρ g.1.1 g.2 d)
  unfold payOf barPay recvPay sendPay
  (repeat' split) <;> infer_instance

section Sched
variable (c : Dev nD)

theorem send_ne_bar (i : Fin 10) : (SemLoc.dma (sendS i).sem : SemLoc sig) ≠ .reg barS := fun h => by cases h
theorem recv_ne_bar (i : Fin 10) : (SemLoc.dma (recvS i).sem : SemLoc sig) ≠ .reg barS := fun h => by cases h
theorem xfer_send : ∀ i : Fin 10, xferOf (SemLoc.dma (sendS i).sem : SemLoc sig) = true := by decide
theorem xfer_recv : ∀ i : Fin 10, xferOf (SemLoc.dma (recvS i).sem : SemLoc sig) = true := by decide

theorem duties_bar : (rd (F := F) m ρ).duties (barCell c) 0 = Finset.univ := by dsimp only [rd]; exact if_pos ⟨rfl, rfl, rfl⟩
theorem duties_send (i : Fin 10) : (rd (F := F) m ρ).duties (sendCell c i) 0 = {0} := by
  dsimp only [rd]; rw [if_neg (fun h => send_ne_bar i h.2.2)]; exact if_pos ⟨rfl, rfl, xfer_send i⟩
theorem duties_recv (i : Fin 10) : (rd (F := F) m ρ).duties (recvCell c i) 0 = {0} := by
  dsimp only [rd]; rw [if_neg (fun h => recv_ne_bar i h.2.2)]; exact if_pos ⟨rfl, rfl, xfer_recv i⟩
theorem duties_later (g : GSem nD τ sig) : ∀ r, 1 ≤ r → (rd (F := F) m ρ).duties g r = ∅ :=
  fun r hr => by dsimp only [rd]; rw [if_neg fun h => by omega, if_neg fun h => by omega]

theorem amount_bar (d : Fin 10) : (rd (F := F) m ρ).amount (barCell c) 0 d = 1 := by dsimp only [rd]; exact if_pos rfl
theorem amount_send (i d : Fin 10) : (rd (F := F) m ρ).amount (sendCell c i) 0 d = N := by dsimp only [rd]; exact if_neg (send_ne_bar i)
theorem amount_recv (i d : Fin 10) : (rd (F := F) m ρ).amount (recvCell c i) 0 d = N := by dsimp only [rd]; exact if_neg (recv_ne_bar i)

theorem expect_bar : (rd (F := F) m ρ).expect (barCell c) 0 = 10 := by
  unfold Schedule.expect Schedule.amountOf
  rw [duties_bar, Finset.sum_congr rfl fun d _ => amount_bar m ρ c d, Finset.sum_const, Finset.card_univ, Fintype.card_fin, smul_eq_mul]
theorem expect_send (i : Fin 10) : (rd (F := F) m ρ).expect (sendCell c i) 0 = N := by
  unfold Schedule.expect Schedule.amountOf; rw [duties_send, Finset.sum_singleton, amount_send]
theorem expect_recv (i : Fin 10) : (rd (F := F) m ρ).expect (recvCell c i) 0 = N := by
  unfold Schedule.expect Schedule.amountOf; rw [duties_recv, Finset.sum_singleton, amount_recv]

theorem payload_bar (d : Fin 10) : (rd (F := F) m ρ).payload (barCell c) 0 d = barPay c d := rfl
theorem payload_recv (i d : Fin 10) : (rd (F := F) m ρ).payload (recvCell c i) 0 d = recvPay m ρ c i := by
  show payOf m ρ c (.dma (recvS i).sem) d = _
  unfold payOf; dsimp only; rw [recvIdx_recvS]
theorem payload_send (i d : Fin 10) : (rd (F := F) m ρ).payload (sendCell c i) 0 d = sendPay m ρ c i := by
  show payOf m ρ c (.dma (sendS i).sem) d = _
  unfold payOf; dsimp only; rw [recvIdx_sendS, sendIdx_sendS]

end Sched

/-! ## What each device owes at launch; the levels -/

/-- Device c owes each peer's receive cell (its copy i lands there) one copy's credit, and each peer's barrier
    cell one unit. -/
def OR (c : Dev nD) : CellTallies nD τ sig Unit := ∑ i : Fin 10, tallyAt (recvCell (peer c i) i) () N
def OS (c : Dev nD) : CellTallies nD τ sig Unit := ∑ i : Fin 10, tallyAt (barCell (peer c i)) () 1
def O₀ (c : Dev nD) : CellTallies nD τ sig Unit := OR c + OS c
/-- What is left of the receive debts once the column group's three copies are enqueued: the row group's seven. -/
def ORp (c : Dev nD) : CellTallies nD τ sig Unit := ∑ i ∈ (Finset.univ.filter fun i : Fin 10 => 3 ≤ i.val), tallyAt (recvCell (peer c i) i) () N

def L (g : GSem nD τ sig) : Finset Unit := if g.1.2 = .tc then {()} else ∅
/-- Barrier cells at 1, the column group's receive cells at 2, the row group's at 3, everything else
    (staging, send) at 0. -/
def lv (g : GSem nD τ sig) (_ : Unit) : ℕ :=
  match g.2 with
  | .reg _ => 1
  | .dma q => match recvIdx q with
    | some i => if i.val < 3 then 2 else 3
    | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) (i : Fin 10) : lv (recvCell c i) () = if i.val < 3 then 2 else 3 := by
  show (match recvIdx (recvS i).sem with | some i => if i.val < 3 then 2 else 3 | none => 0) = _
  rw [recvIdx_recvS]
theorem lv_send (c : Dev nD) (i : Fin 10) : lv (sendCell c i) () = 0 := by
  show (match recvIdx (sendS i).sem with | some i => if i.val < 3 then 2 else 3 | none => 0) = _
  rw [recvIdx_sendS]

theorem tallyAt_pos {g g' : GSem nD τ sig} {k : ℕ} {u : Unit} (h : 0 < (tallyAt g () k : CellTallies nD τ sig Unit) g' u) : g' = g := by
  rw [tallyAt_apply] at h
  by_contra hn
  rw [if_neg (fun h' => hn h'.1)] at h
  exact Nat.lt_irrefl 0 h

theorem OR_pos {c : Dev nD} {g : GSem nD τ sig} {u : Unit} (h : 0 < OR c g u) : ∃ i : Fin 10, g = recvCell (peer c i) i := by
  obtain ⟨i, _, hi⟩ := Pipeline.sum_pos_exists h
  exact ⟨i, tallyAt_pos hi⟩
theorem OS_pos {c : Dev nD} {g : GSem nD τ sig} {u : Unit} (h : 0 < OS c g u) : ∃ i : Fin 10, g = barCell (peer c i) := by
  obtain ⟨i, _, hi⟩ := Pipeline.sum_pos_exists h
  exact ⟨i, tallyAt_pos hi⟩
theorem ORp_pos {c : Dev nD} {g : GSem nD τ sig} {u : Unit} (h : 0 < ORp c g u) : ∃ i : Fin 10, 3 ≤ i.val ∧ g = recvCell (peer c i) i := by
  obtain ⟨i, hm, hi⟩ := Pipeline.sum_pos_exists h
  exact ⟨i, (Finset.mem_filter.mp hm).2, tallyAt_pos hi⟩

/-- A wait at a cell of level at most k, owing only cells of TensorCore threads at levels above k. -/
theorem mayWait_cut (c : Dev nD) (sm : SemLoc sig) (O : CellTallies nD τ sig Unit) (k : ℕ)
    (hw : lv ((c : Thread nD τ), sm) () ≤ k) (hO : ∀ g u, 0 < O g u → g.1.2 = .tc ∧ k < lv g u) :
    (levAts L lv : sProp 𝕄) ⊢ MayWait (c : Thread nD τ) sm () O :=
  MayOwe.of_cut (L := L) (lev := lv) k
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hw)
    (fun g u hg => (hO g u hg).2)

/-- At its barrier wait a device owes receive credits only: above the barrier's level. -/
theorem mayWait_bar (c : Dev nD) : (levAts L lv : sProp 𝕄) ⊢ MayWait (c : Thread nD τ) (.reg barS) () (OR c) :=
  mayWait_cut c _ _ 1 (le_of_eq rfl) fun g u hg => by
    obtain ⟨i, rfl⟩ := OR_pos hg
    refine ⟨rfl, ?_⟩
    rw [lv_recv]; split <;> decide

/-- At a column-group receive wait it owes the row group's receive credits only. -/
theorem mayWait_recvz (c : Dev nD) (i : Fin 10) (hi : i.val < 3) :
    (levAts L lv : sProp 𝕄) ⊢ MayWait (c : Thread nD τ) (.dma (recvS i).sem) () (ORp c) :=
  mayWait_cut c _ _ 2 (by rw [lv_recv, if_pos hi]) fun g u hg => by
    obtain ⟨j, hj, rfl⟩ := ORp_pos hg
    refine ⟨rfl, ?_⟩
    rw [lv_recv, if_neg (by omega)]; decide

/-- A staging wait of the pipeline (level 0): below everything a device ever owes. -/
theorem mayWait_stage (c : Dev nD) (q : DmaSem sig) (hq : recvIdx q = none) (O : CellTallies nD τ sig Unit) (hO : O = O₀ c ∨ O = 0) :
    (levAts L lv : sProp 𝕄) ⊢ MayWait (c : Thread nD τ) (.dma q) () O := by
  rcases hO with rfl | rfl
  · refine mayWait_cut c _ _ 0 (by show (match recvIdx q with | some i => if i.val < 3 then 2 else 3 | none => 0) ≤ 0; rw [hq]) fun g u hg => ?_
    rcases Pipeline.add_pos_cases hg with h | h
    · obtain ⟨i, rfl⟩ := OR_pos h
      refine ⟨rfl, ?_⟩; rw [lv_recv]; split <;> decide
    · obtain ⟨i, rfl⟩ := OS_pos h
      exact ⟨rfl, by rw [lv_bar]; decide⟩
  · rw [MayWait_zero]; iintro -; iempintro

/-! ## The proof data -/

abbrev kcell (ck : Dev nD × Fin 21) : GSem nD τ sig := ((ck.1 : Thread nD τ), csem ck.2)
/-- the indices of a device's barrier, send i and receive i cells -/
abbrev ixB : Fin 21 := 0
abbrev ixS (i : Fin 10) : Fin 21 := ⟨i.val + 1, by omega⟩
abbrev ixR (i : Fin 10) : Fin 21 := ⟨i.val + 11, by omega⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, at the names the launch allocated them, and that round 0 of every cell is open:
    persistent, the same on every device. -/
def records (K : Dev nD × Fin 21 → ℕ) : sProp 𝕄 :=
  iprop((bigSep Finset.univ fun ck : Dev nD × Fin 21 => cellInv ER (rd m ρ) (K ck) (kcell ck))
    ∗ bigSep Finset.univ fun ck : Dev nD × Fin 21 => reached ER (kcell ck) 0)

instance records_persistent (K : Dev nD × Fin 21 → ℕ) : BI.Persistent (records m ρ K) := by unfold records; infer_instance

/-- A device's positions: at the start of round 0 of each of its 21 cells. -/
def positions (c : Dev nD) : sProp 𝕄 :=
  iprop(atPos ER (barCell c) 0 ∅ 0 ∗ (bigSep Finset.univ fun i : Fin 10 => atPos ER (sendCell c i) 0 ∅ 0)
    ∗ bigSep Finset.univ fun i : Fin 10 => atPos ER (recvCell c i) 0 ∅ 0)

/-- The tokens of the duties device c PAYS: duty `inv i` of peer i's barrier (c is that device's `inv i`-th peer), the
    read-out of its own copy i, and the landing of copy i in peer i's receive cell i. -/
def payToks (c : Dev nD) : sProp 𝕄 :=
  iprop((bigSep Finset.univ fun i : Fin 10 => dutyTok ER (barCell (peer c i)) 0 (inv i))
    ∗ (bigSep Finset.univ fun i : Fin 10 => dutyTok ER (sendCell c i) 0 0)
    ∗ bigSep Finset.univ fun i : Fin 10 => dutyTok ER (recvCell (peer c i) i) 0 0)

/-- The tokens of a device's OWN cells, as the launch mints them. -/
def ownToks (c : Dev nD) : sProp 𝕄 :=
  iprop((bigSep Finset.univ fun j : Fin 10 => dutyTok ER (barCell c) 0 j)
    ∗ (bigSep Finset.univ fun i : Fin 10 => dutyTok ER (sendCell c i) 0 0)
    ∗ bigSep Finset.univ fun i : Fin 10 => dutyTok ER (recvCell c i) 0 0)

/-- The ghost state device c's body starts from. -/
def ghost (c : Dev nD) : sProp 𝕄 := iprop((∃ K, records m ρ K) ∗ positions c ∗ payToks c)

/-- Its launch credit: ten units on its barrier cell, one copy's credit on each receive cell. -/
def creds (c : Dev nD) : sProp 𝕄 :=
  iprop(cred (tallyAt (barCell c) () 10) ∗ bigSep Finset.univ fun i : Fin 10 => cred (tallyAt (recvCell c i) () N))

def start (c : Dev nD) : sProp 𝕄 := iprop(ghost m ρ c ∗ creds c ∗ levAts L lv)

/-- The four scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m ρ c ∗ scr c)
/-- After the point: the scratch buffers back whole, the twenty own cells closed with their counters at zero
    (the barrier cell is the runtime's: nothing to hand back). -/
def Φ₁ (c : Dev nD) : sProp 𝕄 := iprop(scr (F := F) c ∗ bigSep Finset.univ fun k : Fin 20 => semVal ((c : Thread nD τ), osem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xb m ρ c
    | ⟨1, _⟩ => tb m ρ c
    | ⟨2, _⟩ => wsb m ρ c
    | ⟨3, _⟩ => wshb m ρ c
    | ⟨4, _⟩ => outV m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

/-- A staging buffer whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body at the (one) point starts from … -/
def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- … and what it ends in. -/
def bodyPost (c : Dev nD) : sProp 𝕄 :=
  iprop(Φ₁ (F := F) c ∗ (dats m ρ 0 c).owesAt () t₀.succ
    ∗ stg c cc0_stg0_0 (xb m ρ c) ∗ stg c cc0_stg1_0 (tb m ρ c) ∗ stg c cc0_stg2_0 (wsb m ρ c) ∗ stg c cc0_stg3_0 (wshb m ρ c)
    ∗ stg c cc0_stg4_0 (outV m ρ c))

/-- The kernel body as the pipeline calls it at the one point. -/
abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

/-- The statement of the body lemma: one device's body, from `bodyPre` to `bodyPost`. -/
def BodySound : Prop :=
  ∀ (c : Dev nD) (Kt : PUnit → sProp 𝕄),
    iprop(bodyPre m ρ c ∗ (bodyPost m ρ c -∗ Kt ⟨⟩)) ⊢ wp frame (wpE (defs₀ (F := F)) 𝒱₀ c none) Set.univ (bodyProg (F := F)) Kt

end Cert.KernelProof

end
-- ==== Proof.KernelLaunch.lean ====
/-
  The launch of the kernel on its 32 devices: from "every device's body is sound" to the run of the whole
  program. The 21 cells of every device are allocated under one update (the barrier cell is the runtime's,
  unscoped, and is touched by eleven devices); the duty tokens the launch mints per owner are dealt to the
  devices that pay them, along the ten permutations `peer · i` of the mesh; the launch credit is read off
  what the devices owe.
-/
import proofs.«900767_g7700000000000768_dist_diff_adaln_cshard_i_b4_s256_c128_v7x_i32_bf16_1_alg».proof.Proof.KernelSched
import proofs.«900767_g7700000000000768_dist_diff_adaln_cshard_i_b4_s256_c128_v7x_i32_bf16_1_alg».proof.Proof.Gen.Kernel.Launch
import proofs.«900767_g7700000000000768_dist_diff_adaln_cshard_i_b4_s256_c128_v7x_i32_bf16_1_alg».proof.Proof.Gen.Kernel.Points
import proofs.«900767_g7700000000000768_dist_diff_adaln_cshard_i_b4_s256_c128_v7x_i32_bf16_1_alg».proof.Proof.Mesh
import Idealize.ShloMosaic.Lib.Pipeline.Launch
import Idealize.ShloMosaic.Lib.Pipeline.Kit
import Idealize.ShloMosaic.Lib.Tactic

noncomputable section

namespace Cert.KernelProof

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The cells by index -/

theorem csem_S : ∀ i : Fin 10, csem (ixS i) = .dma (sendS i).sem := by decide
theorem csem_R : ∀ i : Fin 10, csem (ixR i) = .dma (recvS i).sem := by decide
theorem kcell_B (c : Dev nD) : kcell (c, ixB) = barCell c := rfl
theorem kcell_S (c : Dev nD) (i : Fin 10) : kcell (c, ixS i) = sendCell c i := by
  show (((c : Dev nD) : Thread nD τ), csem (ixS i)) = _; rw [csem_S]
theorem kcell_R (c : Dev nD) (i : Fin 10) : kcell (c, ixR i) = recvCell c i := by
  show (((c : Dev nD) : Thread nD τ), csem (ixR i)) = _; rw [csem_R]

/-- the own scoped semaphores: the ten send ones, then the ten receive ones -/
abbrev oxS (i : Fin 10) : Fin 20 := ⟨i.val, by omega⟩
abbrev oxR (i : Fin 10) : Fin 20 := ⟨i.val + 10, by omega⟩
theorem osem_S : ∀ i : Fin 10, osem (oxS i) = .dma (sendS i).sem := by decide
theorem osem_R : ∀ i : Fin 10, osem (oxR i) = .dma (recvS i).sem := by decide

/-- The 21 cell indices are the barrier's, the ten sends' and the ten receives'. -/
def split21 : Unit ⊕ (Fin 10 ⊕ Fin 10) ≃ Fin 21 where
  toFun | .inl _ => ixB | .inr (.inl i) => ixS i | .inr (.inr i) => ixR i
  invFun k := if h : k.val = 0 then .inl () else if h' : k.val ≤ 10 then .inr (.inl ⟨k.val - 1, by omega⟩) else .inr (.inr ⟨k.val - 11, by omega⟩)
  left_inv := by decide
  right_inv := by decide

/-- The 20 own semaphores are the ten sends' and the ten receives'. -/
def split20 : Fin 10 ⊕ Fin 10 ≃ Fin 20 where
  toFun | .inl i => oxS i | .inr i => oxR i
  invFun k := if h : k.val < 10 then .inl ⟨k.val, h⟩ else .inr ⟨k.val - 10, by omega⟩
  left_inv := by decide
  right_inv := by decide

theorem bigSep_fin21 {M : Type} [URA M] (Φ : Fin 21 → sProp M) :
    bigSep Finset.univ Φ = iprop(Φ ixB ∗ (bigSep Finset.univ fun i : Fin 10 => Φ (ixS i)) ∗ bigSep Finset.univ fun i : Fin 10 => Φ (ixR i)) := by
  rw [bigSep_univ_equiv split21 Φ, bigSep_univ_sum, bigSep_univ_sum, bigSep_univ_of_subsingleton ()]
  rfl

theorem bigSep_fin20 {M : Type} [URA M] (Φ : Fin 20 → sProp M) :
    bigSep Finset.univ Φ = iprop((bigSep Finset.univ fun i : Fin 10 => Φ (oxS i)) ∗ bigSep Finset.univ fun i : Fin 10 => Φ (oxR i)) := by
  rw [bigSep_univ_equiv split20 Φ, bigSep_univ_sum]
  rfl

/-- A device's 21 cells: its barrier cell, its send cells, its receive cells. -/
theorem cells21_eq (c : Dev nD) (Φ : GSem nD τ sig → sProp 𝕄) :
    (bigSep Finset.univ fun k : Fin 21 => Φ (kcell (c, k)))
      = iprop(Φ (barCell c) ∗ (bigSep Finset.univ fun i : Fin 10 => Φ (sendCell c i)) ∗ bigSep Finset.univ fun i : Fin 10 => Φ (recvCell c i)) := by
  rw [bigSep_fin21]
  refine congrArg₂ _ rfl (congrArg₂ _ (bigSep_congr fun i _ => ?_) (bigSep_congr fun i _ => ?_))
  · show Φ (kcell (c, ixS i)) = _; rw [kcell_S]
  · show Φ (kcell (c, ixR i)) = _; rw [kcell_R]

/-- Its 20 own semaphores: those of its send cells and of its receive cells. -/
theorem own20_eq (c : Dev nD) (Φ : GSem nD τ sig → sProp 𝕄) :
    (bigSep Finset.univ fun k : Fin 20 => Φ (((c : Dev nD) : Thread nD τ), osem k))
      = iprop((bigSep Finset.univ fun i : Fin 10 => Φ (sendCell c i)) ∗ bigSep Finset.univ fun i : Fin 10 => Φ (recvCell c i)) := by
  rw [bigSep_fin20]
  refine congrArg₂ _ (bigSep_congr fun i _ => ?_) (bigSep_congr fun i _ => ?_)
  · show Φ (((c : Dev nD) : Thread nD τ), osem (oxS i)) = _; rw [osem_S]
  · show Φ (((c : Dev nD) : Thread nD τ), osem (oxR i)) = _; rw [osem_R]

/-! ## The launch -/

theorem ownSemFacts : Pipeline.OwnSemFacts cfg0.spec osem := by decide

theorem share_eq (c : Dev nD) (w : Fin cfg0.W) : (dats m ρ 0 c).share w = fullShare := by unfold Dat.share; split <;> rfl

/-- A cell's index from its semaphore. -/
def cidx : SemLoc sig → Fin 21
  | .reg _ => ixB
  | .dma q => match sendIdx q with
    | some i => ixS i
    | none => match recvIdx q with
      | some i => ixR i
      | none => ixB
theorem cidx_csem : ∀ k : Fin 21, cidx (csem k) = k := by decide

theorem kcell_injective : Function.Injective (kcell : Dev nD × Fin 21 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by rw [← cidx_csem k, h2, cidx_csem]
  subst this; rfl
def cellSet : Finset (GSem nD τ sig) := Finset.univ.map ⟨kcell, kcell_injective⟩

theorem sendS_inj {i j : Fin 10} (h : (sendS i).sem = (sendS j).sem) : i = j :=
  Option.some.inj (by rw [← sendIdx_sendS i, h, sendIdx_sendS])
theorem recvS_inj {i j : Fin 10} (h : (recvS i).sem = (recvS j).sem) : i = j :=
  Option.some.inj (by rw [← recvIdx_recvS i, h, recvIdx_recvS])
theorem sendS_ne_recvS (i j : Fin 10) : (sendS i).sem ≠ (recvS j).sem := fun h => by
  have := recvIdx_sendS i; rw [h, recvIdx_recvS] at this; cases this

/-- A device's own cells' duty tokens as minted: the barrier's ten, each send cell's one, each receive cell's one. -/
def tokOf (cj : Dev nD × (Fin 10 ⊕ (Fin 10 ⊕ Fin 10))) : GSem nD τ sig × ℕ × Fin 10 := match cj.2 with
  | .inl j => (barCell cj.1, 0, j)
  | .inr (.inl i) => (sendCell cj.1 i, 0, 0)
  | .inr (.inr i) => (recvCell cj.1 i, 0, 0)

theorem tokOf_injective : Function.Injective (tokOf : Dev nD × (Fin 10 ⊕ (Fin 10 ⊕ Fin 10)) → GSem nD τ sig × ℕ × Fin 10) := by
  rintro ⟨c, s⟩ ⟨c', s'⟩ h
  have h1 : c = c' := by
    have := congrArg (fun x : GSem nD τ sig × ℕ × Fin 10 => x.1.1.1) h
    rcases s with j | i | i <;> rcases s' with j' | i' | i' <;> exact this
  subst h1
  have h2 := congrArg (fun x : GSem nD τ sig × ℕ × Fin 10 => x.1.2) h
  have h3 := congrArg (fun x : GSem nD τ sig × ℕ × Fin 10 => x.2.2) h
  rcases s with j | i | i <;> rcases s' with j' | i' | i'
  · have : j = j' := h3
    subst this; rfl
  · exact absurd h2 (fun h' => by cases h')
  · exact absurd h2 (fun h' => by cases h')
  · exact absurd h2 (fun h' => by cases h')
  · have : i = i' := sendS_inj (SemLoc.dma.inj h2)
    subst this; rfl
  · exact absurd (SemLoc.dma.inj h2) (sendS_ne_recvS i i')
  · exact absurd h2 (fun h' => by cases h')
  · exact absurd (SemLoc.dma.inj h2).symm (sendS_ne_recvS i' i)
  · have : i = i' := recvS_inj (SemLoc.dma.inj h2)
    subst this; rfl
def tokSet : Finset (GSem nD τ sig × ℕ × Fin 10) := Finset.univ.map ⟨tokOf, tokOf_injective⟩

def u₀ : UU :=
  (initOf (Pipeline.cells cfgs cellOf_inj) (Pipeline.launchToks cfgs cellOf_inj), initOf cellSet tokSet)

/-- What the launch element deals device c (the theorem's G). -/
def G (c : Dev nD) : sProp 𝕄 :=
  iprop((bigSep Finset.univ fun k : Fin 21 => roundState ER (rd m ρ) (kcell (c, k)) 0)
    ∗ (bigSep Finset.univ fun k : Fin 21 => iprop(atPos ER (kcell (c, k)) 0 ∅ 0 ∗ reached ER (kcell (c, k)) 0)) ∗ ownToks c)

/-- What the global step makes of it (G'). -/
def G' (c : Dev nD) : sProp 𝕄 := ghost m ρ c

theorem fund_cells : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : Fin 21 => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => ownToks c := by
    unfold tokSet; rw [bigSep_map, bigSep_univ_prod]
    exact bigSep_congr fun c _ => by unfold ownToks; rw [bigSep_univ_sum, bigSep_univ_sum]; rfl
  iintro HX
  imod (Rounds.fund ER (rd m ρ) cellSet tokSet) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 21 => semVal (kcell (c, k)) 0 : sProp 𝕄) := by
  rw [unscopedSems0_eq, cells21_eq c (fun g => semVal g 0)]
  unfold Pipeline.ownSems0
  rw [own20_eq c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 21 => iprop(∃ κ : ℕ, cellInv ER (rd m ρ) κ (kcell (c, k))))
          ∗ (bigSep Finset.univ fun k : Fin 21 => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 21 => semVal (kcell (c, k)) 0) ∗ bigSep Finset.univ fun k : Fin 21 => roundState ER (rd m ρ) (kcell (c, k)) 0)
      ⊢ (|={Set.univ}=> bigSep Finset.univ fun k : Fin 21 => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device c: its positions, and the tokens of the duties it pays. -/
def linear (c : Dev nD) : sProp 𝕄 := iprop(positions c ∗ payToks c)

theorem ghost_intro (K : Dev nD × Fin 21 → ℕ) (c : Dev nD) : iprop(records m ρ K ∗ linear c) ⊢ G' m ρ c := by
  unfold linear G' ghost
  iintro ⟨#HR, HP, HT⟩
  isplitr
  · iexists K; iexact HR
  isplitl [HP] <;> iassumption

/-- the index of a peer among its target's own peers, as a permutation of the ten indices -/
def invE : Fin 10 ≃ Fin 10 := ⟨inv, inv, inv_inv, inv_inv⟩
/-- the i-th permutation of the devices -/
def permD (i : Fin 10) : Dev nD ≃ Dev nD := Cert.Mesh.perm i

/-- Dealing along the permutations: a family over (owner, duty) read over (payer, its index of the owner). -/
theorem deal_bar (T : Dev nD → Fin 10 → sProp 𝕄) :
    (bigSep Finset.univ fun c : Dev nD => bigSep Finset.univ fun j : Fin 10 => T c j)
      = bigSep Finset.univ fun c : Dev nD => bigSep Finset.univ fun i : Fin 10 => T (peer c i) (inv i) := by
  calc (bigSep Finset.univ fun c : Dev nD => bigSep Finset.univ fun j : Fin 10 => T c j)
      = bigSep Finset.univ fun c : Dev nD => bigSep Finset.univ fun i : Fin 10 => T c (inv i) :=
        bigSep_congr fun c _ => bigSep_univ_equiv invE (fun j => T c j)
    _ = bigSep Finset.univ fun i : Fin 10 => bigSep Finset.univ fun c : Dev nD => T c (inv i) := bigSep_univ_comm _
    _ = bigSep Finset.univ fun i : Fin 10 => bigSep Finset.univ fun c : Dev nD => T (peer c i) (inv i) :=
        bigSep_congr fun i _ => bigSep_univ_equiv (permD i) (fun c => T c (inv i))
    _ = bigSep Finset.univ fun c : Dev nD => bigSep Finset.univ fun i : Fin 10 => T (peer c i) (inv i) := bigSep_univ_comm _

theorem deal_recv (T : Dev nD → Fin 10 → sProp 𝕄) :
    (bigSep Finset.univ fun c : Dev nD => bigSep Finset.univ fun i : Fin 10 => T c i)
      = bigSep Finset.univ fun c : Dev nD => bigSep Finset.univ fun i : Fin 10 => T (peer c i) i := by
  calc (bigSep Finset.univ fun c : Dev nD => bigSep Finset.univ fun i : Fin 10 => T c i)
      = bigSep Finset.univ fun i : Fin 10 => bigSep Finset.univ fun c : Dev nD => T c i := bigSep_univ_comm _
    _ = bigSep Finset.univ fun i : Fin 10 => bigSep Finset.univ fun c : Dev nD => T (peer c i) i :=
        bigSep_congr fun i _ => bigSep_univ_equiv (permD i) (fun c => T c i)
    _ = bigSep Finset.univ fun c : Dev nD => bigSep Finset.univ fun i : Fin 10 => T (peer c i) i := bigSep_univ_comm _

/-- The tokens dealt: owner X's barrier token of duty j to its payer, its receive token of cell i to the sender; the
    send tokens stay. -/
theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep',
    deal_bar (fun c j => (dutyTok ER (barCell c) 0 j : sProp 𝕄)),
    deal_recv (fun c i => (dutyTok ER (recvCell c i) 0 0 : sProp 𝕄))]

theorem regroup :
    (bigSep Finset.univ fun c : Dev nD => iprop((bigSep Finset.univ fun k : Fin 21 => iprop(∃ κ : ℕ, cellInv ER (rd m ρ) κ (kcell (c, k))))
          ∗ (bigSep Finset.univ fun k : Fin 21 => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Fin 21 => iprop(∃ κ : ℕ, cellInv ER (rd m ρ) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok⟩
  ihave HK := (BI.bigSep_exists_pi Finset.univ (fun (ck : Dev nD × Fin 21) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 21 => (atPos ER (kcell (c, k)) 0 ∅ 0 : sProp 𝕄)) payToks).symm).trans
      (bigSep_mono fun c _ => show _ ⊢ linear c from Entails.of_eq (by unfold linear positions; rw [cells21_eq c (fun g => atPos ER g 0 ∅ 0)])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem cred_const {α : Type} [DecidableEq α] (s : Finset α) (g : GSem nD τ sig) (k : ℕ) :
    (bigSep s fun _ => (cred (tallyAt g () k) : sProp 𝕄)) = cred (tallyAt g () (s.card * k)) := by
  induction s using Finset.induction_on with
  | empty => rw [bigSep_empty, Finset.card_empty, Nat.zero_mul, tallyAt_zero, cred_zero]; rfl
  | insert a s ha ih =>
    rw [bigSep_insert ha, ih, Finset.card_insert_of_notMem ha, Nat.succ_mul, Nat.add_comm, ← tallyAt_add]
    exact (BI.Entails.antisymm (cred_add _ _).1 (cred_add _ _).2).symm

theorem creds_intro (c : Dev nD) : (Pipeline.launchCred O₀ c : sProp 𝕄) ⊢ creds c := by
  have e : (O₀ : Dev nD → CellTallies nD τ sig Unit) = fun d => OR d + OS d := rfl
  have hR : (Pipeline.launchCred OR c : sProp 𝕄) = bigSep Finset.univ fun i : Fin 10 => Pipeline.launchCred (fun d : Dev nD => tallyAt (recvCell (peer d i) i) () N) c :=
    Pipeline.launchCred_sum Finset.univ (fun (i : Fin 10) (d : Dev nD) => tallyAt (recvCell (peer d i) i) () N) c
  have hS : (Pipeline.launchCred OS c : sProp 𝕄) = bigSep Finset.univ fun i : Fin 10 => Pipeline.launchCred (fun d : Dev nD => tallyAt (barCell (peer d i)) () 1) c :=
    Pipeline.launchCred_sum Finset.univ (fun (i : Fin 10) (d : Dev nD) => tallyAt (barCell (peer d i)) () 1) c
  have h1 : (bigSep Finset.univ fun i : Fin 10 => Pipeline.launchCred (fun d : Dev nD => tallyAt (barCell (peer d i)) () 1) c : sProp 𝕄)
      ⊢ cred (tallyAt (barCell c) () 10) :=
    (bigSep_mono fun (i : Fin 10) _ => Pipeline.launchCred_tallyAt (SemLoc.reg barS) (fun d : Dev nD => peer d i) (fun d : Dev nD => src d i)
      (fun c => peer_src c i) (fun d => src_peer d i) () 1 c).trans
      (Entails.of_eq ((cred_const (F := F) (Finset.univ : Finset (Fin 10)) (barCell c) 1).trans (by rw [Finset.card_univ, Fintype.card_fin])))
  have h2 : (bigSep Finset.univ fun i : Fin 10 => Pipeline.launchCred (fun d : Dev nD => tallyAt (recvCell (peer d i) i) () N) c : sProp 𝕄)
      ⊢ bigSep Finset.univ fun i : Fin 10 => cred (tallyAt (recvCell c i) () N) :=
    bigSep_mono fun (i : Fin 10) _ => Pipeline.launchCred_tallyAt (SemLoc.dma (recvS i).sem) (fun d : Dev nD => peer d i) (fun d : Dev nD => src d i)
      (fun c => peer_src c i) (fun d => src_peer d i) () N c
  rw [e, Pipeline.launchCred_add, hR, hS]
  unfold creds
  iintro ⟨HR, HS⟩
  isplitl [HS]
  · iapply h1; iexact HS
  · iapply h2; iexact HR

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ scr Pipeline.ownSems0
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The body obligation -/

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The library's body obligation on device c, from the body lemma. -/
theorem body_obligation (hbody : BodySound m ρ) (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (bodyProg (F := F)) (fun _ => bodyPost m ρ c)
  iintro H
  iapply (hbody c fun _ => bodyPost m ρ c)
  isplitl [H]; · iexact H
  iintro H; iexact H

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: every weakly fair
    execution of @main terminates, and every final state has each device's arrays at `finalA`. -/
theorem run_main (hbody : BodySound m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

/-- The four argument arrays end as they were. -/
theorem finalA_in (c : Dev nD) (w : Fin cfg0.W) (hw : w.val < 4) : finalA m ρ c w = (s₀ m ρ).mem ((cfg0.win w).arr.view.loc (c : Thread nD τ)) := by
  have hin : (cfg0.win w).isOut = false := by
    revert hw; revert w; decide
  exact (dats (F := F) m ρ 0 c).arrAt_in w hin _

/-- The result array ends as the kernel's block value written back over it … -/
theorem finalA_out (c : Dev nD) :
    finalA m ρ c (4 : Fin 5) = ((cfg0.win (4 : Fin 5)).blk t₀).view.write (Elt F)
      ((s₀ m ρ).mem ((cfg0.win (4 : Fin 5)).arr.view.loc (c : Thread nD τ))) (outV m ρ c) Finset.univ := by
  have h := (dats (F := F) m ρ 0 c).arrAt_succ (4 : Fin 5) t₀
  rw [flush0_4, if_pos rfl] at h
  exact h

/-- … so the block read back out of it is that value, -/
theorem finalA_out_read (c : Dev nD) :
    ((cfg0.win (4 : Fin 5)).blk t₀).view.read (Elt F) (finalA m ρ c (4 : Fin 5)) = outV m ρ c := by
  rw [finalA_out]; exact View.read_write_univ _ _

/-- … and, the block being the whole array, the array IS that value. -/
theorem finalA_out_eq (c : Dev nD) : finalA m ρ c (4 : Fin 5) = outV m ρ c := by
  rw [finalA_out]
  exact Memref.write_access_unit_zero_univ (Elt F) main_v1 (funext fun a => Nat.zero_mul _) _ _ _

end Cert.KernelProof

end
-- ==== Proof.KernelIdealDevEq.lean ====
import proofs.«900767_g7700000000000768_dist_diff_adaln_cshard_i_b4_s256_c128_v7x_i32_bf16_1_alg».proof.Proof.Gen.KernelIdeal
import proofs.«900767_g7700000000000768_dist_diff_adaln_cshard_i_b4_s256_c128_v7x_i32_bf16_1_alg».proof.Proof.Mesh

set_option Elab.async false

namespace Cert.KernelIdealProof

open Cert.KernelIdeal Cert.KernelIdeal.Gen Cert.Mesh
open Idealize.ShloMosaic Idealize.SL.Sem

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 7 := by revert c; decide +kernel
theorem dev9_eq (c : Dev nD) : (⟨k0_dev9 c, k0_dev9_lt c⟩ : Dev nD) = peer c 8 := by revert c; decide +kernel
theorem dev10_eq (c : Dev nD) : (⟨k0_dev10 c, k0_dev10_lt c⟩ : Dev nD) = peer c 9 := by revert c; decide +kernel
theorem dev11_eq (c : Dev nD) : (⟨k0_dev11 c, k0_dev11_lt c⟩ : Dev nD) = peer c 0 := by revert c; decide +kernel
theorem dev12_eq (c : Dev nD) : (⟨k0_dev12 c, k0_dev12_lt c⟩ : Dev nD) = peer c 1 := by revert c; decide +kernel
theorem dev13_eq (c : Dev nD) : (⟨k0_dev13 c, k0_dev13_lt c⟩ : Dev nD) = peer c 2 := by revert c; decide +kernel
theorem dev14_eq (c : Dev nD) : (⟨k0_dev14 c, k0_dev14_lt c⟩ : Dev nD) = peer c 3 := by revert c; decide +kernel
theorem dev15_eq (c : Dev nD) : (⟨k0_dev15 c, k0_dev15_lt c⟩ : Dev nD) = peer c 4 := by revert c; decide +kernel
theorem dev16_eq (c : Dev nD) : (⟨k0_dev16 c, k0_dev16_lt c⟩ : Dev nD) = peer c 5 := by revert c; decide +kernel
theorem dev17_eq (c : Dev nD) : (⟨k0_dev17 c, k0_dev17_lt c⟩ : Dev nD) = peer c 6 := by revert c; decide +kernel
theorem dev18_eq (c : Dev nD) : (⟨k0_dev18 c, k0_dev18_lt c⟩ : Dev nD) = peer c 7 := by revert c; decide +kernel
theorem dev19_eq (c : Dev nD) : (⟨k0_dev19 c, k0_dev19_lt c⟩ : Dev nD) = peer c 8 := by revert c; decide +kernel
theorem dev20_eq (c : Dev nD) : (⟨k0_dev20 c, k0_dev20_lt c⟩ : Dev nD) = peer c 9 := by revert c; decide +kernel

end Cert.KernelIdealProof
-- ==== Proof.KernelIdealCells.lean ====
import proofs.«900767_g7700000000000768_dist_diff_adaln_cshard_i_b4_s256_c128_v7x_i32_bf16_1_alg».proof.Proof.Gen.KernelIdeal

noncomputable section

namespace Cert.KernelIdealProof

open Cert.KernelIdeal Cert.KernelIdeal.Gen
open Idealize.ShloMosaic Idealize.SL.Sem

abbrev xM : Memref sig .tc .vmem S4x256x128 .f32 := Memref.whole cc0_stg0_0
abbrev tM : Memref sig .tc .vmem S4x128 .f32 := Memref.whole cc0_stg1_0
abbrev wsM : Memref sig .tc .vmem S128x128 .f32 := Memref.whole cc0_stg2_0
abbrev wshM : Memref sig .tc .vmem S128x128 .f32 := Memref.whole cc0_stg3_0
abbrev oM : Memref sig .tc .vmem S4x256x128 .f32 := Memref.whole cc0_stg4_0
abbrev mineM : Memref sig .tc .vmem S8x256 .f32 := Memref.whole cc0_scratch0
abbrev colM : Memref sig .tc .vmem S8x256 .f32 := Memref.whole cc0_scratch1
abbrev czM : Memref sig .tc .vmem S3x8x256 .f32 := Memref.whole cc0_scratch2
abbrev cpM : Memref sig .tc .vmem S7x8x256 .f32 := Memref.whole cc0_scratch3

abbrev slotM : Fin 10 → Memref sig .tc .vmem S8x256 .f32
  | 0 => (czM.slice (Rect.unit (s := S3x8x256) ![0, 0, 0] S1x8x256.size inb_S3x8x256_S1x8x256_0_0_0) (fun _ => rfl)).squeeze S8x256 squeezes_S1x8x256_S8x256
  | 1 => (czM.slice (Rect.unit (s := S3x8x256) ![1, 0, 0] S1x8x256.size inb_S3x8x256_S1x8x256_1_0_0) (fun _ => rfl)).squeeze S8x256 squeezes_S1x8x256_S8x256
  | 2 => (czM.slice (Rect.unit (s := S3x8x256) ![2, 0, 0] S1x8x256.size inb_S3x8x256_S1x8x256_2_0_0) (fun _ => rfl)).squeeze S8x256 squeezes_S1x8x256_S8x256
  | 3 => (cpM.slice (Rect.unit (s := S7x8x256) ![0, 0, 0] S1x8x256.size inb_S7x8x256_S1x8x256_0_0_0) (fun _ => rfl)).squeeze S8x256 squeezes_S1x8x256_S8x256
  | 4 => (cpM.slice (Rect.unit (s := S7x8x256) ![1, 0, 0] S1x8x256.size inb_S7x8x256_S1x8x256_1_0_0) (fun _ => rfl)).squeeze S8x256 squeezes_S1x8x256_S8x256
  | 5 => (cpM.slice (Rect.unit (s := S7x8x256) ![2, 0, 0] S1x8x256.size inb_S7x8x256_S1x8x256_2_0_0) (fun _ => rfl)).squeeze S8x256 squeezes_S1x8x256_S8x256
  | 6 => (cpM.slice (Rect.unit (s := S7x8x256) ![3, 0, 0] S1x8x256.size inb_S7x8x256_S1x8x256_3_0_0) (fun _ => rfl)).squeeze S8x256 squeezes_S1x8x256_S8x256
  | 7 => (cpM.slice (Rect.unit (s := S7x8x256) ![4, 0, 0] S1x8x256.size inb_S7x8x256_S1x8x256_4_0_0) (fun _ => rfl)).squeeze S8x256 squeezes_S1x8x256_S8x256
  | 8 => (cpM.slice (Rect.unit (s := S7x8x256) ![5, 0, 0] S1x8x256.size inb_S7x8x256_S1x8x256_5_0_0) (fun _ => rfl)).squeeze S8x256 squeezes_S1x8x256_S8x256
  | 9 => (cpM.slice (Rect.unit (s := S7x8x256) ![6, 0, 0] S1x8x256.size inb_S7x8x256_S1x8x256_6_0_0) (fun _ => rfl)).squeeze S8x256 squeezes_S1x8x256_S8x256
  | ⟨_ + 10, h⟩ => absurd h (Nat.not_lt.2 (Nat.le_add_left _ _))

abbrev srcM : Fin 10 → Memref sig .tc .vmem S8x256 .f32
  | 0 => mineM
  | 1 => mineM
  | 2 => mineM
  | 3 => colM
  | 4 => colM
  | 5 => colM
  | 6 => colM
  | 7 => colM
  | 8 => colM
  | 9 => colM
  | ⟨_ + 10, h⟩ => absurd h (Nat.not_lt.2 (Nat.le_add_left _ _))

abbrev sendS : Fin 10 → DmaSems sig S_
  | 0 => (cc0_scratch4.slice (Rect.unit (s := S3) ![0] S1.size inb_S3_S1_0)).squeeze S_ squeezes_S1_S_
  | 1 => (cc0_scratch4.slice (Rect.unit (s := S3) ![1] S1.size inb_S3_S1_1)).squeeze S_ squeezes_S1_S_
  | 2 => (cc0_scratch4.slice (Rect.unit (s := S3) ![2] S1.size inb_S3_S1_2)).squeeze S_ squeezes_S1_S_
  | 3 => (cc0_scratch6.slice (Rect.unit (s := S7) ![0] S1.size inb_S7_S1_0)).squeeze S_ squeezes_S1_S_
  | 4 => (cc0_scratch6.slice (Rect.unit (s := S7) ![1] S1.size inb_S7_S1_1)).squeeze S_ squeezes_S1_S_
  | 5 => (cc0_scratch6.slice (Rect.unit (s := S7) ![2] S1.size inb_S7_S1_2)).squeeze S_ squeezes_S1_S_
  | 6 => (cc0_scratch6.slice (Rect.unit (s := S7) ![3] S1.size inb_S7_S1_3)).squeeze S_ squeezes_S1_S_
  | 7 => (cc0_scratch6.slice (Rect.unit (s := S7) ![4] S1.size inb_S7_S1_4)).squeeze S_ squeezes_S1_S_
  | 8 => (cc0_scratch6.slice (Rect.unit (s := S7) ![5] S1.size inb_S7_S1_5)).squeeze S_ squeezes_S1_S_
  | 9 => (cc0_scratch6.slice (Rect.unit (s := S7) ![6] S1.size inb_S7_S1_6)).squeeze S_ squeezes_S1_S_
  | ⟨_ + 10, h⟩ => absurd h (Nat.not_lt.2 (Nat.le_add_left _ _))

abbrev recvS : Fin 10 → DmaSems sig S_
  | 0 => (cc0_scratch5.slice (Rect.unit (s := S3) ![0] S1.size inb_S3_S1_0)).squeeze S_ squeezes_S1_S_
  | 1 => (cc0_scratch5.slice (Rect.unit (s := S3) ![1] S1.size inb_S3_S1_1)).squeeze S_ squeezes_S1_S_
  | 2 => (cc0_scratch5.slice (Rect.unit (s := S3) ![2] S1.size inb_S3_S1_2)).squeeze S_ squeezes_S1_S_
  | 3 => (cc0_scratch7.slice (Rect.unit (s := S7) ![0] S1.size inb_S7_S1_0)).squeeze S_ squeezes_S1_S_
  | 4 => (cc0_scratch7.slice (Rect.unit (s := S7) ![1] S1.size inb_S7_S1_1)).squeeze S_ squeezes_S1_S_
  | 5 => (cc0_scratch7.slice (Rect.unit (s := S7) ![2] S1.size inb_S7_S1_2)).squeeze S_ squeezes_S1_S_
  | 6 => (cc0_scratch7.slice (Rect.unit (s := S7) ![3] S1.size inb_S7_S1_3)).squeeze S_ squeezes_S1_S_
  | 7 => (cc0_scratch7.slice (Rect.unit (s := S7) ![4] S1.size inb_S7_S1_4)).squeeze S_ squeezes_S1_S_
  | 8 => (cc0_scratch7.slice (Rect.unit (s := S7) ![5] S1.size inb_S7_S1_5)).squeeze S_ squeezes_S1_S_
  | 9 => (cc0_scratch7.slice (Rect.unit (s := S7) ![6] S1.size inb_S7_S1_6)).squeeze S_ squeezes_S1_S_
  | ⟨_ + 10, h⟩ => absurd h (Nat.not_lt.2 (Nat.le_add_left _ _))

abbrev barS : Sem sig := (SemArray.scalar (sig.barrier 0 rfl) : Sems sig S_).sem

abbrev csem : Fin 21 → SemLoc sig
  | 0 => .reg barS
  | 1 => .dma (sendS 0).sem
  | 2 => .dma (sendS 1).sem
  | 3 => .dma (sendS 2).sem
  | 4 => .dma (sendS 3).sem
  | 5 => .dma (sendS 4).sem
  | 6 => .dma (sendS 5).sem
  | 7 => .dma (sendS 6).sem
  | 8 => .dma (sendS 7).sem
  | 9 => .dma (sendS 8).sem
  | 10 => .dma (sendS 9).sem
  | 11 => .dma (recvS 0).sem
  | 12 => .dma (recvS 1).sem
  | 13 => .dma (recvS 2).sem
  | 14 => .dma (recvS 3).sem
  | 15 => .dma (recvS 4).sem
  | 16 => .dma (recvS 5).sem
  | 17 => .dma (recvS 6).sem
  | 18 => .dma (recvS 7).sem
  | 19 => .dma (recvS 8).sem
  | 20 => .dma (recvS 9).sem
  | ⟨_ + 21, h⟩ => absurd h (Nat.not_lt.2 (Nat.le_add_left _ _))

abbrev osem : Fin 20 → SemLoc sig
  | 0 => .dma (sendS 0).sem
  | 1 => .dma (sendS 1).sem
  | 2 => .dma (sendS 2).sem
  | 3 => .dma (sendS 3).sem
  | 4 => .dma (sendS 4).sem
  | 5 => .dma (sendS 5).sem
  | 6 => .dma (sendS 6).sem
  | 7 => .dma (sendS 7).sem
  | 8 => .dma (sendS 8).sem
  | 9 => .dma (sendS 9).sem
  | 10 => .dma (recvS 0).sem
  | 11 => .dma (recvS 1).sem
  | 12 => .dma (recvS 2).sem
  | 13 => .dma (recvS 3).sem
  | 14 => .dma (recvS 4).sem
  | 15 => .dma (recvS 5).sem
  | 16 => .dma (recvS 6).sem
  | 17 => .dma (recvS 7).sem
  | 18 => .dma (recvS 8).sem
  | 19 => .dma (recvS 9).sem
  | ⟨_ + 20, h⟩ => absurd h (Nat.not_lt.2 (Nat.le_add_left _ _))

end Cert.KernelIdealProof

end
-- ==== Proof.KernelIdealSched.lean ====
/-
  The cross-device protocol of the kernel under the rounds discipline.

  Every device c owns 21 semaphore cells: its barrier cell, and for each of its ten peers i a SEND cell
  (credited when copy i has been read out of its source on c) and a RECEIVE cell (credited when the
  copy of `src c i` has been written into c's landing slot i). Each cell has ONE round.
  * The barrier round has ten duties of one unit, duty i paid by `src c i` (its i-th signal addresses c).
    With it comes what c needs for ITS copy number `inv i`, which goes to that same device: that device's
    landing slot `inv i` and the fact that its receive cell `inv i` is open.
  * A receive cell's one duty hands c its slot i holding what the sender copied: the sender's row sums
    ("mine") for the column group (i < 3), its column-group sums ("col") for the row group (3 ≤ i).
  * A send cell's one duty hands c back the read share of the source it lent to copy i.
  Deadlock freedom is by levels: a device waits on its barrier (level 1) owing only receive credits,
  on its column-group receives (level 2) owing only row-group receive credits (level 3), and on
  everything else owing nothing.
-/
import proofs.«900767_g7700000000000768_dist_diff_adaln_cshard_i_b4_s256_c128_v7x_i32_bf16_1_alg».proof.Proof.Gen.KernelIdeal
import proofs.«900767_g7700000000000768_dist_diff_adaln_cshard_i_b4_s256_c128_v7x_i32_bf16_1_alg».proof.Proof.Gen.KernelIdeal.Skeleton
import proofs.«900767_g7700000000000768_dist_diff_adaln_cshard_i_b4_s256_c128_v7x_i32_bf16_1_alg».proof.Proof.Gen.KernelIdeal.Launch
import proofs.«900767_g7700000000000768_dist_diff_adaln_cshard_i_b4_s256_c128_v7x_i32_bf16_1_alg».proof.Proof.Gen.KernelIdeal.Points
import proofs.«900767_g7700000000000768_dist_diff_adaln_cshard_i_b4_s256_c128_v7x_i32_bf16_1_alg».proof.Proof.Mesh
import proofs.«900767_g7700000000000768_dist_diff_adaln_cshard_i_b4_s256_c128_v7x_i32_bf16_1_alg».proof.Proof.KernelIdealDevEq
import proofs.«900767_g7700000000000768_dist_diff_adaln_cshard_i_b4_s256_c128_v7x_i32_bf16_1_alg».proof.Proof.KernelIdealCells
import Idealize.ShloMosaic.Lib.Pipeline.Launch
import Idealize.ShloMosaic.Lib.Pipeline.Kit
import Idealize.ShloMosaic.Lib.Transfers
import Idealize.ShloMosaic.Lib.Tactic

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

/-! ## The resource algebra: the pipeline's copy (duties `Unit`) beside the protocol's (duties `Fin 10`) -/

abbrev UB : Type := URounds (GSem nD τ sig) (Fin 10)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells (the memrefs, landing slots and semaphores by peer index are the Cells tables) -/

abbrev barCell (c : Dev nD) : GSem nD τ sig := ((c : Thread nD τ), .reg barS)
abbrev sendCell (c : Dev nD) (i : Fin 10) : GSem nD τ sig := ((c : Thread nD τ), .dma (sendS i).sem)
abbrev recvCell (c : Dev nD) (i : Fin 10) : GSem nD τ sig := ((c : Thread nD τ), .dma (recvS i).sem)

/-- One copy's credit: the units a [8, 256] page of f32 contributes to a DMA semaphore. -/
abbrev N : ℕ := (mineM : Memref sig .tc .vmem S8x256 .f32).view.dmaCredit
theorem N_pos : 0 < N := View.dmaCredit_pos _ (by decide)

/-! ## Contents -/

/-- Device c's blocks of the four arguments as the pipeline stages them. -/
def xb (c : Dev nD) : (cc0_stg0_0 : Ref sig .tc).ty.Contents (Elt F) :=
  (win0_0.blk (0 : Fin 1)).view.read (Elt F) ((s₀ m ρ).mem ((c : Thread nD τ).loc main_arg0))
def tb (c : Dev nD) : (cc0_stg1_0 : Ref sig .tc).ty.Contents (Elt F) :=
  (win0_1.blk (0 : Fin 1)).view.read (Elt F) ((s₀ m ρ).mem ((c : Thread nD τ).loc main_arg1))
def wsb (c : Dev nD) : (cc0_stg2_0 : Ref sig .tc).ty.Contents (Elt F) :=
  (win0_2.blk (0 : Fin 1)).view.read (Elt F) ((s₀ m ρ).mem ((c : Thread nD τ).loc main_arg2))
def wshb (c : Dev nD) : (cc0_stg3_0 : Ref sig .tc).ty.Contents (Elt F) :=
  (win0_3.blk (0 : Fin 1)).view.read (Elt F) ((s₀ m ρ).mem ((c : Thread nD τ).loc main_arg3))

abbrev rLo : Rect S8x256 := Rect.unit (s := S8x256) ![0, 0] S4x256.size inb_S8x256_S4x256_0_0
abbrev rHi : Rect S8x256 := Rect.unit (s := S8x256) ![4, 0] S4x256.size inb_S8x256_S4x256_4_0

/-- A zero page: the contents the canonical values below are written over (every element of them is overwritten). -/
def z8 : (cc0_scratch0 : Ref sig .tc).ty.Contents (Elt F) := fun _ => Scalar.ofBits .f32 0x00000000#32
def z3 : (cc0_scratch2 : Ref sig .tc).ty.Contents (Elt F) := fun _ => Scalar.ofBits .f32 0x00000000#32
def z7 : (cc0_scratch3 : Ref sig .tc).ty.Contents (Elt F) := fun _ => Scalar.ofBits .f32 0x00000000#32

/-- The row-sum buffer after the kernel's two stores over contents `f0`: rows 0–3 the sums of the block's
    entries over its 128 columns, rows 4–7 the sums of their squares. -/
def mineOf (f0 : (cc0_scratch0 : Ref sig .tc).ty.Contents (Elt F)) (x : (cc0_stg0_0 : Ref sig .tc).ty.Contents (Elt F)) :
    (cc0_scratch0 : Ref sig .tc).ty.Contents (Elt F) :=
  ((mineM : Memref sig .tc .vmem S8x256 .f32).access rHi : View sig .tc _ _ _).write (Elt F)
    (((mineM : Memref sig .tc .vmem S8x256 .f32).access rLo : View sig .tc _ _ _).write (Elt F) f0 (k0_pay2 x) Finset.univ) (k0_pay3 x) Finset.univ

def mineV (c : Dev nD) : (cc0_scratch0 : Ref sig .tc).ty.Contents (Elt F) := mineOf z8 (xb m ρ c)

/-- The column-group landing buffer once its three pages have landed: page k holds the row sums of `src c k`. -/
def czV (c : Dev nD) : (cc0_scratch2 : Ref sig .tc).ty.Contents (Elt F) :=
  (slotM 2).view.write (Elt F) ((slotM 1).view.write (Elt F) ((slotM 0).view.write (Elt F) z3
    ((mineM : Memref sig .tc .vmem S8x256 .f32).view.read (Elt F) (mineV m ρ (src c 0))) Finset.univ)
    ((mineM : Memref sig .tc .vmem S8x256 .f32).view.read (Elt F) (mineV m ρ (src c 1))) Finset.univ)
    ((mineM : Memref sig .tc .vmem S8x256 .f32).view.read (Elt F) (mineV m ρ (src c 2))) Finset.univ

/-- The column group's sums on device c: its own row sums plus the three landed pages. -/
def colV (c : Dev nD) : (cc0_scratch1 : Ref sig .tc).ty.Contents (Elt F) := k0_pay7 (mineV m ρ c) (czV m ρ c)

/-- The row-group landing buffer once its seven pages have landed: page j holds the column-group sums of `src c (j + 3)`. -/
def cpV (c : Dev nD) : (cc0_scratch3 : Ref sig .tc).ty.Contents (Elt F) :=
  (slotM 9).view.write (Elt F) ((slotM 8).view.write (Elt F) ((slotM 7).view.write (Elt F) ((slotM 6).view.write (Elt F)
    ((slotM 5).view.write (Elt F) ((slotM 4).view.write (Elt F) ((slotM 3).view.write (Elt F) z7
    ((colM : Memref sig .tc .vmem S8x256 .f32).view.read (Elt F) (colV m ρ (src c 3))) Finset.univ)
    ((colM : Memref sig .tc .vmem S8x256 .f32).view.read (Elt F) (colV m ρ (src c 4))) Finset.univ)
    ((colM : Memref sig .tc .vmem S8x256 .f32).view.read (Elt F) (colV m ρ (src c 5))) Finset.univ)
    ((colM : Memref sig .tc .vmem S8x256 .f32).view.read (Elt F) (colV m ρ (src c 6))) Finset.univ)
    ((colM : Memref sig .tc .vmem S8x256 .f32).view.read (Elt F) (colV m ρ (src c 7))) Finset.univ)
    ((colM : Memref sig .tc .vmem S8x256 .f32).view.read (Elt F) (colV m ρ (src c 8))) Finset.univ)
    ((colM : Memref sig .tc .vmem S8x256 .f32).view.read (Elt F) (colV m ρ (src c 9))) Finset.univ

/-- The kernel's result block on device c. -/
def outV (c : Dev nD) : (cc0_stg4_0 : Ref sig .tc).ty.Contents (Elt F) :=
  k0_pay11 (k0_pay1 (xb m ρ c)) (k0_pay5 (tb m ρ c) (wsb m ρ c)) (k0_pay6 (tb m ρ c) (wshb m ρ c))
    (k0_pay9 (colV m ρ c) (cpV m ρ c)) (k0_pay10 (colV m ρ c) (cpV m ρ c)) (Scalar.ofBits .f32 0x45800000#32)

/-! ## Payloads -/

/-- What the signal of `peer X j` (duty j of X's barrier cell) hands X: that device's landing slot j, over some
    contents, and that its receive cell j is open — what X's copy number j, which goes there, needs. -/
def barPay (X : Dev nD) : Fin 10 → sProp 𝕄
  | 0 => iprop((∃ f : (cc0_scratch2 : Ref sig .tc).ty.Contents (Elt F), ((slotM 0).view.loc (peer X 0 : Thread nD τ) ↦[(slotM 0).view.set]{fullShare} f)) ∗ reached ER (recvCell (peer X 0) 0) 0)
  | 1 => iprop((∃ f : (cc0_scratch2 : Ref sig .tc).ty.Contents (Elt F), ((slotM 1).view.loc (peer X 1 : Thread nD τ) ↦[(slotM 1).view.set]{fullShare} f)) ∗ reached ER (recvCell (peer X 1) 1) 0)
  | 2 => iprop((∃ f : (cc0_scratch2 : Ref sig .tc).ty.Contents (Elt F), ((slotM 2).view.loc (peer X 2 : Thread nD τ) ↦[(slotM 2).view.set]{fullShare} f)) ∗ reached ER (recvCell (peer X 2) 2) 0)
  | 3 => iprop((∃ f : (cc0_scratch3 : Ref sig .tc).ty.Contents (Elt F), ((slotM 3).view.loc (peer X 3 : Thread nD τ) ↦[(slotM 3).view.set]{fullShare} f)) ∗ reached ER (recvCell (peer X 3) 3) 0)
  | 4 => iprop((∃ f : (cc0_scratch3 : Ref sig .tc).ty.Contents (Elt F), ((slotM 4).view.loc (peer X 4 : Thread nD τ) ↦[(slotM 4).view.set]{fullShare} f)) ∗ reached ER (recvCell (peer X 4) 4) 0)
  | 5 => iprop((∃ f : (cc0_scratch3 : Ref sig .tc).ty.Contents (Elt F), ((slotM 5).view.loc (peer X 5 : Thread nD τ) ↦[(slotM 5).view.set]{fullShare} f)) ∗ reached ER (recvCell (peer X 5) 5) 0)
  | 6 => iprop((∃ f : (cc0_scratch3 : Ref sig .tc).ty.Contents (Elt F), ((slotM 6).view.loc (peer X 6 : Thread nD τ) ↦[(slotM 6).view.set]{fullShare} f)) ∗ reached ER (recvCell (peer X 6) 6) 0)
  | 7 => iprop((∃ f : (cc0_scratch3 : Ref sig .tc).ty.Contents (Elt F), ((slotM 7).view.loc (peer X 7 : Thread nD τ) ↦[(slotM 7).view.set]{fullShare} f)) ∗ reached ER (recvCell (peer X 7) 7) 0)
  | 8 => iprop((∃ f : (cc0_scratch3 : Ref sig .tc).ty.Contents (Elt F), ((slotM 8).view.loc (peer X 8 : Thread nD τ) ↦[(slotM 8).view.set]{fullShare} f)) ∗ reached ER (recvCell (peer X 8) 8) 0)
  | 9 => iprop((∃ f : (cc0_scratch3 : Ref sig .tc).ty.Contents (Elt F), ((slotM 9).view.loc (peer X 9 : Thread nD τ) ↦[(slotM 9).view.set]{fullShare} f)) ∗ reached ER (recvCell (peer X 9) 9) 0)
  | ⟨_ + 10, h⟩ => iprop(emp)

/-- What the landing of copy i hands its target: slot i of the landing buffer at its final contents. -/
def recvPay (X : Dev nD) : Fin 10 → sProp 𝕄
  | 0 => ((slotM 0).view.loc (X : Thread nD τ) ↦[(slotM 0).view.set]{fullShare} czV m ρ X)
  | 1 => ((slotM 1).view.loc (X : Thread nD τ) ↦[(slotM 1).view.set]{fullShare} czV m ρ X)
  | 2 => ((slotM 2).view.loc (X : Thread nD τ) ↦[(slotM 2).view.set]{fullShare} czV m ρ X)
  | 3 => ((slotM 3).view.loc (X : Thread nD τ) ↦[(slotM 3).view.set]{fullShare} cpV m ρ X)
  | 4 => ((slotM 4).view.loc (X : Thread nD τ) ↦[(slotM 4).view.set]{fullShare} cpV m ρ X)
  | 5 => ((slotM 5).view.loc (X : Thread nD τ) ↦[(slotM 5).view.set]{fullShare} cpV m ρ X)
  | 6 => ((slotM 6).view.loc (X : Thread nD τ) ↦[(slotM 6).view.set]{fullShare} cpV m ρ X)
  | 7 => ((slotM 7).view.loc (X : Thread nD τ) ↦[(slotM 7).view.set]{fullShare} cpV m ρ X)
  | 8 => ((slotM 8).view.loc (X : Thread nD τ) ↦[(slotM 8).view.set]{fullShare} cpV m ρ X)
  | 9 => ((slotM 9).view.loc (X : Thread nD τ) ↦[(slotM 9).view.set]{fullShare} cpV m ρ X)
  | ⟨_ + 10, h⟩ => iprop(emp)

/-- What the read-out of copy i hands its issuer back: the read share of the source it lent. -/
def sendPay (X : Dev nD) : Fin 10 → sProp 𝕄
  | 0 => ((mineM : Memref sig .tc .vmem S8x256 .f32).view.loc (X : Thread nD τ) ↦[(mineM : Memref sig .tc .vmem S8x256 .f32).view.set]{shareTok fullShare 3 0} mineV m ρ X)
  | 1 => ((mineM : Memref sig .tc .vmem S8x256 .f32).view.loc (X : Thread nD τ) ↦[(mineM : Memref sig .tc .vmem S8x256 .f32).view.set]{shareTok fullShare 3 1} mineV m ρ X)
  | 2 => ((mineM : Memref sig .tc .vmem S8x256 .f32).view.loc (X : Thread nD τ) ↦[(mineM : Memref sig .tc .vmem S8x256 .f32).view.set]{shareTok fullShare 3 2} mineV m ρ X)
  | 3 => ((colM : Memref sig .tc .vmem S8x256 .f32).view.loc (X : Thread nD τ) ↦[(colM : Memref sig .tc .vmem S8x256 .f32).view.set]{shareTok fullShare 7 0} colV m ρ X)
  | 4 => ((colM : Memref sig .tc .vmem S8x256 .f32).view.loc (X : Thread nD τ) ↦[(colM : Memref sig .tc .vmem S8x256 .f32).view.set]{shareTok fullShare 7 1} colV m ρ X)
  | 5 => ((colM : Memref sig .tc .vmem S8x256 .f32).view.loc (X : Thread nD τ) ↦[(colM : Memref sig .tc .vmem S8x256 .f32).view.set]{shareTok fullShare 7 2} colV m ρ X)
  | 6 => ((colM : Memref sig .tc .vmem S8x256 .f32).view.loc (X : Thread nD τ) ↦[(colM : Memref sig .tc .vmem S8x256 .f32).view.set]{shareTok fullShare 7 3} colV m ρ X)
  | 7 => ((colM : Memref sig .tc .vmem S8x256 .f32).view.loc (X : Thread nD τ) ↦[(colM : Memref sig .tc .vmem S8x256 .f32).view.set]{shareTok fullShare 7 4} colV m ρ X)
  | 8 => ((colM : Memref sig .tc .vmem S8x256 .f32).view.loc (X : Thread nD τ) ↦[(colM : Memref sig .tc .vmem S8x256 .f32).view.set]{shareTok fullShare 7 5} colV m ρ X)
  | 9 => ((colM : Memref sig .tc .vmem S8x256 .f32).view.loc (X : Thread nD τ) ↦[(colM : Memref sig .tc .vmem S8x256 .f32).view.set]{shareTok fullShare 7 6} colV m ρ X)
  | ⟨_ + 10, h⟩ => iprop(emp)

/-! ## The schedule: one round per cell -/

/-- Which receive / send cell a DMA semaphore is, by its number. -/
def recvIdx (q : DmaSem sig) : Option (Fin 10) :=
  match q.val with
  | 8 => some 0 | 9 => some 1 | 10 => some 2 | 18 => some 3 | 19 => some 4 | 20 => some 5 | 21 => some 6 | 22 => some 7 | 23 => some 8 | 24 => some 9
  | _ => none
def sendIdx (q : DmaSem sig) : Option (Fin 10) :=
  match q.val with
  | 5 => some 0 | 6 => some 1 | 7 => some 2 | 11 => some 3 | 12 => some 4 | 13 => some 5 | 14 => some 6 | 15 => some 7 | 16 => some 8 | 17 => some 9
  | _ => none

theorem recvIdx_recvS : ∀ i : Fin 10, recvIdx (recvS i).sem = some i := by decide
theorem recvIdx_sendS : ∀ i : Fin 10, recvIdx (sendS i).sem = none := by decide
theorem sendIdx_sendS : ∀ i : Fin 10, sendIdx (sendS i).sem = some i := by decide

abbrev IsBar (g : GSem nD τ sig) : Prop := g.1.2 = .tc ∧ g.2 = .reg barS
/-- a send or receive cell of the protocol -/
def xferOf : SemLoc sig → Bool
  | .dma q => (recvIdx q).isSome || (sendIdx q).isSome
  | _ => false
abbrev IsXfer (g : GSem nD τ sig) : Prop := g.1.2 = .tc ∧ xferOf g.2 = true

def payOf (X : Dev nD) (s : SemLoc sig) (d : Fin 10) : sProp 𝕄 :=
  match s with
  | .reg _ => barPay X d
  | .dma q => match recvIdx q with
    | some i => recvPay m ρ X i
    | none => match sendIdx q with
      | some i => sendPay m ρ X i
      | none => iprop(emp)

/-- Round 0 only: a barrier cell has the ten unit duties, a send or receive cell the duty 0 of one copy's credit. -/
def rd : Rounds.Schedule (GSem nD τ sig) (Fin 10) 𝕄 where
  duties g r := if r = 0 ∧ IsBar g then Finset.univ else if r = 0 ∧ IsXfer g then {0} else ∅
  unitless _ := False
  amount g _ _ := if g.2 = .reg barS then 1 else N
  payload g _ d := payOf m ρ g.1.1 g.2 d
  amount_pos g _ _ _ := by
    by_cases h : g.2 = .reg barS
    · rw [if_pos h]; exact Nat.one_pos
    · rw [if_neg h]; exact N_pos

instance rd_payload_storable (g : GSem nD τ sig) (r : ℕ) (d : Fin 10) :
    BI.Storable (upEmb : UEmb _ 𝕄) ((rd (F := F) m ρ).payload g r d) := by
  show BI.Storable upEmb (payOf m ρ g.1.1 g.2 d)
  unfold payOf barPay recvPay sendPay
  (repeat' split) <;> infer_instance

section Sched
variable (c : Dev nD)

theorem send_ne_bar (i : Fin 10) : (SemLoc.dma (sendS i).sem : SemLoc sig) ≠ .reg barS := fun h => by cases h
theorem recv_ne_bar (i : Fin 10) : (SemLoc.dma (recvS i).sem : SemLoc sig) ≠ .reg barS := fun h => by cases h
theorem xfer_send : ∀ i : Fin 10, xferOf (SemLoc.dma (sendS i).sem : SemLoc sig) = true := by decide
theorem xfer_recv : ∀ i : Fin 10, xferOf (SemLoc.dma (recvS i).sem : SemLoc sig) = true := by decide

theorem duties_bar : (rd (F := F) m ρ).duties (barCell c) 0 = Finset.univ := by dsimp only [rd]; exact if_pos ⟨rfl, rfl, rfl⟩
theorem duties_send (i : Fin 10) : (rd (F := F) m ρ).duties (sendCell c i) 0 = {0} := by
  dsimp only [rd]; rw [if_neg (fun h => send_ne_bar i h.2.2)]; exact if_pos ⟨rfl, rfl, xfer_send i⟩
theorem duties_recv (i : Fin 10) : (rd (F := F) m ρ).duties (recvCell c i) 0 = {0} := by
  dsimp only [rd]; rw [if_neg (fun h => recv_ne_bar i h.2.2)]; exact if_pos ⟨rfl, rfl, xfer_recv i⟩
theorem duties_later (g : GSem nD τ sig) : ∀ r, 1 ≤ r → (rd (F := F) m ρ).duties g r = ∅ :=
  fun r hr => by dsimp only [rd]; rw [if_neg fun h => by omega, if_neg fun h => by omega]

theorem amount_bar (d : Fin 10) : (rd (F := F) m ρ).amount (barCell c) 0 d = 1 := by dsimp only [rd]; exact if_pos rfl
theorem amount_send (i d : Fin 10) : (rd (F := F) m ρ).amount (sendCell c i) 0 d = N := by dsimp only [rd]; exact if_neg (send_ne_bar i)
theorem amount_recv (i d : Fin 10) : (rd (F := F) m ρ).amount (recvCell c i) 0 d = N := by dsimp only [rd]; exact if_neg (recv_ne_bar i)

theorem expect_bar : (rd (F := F) m ρ).expect (barCell c) 0 = 10 := by
  unfold Schedule.expect Schedule.amountOf
  rw [duties_bar, Finset.sum_congr rfl fun d _ => amount_bar m ρ c d, Finset.sum_const, Finset.card_univ, Fintype.card_fin, smul_eq_mul]
theorem expect_send (i : Fin 10) : (rd (F := F) m ρ).expect (sendCell c i) 0 = N := by
  unfold Schedule.expect Schedule.amountOf; rw [duties_send, Finset.sum_singleton, amount_send]
theorem expect_recv (i : Fin 10) : (rd (F := F) m ρ).expect (recvCell c i) 0 = N := by
  unfold Schedule.expect Schedule.amountOf; rw [duties_recv, Finset.sum_singleton, amount_recv]

theorem payload_bar (d : Fin 10) : (rd (F := F) m ρ).payload (barCell c) 0 d = barPay c d := rfl
theorem payload_recv (i d : Fin 10) : (rd (F := F) m ρ).payload (recvCell c i) 0 d = recvPay m ρ c i := by
  show payOf m ρ c (.dma (recvS i).sem) d = _
  unfold payOf; dsimp only; rw [recvIdx_recvS]
theorem payload_send (i d : Fin 10) : (rd (F := F) m ρ).payload (sendCell c i) 0 d = sendPay m ρ c i := by
  show payOf m ρ c (.dma (sendS i).sem) d = _
  unfold payOf; dsimp only; rw [recvIdx_sendS, sendIdx_sendS]

end Sched

/-! ## What each device owes at launch; the levels -/

/-- Device c owes each peer's receive cell (its copy i lands there) one copy's credit, and each peer's barrier
    cell one unit. -/
def OR (c : Dev nD) : CellTallies nD τ sig Unit := ∑ i : Fin 10, tallyAt (recvCell (peer c i) i) () N
def OS (c : Dev nD) : CellTallies nD τ sig Unit := ∑ i : Fin 10, tallyAt (barCell (peer c i)) () 1
def O₀ (c : Dev nD) : CellTallies nD τ sig Unit := OR c + OS c
/-- What is left of the receive debts once the column group's three copies are enqueued: the row group's seven. -/
def ORp (c : Dev nD) : CellTallies nD τ sig Unit := ∑ i ∈ (Finset.univ.filter fun i : Fin 10 => 3 ≤ i.val), tallyAt (recvCell (peer c i) i) () N

def L (g : GSem nD τ sig) : Finset Unit := if g.1.2 = .tc then {()} else ∅
/-- Barrier cells at 1, the column group's receive cells at 2, the row group's at 3, everything else
    (staging, send) at 0. -/
def lv (g : GSem nD τ sig) (_ : Unit) : ℕ :=
  match g.2 with
  | .reg _ => 1
  | .dma q => match recvIdx q with
    | some i => if i.val < 3 then 2 else 3
    | none => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) (i : Fin 10) : lv (recvCell c i) () = if i.val < 3 then 2 else 3 := by
  show (match recvIdx (recvS i).sem with | some i => if i.val < 3 then 2 else 3 | none => 0) = _
  rw [recvIdx_recvS]
theorem lv_send (c : Dev nD) (i : Fin 10) : lv (sendCell c i) () = 0 := by
  show (match recvIdx (sendS i).sem with | some i => if i.val < 3 then 2 else 3 | none => 0) = _
  rw [recvIdx_sendS]

theorem tallyAt_pos {g g' : GSem nD τ sig} {k : ℕ} {u : Unit} (h : 0 < (tallyAt g () k : CellTallies nD τ sig Unit) g' u) : g' = g := by
  rw [tallyAt_apply] at h
  by_contra hn
  rw [if_neg (fun h' => hn h'.1)] at h
  exact Nat.lt_irrefl 0 h

theorem OR_pos {c : Dev nD} {g : GSem nD τ sig} {u : Unit} (h : 0 < OR c g u) : ∃ i : Fin 10, g = recvCell (peer c i) i := by
  obtain ⟨i, _, hi⟩ := Pipeline.sum_pos_exists h
  exact ⟨i, tallyAt_pos hi⟩
theorem OS_pos {c : Dev nD} {g : GSem nD τ sig} {u : Unit} (h : 0 < OS c g u) : ∃ i : Fin 10, g = barCell (peer c i) := by
  obtain ⟨i, _, hi⟩ := Pipeline.sum_pos_exists h
  exact ⟨i, tallyAt_pos hi⟩
theorem ORp_pos {c : Dev nD} {g : GSem nD τ sig} {u : Unit} (h : 0 < ORp c g u) : ∃ i : Fin 10, 3 ≤ i.val ∧ g = recvCell (peer c i) i := by
  obtain ⟨i, hm, hi⟩ := Pipeline.sum_pos_exists h
  exact ⟨i, (Finset.mem_filter.mp hm).2, tallyAt_pos hi⟩

/-- A wait at a cell of level at most k, owing only cells of TensorCore threads at levels above k. -/
theorem mayWait_cut (c : Dev nD) (sm : SemLoc sig) (O : CellTallies nD τ sig Unit) (k : ℕ)
    (hw : lv ((c : Thread nD τ), sm) () ≤ k) (hO : ∀ g u, 0 < O g u → g.1.2 = .tc ∧ k < lv g u) :
    (levAts L lv : sProp 𝕄) ⊢ MayWait (c : Thread nD τ) sm () O :=
  MayOwe.of_cut (L := L) (lev := lv) k
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hw)
    (fun g u hg => (hO g u hg).2)

/-- At its barrier wait a device owes receive credits only: above the barrier's level. -/
theorem mayWait_bar (c : Dev nD) : (levAts L lv : sProp 𝕄) ⊢ MayWait (c : Thread nD τ) (.reg barS) () (OR c) :=
  mayWait_cut c _ _ 1 (le_of_eq rfl) fun g u hg => by
    obtain ⟨i, rfl⟩ := OR_pos hg
    refine ⟨rfl, ?_⟩
    rw [lv_recv]; split <;> decide

/-- At a column-group receive wait it owes the row group's receive credits only. -/
theorem mayWait_recvz (c : Dev nD) (i : Fin 10) (hi : i.val < 3) :
    (levAts L lv : sProp 𝕄) ⊢ MayWait (c : Thread nD τ) (.dma (recvS i).sem) () (ORp c) :=
  mayWait_cut c _ _ 2 (by rw [lv_recv, if_pos hi]) fun g u hg => by
    obtain ⟨j, hj, rfl⟩ := ORp_pos hg
    refine ⟨rfl, ?_⟩
    rw [lv_recv, if_neg (by omega)]; decide

/-- A staging wait of the pipeline (level 0): below everything a device ever owes. -/
theorem mayWait_stage (c : Dev nD) (q : DmaSem sig) (hq : recvIdx q = none) (O : CellTallies nD τ sig Unit) (hO : O = O₀ c ∨ O = 0) :
    (levAts L lv : sProp 𝕄) ⊢ MayWait (c : Thread nD τ) (.dma q) () O := by
  rcases hO with rfl | rfl
  · refine mayWait_cut c _ _ 0 (by show (match recvIdx q with | some i => if i.val < 3 then 2 else 3 | none => 0) ≤ 0; rw [hq]) fun g u hg => ?_
    rcases Pipeline.add_pos_cases hg with h | h
    · obtain ⟨i, rfl⟩ := OR_pos h
      refine ⟨rfl, ?_⟩; rw [lv_recv]; split <;> decide
    · obtain ⟨i, rfl⟩ := OS_pos h
      exact ⟨rfl, by rw [lv_bar]; decide⟩
  · rw [MayWait_zero]; iintro -; iempintro

/-! ## The proof data -/

abbrev kcell (ck : Dev nD × Fin 21) : GSem nD τ sig := ((ck.1 : Thread nD τ), csem ck.2)
/-- the indices of a device's barrier, send i and receive i cells -/
abbrev ixB : Fin 21 := 0
abbrev ixS (i : Fin 10) : Fin 21 := ⟨i.val + 1, by omega⟩
abbrev ixR (i : Fin 10) : Fin 21 := ⟨i.val + 11, by omega⟩

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Every cell's invariant, at the names the launch allocated them, and that round 0 of every cell is open:
    persistent, the same on every device. -/
def records (K : Dev nD × Fin 21 → ℕ) : sProp 𝕄 :=
  iprop((bigSep Finset.univ fun ck : Dev nD × Fin 21 => cellInv ER (rd m ρ) (K ck) (kcell ck))
    ∗ bigSep Finset.univ fun ck : Dev nD × Fin 21 => reached ER (kcell ck) 0)

instance records_persistent (K : Dev nD × Fin 21 → ℕ) : BI.Persistent (records m ρ K) := by unfold records; infer_instance

/-- A device's positions: at the start of round 0 of each of its 21 cells. -/
def positions (c : Dev nD) : sProp 𝕄 :=
  iprop(atPos ER (barCell c) 0 ∅ 0 ∗ (bigSep Finset.univ fun i : Fin 10 => atPos ER (sendCell c i) 0 ∅ 0)
    ∗ bigSep Finset.univ fun i : Fin 10 => atPos ER (recvCell c i) 0 ∅ 0)

/-- The tokens of the duties device c PAYS: duty `inv i` of peer i's barrier (c is that device's `inv i`-th peer), the
    read-out of its own copy i, and the landing of copy i in peer i's receive cell i. -/
def payToks (c : Dev nD) : sProp 𝕄 :=
  iprop((bigSep Finset.univ fun i : Fin 10 => dutyTok ER (barCell (peer c i)) 0 (inv i))
    ∗ (bigSep Finset.univ fun i : Fin 10 => dutyTok ER (sendCell c i) 0 0)
    ∗ bigSep Finset.univ fun i : Fin 10 => dutyTok ER (recvCell (peer c i) i) 0 0)

/-- The tokens of a device's OWN cells, as the launch mints them. -/
def ownToks (c : Dev nD) : sProp 𝕄 :=
  iprop((bigSep Finset.univ fun j : Fin 10 => dutyTok ER (barCell c) 0 j)
    ∗ (bigSep Finset.univ fun i : Fin 10 => dutyTok ER (sendCell c i) 0 0)
    ∗ bigSep Finset.univ fun i : Fin 10 => dutyTok ER (recvCell c i) 0 0)

/-- The ghost state device c's body starts from. -/
def ghost (c : Dev nD) : sProp 𝕄 := iprop((∃ K, records m ρ K) ∗ positions c ∗ payToks c)

/-- Its launch credit: ten units on its barrier cell, one copy's credit on each receive cell. -/
def creds (c : Dev nD) : sProp 𝕄 :=
  iprop(cred (tallyAt (barCell c) () 10) ∗ bigSep Finset.univ fun i : Fin 10 => cred (tallyAt (recvCell c i) () N))

def start (c : Dev nD) : sProp 𝕄 := iprop(ghost m ρ c ∗ creds c ∗ levAts L lv)

/-- The four scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m ρ c ∗ scr c)
/-- After the point: the scratch buffers back whole, the twenty own cells closed with their counters at zero
    (the barrier cell is the runtime's: nothing to hand back). -/
def Φ₁ (c : Dev nD) : sProp 𝕄 := iprop(scr (F := F) c ∗ bigSep Finset.univ fun k : Fin 20 => semVal ((c : Thread nD τ), osem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xb m ρ c
    | ⟨1, _⟩ => tb m ρ c
    | ⟨2, _⟩ => wsb m ρ c
    | ⟨3, _⟩ => wshb m ρ c
    | ⟨4, _⟩ => outV m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

/-- A staging buffer whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body at the (one) point starts from … -/
def bodyPre (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

/-- … and what it ends in. -/
def bodyPost (c : Dev nD) : sProp 𝕄 :=
  iprop(Φ₁ (F := F) c ∗ (dats m ρ 0 c).owesAt () t₀.succ
    ∗ stg c cc0_stg0_0 (xb m ρ c) ∗ stg c cc0_stg1_0 (tb m ρ c) ∗ stg c cc0_stg2_0 (wsb m ρ c) ∗ stg c cc0_stg3_0 (wshb m ρ c)
    ∗ stg c cc0_stg4_0 (outV m ρ c))

/-- The kernel body as the pipeline calls it at the one point. -/
abbrev bodyProg : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

/-- The statement of the body lemma: one device's body, from `bodyPre` to `bodyPost`. -/
def BodySound : Prop :=
  ∀ (c : Dev nD) (Kt : PUnit → sProp 𝕄),
    iprop(bodyPre m ρ c ∗ (bodyPost m ρ c -∗ Kt ⟨⟩)) ⊢ wp frame (wpE (defs₀ (F := F)) 𝒱₀ c none) Set.univ (bodyProg (F := F)) Kt

end Cert.KernelIdealProof

end
-- ==== Proof.KernelIdealLaunch.lean ====
/-
  The launch of the kernel on its 32 devices: from "every device's body is sound" to the run of the whole
  program. The 21 cells of every device are allocated under one update (the barrier cell is the runtime's,
  unscoped, and is touched by eleven devices); the duty tokens the launch mints per owner are dealt to the
  devices that pay them, along the ten permutations `peer · i` of the mesh; the launch credit is read off
  what the devices owe.
-/
import proofs.«900767_g7700000000000768_dist_diff_adaln_cshard_i_b4_s256_c128_v7x_i32_bf16_1_alg».proof.Proof.KernelIdealSched
import proofs.«900767_g7700000000000768_dist_diff_adaln_cshard_i_b4_s256_c128_v7x_i32_bf16_1_alg».proof.Proof.Gen.KernelIdeal.Launch
import proofs.«900767_g7700000000000768_dist_diff_adaln_cshard_i_b4_s256_c128_v7x_i32_bf16_1_alg».proof.Proof.Gen.KernelIdeal.Points
import proofs.«900767_g7700000000000768_dist_diff_adaln_cshard_i_b4_s256_c128_v7x_i32_bf16_1_alg».proof.Proof.Mesh
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The cells by index -/

theorem csem_S : ∀ i : Fin 10, csem (ixS i) = .dma (sendS i).sem := by decide
theorem csem_R : ∀ i : Fin 10, csem (ixR i) = .dma (recvS i).sem := by decide
theorem kcell_B (c : Dev nD) : kcell (c, ixB) = barCell c := rfl
theorem kcell_S (c : Dev nD) (i : Fin 10) : kcell (c, ixS i) = sendCell c i := by
  show (((c : Dev nD) : Thread nD τ), csem (ixS i)) = _; rw [csem_S]
theorem kcell_R (c : Dev nD) (i : Fin 10) : kcell (c, ixR i) = recvCell c i := by
  show (((c : Dev nD) : Thread nD τ), csem (ixR i)) = _; rw [csem_R]

/-- the own scoped semaphores: the ten send ones, then the ten receive ones -/
abbrev oxS (i : Fin 10) : Fin 20 := ⟨i.val, by omega⟩
abbrev oxR (i : Fin 10) : Fin 20 := ⟨i.val + 10, by omega⟩
theorem osem_S : ∀ i : Fin 10, osem (oxS i) = .dma (sendS i).sem := by decide
theorem osem_R : ∀ i : Fin 10, osem (oxR i) = .dma (recvS i).sem := by decide

/-- The 21 cell indices are the barrier's, the ten sends' and the ten receives'. -/
def split21 : Unit ⊕ (Fin 10 ⊕ Fin 10) ≃ Fin 21 where
  toFun | .inl _ => ixB | .inr (.inl i) => ixS i | .inr (.inr i) => ixR i
  invFun k := if h : k.val = 0 then .inl () else if h' : k.val ≤ 10 then .inr (.inl ⟨k.val - 1, by omega⟩) else .inr (.inr ⟨k.val - 11, by omega⟩)
  left_inv := by decide
  right_inv := by decide

/-- The 20 own semaphores are the ten sends' and the ten receives'. -/
def split20 : Fin 10 ⊕ Fin 10 ≃ Fin 20 where
  toFun | .inl i => oxS i | .inr i => oxR i
  invFun k := if h : k.val < 10 then .inl ⟨k.val, h⟩ else .inr ⟨k.val - 10, by omega⟩
  left_inv := by decide
  right_inv := by decide

theorem bigSep_fin21 {M : Type} [URA M] (Φ : Fin 21 → sProp M) :
    bigSep Finset.univ Φ = iprop(Φ ixB ∗ (bigSep Finset.univ fun i : Fin 10 => Φ (ixS i)) ∗ bigSep Finset.univ fun i : Fin 10 => Φ (ixR i)) := by
  rw [bigSep_univ_equiv split21 Φ, bigSep_univ_sum, bigSep_univ_sum, bigSep_univ_of_subsingleton ()]
  rfl

theorem bigSep_fin20 {M : Type} [URA M] (Φ : Fin 20 → sProp M) :
    bigSep Finset.univ Φ = iprop((bigSep Finset.univ fun i : Fin 10 => Φ (oxS i)) ∗ bigSep Finset.univ fun i : Fin 10 => Φ (oxR i)) := by
  rw [bigSep_univ_equiv split20 Φ, bigSep_univ_sum]
  rfl

/-- A device's 21 cells: its barrier cell, its send cells, its receive cells. -/
theorem cells21_eq (c : Dev nD) (Φ : GSem nD τ sig → sProp 𝕄) :
    (bigSep Finset.univ fun k : Fin 21 => Φ (kcell (c, k)))
      = iprop(Φ (barCell c) ∗ (bigSep Finset.univ fun i : Fin 10 => Φ (sendCell c i)) ∗ bigSep Finset.univ fun i : Fin 10 => Φ (recvCell c i)) := by
  rw [bigSep_fin21]
  refine congrArg₂ _ rfl (congrArg₂ _ (bigSep_congr fun i _ => ?_) (bigSep_congr fun i _ => ?_))
  · show Φ (kcell (c, ixS i)) = _; rw [kcell_S]
  · show Φ (kcell (c, ixR i)) = _; rw [kcell_R]

/-- Its 20 own semaphores: those of its send cells and of its receive cells. -/
theorem own20_eq (c : Dev nD) (Φ : GSem nD τ sig → sProp 𝕄) :
    (bigSep Finset.univ fun k : Fin 20 => Φ (((c : Dev nD) : Thread nD τ), osem k))
      = iprop((bigSep Finset.univ fun i : Fin 10 => Φ (sendCell c i)) ∗ bigSep Finset.univ fun i : Fin 10 => Φ (recvCell c i)) := by
  rw [bigSep_fin20]
  refine congrArg₂ _ (bigSep_congr fun i _ => ?_) (bigSep_congr fun i _ => ?_)
  · show Φ (((c : Dev nD) : Thread nD τ), osem (oxS i)) = _; rw [osem_S]
  · show Φ (((c : Dev nD) : Thread nD τ), osem (oxR i)) = _; rw [osem_R]

/-! ## The launch -/

theorem ownSemFacts : Pipeline.OwnSemFacts cfg0.spec osem := by decide

theorem share_eq (c : Dev nD) (w : Fin cfg0.W) : (dats m ρ 0 c).share w = fullShare := by unfold Dat.share; split <;> rfl

/-- A cell's index from its semaphore. -/
def cidx : SemLoc sig → Fin 21
  | .reg _ => ixB
  | .dma q => match sendIdx q with
    | some i => ixS i
    | none => match recvIdx q with
      | some i => ixR i
      | none => ixB
theorem cidx_csem : ∀ k : Fin 21, cidx (csem k) = k := by decide

theorem kcell_injective : Function.Injective (kcell : Dev nD × Fin 21 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by rw [← cidx_csem k, h2, cidx_csem]
  subst this; rfl
def cellSet : Finset (GSem nD τ sig) := Finset.univ.map ⟨kcell, kcell_injective⟩

theorem sendS_inj {i j : Fin 10} (h : (sendS i).sem = (sendS j).sem) : i = j :=
  Option.some.inj (by rw [← sendIdx_sendS i, h, sendIdx_sendS])
theorem recvS_inj {i j : Fin 10} (h : (recvS i).sem = (recvS j).sem) : i = j :=
  Option.some.inj (by rw [← recvIdx_recvS i, h, recvIdx_recvS])
theorem sendS_ne_recvS (i j : Fin 10) : (sendS i).sem ≠ (recvS j).sem := fun h => by
  have := recvIdx_sendS i; rw [h, recvIdx_recvS] at this; cases this

/-- A device's own cells' duty tokens as minted: the barrier's ten, each send cell's one, each receive cell's one. -/
def tokOf (cj : Dev nD × (Fin 10 ⊕ (Fin 10 ⊕ Fin 10))) : GSem nD τ sig × ℕ × Fin 10 := match cj.2 with
  | .inl j => (barCell cj.1, 0, j)
  | .inr (.inl i) => (sendCell cj.1 i, 0, 0)
  | .inr (.inr i) => (recvCell cj.1 i, 0, 0)

theorem tokOf_injective : Function.Injective (tokOf : Dev nD × (Fin 10 ⊕ (Fin 10 ⊕ Fin 10)) → GSem nD τ sig × ℕ × Fin 10) := by
  rintro ⟨c, s⟩ ⟨c', s'⟩ h
  have h1 : c = c' := by
    have := congrArg (fun x : GSem nD τ sig × ℕ × Fin 10 => x.1.1.1) h
    rcases s with j | i | i <;> rcases s' with j' | i' | i' <;> exact this
  subst h1
  have h2 := congrArg (fun x : GSem nD τ sig × ℕ × Fin 10 => x.1.2) h
  have h3 := congrArg (fun x : GSem nD τ sig × ℕ × Fin 10 => x.2.2) h
  rcases s with j | i | i <;> rcases s' with j' | i' | i'
  · have : j = j' := h3
    subst this; rfl
  · exact absurd h2 (fun h' => by cases h')
  · exact absurd h2 (fun h' => by cases h')
  · exact absurd h2 (fun h' => by cases h')
  · have : i = i' := sendS_inj (SemLoc.dma.inj h2)
    subst this; rfl
  · exact absurd (SemLoc.dma.inj h2) (sendS_ne_recvS i i')
  · exact absurd h2 (fun h' => by cases h')
  · exact absurd (SemLoc.dma.inj h2).symm (sendS_ne_recvS i' i)
  · have : i = i' := recvS_inj (SemLoc.dma.inj h2)
    subst this; rfl
def tokSet : Finset (GSem nD τ sig × ℕ × Fin 10) := Finset.univ.map ⟨tokOf, tokOf_injective⟩

def u₀ : UU :=
  (initOf (Pipeline.cells cfgs cellOf_inj) (Pipeline.launchToks cfgs cellOf_inj), initOf cellSet tokSet)

/-- What the launch element deals device c (the theorem's G). -/
def G (c : Dev nD) : sProp 𝕄 :=
  iprop((bigSep Finset.univ fun k : Fin 21 => roundState ER (rd m ρ) (kcell (c, k)) 0)
    ∗ (bigSep Finset.univ fun k : Fin 21 => iprop(atPos ER (kcell (c, k)) 0 ∅ 0 ∗ reached ER (kcell (c, k)) 0)) ∗ ownToks c)

/-- What the global step makes of it (G'). -/
def G' (c : Dev nD) : sProp 𝕄 := ghost m ρ c

theorem fund_cells : BI.own (ER (initOf cellSet tokSet)) ⊢ (|==> bigSep Finset.univ (G m ρ) : sProp 𝕄) := by
  have hX (Φ : GSem nD τ sig → sProp 𝕄) : bigSep cellSet Φ = bigSep Finset.univ fun c : Dev nD => bigSep Finset.univ fun k : Fin 21 => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => ownToks c := by
    unfold tokSet; rw [bigSep_map, bigSep_univ_prod]
    exact bigSep_congr fun c _ => by unfold ownToks; rw [bigSep_univ_sum, bigSep_univ_sum]; rfl
  iintro HX
  imod (Rounds.fund ER (rd m ρ) cellSet tokSet) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 21 => semVal (kcell (c, k)) 0 : sProp 𝕄) := by
  rw [unscopedSems0_eq, cells21_eq c (fun g => semVal g 0)]
  unfold Pipeline.ownSems0
  rw [own20_eq c (fun g => semVal g 0)]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 21 => iprop(∃ κ : ℕ, cellInv ER (rd m ρ) κ (kcell (c, k))))
          ∗ (bigSep Finset.univ fun k : Fin 21 => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Fin 21 => semVal (kcell (c, k)) 0) ∗ bigSep Finset.univ fun k : Fin 21 => roundState ER (rd m ρ) (kcell (c, k)) 0)
      ⊢ (|={Set.univ}=> bigSep Finset.univ fun k : Fin 21 => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device c: its positions, and the tokens of the duties it pays. -/
def linear (c : Dev nD) : sProp 𝕄 := iprop(positions c ∗ payToks c)

theorem ghost_intro (K : Dev nD × Fin 21 → ℕ) (c : Dev nD) : iprop(records m ρ K ∗ linear c) ⊢ G' m ρ c := by
  unfold linear G' ghost
  iintro ⟨#HR, HP, HT⟩
  isplitr
  · iexists K; iexact HR
  isplitl [HP] <;> iassumption

/-- the index of a peer among its target's own peers, as a permutation of the ten indices -/
def invE : Fin 10 ≃ Fin 10 := ⟨inv, inv, inv_inv, inv_inv⟩
/-- the i-th permutation of the devices -/
def permD (i : Fin 10) : Dev nD ≃ Dev nD := Cert.Mesh.perm i

/-- Dealing along the permutations: a family over (owner, duty) read over (payer, its index of the owner). -/
theorem deal_bar (T : Dev nD → Fin 10 → sProp 𝕄) :
    (bigSep Finset.univ fun c : Dev nD => bigSep Finset.univ fun j : Fin 10 => T c j)
      = bigSep Finset.univ fun c : Dev nD => bigSep Finset.univ fun i : Fin 10 => T (peer c i) (inv i) := by
  calc (bigSep Finset.univ fun c : Dev nD => bigSep Finset.univ fun j : Fin 10 => T c j)
      = bigSep Finset.univ fun c : Dev nD => bigSep Finset.univ fun i : Fin 10 => T c (inv i) :=
        bigSep_congr fun c _ => bigSep_univ_equiv invE (fun j => T c j)
    _ = bigSep Finset.univ fun i : Fin 10 => bigSep Finset.univ fun c : Dev nD => T c (inv i) := bigSep_univ_comm _
    _ = bigSep Finset.univ fun i : Fin 10 => bigSep Finset.univ fun c : Dev nD => T (peer c i) (inv i) :=
        bigSep_congr fun i _ => bigSep_univ_equiv (permD i) (fun c => T c (inv i))
    _ = bigSep Finset.univ fun c : Dev nD => bigSep Finset.univ fun i : Fin 10 => T (peer c i) (inv i) := bigSep_univ_comm _

theorem deal_recv (T : Dev nD → Fin 10 → sProp 𝕄) :
    (bigSep Finset.univ fun c : Dev nD => bigSep Finset.univ fun i : Fin 10 => T c i)
      = bigSep Finset.univ fun c : Dev nD => bigSep Finset.univ fun i : Fin 10 => T (peer c i) i := by
  calc (bigSep Finset.univ fun c : Dev nD => bigSep Finset.univ fun i : Fin 10 => T c i)
      = bigSep Finset.univ fun i : Fin 10 => bigSep Finset.univ fun c : Dev nD => T c i := bigSep_univ_comm _
    _ = bigSep Finset.univ fun i : Fin 10 => bigSep Finset.univ fun c : Dev nD => T (peer c i) i :=
        bigSep_congr fun i _ => bigSep_univ_equiv (permD i) (fun c => T c i)
    _ = bigSep Finset.univ fun c : Dev nD => bigSep Finset.univ fun i : Fin 10 => T (peer c i) i := bigSep_univ_comm _

/-- The tokens dealt: owner X's barrier token of duty j to its payer, its receive token of cell i to the sender; the
    send tokens stay. -/
theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep',
    deal_bar (fun c j => (dutyTok ER (barCell c) 0 j : sProp 𝕄)),
    deal_recv (fun c i => (dutyTok ER (recvCell c i) 0 0 : sProp 𝕄))]

theorem regroup :
    (bigSep Finset.univ fun c : Dev nD => iprop((bigSep Finset.univ fun k : Fin 21 => iprop(∃ κ : ℕ, cellInv ER (rd m ρ) κ (kcell (c, k))))
          ∗ (bigSep Finset.univ fun k : Fin 21 => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Fin 21 => iprop(∃ κ : ℕ, cellInv ER (rd m ρ) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok⟩
  ihave HK := (BI.bigSep_exists_pi Finset.univ (fun (ck : Dev nD × Fin 21) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 21 => (atPos ER (kcell (c, k)) 0 ∅ 0 : sProp 𝕄)) payToks).symm).trans
      (bigSep_mono fun c _ => show _ ⊢ linear c from Entails.of_eq (by unfold linear positions; rw [cells21_eq c (fun g => atPos ER g 0 ∅ 0)])))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem cred_const {α : Type} [DecidableEq α] (s : Finset α) (g : GSem nD τ sig) (k : ℕ) :
    (bigSep s fun _ => (cred (tallyAt g () k) : sProp 𝕄)) = cred (tallyAt g () (s.card * k)) := by
  induction s using Finset.induction_on with
  | empty => rw [bigSep_empty, Finset.card_empty, Nat.zero_mul, tallyAt_zero, cred_zero]; rfl
  | insert a s ha ih =>
    rw [bigSep_insert ha, ih, Finset.card_insert_of_notMem ha, Nat.succ_mul, Nat.add_comm, ← tallyAt_add]
    exact (BI.Entails.antisymm (cred_add _ _).1 (cred_add _ _).2).symm

theorem creds_intro (c : Dev nD) : (Pipeline.launchCred O₀ c : sProp 𝕄) ⊢ creds c := by
  have e : (O₀ : Dev nD → CellTallies nD τ sig Unit) = fun d => OR d + OS d := rfl
  have hR : (Pipeline.launchCred OR c : sProp 𝕄) = bigSep Finset.univ fun i : Fin 10 => Pipeline.launchCred (fun d : Dev nD => tallyAt (recvCell (peer d i) i) () N) c :=
    Pipeline.launchCred_sum Finset.univ (fun (i : Fin 10) (d : Dev nD) => tallyAt (recvCell (peer d i) i) () N) c
  have hS : (Pipeline.launchCred OS c : sProp 𝕄) = bigSep Finset.univ fun i : Fin 10 => Pipeline.launchCred (fun d : Dev nD => tallyAt (barCell (peer d i)) () 1) c :=
    Pipeline.launchCred_sum Finset.univ (fun (i : Fin 10) (d : Dev nD) => tallyAt (barCell (peer d i)) () 1) c
  have h1 : (bigSep Finset.univ fun i : Fin 10 => Pipeline.launchCred (fun d : Dev nD => tallyAt (barCell (peer d i)) () 1) c : sProp 𝕄)
      ⊢ cred (tallyAt (barCell c) () 10) :=
    (bigSep_mono fun (i : Fin 10) _ => Pipeline.launchCred_tallyAt (SemLoc.reg barS) (fun d : Dev nD => peer d i) (fun d : Dev nD => src d i)
      (fun c => peer_src c i) (fun d => src_peer d i) () 1 c).trans
      (Entails.of_eq ((cred_const (F := F) (Finset.univ : Finset (Fin 10)) (barCell c) 1).trans (by rw [Finset.card_univ, Fintype.card_fin])))
  have h2 : (bigSep Finset.univ fun i : Fin 10 => Pipeline.launchCred (fun d : Dev nD => tallyAt (recvCell (peer d i) i) () N) c : sProp 𝕄)
      ⊢ bigSep Finset.univ fun i : Fin 10 => cred (tallyAt (recvCell c i) () N) :=
    bigSep_mono fun (i : Fin 10) _ => Pipeline.launchCred_tallyAt (SemLoc.dma (recvS i).sem) (fun d : Dev nD => peer d i) (fun d : Dev nD => src d i)
      (fun c => peer_src c i) (fun d => src_peer d i) () N c
  rw [e, Pipeline.launchCred_add, hR, hS]
  unfold creds
  iintro ⟨HR, HS⟩
  isplitl [HS]
  · iapply h1; iexact HS
  · iapply h2; iexact HR

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ scr Pipeline.ownSems0
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The body obligation -/

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The library's body obligation on device c, from the body lemma. -/
theorem body_obligation (hbody : BodySound m ρ) (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (bodyProg (F := F)) (fun _ => bodyPost m ρ c)
  iintro H
  iapply (hbody c fun _ => bodyPost m ρ c)
  isplitl [H]; · iexact H
  iintro H; iexact H

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of 32 devices, for any float values, from any memory with zero counters: every weakly fair
    execution of @main terminates, and every final state has each device's arrays at `finalA`. -/
theorem run_main (hbody : BodySound m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-- The four argument arrays end as they were. -/
theorem finalA_in (c : Dev nD) (w : Fin cfg0.W) (hw : w.val < 4) : finalA m ρ c w = (s₀ m ρ).mem ((cfg0.win w).arr.view.loc (c : Thread nD τ)) := by
  have hin : (cfg0.win w).isOut = false := by
    revert hw; revert w; decide
  exact (dats (F := F) m ρ 0 c).arrAt_in w hin _

/-- The result array ends as the kernel's block value written back over it … -/
theorem finalA_out (c : Dev nD) :
    finalA m ρ c (4 : Fin 5) = ((cfg0.win (4 : Fin 5)).blk t₀).view.write (Elt F)
      ((s₀ m ρ).mem ((cfg0.win (4 : Fin 5)).arr.view.loc (c : Thread nD τ))) (outV m ρ c) Finset.univ := by
  have h := (dats (F := F) m ρ 0 c).arrAt_succ (4 : Fin 5) t₀
  rw [flush0_4, if_pos rfl] at h
  exact h

/-- … so the block read back out of it is that value, -/
theorem finalA_out_read (c : Dev nD) :
    ((cfg0.win (4 : Fin 5)).blk t₀).view.read (Elt F) (finalA m ρ c (4 : Fin 5)) = outV m ρ c := by
  rw [finalA_out]; exact View.read_write_univ _ _

/-- … and, the block being the whole array, the array IS that value. -/
theorem finalA_out_eq (c : Dev nD) : finalA m ρ c (4 : Fin 5) = outV m ρ c := by
  rw [finalA_out]
  exact Memref.write_access_unit_zero_univ (Elt F) main_v1 (funext fun a => Nat.zero_mul _) _ _ _

end Cert.KernelIdealProof

end
-- ==== Proof.KernelIdealVals.lean ====
/-
  The contents of the exchange buffers, read at an index.

  The row-sum buffer is written by two stores through the two halves of its rows, which together cover it: what it
  held before is gone, rows 0-3 are the lane sums of the block and rows 4-7 the lane sums of its squares. Each landing
  buffer is written page by page; the pages are disjoint and cover it, so page k reads what was copied into it whatever
  the order of the writes, a single copy into a page already leaves the final contents on that page, and the buffer
  splits into its pages and is joined back from them.
-/
import proofs.«900767_g7700000000000768_dist_diff_adaln_cshard_i_b4_s256_c128_v7x_i32_bf16_1_alg».proof.Proof.KernelIdealSched
import Idealize.ShloMosaic.Lib.Pipeline.Value
import Idealize.ShloMosaic.Lib.ValueIdx

noncomputable section

namespace Cert.KernelIdealProof

open Cert.KernelIdeal Cert.KernelIdeal.Gen Cert.Mesh

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

/-! ## Writes through a view, read at an element -/

section ViewFacts

variable {sg : RefSig} {κ : Kind} {sp : Space} {s : Shape} {e : EltTy} {Val : EltTy → Type} (v : View sg κ sp s e)

/-- An unmasked write leaves its payload under each index of the view. -/
theorem write_univ_emb (f : v.ty.Contents Val) (w : s.Idx → Val e) (x : s.Idx) :
    v.write Val f w Finset.univ (v.emb x) = _root_.cast (congrArg Val v.elt_eq.symm) (w x) :=
  View.write_emb_of_mem f w (Finset.mem_univ x)

/-- Off the view it leaves the contents alone. -/
theorem write_univ_of_not_mem (f : v.ty.Contents Val) (w : s.Idx → Val e) {i : v.ty.Idx} (h : i ∉ v.set) :
    v.write Val f w Finset.univ i = f i :=
  View.write_of_not_mem f w _ (by rwa [View.setOn_univ])

/-- Under the view, what was there before does not matter. -/
theorem write_univ_indep (f f' : v.ty.Contents Val) (w : s.Idx → Val e) {i : v.ty.Idx} (h : i ∈ v.set) :
    v.write Val f w Finset.univ i = v.write Val f' w Finset.univ i := by
  obtain ⟨x, rfl⟩ := View.exists_emb_of_mem_set v h
  rw [write_univ_emb, write_univ_emb]

/-- Contents that agree at an element still agree there after the same write. -/
theorem write_univ_congr_base {f f' : v.ty.Contents Val} (w : s.Idx → Val e) {i : v.ty.Idx} (h : f i = f' i) :
    v.write Val f w Finset.univ i = v.write Val f' w Finset.univ i := by
  by_cases hi : i ∈ v.set
  · exact write_univ_indep v f f' w hi
  · rw [write_univ_of_not_mem v f w hi, write_univ_of_not_mem v f' w hi, h]

end ViewFacts

variable {F : FTy → Type} [FloatOps F]

/-! ## The row-sum buffer -/

/-- Rows 0-3 and rows 4-7 cover the [8, 256] buffer. -/
theorem cover8 (i : S8x256.Idx) : i ∈ rLo.set ∨ i ∈ rHi.set := by
  have h1 : (i 1).val < 256 := (i 1).isLt
  have h0 : (i 0).val < 8 := (i 0).isLt
  by_cases h : (i 0).val < 4
  · left
    rw [Rect.mem_set_unit]
    intro a
    match a with
    | ⟨0, _⟩ => exact ⟨Nat.zero_le _, by show (i 0).val < 0 + 4; omega⟩
    | ⟨1, _⟩ => exact ⟨Nat.zero_le _, by show (i 1).val < 0 + 256; omega⟩
  · right
    rw [Rect.mem_set_unit]
    intro a
    match a with
    | ⟨0, _⟩ => exact ⟨by show 4 ≤ (i 0).val; omega, by show (i 0).val < 4 + 4; omega⟩
    | ⟨1, _⟩ => exact ⟨Nat.zero_le _, by show (i 1).val < 0 + 256; omega⟩

/-- The two stores overwrite every element: what the buffer held before is gone. -/
theorem mineOf_indep (f0 f0' : (cc0_scratch0 : Ref sig .tc).ty.Contents (Elt F)) (x : (cc0_stg0_0 : Ref sig .tc).ty.Contents (Elt F)) :
    mineOf f0 x = mineOf f0' x := by
  funext i
  unfold mineOf
  by_cases h : i ∈ ((mineM : Memref sig .tc .vmem S8x256 .f32).access rHi : View sig .tc _ _ _).set
  · exact write_univ_indep _ _ _ _ h
  · refine write_univ_congr_base _ _ ?_
    refine write_univ_indep _ _ _ _ ?_
    rw [View.set_slice_whole] at h ⊢
    exact (cover8 i).resolve_right h

/-- Row r of the low half is row r of the buffer. -/
theorem rLo_emb (r : Fin 4) (s : Fin 256) : rLo.emb (ix2 r s) = ix2 (⟨r.val, by omega⟩ : Fin 8) s := by
  funext a
  match a with
  | ⟨0, _⟩ => exact Fin.ext (by show 0 + 1 * r.val = r.val; omega)
  | ⟨1, _⟩ => exact Fin.ext (by show 0 + 1 * s.val = s.val; omega)

/-- Row r of the high half is row r + 4 of the buffer. -/
theorem rHi_emb (r : Fin 4) (s : Fin 256) : rHi.emb (ix2 r s) = ix2 (⟨r.val + 4, by omega⟩ : Fin 8) s := by
  funext a
  match a with
  | ⟨0, _⟩ => exact Fin.ext (by show 4 + 1 * r.val = r.val + 4; omega)
  | ⟨1, _⟩ => exact Fin.ext (by show 0 + 1 * s.val = s.val; omega)

/-- The low half is not touched by the store through the high half. -/
theorem rLo_emb_not_mem_rHi (y : rLo.shape.Idx) : rLo.emb y ∉ rHi.set := by
  intro h
  obtain ⟨r, s, rfl⟩ : ∃ (r : Fin 4) (s : Fin 256), y = ix2 r s := ⟨y 0, y 1, eq_ix2 y⟩
  rw [rLo_emb] at h
  have h0 := (Rect.mem_set_unit.mp h (0 : Fin 2)).1
  have h0' : 4 ≤ r.val := h0
  omega

/-- The high half after the two stores: the second payload. -/
theorem mineOf_hi (f0 : (cc0_scratch0 : Ref sig .tc).ty.Contents (Elt F)) (x : (cc0_stg0_0 : Ref sig .tc).ty.Contents (Elt F))
    (y : rHi.shape.Idx) : mineOf f0 x (rHi.emb y) = k0_pay3 x y := by
  unfold mineOf
  exact (write_univ_emb ((mineM : Memref sig .tc .vmem S8x256 .f32).access rHi : View sig .tc _ _ _) _ _ y).trans rfl

/-- The low half after the two stores: the first payload. -/
theorem mineOf_lo (f0 : (cc0_scratch0 : Ref sig .tc).ty.Contents (Elt F)) (x : (cc0_stg0_0 : Ref sig .tc).ty.Contents (Elt F))
    (y : rLo.shape.Idx) : mineOf f0 x (rLo.emb y) = k0_pay2 x y := by
  unfold mineOf
  refine (write_univ_of_not_mem ((mineM : Memref sig .tc .vmem S8x256 .f32).access rHi : View sig .tc _ _ _) _ _ ?_).trans ?_
  · rw [View.set_slice_whole]; exact rLo_emb_not_mem_rHi y
  · exact (write_univ_emb ((mineM : Memref sig .tc .vmem S8x256 .f32).access rLo : View sig .tc _ _ _) _ _ y).trans rfl

variable (m : (ℓ : Loc nD τ sig) → Buf (Elt F) ℓ) (ρ : Dev nD → PrngReg)

/-- Whatever the row-sum buffer held, the two stores leave the canonical contents. -/
theorem mineOf_eq_mineV (f0 : (cc0_scratch0 : Ref sig .tc).ty.Contents (Elt F)) (c : Dev nD) :
    mineOf f0 (xb m ρ c) = mineV m ρ c := mineOf_indep f0 z8 _

/-- Rows 0-3 of the row-sum buffer: the lane sums of the block. -/
theorem mineV_lo (c : Dev nD) (r : Fin 4) (s : Fin 256) :
    mineV m ρ c (ix2 (⟨r.val, by omega⟩ : Fin 8) s) = k0_pay2 (xb m ρ c) (ix2 r s) := by
  have h := mineOf_lo z8 (xb m ρ c) (ix2 r s)
  rw [rLo_emb] at h
  exact h

/-- Rows 4-7 of the row-sum buffer: the lane sums of the squares. -/
theorem mineV_hi (c : Dev nD) (r : Fin 4) (s : Fin 256) :
    mineV m ρ c (ix2 (⟨r.val + 4, by omega⟩ : Fin 8) s) = k0_pay3 (xb m ρ c) (ix2 r s) := by
  have h := mineOf_hi z8 (xb m ρ c) (ix2 r s)
  rw [rHi_emb] at h
  exact h

/-! ## Pages of a landing buffer -/

section Pages

variable {sg : RefSig} {κ : Kind} {sp : Space} {e : EltTy} {Val : EltTy → Type} {n : ℕ}
  (V : View sg κ sp (⟨3, ![n, 8, 256]⟩ : Shape) e)

/-- Page k of an [n, 8, 256] buffer, viewed as [8, 256]. -/
abbrev pageV (k : ℕ) (inb : ∀ a, (![k, 0, 0] : Fin 3 → ℕ) a + S1x8x256.size a ≤ (⟨3, ![n, 8, 256]⟩ : Shape).size a) :
    View sg κ sp S8x256 e :=
  (V.slice (Rect.unit (s := (⟨3, ![n, 8, 256]⟩ : Shape)) ![k, 0, 0] S1x8x256.size inb)).reshape S8x256
    squeezes_S1x8x256_S8x256.numel_eq

/-- Element (r, s) of page k is element (k, r, s) of the buffer. -/
theorem pageV_emb (k : ℕ) (inb : ∀ a, (![k, 0, 0] : Fin 3 → ℕ) a + S1x8x256.size a ≤ (⟨3, ![n, 8, 256]⟩ : Shape).size a) (hk : k < n)
    (r : Fin 8) (s : Fin 256) :
    (pageV V k inb).emb (ix2 r s) = V.emb (ix3 (⟨k, hk⟩ : Fin n) r s) := by
  show V.emb ((Rect.unit (s := (⟨3, ![n, 8, 256]⟩ : Shape)) ![k, 0, 0] S1x8x256.size inb).emb
    (Shape.reshapeEquiv squeezes_S1x8x256_S8x256.numel_eq (ix2 r s))) = _
  have h1 : Shape.reshapeEquiv squeezes_S1x8x256_S8x256.numel_eq (ix2 r s) = (ix3 (0 : Fin 1) r s : S1x8x256.Idx) := by
    apply Shape.reshapeEquiv_eq_of_rowMajor
    rw [Shape.rowMajor_val_two, Shape.rowMajor_val_three]
    show (0 * 8 + r.val) * 256 + s.val = r.val * 256 + s.val
    omega
  rw [h1]
  congr 1
  funext a
  match a with
  | ⟨0, _⟩ => exact Fin.ext (by show k + 1 * 0 = k; omega)
  | ⟨1, _⟩ => exact Fin.ext (by show 0 + 1 * r.val = r.val; omega)
  | ⟨2, _⟩ => exact Fin.ext (by show 0 + 1 * s.val = s.val; omega)

/-- The elements of page k are the (k, r, s). -/
theorem mem_pageV_set (k : ℕ) (inb : ∀ a, (![k, 0, 0] : Fin 3 → ℕ) a + S1x8x256.size a ≤ (⟨3, ![n, 8, 256]⟩ : Shape).size a) (hk : k < n)
    {i : V.ty.Idx} : i ∈ (pageV V k inb).set ↔ ∃ (r : Fin 8) (s : Fin 256), V.emb (ix3 (⟨k, hk⟩ : Fin n) r s) = i := by
  constructor
  · intro h
    obtain ⟨x, rfl⟩ := View.exists_emb_of_mem_set (pageV V k inb) h
    exact ⟨x 0, x 1, ((congrArg (pageV V k inb).emb (eq_ix2 x)).trans (pageV_emb V k inb hk (x 0) (x 1))).symm⟩
  · rintro ⟨r, s, rfl⟩
    rw [← pageV_emb V k inb hk]
    exact View.emb_mem_set _ _

/-- An element of page k is in no other page. -/
theorem pageV_not_mem (k : ℕ) (hk : k < n) (k' : ℕ)
    (inb' : ∀ a, (![k', 0, 0] : Fin 3 → ℕ) a + S1x8x256.size a ≤ (⟨3, ![n, 8, 256]⟩ : Shape).size a) (hk' : k' < n)
    (hne : k ≠ k') (r : Fin 8) (s : Fin 256) :
    V.emb (ix3 (⟨k, hk⟩ : Fin n) r s) ∉ (pageV V k' inb').set := by
  intro h
  obtain ⟨r', s', h'⟩ := (mem_pageV_set V k' inb' hk').mp h
  have := congrArg (fun y : (⟨3, ![n, 8, 256]⟩ : Shape).Idx => (y (0 : Fin 3)).val) (V.emb.injective h')
  exact hne (this.symm)

/-- Distinct pages are disjoint. -/
theorem pageV_disjoint (k : ℕ) (inb : ∀ a, (![k, 0, 0] : Fin 3 → ℕ) a + S1x8x256.size a ≤ (⟨3, ![n, 8, 256]⟩ : Shape).size a) (hk : k < n)
    (k' : ℕ) (inb' : ∀ a, (![k', 0, 0] : Fin 3 → ℕ) a + S1x8x256.size a ≤ (⟨3, ![n, 8, 256]⟩ : Shape).size a) (hk' : k' < n)
    (hne : k ≠ k') : Disjoint (pageV V k inb).set (pageV V k' inb').set := by
  refine Finset.disjoint_left.mpr fun i hi => ?_
  obtain ⟨r, s, rfl⟩ := (mem_pageV_set V k inb hk).mp hi
  exact pageV_not_mem V k hk k' inb' hk' hne r s

/-- A copy into page k leaves its payload on page k, -/
theorem pageV_write_self (k : ℕ) (inb : ∀ a, (![k, 0, 0] : Fin 3 → ℕ) a + S1x8x256.size a ≤ (⟨3, ![n, 8, 256]⟩ : Shape).size a) (hk : k < n)
    (f : V.ty.Contents Val) (w : S8x256.Idx → Val e) (r : Fin 8) (s : Fin 256) :
    (pageV V k inb).write Val f w Finset.univ (V.emb (ix3 (⟨k, hk⟩ : Fin n) r s))
      = _root_.cast (congrArg Val V.elt_eq.symm) (w (ix2 r s)) := by
  rw [← pageV_emb V k inb hk]
  exact write_univ_emb (pageV V k inb) f w (ix2 r s)

/-- and the other pages alone. -/
theorem pageV_write_other (k : ℕ) (hk : k < n) (k' : ℕ)
    (inb' : ∀ a, (![k', 0, 0] : Fin 3 → ℕ) a + S1x8x256.size a ≤ (⟨3, ![n, 8, 256]⟩ : Shape).size a) (hk' : k' < n)
    (hne : k ≠ k') (f : V.ty.Contents Val) (w : S8x256.Idx → Val e) (r : Fin 8) (s : Fin 256) :
    (pageV V k' inb').write Val f w Finset.univ (V.emb (ix3 (⟨k, hk⟩ : Fin n) r s)) = f (V.emb (ix3 (⟨k, hk⟩ : Fin n) r s)) :=
  write_univ_of_not_mem (pageV V k' inb') f w (pageV_not_mem V k hk k' inb' hk' hne r s)

end Pages

/-! ## The landing buffers, page by page -/

/-- The ten landing slots are the pages of the two landing buffers. -/
theorem slotM_view_0 : (slotM 0).view = pageV (czM : Memref sig .tc .vmem S3x8x256 .f32).view 0 inb_S3x8x256_S1x8x256_0_0_0 := rfl
theorem slotM_view_1 : (slotM 1).view = pageV (czM : Memref sig .tc .vmem S3x8x256 .f32).view 1 inb_S3x8x256_S1x8x256_1_0_0 := rfl
theorem slotM_view_2 : (slotM 2).view = pageV (czM : Memref sig .tc .vmem S3x8x256 .f32).view 2 inb_S3x8x256_S1x8x256_2_0_0 := rfl
theorem slotM_view_3 : (slotM 3).view = pageV (cpM : Memref sig .tc .vmem S7x8x256 .f32).view 0 inb_S7x8x256_S1x8x256_0_0_0 := rfl
theorem slotM_view_4 : (slotM 4).view = pageV (cpM : Memref sig .tc .vmem S7x8x256 .f32).view 1 inb_S7x8x256_S1x8x256_1_0_0 := rfl
theorem slotM_view_5 : (slotM 5).view = pageV (cpM : Memref sig .tc .vmem S7x8x256 .f32).view 2 inb_S7x8x256_S1x8x256_2_0_0 := rfl
theorem slotM_view_6 : (slotM 6).view = pageV (cpM : Memref sig .tc .vmem S7x8x256 .f32).view 3 inb_S7x8x256_S1x8x256_3_0_0 := rfl
theorem slotM_view_7 : (slotM 7).view = pageV (cpM : Memref sig .tc .vmem S7x8x256 .f32).view 4 inb_S7x8x256_S1x8x256_4_0_0 := rfl
theorem slotM_view_8 : (slotM 8).view = pageV (cpM : Memref sig .tc .vmem S7x8x256 .f32).view 5 inb_S7x8x256_S1x8x256_5_0_0 := rfl
theorem slotM_view_9 : (slotM 9).view = pageV (cpM : Memref sig .tc .vmem S7x8x256 .f32).view 6 inb_S7x8x256_S1x8x256_6_0_0 := rfl

theorem czV_page0 (c : Dev nD) (r : Fin 8) (s : Fin 256) :
    czV m ρ c (ix3 (0 : Fin 3) r s) = mineV m ρ (src c 0) (ix2 r s) := by
  unfold czV
  refine (pageV_write_other (czM : Memref sig .tc .vmem S3x8x256 .f32).view 0 (by decide) 2 inb_S3x8x256_S1x8x256_2_0_0 (by decide) (by decide) _ _ r s).trans ?_
  refine (pageV_write_other (czM : Memref sig .tc .vmem S3x8x256 .f32).view 0 (by decide) 1 inb_S3x8x256_S1x8x256_1_0_0 (by decide) (by decide) _ _ r s).trans ?_
  exact (pageV_write_self (czM : Memref sig .tc .vmem S3x8x256 .f32).view 0 inb_S3x8x256_S1x8x256_0_0_0 (by decide) _ _ r s).trans rfl

theorem czV_page1 (c : Dev nD) (r : Fin 8) (s : Fin 256) :
    czV m ρ c (ix3 (1 : Fin 3) r s) = mineV m ρ (src c 1) (ix2 r s) := by
  unfold czV
  refine (pageV_write_other (czM : Memref sig .tc .vmem S3x8x256 .f32).view 1 (by decide) 2 inb_S3x8x256_S1x8x256_2_0_0 (by decide) (by decide) _ _ r s).trans ?_
  exact (pageV_write_self (czM : Memref sig .tc .vmem S3x8x256 .f32).view 1 inb_S3x8x256_S1x8x256_1_0_0 (by decide) _ _ r s).trans rfl

theorem czV_page2 (c : Dev nD) (r : Fin 8) (s : Fin 256) :
    czV m ρ c (ix3 (2 : Fin 3) r s) = mineV m ρ (src c 2) (ix2 r s) := by
  unfold czV
  exact (pageV_write_self (czM : Memref sig .tc .vmem S3x8x256 .f32).view 2 inb_S3x8x256_S1x8x256_2_0_0 (by decide) _ _ r s).trans rfl

/-- Page k of the column-group landing buffer holds the row sums of the device whose k-th copy lands there. -/
theorem czV_apply (c : Dev nD) (k : Fin 3) (r : Fin 8) (s : Fin 256) :
    czV m ρ c (ix3 k r s) = mineV m ρ (src c ⟨k.val, by omega⟩) (ix2 r s) :=
  match k with
  | ⟨0, _⟩ => czV_page0 m ρ c r s
  | ⟨1, _⟩ => czV_page1 m ρ c r s
  | ⟨2, _⟩ => czV_page2 m ρ c r s

theorem cpV_page0 (c : Dev nD) (r : Fin 8) (s : Fin 256) :
    cpV m ρ c (ix3 (0 : Fin 7) r s) = colV m ρ (src c 3) (ix2 r s) := by
  unfold cpV
  refine (pageV_write_other (cpM : Memref sig .tc .vmem S7x8x256 .f32).view 0 (by decide) 6 inb_S7x8x256_S1x8x256_6_0_0 (by decide) (by decide) _ _ r s).trans ?_
  refine (pageV_write_other (cpM : Memref sig .tc .vmem S7x8x256 .f32).view 0 (by decide) 5 inb_S7x8x256_S1x8x256_5_0_0 (by decide) (by decide) _ _ r s).trans ?_
  refine (pageV_write_other (cpM : Memref sig .tc .vmem S7x8x256 .f32).view 0 (by decide) 4 inb_S7x8x256_S1x8x256_4_0_0 (by decide) (by decide) _ _ r s).trans ?_
  refine (pageV_write_other (cpM : Memref sig .tc .vmem S7x8x256 .f32).view 0 (by decide) 3 inb_S7x8x256_S1x8x256_3_0_0 (by decide) (by decide) _ _ r s).trans ?_
  refine (pageV_write_other (cpM : Memref sig .tc .vmem S7x8x256 .f32).view 0 (by decide) 2 inb_S7x8x256_S1x8x256_2_0_0 (by decide) (by decide) _ _ r s).trans ?_
  refine (pageV_write_other (cpM : Memref sig .tc .vmem S7x8x256 .f32).view 0 (by decide) 1 inb_S7x8x256_S1x8x256_1_0_0 (by decide) (by decide) _ _ r s).trans ?_
  exact (pageV_write_self (cpM : Memref sig .tc .vmem S7x8x256 .f32).view 0 inb_S7x8x256_S1x8x256_0_0_0 (by decide) _ _ r s).trans rfl

theorem cpV_page1 (c : Dev nD) (r : Fin 8) (s : Fin 256) :
    cpV m ρ c (ix3 (1 : Fin 7) r s) = colV m ρ (src c 4) (ix2 r s) := by
  unfold cpV
  refine (pageV_write_other (cpM : Memref sig .tc .vmem S7x8x256 .f32).view 1 (by decide) 6 inb_S7x8x256_S1x8x256_6_0_0 (by decide) (by decide) _ _ r s).trans ?_
  refine (pageV_write_other (cpM : Memref sig .tc .vmem S7x8x256 .f32).view 1 (by decide) 5 inb_S7x8x256_S1x8x256_5_0_0 (by decide) (by decide) _ _ r s).trans ?_
  refine (pageV_write_other (cpM : Memref sig .tc .vmem S7x8x256 .f32).view 1 (by decide) 4 inb_S7x8x256_S1x8x256_4_0_0 (by decide) (by decide) _ _ r s).trans ?_
  refine (pageV_write_other (cpM : Memref sig .tc .vmem S7x8x256 .f32).view 1 (by decide) 3 inb_S7x8x256_S1x8x256_3_0_0 (by decide) (by decide) _ _ r s).trans ?_
  refine (pageV_write_other (cpM : Memref sig .tc .vmem S7x8x256 .f32).view 1 (by decide) 2 inb_S7x8x256_S1x8x256_2_0_0 (by decide) (by decide) _ _ r s).trans ?_
  exact (pageV_write_self (cpM : Memref sig .tc .vmem S7x8x256 .f32).view 1 inb_S7x8x256_S1x8x256_1_0_0 (by decide) _ _ r s).trans rfl

theorem cpV_page2 (c : Dev nD) (r : Fin 8) (s : Fin 256) :
    cpV m ρ c (ix3 (2 : Fin 7) r s) = colV m ρ (src c 5) (ix2 r s) := by
  unfold cpV
  refine (pageV_write_other (cpM : Memref sig .tc .vmem S7x8x256 .f32).view 2 (by decide) 6 inb_S7x8x256_S1x8x256_6_0_0 (by decide) (by decide) _ _ r s).trans ?_
  refine (pageV_write_other (cpM : Memref sig .tc .vmem S7x8x256 .f32).view 2 (by decide) 5 inb_S7x8x256_S1x8x256_5_0_0 (by decide) (by decide) _ _ r s).trans ?_
  refine (pageV_write_other (cpM : Memref sig .tc .vmem S7x8x256 .f32).view 2 (by decide) 4 inb_S7x8x256_S1x8x256_4_0_0 (by decide) (by decide) _ _ r s).trans ?_
  refine (pageV_write_other (cpM : Memref sig .tc .vmem S7x8x256 .f32).view 2 (by decide) 3 inb_S7x8x256_S1x8x256_3_0_0 (by decide) (by decide) _ _ r s).trans ?_
  exact (pageV_write_self (cpM : Memref sig .tc .vmem S7x8x256 .f32).view 2 inb_S7x8x256_S1x8x256_2_0_0 (by decide) _ _ r s).trans rfl

theorem cpV_page3 (c : Dev nD) (r : Fin 8) (s : Fin 256) :
    cpV m ρ c (ix3 (3 : Fin 7) r s) = colV m ρ (src c 6) (ix2 r s) := by
  unfold cpV
  refine (pageV_write_other (cpM : Memref sig .tc .vmem S7x8x256 .f32).view 3 (by decide) 6 inb_S7x8x256_S1x8x256_6_0_0 (by decide) (by decide) _ _ r s).trans ?_
  refine (pageV_write_other (cpM : Memref sig .tc .vmem S7x8x256 .f32).view 3 (by decide) 5 inb_S7x8x256_S1x8x256_5_0_0 (by decide) (by decide) _ _ r s).trans ?_
  refine (pageV_write_other (cpM : Memref sig .tc .vmem S7x8x256 .f32).view 3 (by decide) 4 inb_S7x8x256_S1x8x256_4_0_0 (by decide) (by decide) _ _ r s).trans ?_
  exact (pageV_write_self (cpM : Memref sig .tc .vmem S7x8x256 .f32).view 3 inb_S7x8x256_S1x8x256_3_0_0 (by decide) _ _ r s).trans rfl

theorem cpV_page4 (c : Dev nD) (r : Fin 8) (s : Fin 256) :
    cpV m ρ c (ix3 (4 : Fin 7) r s) = colV m ρ (src c 7) (ix2 r s) := by
  unfold cpV
  refine (pageV_write_other (cpM : Memref sig .tc .vmem S7x8x256 .f32).view 4 (by decide) 6 inb_S7x8x256_S1x8x256_6_0_0 (by decide) (by decide) _ _ r s).trans ?_
  refine (pageV_write_other (cpM : Memref sig .tc .vmem S7x8x256 .f32).view 4 (by decide) 5 inb_S7x8x256_S1x8x256_5_0_0 (by decide) (by decide) _ _ r s).trans ?_
  exact (pageV_write_self (cpM : Memref sig .tc .vmem S7x8x256 .f32).view 4 inb_S7x8x256_S1x8x256_4_0_0 (by decide) _ _ r s).trans rfl

theorem cpV_page5 (c : Dev nD) (r : Fin 8) (s : Fin 256) :
    cpV m ρ c (ix3 (5 : Fin 7) r s) = colV m ρ (src c 8) (ix2 r s) := by
  unfold cpV
  refine (pageV_write_other (cpM : Memref sig .tc .vmem S7x8x256 .f32).view 5 (by decide) 6 inb_S7x8x256_S1x8x256_6_0_0 (by decide) (by decide) _ _ r s).trans ?_
  exact (pageV_write_self (cpM : Memref sig .tc .vmem S7x8x256 .f32).view 5 inb_S7x8x256_S1x8x256_5_0_0 (by decide) _ _ r s).trans rfl

theorem cpV_page6 (c : Dev nD) (r : Fin 8) (s : Fin 256) :
    cpV m ρ c (ix3 (6 : Fin 7) r s) = colV m ρ (src c 9) (ix2 r s) := by
  unfold cpV
  exact (pageV_write_self (cpM : Memref sig .tc .vmem S7x8x256 .f32).view 6 inb_S7x8x256_S1x8x256_6_0_0 (by decide) _ _ r s).trans rfl

/-- Page j of the row-group landing buffer holds the column-group sums of the device whose (j + 3)-th copy lands there. -/
theorem cpV_apply (c : Dev nD) (j : Fin 7) (r : Fin 8) (s : Fin 256) :
    cpV m ρ c (ix3 j r s) = colV m ρ (src c ⟨j.val + 3, by omega⟩) (ix2 r s) :=
  match j with
  | ⟨0, _⟩ => cpV_page0 m ρ c r s
  | ⟨1, _⟩ => cpV_page1 m ρ c r s
  | ⟨2, _⟩ => cpV_page2 m ρ c r s
  | ⟨3, _⟩ => cpV_page3 m ρ c r s
  | ⟨4, _⟩ => cpV_page4 m ρ c r s
  | ⟨5, _⟩ => cpV_page5 m ρ c r s
  | ⟨6, _⟩ => cpV_page6 m ρ c r s

end Cert.KernelIdealProof

end
-- ==== Proof.RefTerm.lean ====
/-
  The reference program's result as ONE pure term of its four arguments: the value @main leaves in
  %21, composed operation by operation (the callee bodies of @_var and @_where read at their call
  sites), with a name for each intermediate array. Every definition uses exactly the printed
  operation and the printed side condition of the line it transcribes.
-/
import proofs.«900767_g7700000000000768_dist_diff_adaln_cshard_i_b4_s256_c128_v7x_i32_bf16_1_alg».proof.ReferenceIdeal
import proofs.«900767_g7700000000000768_dist_diff_adaln_cshard_i_b4_s256_c128_v7x_i32_bf16_1_alg».proof.Proof.Gen.ReferenceIdeal

noncomputable section

namespace Cert.ReferenceIdeal.RefTerm

open Cert.ReferenceIdeal Idealize.ShloMosaic Idealize.SL.Sem
open Cert.ReferenceIdeal.Facts₀

variable {F : FTy → Type} [FloatOps F]

/-- The array types of the program, by shape. -/
abbrev T3 := (⟨S4x256x4096, .f32⟩ : BufTy).Contents (Elt F)
abbrev TRow := (⟨S4x256, .f32⟩ : BufTy).Contents (Elt F)
abbrev TCol := (⟨S4x256x1, .f32⟩ : BufTy).Contents (Elt F)
abbrev TSc := (⟨S_, .f32⟩ : BufTy).Contents (Elt F)
abbrev TEmb := (⟨S4x128, .f32⟩ : BufTy).Contents (Elt F)
abbrev TW := (⟨S128x4096, .f32⟩ : BufTy).Contents (Elt F)
abbrev TMod := (⟨S4x4096, .f32⟩ : BufTy).Contents (Elt F)
abbrev TMod1 := (⟨S4x1x4096, .f32⟩ : BufTy).Contents (Elt F)

/-- The scalar literals: 0, 4096, 1e-5 (nearest f32), 1, and the quiet NaN. -/
def zeroC : TSc (F := F) := constant S_ .f32 0x00000000#32
def nC : TSc (F := F) := constant S_ .f32 0x45800000#32
def epsC : TSc (F := F) := constant S_ .f32 0x3727C5AC#32
def oneC : TSc (F := F) := constant S_ .f32 0x3F800000#32
def nanC : TSc (F := F) := constant S_ .f32 0x7FC00000#32

/-- Σ over the last axis (4096 entries) from 0: an array [4,256]. -/
def rowSum (X : T3 (F := F)) : TRow (F := F) :=
  Host.reduceAdd X (zeroC (F := F)) reducesTo_S4x256x4096_S4x256_d2 h_S_

/-- The same sums as [4,256,1]. -/
def rowSumCol (X : T3 (F := F)) : TCol (F := F) :=
  broadcastInDim S4x256x1 ![0, 1] bcast_S4x256_S4x256x1_0_1 (rowSum X)

/-- 4096 at every position of [4,256,1]. -/
def nCol : TCol (F := F) :=
  broadcastInDim S4x256x1 ![] bcast_S_S4x256x1 (nC (F := F))

/-- mean = Σx / 4096, as [4,256,1]. -/
def mean (X : T3 (F := F)) : TCol (F := F) :=
  Host.divf (rowSumCol X) (nCol (F := F))

/-- The mean at every column: [4,256,4096]. -/
def meanFull (X : T3 (F := F)) : T3 (F := F) :=
  broadcastInDim S4x256x4096 ![0, 1, 2] bcast_S4x256x1_S4x256x4096_0_1_2 (mean X)

/-- x − mean. -/
def centred (X : T3 (F := F)) : T3 (F := F) :=
  subf X (meanFull X)

/-- (x − mean)². -/
def centredSq (X : T3 (F := F)) : T3 (F := F) :=
  mulf (centred X) (centred X)

/-- The integer 0 (the correction) as a float. -/
def ddofF : TSc (F := F) :=
  sitofp .f32 (constantI S_ 32 0#32 : (⟨S_, .i32⟩ : BufTy).Contents (Elt F))

/-- The normaliser 4096 − 0. -/
def normaliser : TSc (F := F) :=
  subf (nC (F := F)) (ddofF (F := F))

/-- Σ (x − mean)² over the last axis, as [4,256,1]. -/
def sqSumCol (X : T3 (F := F)) : TCol (F := F) :=
  broadcastInDim S4x256x1 ![0, 1] bcast_S4x256_S4x256x1_0_1
    (Host.reduceAdd (centredSq X) (zeroC (F := F)) reducesTo_S4x256x4096_S4x256_d2 h_S_)

/-- The normaliser at every position of [4,256,1]. -/
def normaliserCol : TCol (F := F) :=
  broadcastInDim S4x256x1 ![] bcast_S_S4x256x1 (normaliser (F := F))

/-- The variance before the guard: Σ (x − mean)² / (4096 − 0). -/
def varRaw (X : T3 (F := F)) : TCol (F := F) :=
  Host.divf (sqSumCol X) (normaliserCol (F := F))

/-- The guard: 4096 − 0 > 0 (ordered comparison). -/
def guard : (⟨S_, .i1⟩ : BufTy).Contents (Elt F) :=
  cmpf .ogt (normaliser (F := F)) (zeroC (F := F))

/-- NaN at every position of [4,256,1] (the f32→f32 convert is the identity). -/
def nanCol : TCol (F := F) :=
  broadcastInDim S4x256x1 ![] bcast_S_S4x256x1 (id (nanC (F := F)))

/-- The variance after the guard: where(4096 − 0 > 0, variance, NaN). -/
def var (X : T3 (F := F)) : TCol (F := F) :=
  select (broadcastInDim S4x256x1 ![] bcast_S_S4x256x1 (guard (F := F))) (varRaw X) (nanCol (F := F))

/-- 1e-5 at every position of [4,256,1]. -/
def epsCol : TCol (F := F) :=
  broadcastInDim S4x256x1 ![] bcast_S_S4x256x1 (epsC (F := F))

/-- sqrt(var + 1e-5), as [4,256,1]. -/
def sd (X : T3 (F := F)) : TCol (F := F) :=
  Host.sqrt (addf (var X) (epsCol (F := F)))

/-- The same at every column. -/
def sdFull (X : T3 (F := F)) : T3 (F := F) :=
  broadcastInDim S4x256x4096 ![0, 1, 2] bcast_S4x256x1_S4x256x4096_0_1_2 (sd X)

/-- h = (x − mean) / sqrt(var + 1e-5). -/
def h (X : T3 (F := F)) : T3 (F := F) :=
  Host.divf (centred X) (sdFull X)

/-- t @ W : [4,4096]. -/
def proj (T : TEmb (F := F)) (W : TW (F := F)) : TMod (F := F) :=
  Host.dotGeneral dot_S4x128_S128x4096_S4x4096_1_0_0_1_n_n none T W

/-- t @ W as [4,1,4096]. -/
def proj1 (T : TEmb (F := F)) (W : TW (F := F)) : TMod1 (F := F) :=
  broadcastInDim S4x1x4096 ![0, 2] bcast_S4x4096_S4x1x4096_0_2 (proj T W)

/-- 1 at every position of [4,1,4096]. -/
def oneMod : TMod1 (F := F) :=
  broadcastInDim S4x1x4096 ![] bcast_S_S4x1x4096 (oneC (F := F))

/-- 1 + t @ W_scale at every row: [4,256,4096]. -/
def scaleFull (T : TEmb (F := F)) (Ws : TW (F := F)) : T3 (F := F) :=
  broadcastInDim S4x256x4096 ![0, 1, 2] bcast_S4x1x4096_S4x256x4096_0_1_2 (addf (oneMod (F := F)) (proj1 T Ws))

/-- t @ W_shift at every row: [4,256,4096]. -/
def shiftFull (T : TEmb (F := F)) (Wsh : TW (F := F)) : T3 (F := F) :=
  broadcastInDim S4x256x4096 ![0, 1, 2] bcast_S4x1x4096_S4x256x4096_0_1_2 (proj1 T Wsh)

/-- The value @main computes for %21: h · (1 + t @ W_scale) + t @ W_shift. -/
def refVal (X : (⟨S4x256x4096, .f32⟩ : BufTy).Contents (Elt F)) (T : (⟨S4x128, .f32⟩ : BufTy).Contents (Elt F))
    (Ws Wsh : (⟨S128x4096, .f32⟩ : BufTy).Contents (Elt F)) : (⟨S4x256x4096, .f32⟩ : BufTy).Contents (Elt F) :=
  addf (mulf (h X) (scaleFull T Ws)) (shiftFull T Wsh)

end Cert.ReferenceIdeal.RefTerm

end
-- ==== Proof.RefRun.lean ====
/-
  The reference program's @main as ONE straight line of its 49 host operations — the callee bodies
  (@_var, and @_where inside it) listed at their call sites over the calls' buffer records — and its
  run read back: every weakly fair execution terminates with the result buffer at the composed pure
  term of the four arguments' launch contents, the arguments unchanged.
-/
import proofs.«900767_g7700000000000768_dist_diff_adaln_cshard_i_b4_s256_c128_v7x_i32_bf16_1_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's operations in execution order: seven of its own (the row sums, the mean, the integer 0),
    the twenty of @_var over the record of its call (the mean again, the centred squares, the
    normaliser 4096 − 0, the variance before the guard, the guard, the NaN), the three of @_where
    over the nested record (the NaN converted and broadcast, the select into %4), then @main's
    remaining nineteen (h, the two projections, the modulation, the sum). -/
abbrev ops : List (HloOp τ sig (Elt F)) :=
  [ nullary main_cst (constant S_ .f32 0x00000000#32),
    binary main_arg0 main_cst main_v0 ((fun x v => Host.reduceAdd x v reducesTo_S4x256x4096_S4x256_d2 h_S_) : (⟨S4x256x4096, .f32⟩ : BufTy).Contents (Elt F) → (⟨S_, .f32⟩ : BufTy).Contents (Elt F) → (⟨S4x256, .f32⟩ : BufTy).Contents (Elt F)),
    unary main_v0 main_v1 (broadcastInDim S4x256x1 ![0, 1] bcast_S4x256_S4x256x1_0_1 : (⟨S4x256, .f32⟩ : BufTy).Contents (Elt F) → (⟨S4x256x1, .f32⟩ : BufTy).Contents (Elt F)),
    nullary main_cst_0 (constant S_ .f32 0x45800000#32),
    unary main_cst_0 main_v2 (broadcastInDim S4x256x1 ![] bcast_S_S4x256x1 : (⟨S_, .f32⟩ : BufTy).Contents (Elt F) → (⟨S4x256x1, .f32⟩ : BufTy).Contents (Elt F)),
    binary main_v1 main_v2 main_v3 (Host.divf : (⟨S4x256x1, .f32⟩ : BufTy).Contents (Elt F) → (⟨S4x256x1, .f32⟩ : BufTy).Contents (Elt F) → (⟨S4x256x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S4x256x4096_S4x256_d2 h_S_),
    TRef.unary main_call0.v0 main_call0.v1 (broadcastInDim S4x256x1 ![0, 1] bcast_S4x256_S4x256x1_0_1),
    TRef.nullary main_call0.cst_0 (constant S_ .f32 0x45800000#32),
    TRef.unary main_call0.cst_0 main_call0.v2 (broadcastInDim S4x256x1 ![] bcast_S_S4x256x1),
    TRef.binary main_call0.v1 main_call0.v2 main_call0.v3 Host.divf,
    TRef.unary main_call0.v3 main_call0.v4 (broadcastInDim S4x256x4096 ![0, 1, 2] bcast_S4x256x1_S4x256x4096_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x45800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x256x4096_S4x256_d2 h_S_),
    TRef.unary main_call0.v9 main_call0.v10 (broadcastInDim S4x256x1 ![0, 1] bcast_S4x256_S4x256x1_0_1),
    TRef.unary main_call0.v8 main_call0.v11 (broadcastInDim S4x256x1 ![] bcast_S_S4x256x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x256x1 ![] bcast_S_S4x256x1),
    TRef.ternary main_call0.v13 main_call0.v12 main_call0.call0.v1 main_call0.call0.v2 (fun p a b => select (broadcastInDim S4x256x1 ![] bcast_S_S4x256x1 p) a b),
    unary main_v3 main_v5 (broadcastInDim S4x256x4096 ![0, 1, 2] bcast_S4x256x1_S4x256x4096_0_1_2 : (⟨S4x256x1, .f32⟩ : BufTy).Contents (Elt F) → (⟨S4x256x4096, .f32⟩ : BufTy).Contents (Elt F)),
    binary main_arg0 main_v5 main_v6 (subf : (⟨S4x256x4096, .f32⟩ : BufTy).Contents (Elt F) → (⟨S4x256x4096, .f32⟩ : BufTy).Contents (Elt F) → (⟨S4x256x4096, .f32⟩ : BufTy).Contents (Elt F)),
    nullary main_cst_1 (constant S_ .f32 0x3727C5AC#32),
    unary main_cst_1 main_v7 (broadcastInDim S4x256x1 ![] bcast_S_S4x256x1 : (⟨S_, .f32⟩ : BufTy).Contents (Elt F) → (⟨S4x256x1, .f32⟩ : BufTy).Contents (Elt F)),
    binary main_v4 main_v7 main_v8 (addf : (⟨S4x256x1, .f32⟩ : BufTy).Contents (Elt F) → (⟨S4x256x1, .f32⟩ : BufTy).Contents (Elt F) → (⟨S4x256x1, .f32⟩ : BufTy).Contents (Elt F)),
    unary main_v8 main_v9 (Host.sqrt : (⟨S4x256x1, .f32⟩ : BufTy).Contents (Elt F) → (⟨S4x256x1, .f32⟩ : BufTy).Contents (Elt F)),
    unary main_v9 main_v10 (broadcastInDim S4x256x4096 ![0, 1, 2] bcast_S4x256x1_S4x256x4096_0_1_2 : (⟨S4x256x1, .f32⟩ : BufTy).Contents (Elt F) → (⟨S4x256x4096, .f32⟩ : BufTy).Contents (Elt F)),
    binary main_v6 main_v10 main_v11 (Host.divf : (⟨S4x256x4096, .f32⟩ : BufTy).Contents (Elt F) → (⟨S4x256x4096, .f32⟩ : BufTy).Contents (Elt F) → (⟨S4x256x4096, .f32⟩ : BufTy).Contents (Elt F)),
    binary main_arg1 main_arg2 main_v12 ((fun l r => Host.dotGeneral dot_S4x128_S128x4096_S4x4096_1_0_0_1_n_n none l r) : (⟨S4x128, .f32⟩ : BufTy).Contents (Elt F) → (⟨S128x4096, .f32⟩ : BufTy).Contents (Elt F) → (⟨S4x4096, .f32⟩ : BufTy).Contents (Elt F)),
    binary main_arg1 main_arg3 main_v13 ((fun l r => Host.dotGeneral dot_S4x128_S128x4096_S4x4096_1_0_0_1_n_n none l r) : (⟨S4x128, .f32⟩ : BufTy).Contents (Elt F) → (⟨S128x4096, .f32⟩ : BufTy).Contents (Elt F) → (⟨S4x4096, .f32⟩ : BufTy).Contents (Elt F)),
    unary main_v12 main_v14 (broadcastInDim S4x1x4096 ![0, 2] bcast_S4x4096_S4x1x4096_0_2 : (⟨S4x4096, .f32⟩ : BufTy).Contents (Elt F) → (⟨S4x1x4096, .f32⟩ : BufTy).Contents (Elt F)),
    nullary main_cst_2 (constant S_ .f32 0x3F800000#32),
    unary main_cst_2 main_v15 (broadcastInDim S4x1x4096 ![] bcast_S_S4x1x4096 : (⟨S_, .f32⟩ : BufTy).Contents (Elt F) → (⟨S4x1x4096, .f32⟩ : BufTy).Contents (Elt F)),
    binary main_v15 main_v14 main_v16 (addf : (⟨S4x1x4096, .f32⟩ : BufTy).Contents (Elt F) → (⟨S4x1x4096, .f32⟩ : BufTy).Contents (Elt F) → (⟨S4x1x4096, .f32⟩ : BufTy).Contents (Elt F)),
    unary main_v16 main_v17 (broadcastInDim S4x256x4096 ![0, 1, 2] bcast_S4x1x4096_S4x256x4096_0_1_2 : (⟨S4x1x4096, .f32⟩ : BufTy).Contents (Elt F) → (⟨S4x256x4096, .f32⟩ : BufTy).Contents (Elt F)),
    binary main_v11 main_v17 main_v18 (mulf : (⟨S4x256x4096, .f32⟩ : BufTy).Contents (Elt F) → (⟨S4x256x4096, .f32⟩ : BufTy).Contents (Elt F) → (⟨S4x256x4096, .f32⟩ : BufTy).Contents (Elt F)),
    unary main_v13 main_v19 (broadcastInDim S4x1x4096 ![0, 2] bcast_S4x4096_S4x1x4096_0_2 : (⟨S4x4096, .f32⟩ : BufTy).Contents (Elt F) → (⟨S4x1x4096, .f32⟩ : BufTy).Contents (Elt F)),
    unary main_v19 main_v20 (broadcastInDim S4x256x4096 ![0, 1, 2] bcast_S4x1x4096_S4x256x4096_0_1_2 : (⟨S4x1x4096, .f32⟩ : BufTy).Contents (Elt F) → (⟨S4x256x4096, .f32⟩ : BufTy).Contents (Elt F)),
    binary main_v18 main_v20 main_v21 (addf : (⟨S4x256x4096, .f32⟩ : BufTy).Contents (Elt F) → (⟨S4x256x4096, .f32⟩ : BufTy).Contents (Elt F) → (⟨S4x256x4096, .f32⟩ : BufTy).Contents (Elt F)) ]

-- re-associating a chain of forty-nine sequenced steps goes one level deeper per step
set_option maxRecDepth 1024 in
/-- @main is that straight line: the callees' definitions unfolded at their calls, both sides are one
    chain of `hlo` steps once sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., binary_bufs_sub .., binary_bufs_sub .., unary_bufs_sub .., nullary_bufs_sub ..,
    unary_bufs_sub .., binary_bufs_sub .., unary_bufs_sub .., binary_bufs_sub .., unary_bufs_sub .., unary_bufs_sub ..,
    binary_bufs_sub ..⟩

/-- At the compiled mesh, for any float values, from any memory with zero counters: every weakly fair
    execution of @main terminates, and every final state has each buffer at the operations' fold over
    the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
/-- The fold at the result buffer is the composed term: each operation's result at its own buffer is its
    function's value of its operands' contents, at any other buffer what was there; what is left is the
    composed term spelled with its named parts, by unfolding. -/
theorem out_eq (V : Valuation τ sig (Elt F)) :
    after ops V (main_v21 : DevRef τ sig)
      = RefTerm.refVal (V (main_arg0 : DevRef τ sig)) (V (main_arg1 : DevRef τ sig)) (V (main_arg2 : DevRef τ sig))
          (V (main_arg3 : DevRef τ sig)) := by
  after_results_simp
  rfl

/-- No operation writes an argument's buffer. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution
    of @main terminates with the result at the composed term of the arguments' launch contents and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v21)
          = RefTerm.refVal (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v21).trans (out_eq _),
      (h c main_arg0).trans (arg0_eq _),
      (h c main_arg1).trans (arg1_eq _),
      (h c main_arg2).trans (arg2_eq _),
      (h c main_arg3).trans (arg3_eq _)⟩)
    (run_main m ρ)

/-- info: 'Cert.ReferenceIdeal.RefRun.run' depends on axioms: [propext, Classical.choice, Quot.sound] -/
#guard_msgs in #print axioms run

end Cert.ReferenceIdeal.RefRun

end
-- ==== Proof.Algebra.lean ====
/-
  The scalar mathematics of the layer normalisation over the extended reals.

  A row of the input is a family of REAL numbers x : ι → ℝ over a finite index type with 4096
  elements, read inside EReal. Its mean is μ = (Σ x)/4096 and its variance is
  σ² = (Σ (x − μ)²)/4096 = (Σ x²)/4096 − μ² ≥ 0. For a real e > 0 the normalised entry is
  (x i − μ)/√(σ² + e), a real number. This file proves that the two arrangements the two programs
  use — the product with the reciprocal square root of the second-moment form, and the quotient by
  the square root of the centred form — both denote that real number, written with the extended-real
  operations (division with its corners, square root and reciprocal square root with theirs).
  It also gives the float literals of the programs as the extended reals they denote, the fact that
  a finite sum of reals is a real, and the guard 4096 − 0 > 0 of the reference's variance.
-/
import Idealize.ShloMosaic.PureOps.Ideal
import Idealize.ShloMosaic.PureOps.Ideal.Laws
import Mathlib.Data.EReal.Inv
import Mathlib.Analysis.SpecialFunctions.Sqrt
import Mathlib.Algebra.BigOperators.Fin
import Mathlib.Algebra.BigOperators.Ring.Finset
import Mathlib.Tactic.Ring
import Mathlib.Tactic.Positivity
import Mathlib.Tactic.NormNum

noncomputable section

namespace Cert.Algebra

open Idealize.ShloMosaic
open scoped BigOperators

/-! ## The literals -/

/-- The pattern of 4096.0 denotes the real 4096. -/
theorem ofBits_4096 : Ideal.ofBits .f32 0x45800000#32 = ((4096 : ℝ) : EReal) := by
  simp [Ideal.ofBits, Ideal.ieee, -EReal.coe_mul]; norm_num

/-- The pattern of 1.0 denotes 1. -/
theorem ofBits_one : Ideal.ofBits .f32 0x3F800000#32 = 1 := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The pattern 0x3727C5AC (the float nearest 1e-5) denotes a positive real: a normal number, the
    dyadic rational 10995116 · 2^(−40). -/
theorem ofBits_eps : ∃ e : ℝ, 0 < e ∧ Ideal.ofBits .f32 0x3727C5AC#32 = (e : EReal) := by
  refine ⟨(2 ^ 23 + 2606508 : ℕ) * (2 : ℝ) ^ ((110 : ℤ) - 127 - 23), by positivity, ?_⟩
  simp [Ideal.ofBits, Ideal.ieee, -EReal.coe_mul]

/-! ## Finite sums of reals inside the extended reals -/

section Sums
variable {ι : Type*}

/-- A finite sum of reals, coerced, is the sum of the coerced reals. -/
theorem coe_sum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of extended reals that are all real is real. -/
theorem exists_real_sum (s : Finset ι) (f : ι → EReal) (hf : ∀ k, ∃ r : ℝ, f k = r) :
    ∃ r : ℝ, ∑ k ∈ s, f k = r := by
  choose g hg using hf
  exact ⟨∑ k ∈ s, g k, by rw [coe_sum]; exact Finset.sum_congr rfl fun k _ => hg k⟩

end Sums

/-! ## Mean, variance and the normalised entry of a real row -/

section Row
variable {ι : Type*} [Fintype ι]

/-- The mean of a row, by the literal divisor 4096. -/
def mean (x : ι → ℝ) : ℝ := (∑ k, x k) / 4096

/-- The variance of a row: the mean of the squared deviations. -/
def variance (x : ι → ℝ) : ℝ := (∑ k, (x k - mean x) * (x k - mean x)) / 4096

/-- The normalised entry. -/
def normed (x : ι → ℝ) (e : ℝ) (i : ι) : ℝ := (x i - mean x) / Real.sqrt (variance x + e)

theorem variance_nonneg (x : ι → ℝ) : 0 ≤ variance x :=
  div_nonneg (Finset.sum_nonneg fun k _ => mul_self_nonneg _) (by norm_num)

/-- The variance identity: with 4096 entries, the mean of the squared deviations is the mean of the
    squares minus the square of the mean. -/
theorem variance_eq (hn : (Fintype.card ι : ℝ) = 4096) (x : ι → ℝ) :
    variance x = (∑ k, x k * x k) / 4096 - mean x * mean x := by
  have h1 : ∑ k, (x k - mean x) * (x k - mean x)
      = ∑ k, x k * x k - 2 * mean x * ∑ k, x k + (Fintype.card ι : ℝ) * (mean x * mean x) := by
    have : ∀ k, (x k - mean x) * (x k - mean x) = x k * x k - 2 * mean x * x k + mean x * mean x := fun k => by ring
    simp only [this, Finset.sum_add_distrib, Finset.sum_sub_distrib, ← Finset.mul_sum, Finset.sum_const,
      Finset.card_univ, nsmul_eq_mul]
    ring
  have h2 : ∑ k, x k = 4096 * mean x := by unfold mean; ring
  unfold variance
  rw [h1, hn, h2]; ring

end Row

/-! ## The two arrangements denote the normalised entry -/

section Law
variable {ι : Type*} [Fintype ι]

/-- Division of a real by the real 4096 inside the extended reals. -/
theorem div_coe_4096 (a : ℝ) : Ideal.div (a : EReal) ((4096 : ℝ) : EReal) = ((a / 4096 : ℝ) : EReal) := by
  rw [Ideal.div_coe (by norm_num : (4096 : ℝ) ≠ 0), ← EReal.coe_mul]; congr 1; ring

/-- The mean of a real row, computed in the extended reals. -/
theorem mean_coe (x : ι → ℝ) :
    Ideal.div (∑ k, (x k : EReal)) ((4096 : ℝ) : EReal) = ((mean x : ℝ) : EReal) := by
  rw [← coe_sum, div_coe_4096]; rfl

/-- The second-moment arrangement: the deviation from the mean times the reciprocal square root of
    (mean of squares − square of mean + e) is the normalised entry. -/
theorem rsqrt_form (hn : (Fintype.card ι : ℝ) = 4096) (x : ι → ℝ) {e : ℝ} (he : 0 < e) (i : ι) :
    ((x i : EReal) - Ideal.div (∑ k, (x k : EReal)) ((4096 : ℝ) : EReal))
        * Ideal.rsqrt (Ideal.div (∑ k, (x k : EReal) * (x k : EReal)) ((4096 : ℝ) : EReal)
            - Ideal.div (∑ k, (x k : EReal)) ((4096 : ℝ) : EReal) * Ideal.div (∑ k, (x k : EReal)) ((4096 : ℝ) : EReal)
            + (e : EReal))
      = ((normed x e i : ℝ) : EReal) := by
  have hpos : 0 < variance x + e := add_pos_of_nonneg_of_pos (variance_nonneg x) he
  rw [mean_coe]
  simp only [← EReal.coe_mul]
  rw [← coe_sum, div_coe_4096, ← EReal.coe_sub, ← EReal.coe_sub, ← EReal.coe_add, ← variance_eq hn x,
    Ideal.rsqrt_coe, if_neg (not_lt.mpr hpos.le), if_neg hpos.ne', ← EReal.coe_mul]
  rfl

/-- The centred arrangement: the deviation from the mean divided by the square root of
    (mean of squared deviations + e) is the normalised entry. -/
theorem sqrt_form (x : ι → ℝ) {e : ℝ} (he : 0 < e) (i : ι) :
    Ideal.div ((x i : EReal) - Ideal.div (∑ k, (x k : EReal)) ((4096 : ℝ) : EReal))
        (Ideal.sqrt (Ideal.div
            (∑ k, ((x k : EReal) - Ideal.div (∑ k, (x k : EReal)) ((4096 : ℝ) : EReal))
                * ((x k : EReal) - Ideal.div (∑ k, (x k : EReal)) ((4096 : ℝ) : EReal)))
            ((4096 : ℝ) : EReal)
          + (e : EReal)))
      = ((normed x e i : ℝ) : EReal) := by
  have hpos : 0 < variance x + e := add_pos_of_nonneg_of_pos (variance_nonneg x) he
  have hs : Real.sqrt (variance x + e) ≠ 0 := (Real.sqrt_pos.mpr hpos).ne'
  rw [mean_coe]
  simp only [← EReal.coe_sub, ← EReal.coe_mul]
  rw [← coe_sum, div_coe_4096, ← EReal.coe_add]
  change Ideal.div _ (Ideal.sqrt ((variance x + e : ℝ) : EReal)) = _
  rw [Ideal.sqrt_coe, if_neg (not_lt.mpr hpos.le), Ideal.div_coe hs, ← EReal.coe_mul]
  congr 1
  unfold normed; rw [one_div, div_eq_mul_inv]

/-- THE LAW, on extended reals that are all real and with the programs' literal words: the
    second-moment arrangement with the reciprocal square root equals the centred arrangement with
    the quotient by the square root. -/
theorem law (hn : (Fintype.card ι : ℝ) = 4096) (x : ι → EReal) (hx : ∀ k, ∃ r : ℝ, x k = (r : EReal)) (i : ι) :
    (x i - Ideal.div (∑ k, x k) (Ideal.ofBits .f32 0x45800000#32))
        * Ideal.rsqrt (Ideal.div (∑ k, x k * x k) (Ideal.ofBits .f32 0x45800000#32)
            - Ideal.div (∑ k, x k) (Ideal.ofBits .f32 0x45800000#32) * Ideal.div (∑ k, x k) (Ideal.ofBits .f32 0x45800000#32)
            + Ideal.ofBits .f32 0x3727C5AC#32)
      = Ideal.div (x i - Ideal.div (∑ k, x k) (Ideal.ofBits .f32 0x45800000#32))
          (Ideal.sqrt (Ideal.div
              (∑ k, (x k - Ideal.div (∑ k, x k) (Ideal.ofBits .f32 0x45800000#32))
                  * (x k - Ideal.div (∑ k, x k) (Ideal.ofBits .f32 0x45800000#32)))
              (Ideal.ofBits .f32 0x45800000#32)
            + Ideal.ofBits .f32 0x3727C5AC#32)) := by
  choose g hg using hx
  obtain ⟨e, he, hE⟩ := ofBits_eps
  obtain rfl : x = fun k => (g k : EReal) := funext hg
  rw [ofBits_4096, hE]
  exact (rsqrt_form hn g he i).trans (sqrt_form g he i).symm

end Law

/-! ## The guard of the variance: 4096 − 0 > 0 -/

/-- The integer 0 converted to a float is 0, so the divisor 4096 − 0 is 4096. -/
theorem sub_sitofp_zero : ((4096 : ℝ) : EReal) - (((0#32 : BitVec 32).toInt : ℝ) : EReal) = ((4096 : ℝ) : EReal) := by
  simp

/-- The comparison 4096 > 0 on the extended reals answers the true bit. -/
theorem cmp_ogt_4096 : Ideal.cmp .ogt ((4096 : ℝ) : EReal) 0 = 1#1 := by
  have : (0 : EReal) < ((4096 : ℝ) : EReal) := by exact_mod_cast (by norm_num : (0 : ℝ) < 4096)
  simp [Ideal.cmp, this]

/-- info: 'Cert.Algebra.law' depends on axioms: [propext, Classical.choice, Quot.sound] -/
#guard_msgs in
#print axioms law

end Cert.Algebra

end
-- ==== Proof.RefValue.lean ====
/-
  The reference's result read at one index, at the extended reals.

  The result array of the reference is h · (1 + t @ W_scale) + t @ W_shift with
  h = (x − mean)/√(var + ε), mean = Σx/4096 and var = Σ(x − mean)²/(4096 − 0) along the last axis.
  Read at (b, s, ch) every operation is a scalar operation on entries of the arguments: a sum over
  the 4096 entries of row (b, s) of x, a quotient by the literal 4096, a sum over the 128 entries of
  row b of t against column ch of a weight. When every entry of x is a real number the normalised
  entry can be written in the second-moment form (x − mean)·rsqrt(Σx²/4096 − mean² + ε) as well.
-/
import proofs.«900767_g7700000000000768_dist_diff_adaln_cshard_i_b4_s256_c128_v7x_i32_bf16_1_alg».proof.Proof.RefTerm
import proofs.«900767_g7700000000000768_dist_diff_adaln_cshard_i_b4_s256_c128_v7x_i32_bf16_1_alg».proof.Proof.Algebra
import Idealize.ShloMosaic.Lib.IdealHost
import Idealize.ShloMosaic.Lib.ValueIdx
import Idealize.ShloMosaic.Lib.Pipeline.Value

noncomputable section

namespace Cert.ReferenceIdeal.RefValue

open Cert.ReferenceIdeal Cert.ReferenceIdeal.RefTerm Idealize.ShloMosaic Idealize.ShloMosaic.ValueIdx Idealize.SL.Sem
open Cert.ReferenceIdeal.Facts₀
open scoped BigOperators

/-! ## The row sums -/

/-- The sum along the last axis at (b, s): the initial value plus the 4096 entries of the row. -/
theorem reduce_row_apply (Y : S4x256x4096.Idx → EReal) (b : Fin 4) (s : Fin 256) :
    (Host.reduceAdd (F := Ideal) (φ := .f32) Y (zeroC (F := Ideal)) reducesTo_S4x256x4096_S4x256_d2 h_S_) (ix2 b s)
      = ∑ k : Fin 4096, Y (ix3 b s k) := by
  rw [hostReduceAdd_apply, Ideal.hostReduceAdd_single reducesTo_S4x256x4096_S4x256_d2 (by decide)]
  have h0 : zeroC (F := Ideal) (Shape.Idx.first h_S_) = 0 := Ideal.ofBits_zero_f32
  rw [h0, zero_add]
  refine Finset.sum_congr rfl fun k _ => ?_
  exact congrArg Y (funext fun a => Fin.ext (by match a with | ⟨0, _⟩ => rfl | ⟨1, _⟩ => rfl | ⟨2, _⟩ => rfl))

/-! ## The broadcasts of the program, read at an index -/

/-- A [4,256] array as [4,256,1]: at (b, s, u) it is the array at (b, s). -/
theorem col_apply (Y : S4x256.Idx → EReal) (b : Fin 4) (s : Fin 256) (u : Fin 1) :
    broadcastInDim S4x256x1 ![0, 1] bcast_S4x256_S4x256x1_0_1 Y (ix3 b s u) = Y (ix2 b s) :=
  broadcastInDim_apply _ _ Y _ (ix2 b s) (fun a => by match a with | ⟨0, _⟩ => rfl | ⟨1, _⟩ => rfl)

/-- A [4,256,1] array at every column: at (b, s, ch) it is the array at (b, s, 0). -/
theorem full_apply (Y : S4x256x1.Idx → EReal) (b : Fin 4) (s : Fin 256) (ch : Fin 4096) :
    broadcastInDim S4x256x4096 ![0, 1, 2] bcast_S4x256x1_S4x256x4096_0_1_2 Y (ix3 b s ch) = Y (ix3 b s 0) :=
  broadcastInDim_apply _ _ Y _ (ix3 b s 0) (fun a => by match a with | ⟨0, _⟩ => rfl | ⟨1, _⟩ => rfl | ⟨2, _⟩ => rfl)

/-- A [4,4096] array as [4,1,4096]: at (b, u, ch) it is the array at (b, ch). -/
theorem mod1_apply (Y : S4x4096.Idx → EReal) (b : Fin 4) (u : Fin 1) (ch : Fin 4096) :
    broadcastInDim S4x1x4096 ![0, 2] bcast_S4x4096_S4x1x4096_0_2 Y (ix3 b u ch) = Y (ix2 b ch) :=
  broadcastInDim_apply _ _ Y _ (ix2 b ch) (fun a => by match a with | ⟨0, _⟩ => rfl | ⟨1, _⟩ => rfl)

/-- A [4,1,4096] array at every row: at (b, s, ch) it is the array at (b, 0, ch). -/
theorem rows_apply (Y : S4x1x4096.Idx → EReal) (b : Fin 4) (s : Fin 256) (ch : Fin 4096) :
    broadcastInDim S4x256x4096 ![0, 1, 2] bcast_S4x1x4096_S4x256x4096_0_1_2 Y (ix3 b s ch) = Y (ix3 b 0 ch) :=
  broadcastInDim_apply _ _ Y _ (ix3 b 0 ch) (fun a => by match a with | ⟨0, _⟩ => rfl | ⟨1, _⟩ => rfl | ⟨2, _⟩ => rfl)

/-! ## Mean, centred entries, variance -/

/-- The mean at (b, s): the row's sum over the literal 4096. -/
theorem mean_apply (X : S4x256x4096.Idx → EReal) (b : Fin 4) (s : Fin 256) (u : Fin 1) :
    RefTerm.mean (F := Ideal) X (ix3 b s u)
      = Ideal.div (∑ k : Fin 4096, X (ix3 b s k)) (Ideal.ofBits .f32 0x45800000#32) := by
  unfold RefTerm.mean rowSumCol rowSum nCol
  rw [hostDivf_apply, col_apply, reduce_row_apply, broadcastInDim_scalar_apply]
  rfl

/-- The centred entry at (b, s, ch). -/
theorem centred_apply (X : S4x256x4096.Idx → EReal) (b : Fin 4) (s : Fin 256) (ch : Fin 4096) :
    centred (F := Ideal) X (ix3 b s ch)
      = X (ix3 b s ch) - Ideal.div (∑ k : Fin 4096, X (ix3 b s k)) (Ideal.ofBits .f32 0x45800000#32) := by
  unfold centred meanFull
  rw [subf_apply, full_apply, mean_apply]

/-- The divisor 4096 − 0 is the real 4096. -/
theorem normaliser_apply (j : S_.Idx) : normaliser (F := Ideal) j = ((4096 : ℝ) : EReal) := by
  unfold normaliser nC ddofF
  rw [subf_apply, constant_apply, sitofp_apply, Cert.Algebra.ofBits_4096]
  exact Cert.Algebra.sub_sitofp_zero

/-- The guard 4096 − 0 > 0 holds. -/
theorem guard_apply (j : S_.Idx) : RefTerm.guard (F := Ideal) j = 1#1 := by
  unfold RefTerm.guard zeroC
  rw [cmpf_apply, normaliser_apply, constant_apply, Ideal.ofBits_zero_f32]
  exact Cert.Algebra.cmp_ogt_4096

/-- The variance at (b, s): the sum of the squared centred entries of the row over the literal 4096
    (the guard holds, so the select takes the quotient). -/
theorem var_apply (X : S4x256x4096.Idx → EReal) (b : Fin 4) (s : Fin 256) (u : Fin 1) :
    RefTerm.var (F := Ideal) X (ix3 b s u)
      = Ideal.div (∑ k : Fin 4096,
            (X (ix3 b s k) - Ideal.div (∑ k : Fin 4096, X (ix3 b s k)) (Ideal.ofBits .f32 0x45800000#32))
              * (X (ix3 b s k) - Ideal.div (∑ k : Fin 4096, X (ix3 b s k)) (Ideal.ofBits .f32 0x45800000#32)))
          (Ideal.ofBits .f32 0x45800000#32) := by
  unfold RefTerm.var varRaw sqSumCol normaliserCol centredSq
  rw [select_apply, broadcastInDim_scalar_apply, guard_apply, select_one, hostDivf_apply, col_apply, reduce_row_apply,
    broadcastInDim_scalar_apply, normaliser_apply, Cert.Algebra.ofBits_4096]
  refine congrArg (fun z => Ideal.div z _) (Finset.sum_congr rfl fun k _ => ?_)
  rw [mulf_apply, centred_apply, Cert.Algebra.ofBits_4096]

/-! ## The two products t @ W -/

theorem lhs_proj_0 (i : S4x4096.Idx) (q : dot_S4x128_S128x4096_S4x4096_1_0_0_1_n_n.contr.Idx) :
    (dot_S4x128_S128x4096_S4x4096_1_0_0_1_n_n.lhsIdx i q 0).val = (i 0).val := by
  unfold DotDims.lhsIdx
  rw [dif_neg (show ¬(0 : Fin S4x128.rank) ∈ dot_S4x128_S128x4096_S4x4096_1_0_0_1_n_n.lhsBatch by decide),
    dif_pos (show (0 : Fin S4x128.rank) ∈ dot_S4x128_S128x4096_S4x4096_1_0_0_1_n_n.lhsNonContracting by decide)]
  rfl
theorem lhs_proj_1 (i : S4x4096.Idx) (q : dot_S4x128_S128x4096_S4x4096_1_0_0_1_n_n.contr.Idx) :
    (dot_S4x128_S128x4096_S4x4096_1_0_0_1_n_n.lhsIdx i q 1).val = (q ⟨0, by decide⟩).val :=
  dot_S4x128_S128x4096_S4x4096_1_0_0_1_n_n.lhsIdx_val_of_single rfl i q
theorem rhs_proj_0 (i : S4x4096.Idx) (q : dot_S4x128_S128x4096_S4x4096_1_0_0_1_n_n.contr.Idx) :
    (dot_S4x128_S128x4096_S4x4096_1_0_0_1_n_n.rhsIdx i q 0).val = (q ⟨0, by decide⟩).val :=
  dot_S4x128_S128x4096_S4x4096_1_0_0_1_n_n.rhsIdx_val_of_single rfl i q
theorem rhs_proj_1 (i : S4x4096.Idx) (q : dot_S4x128_S128x4096_S4x4096_1_0_0_1_n_n.contr.Idx) :
    (dot_S4x128_S128x4096_S4x4096_1_0_0_1_n_n.rhsIdx i q 1).val = (i 1).val := by
  unfold DotDims.rhsIdx
  rw [dif_neg (show ¬(1 : Fin S128x4096.rank) ∈ dot_S4x128_S128x4096_S4x4096_1_0_0_1_n_n.rhsBatch by decide),
    dif_pos (show (1 : Fin S128x4096.rank) ∈ dot_S4x128_S128x4096_S4x4096_1_0_0_1_n_n.rhsNonContracting by decide)]
  rfl

/-- t @ W at (b, ch): the sum over the 128 entries of row b of t against column ch of W. -/
theorem proj_apply (T : S4x128.Idx → EReal) (W : S128x4096.Idx → EReal) (b : Fin 4) (ch : Fin 4096) :
    proj (F := Ideal) T W (ix2 b ch) = ∑ k : Fin 128, T (ix2 b k) * W (ix2 k ch) := by
  unfold proj
  simp only [Host.dotGeneral]
  rw [Ideal.dotGeneral_apply, ← Equiv.sum_comp (ValueIdx.contrEquiv1 dot_S4x128_S128x4096_S4x4096_1_0_0_1_n_n 128 rfl rfl).symm]
  refine Finset.sum_congr rfl fun k _ => ?_
  have hk := ValueIdx.contrEquiv1_symm_val dot_S4x128_S128x4096_S4x4096_1_0_0_1_n_n 128 rfl rfl k
  have el : dot_S4x128_S128x4096_S4x4096_1_0_0_1_n_n.lhsIdx (ix2 b ch) ((ValueIdx.contrEquiv1 dot_S4x128_S128x4096_S4x4096_1_0_0_1_n_n 128 rfl rfl).symm k) = ix2 b k :=
    funext fun a => Fin.ext (by
      match a with
      | ⟨0, _⟩ => exact lhs_proj_0 _ _
      | ⟨1, _⟩ => exact (lhs_proj_1 _ _).trans hk)
  have er : dot_S4x128_S128x4096_S4x4096_1_0_0_1_n_n.rhsIdx (ix2 b ch) ((ValueIdx.contrEquiv1 dot_S4x128_S128x4096_S4x4096_1_0_0_1_n_n 128 rfl rfl).symm k) = ix2 k ch :=
    funext fun a => Fin.ext (by
      match a with
      | ⟨0, _⟩ => exact (rhs_proj_0 _ _).trans hk
      | ⟨1, _⟩ => exact rhs_proj_1 _ _)
  rw [el, er]

/-- The scale 1 + t @ W_scale at (b, s, ch). -/
theorem scaleFull_apply (T : S4x128.Idx → EReal) (Ws : S128x4096.Idx → EReal) (b : Fin 4) (s : Fin 256) (ch : Fin 4096) :
    scaleFull (F := Ideal) T Ws (ix3 b s ch)
      = Ideal.ofBits .f32 0x3F800000#32 + ∑ k : Fin 128, T (ix2 b k) * Ws (ix2 k ch) := by
  unfold scaleFull oneMod proj1 oneC
  rw [rows_apply, addf_apply, broadcastInDim_scalar_apply, constant_apply, mod1_apply, proj_apply]

/-- The shift t @ W_shift at (b, s, ch). -/
theorem shiftFull_apply (T : S4x128.Idx → EReal) (Wsh : S128x4096.Idx → EReal) (b : Fin 4) (s : Fin 256) (ch : Fin 4096) :
    shiftFull (F := Ideal) T Wsh (ix3 b s ch) = ∑ k : Fin 128, T (ix2 b k) * Wsh (ix2 k ch) := by
  unfold shiftFull proj1
  rw [rows_apply, mod1_apply, proj_apply]

/-! ## The normalised entry and the result -/

/-- The host's square root at an index is the extended reals' square root of the element. -/
theorem hostSqrt_apply {s : Shape} {φ : FTy} (a : FVec Ideal s φ) (i : s.Idx) : Host.sqrt a i = Ideal.sqrt (a i) := rfl

/-- The normalised entry at (b, s, ch), in the centred form: the quotient by the square root. -/
theorem h_apply (X : S4x256x4096.Idx → EReal) (b : Fin 4) (s : Fin 256) (ch : Fin 4096) :
    RefTerm.h (F := Ideal) X (ix3 b s ch)
      = Ideal.div (X (ix3 b s ch) - Ideal.div (∑ k : Fin 4096, X (ix3 b s k)) (Ideal.ofBits .f32 0x45800000#32))
          (Ideal.sqrt (Ideal.div (∑ k : Fin 4096,
                (X (ix3 b s k) - Ideal.div (∑ k : Fin 4096, X (ix3 b s k)) (Ideal.ofBits .f32 0x45800000#32))
                  * (X (ix3 b s k) - Ideal.div (∑ k : Fin 4096, X (ix3 b s k)) (Ideal.ofBits .f32 0x45800000#32)))
              (Ideal.ofBits .f32 0x45800000#32)
            + Ideal.ofBits .f32 0x3727C5AC#32)) := by
  unfold RefTerm.h sdFull sd epsCol epsC
  rw [hostDivf_apply, centred_apply, full_apply, hostSqrt_apply, addf_apply, var_apply, broadcastInDim_scalar_apply,
    constant_apply]

/-- The reference's result at (b, s, ch), in the centred form. -/
theorem refVal_apply (X : S4x256x4096.Idx → EReal) (T : S4x128.Idx → EReal) (Ws Wsh : S128x4096.Idx → EReal)
    (b : Fin 4) (s : Fin 256) (ch : Fin 4096) :
    refVal (F := Ideal) X T Ws Wsh (ix3 b s ch)
      = Ideal.div (X (ix3 b s ch) - Ideal.div (∑ k : Fin 4096, X (ix3 b s k)) (Ideal.ofBits .f32 0x45800000#32))
            (Ideal.sqrt (Ideal.div (∑ k : Fin 4096,
                  (X (ix3 b s k) - Ideal.div (∑ k : Fin 4096, X (ix3 b s k)) (Ideal.ofBits .f32 0x45800000#32))
                    * (X (ix3 b s k) - Ideal.div (∑ k : Fin 4096, X (ix3 b s k)) (Ideal.ofBits .f32 0x45800000#32)))
                (Ideal.ofBits .f32 0x45800000#32)
              + Ideal.ofBits .f32 0x3727C5AC#32))
          * (Ideal.ofBits .f32 0x3F800000#32 + ∑ k : Fin 128, T (ix2 b k) * Ws (ix2 k ch))
        + ∑ k : Fin 128, T (ix2 b k) * Wsh (ix2 k ch) := by
  unfold refVal
  rw [addf_apply, mulf_apply, h_apply, scaleFull_apply, shiftFull_apply]

/-- The reference's result at (b, s, ch) when every entry of x is a real number, in the second-moment
    form: the product with the reciprocal square root of Σx²/4096 − mean² + ε. -/
theorem refVal_apply_kform (X : S4x256x4096.Idx → EReal) (T : S4x128.Idx → EReal) (Ws Wsh : S128x4096.Idx → EReal)
    (hX : ∀ i, ∃ r : ℝ, X i = (r : EReal)) (b : Fin 4) (s : Fin 256) (ch : Fin 4096) :
    refVal (F := Ideal) X T Ws Wsh (ix3 b s ch)
      = ((X (ix3 b s ch) - Ideal.div (∑ j : Fin 4096, X (ix3 b s j)) (Ideal.ofBits .f32 0x45800000#32))
          * Ideal.rsqrt (Ideal.div (∑ j : Fin 4096, X (ix3 b s j) * X (ix3 b s j)) (Ideal.ofBits .f32 0x45800000#32)
              - Ideal.div (∑ j : Fin 4096, X (ix3 b s j)) (Ideal.ofBits .f32 0x45800000#32)
                * Ideal.div (∑ j : Fin 4096, X (ix3 b s j)) (Ideal.ofBits .f32 0x45800000#32)
              + Ideal.ofBits .f32 0x3727C5AC#32))
        * (Ideal.ofBits .f32 0x3F800000#32 + ∑ k : Fin 128, T (ix2 b k) * Ws (ix2 k ch))
        + ∑ k : Fin 128, T (ix2 b k) * Wsh (ix2 k ch) := by
  rw [refVal_apply,
    Cert.Algebra.law (ι := Fin 4096) (by simp) (fun k => X (ix3 b s k)) (fun k => hX _) ch]

/-- info: 'Cert.ReferenceIdeal.RefValue.refVal_apply_kform' depends on axioms: [propext, Classical.choice, Quot.sound] -/
#guard_msgs in
#print axioms refVal_apply_kform

end Cert.ReferenceIdeal.RefValue

end
-- ==== Proof.KValue.lean ====
/-
  The kernel's result block, read at the exact values, is the device's block of the reference's result.

  Each payload is read at an index: the lane sums of a block and of its squares, the two matrix products with a
  block of a weight, the two accumulations (own partial sums plus the three received along the column group, then plus
  the seven received along the row group), the mean and the sums of squares taken from the totals, and the output
  formula. The two rounds of the exchange reach every one of the 32 devices exactly once, so the totals are the sums over
  all 32 blocks of 128 channels, that is over the 4096 channels of the whole array. The join with the reference's
  result at the same index is the variance law for finite entries.
-/
import proofs.«900767_g7700000000000768_dist_diff_adaln_cshard_i_b4_s256_c128_v7x_i32_bf16_1_alg».proof.Proof.Gen.KernelIdeal.Skeleton
import proofs.«900767_g7700000000000768_dist_diff_adaln_cshard_i_b4_s256_c128_v7x_i32_bf16_1_alg».proof.Proof.Mesh
import proofs.«900767_g7700000000000768_dist_diff_adaln_cshard_i_b4_s256_c128_v7x_i32_bf16_1_alg».proof.Proof.RefValue
import Idealize.ShloMosaic.Lib.Layout
import Idealize.ShloMosaic.Lib.ValueIdx
import Idealize.ShloMosaic.Lib.Pipeline.Value
import Idealize.ShloMosaic.Lib.ValueLayout
import Idealize.ShloMosaic.PureOps.Ideal.Laws
import Mathlib.Algebra.BigOperators.Fin
import Mathlib.Data.Fintype.Prod

noncomputable section

open scoped BigOperators

namespace Cert.KernelIdeal.KValue

open Idealize.ShloMosaic Idealize.ShloMosaic.ValueIdx Cert.Mesh Cert.KernelIdeal Cert.KernelIdeal.Gen

/-- The first payload is a shape cast to the same shape: the identity. -/
theorem pay1_eq (v : Vec Ideal S4x256x128 .f32) : k0_pay1 v = v := by
  unfold k0_pay1; exact shapeCast_self _ _

/-- The lane sum of a block at (r, s). -/
theorem pay2_apply (v : Vec Ideal S4x256x128 .f32) (r : Fin 4) (s : Fin 256) :
    k0_pay2 v (ix2 r s) = ∑ l : Fin 128, v (ix3 r s l) := by
  unfold k0_pay2
  rw [shapeCast_self, pay1_eq]
  refine (Ideal.multiReduction_add_single v 0x00000000#32 reduces_S4x256x128_S4x256 (.inl rfl) rfl (ix2 r s)).trans ?_
  refine Finset.sum_congr rfl fun l _ => congrArg v ?_
  funext a; match a with | ⟨0, _⟩ => rfl | ⟨1, _⟩ => rfl | ⟨2, _⟩ => rfl

/-- The lane sum of the squares of a block at (r, s). -/
theorem pay3_apply (v : Vec Ideal S4x256x128 .f32) (r : Fin 4) (s : Fin 256) :
    k0_pay3 v (ix2 r s) = ∑ l : Fin 128, v (ix3 r s l) * v (ix3 r s l) := by
  unfold k0_pay3
  rw [shapeCast_self, pay1_eq]
  refine (Ideal.multiReduction_add_single (mulf v v) 0x00000000#32 reduces_S4x256x128_S4x256 (.inl rfl) rfl (ix2 r s)).trans ?_
  refine Finset.sum_congr rfl fun l _ => ?_
  rw [mulf_apply]
  congr 1 <;> (refine congrArg v ?_; funext a; match a with | ⟨0, _⟩ => rfl | ⟨1, _⟩ => rfl | ⟨2, _⟩ => rfl)

/-! ## The matmul of the conditioning vector with a block of a weight -/

/-- The dot record of `t @ W`: contract axis 1 of the left with axis 0 of the right. -/
abbrev D := dot_S4x128_S128x128_S4x128_1_0_0_1_n_n

theorem D_lhs_0 (j : S4x128.Idx) (k : D.contr.Idx) : (D.lhsIdx j k 0).val = (j 0).val := by
  unfold DotDims.lhsIdx
  rw [dif_neg (show ¬ (0 : Fin S4x128.rank) ∈ D.lhsBatch by decide),
    dif_pos (show (0 : Fin S4x128.rank) ∈ D.lhsNonContracting by decide)]
  rfl

theorem D_lhs_1 (j : S4x128.Idx) (k : D.contr.Idx) : (D.lhsIdx j k 1).val = (k ⟨0, by decide⟩).val :=
  D.lhsIdx_val_of_single (cl := 1) rfl j k

theorem D_rhs_0 (j : S4x128.Idx) (k : D.contr.Idx) : (D.rhsIdx j k 0).val = (k ⟨0, by decide⟩).val :=
  D.rhsIdx_val_of_single (cr := 0) rfl j k

theorem D_rhs_1 (j : S4x128.Idx) (k : D.contr.Idx) : (D.rhsIdx j k 1).val = (j 1).val := by
  unfold DotDims.rhsIdx
  rw [dif_neg (show ¬ (1 : Fin S128x128.rank) ∈ D.rhsBatch by decide),
    dif_pos (show (1 : Fin S128x128.rank) ∈ D.rhsNonContracting by decide)]
  rfl

/-- The matmul into the zero accumulator, read at (b, l): the sum over the 128 conditioning channels. -/
theorem matmul_apply (t : FVec Ideal S4x128 .f32) (w : FVec Ideal S128x128 .f32) (b : Fin 4) (l : Fin 128) :
    (matmul (F := Ideal) D none t w (constant (F := Ideal) S4x128 .f32 0x00000000#32) : FVec Ideal S4x128 .f32) (ix2 b l)
      = ∑ k : Fin 128, t (ix2 b k) * w (ix2 k l) := by
  refine (Ideal.matmul_constant_zero_apply D none t w (ix2 b l)).trans ?_
  rw [← Equiv.sum_comp (contrEquiv1 D 128 rfl rfl).symm]
  refine Finset.sum_congr rfl fun k _ => ?_
  congr 1
  · refine congrArg t (funext fun a => Fin.ext ?_)
    match a with
    | ⟨0, _⟩ => exact D_lhs_0 _ _
    | ⟨1, _⟩ => exact (D_lhs_1 _ _).trans (contrEquiv1_symm_val D 128 rfl rfl k)
  · refine congrArg w (funext fun a => Fin.ext ?_)
    match a with
    | ⟨0, _⟩ => exact (D_rhs_0 _ _).trans (contrEquiv1_symm_val D 128 rfl rfl k)
    | ⟨1, _⟩ => exact D_rhs_1 _ _

theorem pay5_apply (t : Vec Ideal S4x128 .f32) (w : Vec Ideal S128x128 .f32) (b : Fin 4) (l : Fin 128) :
    k0_pay5 t w (ix2 b l) = ∑ k : Fin 128, t (ix2 b k) * w (ix2 k l) := by
  unfold k0_pay5 k0_pay4
  rw [shapeCast_self, shapeCast_self]
  exact matmul_apply t w b l

theorem pay6_apply (t : Vec Ideal S4x128 .f32) (w : Vec Ideal S128x128 .f32) (b : Fin 4) (l : Fin 128) :
    k0_pay6 t w (ix2 b l) = ∑ k : Fin 128, t (ix2 b k) * w (ix2 k l) := by
  unfold k0_pay6 k0_pay4
  rw [shapeCast_self, shapeCast_self]
  exact matmul_apply t w b l

/-! ## The two accumulations -/

/-- Own partial sums plus the three received ones. -/
theorem pay7_apply (m : Vec Ideal S8x256 .f32) (z : Vec Ideal S3x8x256 .f32) (r : Fin 8) (s : Fin 256) :
    k0_pay7 m z (ix2 r s) = m (ix2 r s) + ∑ k : Fin 3, z (ix3 k r s) := by
  unfold k0_pay7
  rw [shapeCast_self, addf_apply]
  congr 1
  refine (Ideal.multiReduction_add_single z 0x00000000#32 reduces_S3x8x256_S8x256 (.inl rfl) rfl (ix2 r s)).trans ?_
  refine Finset.sum_congr rfl fun k _ => congrArg z ?_
  funext a; match a with | ⟨0, _⟩ => rfl | ⟨1, _⟩ => rfl | ⟨2, _⟩ => rfl

/-- Own column sums plus the seven received ones. -/
theorem pay8_apply (m : Vec Ideal S8x256 .f32) (p : Vec Ideal S7x8x256 .f32) (r : Fin 8) (s : Fin 256) :
    k0_pay8 m p (ix2 r s) = m (ix2 r s) + ∑ k : Fin 7, p (ix3 k r s) := by
  unfold k0_pay8
  rw [addf_apply]
  congr 1
  refine (Ideal.multiReduction_add_single p 0x00000000#32 reduces_S7x8x256_S8x256 (.inl rfl) rfl (ix2 r s)).trans ?_
  refine Finset.sum_congr rfl fun k _ => congrArg p ?_
  funext a; match a with | ⟨0, _⟩ => rfl | ⟨1, _⟩ => rfl | ⟨2, _⟩ => rfl

/-- The mean: rows 0–3 of the totals over 4096. -/
theorem pay9_apply (m : Vec Ideal S8x256 .f32) (p : Vec Ideal S7x8x256 .f32) (b : Fin 4) (s : Fin 256) :
    k0_pay9 m p (ix2 b s)
      = Ideal.div (k0_pay8 m p (ix2 (⟨b.val, by omega⟩ : Fin 8) s)) (Ideal.ofBits .f32 0x45800000#32) := by
  unfold k0_pay9
  rw [divf_apply, broadcast_apply]
  congr 1
  exact extractStridedSlice_apply _ _ _ (ix2 b s) (ix2 (⟨b.val, by omega⟩ : Fin 8) s)
    (fun a => match a with | ⟨0, _⟩ => (Nat.zero_add _).symm | ⟨1, _⟩ => (Nat.zero_add _).symm)

/-- The sums of squares: rows 4–7 of the totals. -/
theorem pay10_apply (m : Vec Ideal S8x256 .f32) (p : Vec Ideal S7x8x256 .f32) (b : Fin 4) (s : Fin 256) :
    k0_pay10 m p (ix2 b s) = k0_pay8 m p (ix2 (⟨b.val + 4, by omega⟩ : Fin 8) s) := by
  unfold k0_pay10
  exact extractStridedSlice_apply _ _ _ (ix2 b s) (ix2 (⟨b.val + 4, by omega⟩ : Fin 8) s)
    (fun a => match a with | ⟨0, _⟩ => Nat.add_comm _ _ | ⟨1, _⟩ => (Nat.zero_add _).symm)

/-! ## The output formula -/

/-- A per-(b, s) value as a column [4,256,1]. -/
theorem cast_col_apply (v : Vec Ideal S4x256 .f32) (h : S4x256.ShapeCasts S4x256x1) (b : Fin 4) (s : Fin 256) (z : Fin 1) :
    shapeCast S4x256x1 v h (ix3 b s z) = v (ix2 b s) := by
  refine shapeCast_apply v h (ix3 b s z) (ix2 b s) ?_
  rw [Shape.rowMajor_val_two, Shape.rowMajor_val_three]
  show b.val * 256 + s.val = (b.val * 256 + s.val) * 1 + z.val
  omega

/-- A per-(b, l) value as a row [4,1,128]. -/
theorem cast_row_apply (v : Vec Ideal S4x128 .f32) (h : S4x128.ShapeCasts S4x1x128) (b : Fin 4) (z : Fin 1) (l : Fin 128) :
    shapeCast S4x1x128 v h (ix3 b z l) = v (ix2 b l) := by
  refine shapeCast_apply v h (ix3 b z l) (ix2 b l) ?_
  rw [Shape.rowMajor_val_two, Shape.rowMajor_val_three]
  show b.val * 128 + l.val = (b.val * 1 + z.val) * 128 + l.val
  omega

/-- A column broadcast along the lanes. -/
theorem bcast_col_apply (v : Vec Ideal S4x256x1 .f32) (h : S4x256x1.Broadcasts S4x256x128) (b : Fin 4) (s : Fin 256) (l : Fin 128) :
    broadcastTo S4x256x128 v h (ix3 b s l) = v (ix3 b s (0 : Fin 1)) :=
  broadcastTo_apply v h (ix3 b s l) (ix3 b s (0 : Fin 1))
    (fun a => match a with | ⟨0, _⟩ => rfl | ⟨1, _⟩ => rfl | ⟨2, _⟩ => rfl)

/-- A row broadcast along the sequence positions. -/
theorem bcast_row_apply (v : Vec Ideal S4x1x128 .f32) (h : S4x1x128.Broadcasts S4x256x128) (b : Fin 4) (s : Fin 256) (l : Fin 128) :
    broadcastTo S4x256x128 v h (ix3 b s l) = v (ix3 b (0 : Fin 1) l) :=
  broadcastTo_apply v h (ix3 b s l) (ix3 b (0 : Fin 1) l)
    (fun a => match a with | ⟨0, _⟩ => rfl | ⟨1, _⟩ => rfl | ⟨2, _⟩ => rfl)

/-- The output formula at (b, s, l). -/
theorem pay11_apply (x : Vec Ideal S4x256x128 .f32) (sc sh : Vec Ideal S4x128 .f32) (mean sq : Vec Ideal S4x256 .f32)
    (K : Ideal .f32) (b : Fin 4) (s : Fin 256) (l : Fin 128) :
    k0_pay11 x sc sh mean sq K (ix3 b s l)
      = ((x (ix3 b s l) - mean (ix2 b s))
          * Ideal.rsqrt (Ideal.div (sq (ix2 b s)) K - mean (ix2 b s) * mean (ix2 b s) + Ideal.ofBits .f32 0x3727C5AC#32))
        * (Ideal.ofBits .f32 0x3F800000#32 + sc (ix2 b l))
        + sh (ix2 b l) := by
  unfold k0_pay11
  rw [addf_apply, mulf_apply, mulf_apply, subf_apply, bcast_col_apply, bcast_col_apply, bcast_row_apply, bcast_row_apply,
    cast_col_apply, cast_col_apply, cast_row_apply, addf_apply, broadcast_apply, cast_row_apply]
  rfl

/-! ## The two rounds of the exchange reach every device once -/

/-- Device c and the seven devices whose row copies land on it, in slot order. -/
def rowSrc (c : Fin 32) : Fin 8 → Fin 32 :=
  Fin.cases c (fun j : Fin 7 => src c ⟨j.val + 3, by omega⟩)

/-- Device d and the three devices whose column copies land on it, in slot order. -/
def colSrc (d : Fin 32) : Fin 4 → Fin 32 :=
  Fin.cases d (fun k : Fin 3 => src d ⟨k.val, by omega⟩)

/-- Every device is reached exactly once as a column source of a row source of c. -/
theorem dev_bij : ∀ c : Fin 32, Function.Bijective (fun p : Fin 8 × Fin 4 => colSrc (rowSrc c p.1) p.2) := by
  decide +kernel

/-- A sum over the 32 devices, grouped as device c gathers it: over its row sources, each over its column sources. -/
theorem sum_mesh {M : Type*} [AddCommMonoid M] (f : Fin 32 → M) (c : Fin 32) :
    ∑ j : Fin 8, ∑ k : Fin 4, f (colSrc (rowSrc c j) k) = ∑ d, f d := by
  rw [← Fintype.sum_prod_type' (fun j k => f (colSrc (rowSrc c j) k))]
  exact Fintype.sum_bijective _ (dev_bij c) _ _ (fun _ => rfl)

/-- The same with the own terms split off, as the two accumulations add them. -/
theorem sum_mesh' {M : Type*} [AddCommMonoid M] (f : Fin 32 → M) (c : Fin 32) :
    (f c + ∑ k : Fin 3, f (src c ⟨k.val, by omega⟩))
      + ∑ j : Fin 7, (f (src c ⟨j.val + 3, by omega⟩) + ∑ k : Fin 3, f (src (src c ⟨j.val + 3, by omega⟩) ⟨k.val, by omega⟩))
      = ∑ d, f d := by
  refine Eq.trans ?_ (sum_mesh f c)
  refine Eq.trans ?_ (Fin.sum_univ_succ (fun j : Fin 8 => ∑ k : Fin 4, f (colSrc (rowSrc c j) k))).symm
  refine congrArg₂ (· + ·) ?_ (Finset.sum_congr rfl fun j _ => ?_)
  · exact (Fin.sum_univ_succ (fun k : Fin 4 => f (colSrc (rowSrc c 0) k))).symm
  · exact (Fin.sum_univ_succ (fun k : Fin 4 => f (colSrc (rowSrc c j.succ) k))).symm

/-- The 4096 channels are the 32 blocks of 128. -/
theorem sum_regroup {M : Type*} [AddCommMonoid M] (g : Fin 4096 → M) :
    ∑ d : Fin 32, ∑ l : Fin 128, g ⟨128 * d.val + l.val, by omega⟩ = ∑ j : Fin 4096, g j := by
  rw [← Fintype.sum_prod_type' (fun (d : Fin 32) (l : Fin 128) => g ⟨128 * d.val + l.val, by omega⟩)]
  exact Fintype.sum_equiv (finProdFinEquiv (m := 32) (n := 128)) _ _
    (fun p => congrArg g (Fin.ext (by show 128 * p.1.val + p.2.val = p.2.val + 128 * p.1.val; omega)))

/-! ## A device's blocks read at an index -/

theorem xblock_apply (X : (⟨⟨3, ![4, 256, 4096]⟩, .f32⟩ : BufTy).Contents (Elt Ideal)) (d : Fin 32)
    (b : Fin 4) (s : Fin 256) (l : Fin 128) :
    (Layout.block ⟨3, ![4, 256, 128]⟩ ⟨3, ![4, 256, 4096]⟩ 2 32 d X) (ix3 b s l)
      = X (ix3 b s (⟨128 * d.val + l.val, by omega⟩ : Fin 4096)) := by
  rw [Layout.block_apply]
  refine congrArg X (funext fun a => Fin.ext ?_)
  match a with
  | ⟨0, _⟩ => rfl
  | ⟨1, _⟩ => rfl
  | ⟨2, _⟩ => show d.val * 128 + l.val = 128 * d.val + l.val; omega

theorem wblock_apply (W : (⟨⟨2, ![128, 4096]⟩, .f32⟩ : BufTy).Contents (Elt Ideal)) (d : Fin 32)
    (k : Fin 128) (l : Fin 128) :
    (Layout.block ⟨2, ![128, 128]⟩ ⟨2, ![128, 4096]⟩ 1 32 d W) (ix2 k l)
      = W (ix2 k (⟨128 * d.val + l.val, by omega⟩ : Fin 4096)) := by
  rw [Layout.block_apply]
  refine congrArg W (funext fun a => Fin.ext ?_)
  match a with
  | ⟨0, _⟩ => rfl
  | ⟨1, _⟩ => show d.val * 128 + l.val = 128 * d.val + l.val; omega

/-! ## The totals a device ends with: the sums over all 32 devices -/

theorem tot_apply (mine col : Fin 32 → Vec Ideal S8x256 .f32) (cz : Fin 32 → Vec Ideal S3x8x256 .f32)
    (cp : Fin 32 → Vec Ideal S7x8x256 .f32)
    (hcz : ∀ c (k : Fin 3) (r : Fin 8) (s : Fin 256), cz c (ix3 k r s) = mine (src c ⟨k.val, by omega⟩) (ix2 r s))
    (hcol : ∀ c, col c = k0_pay7 (mine c) (cz c))
    (hcp : ∀ c (j : Fin 7) (r : Fin 8) (s : Fin 256), cp c (ix3 j r s) = col (src c ⟨j.val + 3, by omega⟩) (ix2 r s))
    (c : Fin 32) (r : Fin 8) (s : Fin 256) :
    k0_pay8 (col c) (cp c) (ix2 r s) = ∑ d, mine d (ix2 r s) := by
  have hc : ∀ d, col d (ix2 r s) = mine d (ix2 r s) + ∑ k : Fin 3, mine (src d ⟨k.val, by omega⟩) (ix2 r s) := by
    intro d
    rw [hcol d, pay7_apply]
    exact congrArg _ (Finset.sum_congr rfl fun k _ => hcz d k r s)
  rw [pay8_apply, ← sum_mesh' (M := EReal) (fun d => mine d (ix2 r s)) c, hc c]
  exact congrArg _ (Finset.sum_congr rfl fun j _ => by rw [hcp c j r s, hc])

/-! ## The kernel's result block at an index -/

/-- Device c's result at (b, s, l), in the whole arrays: the normalised entry of channel 128·c + l, with the mean and the
    mean of squares taken over all 4096 channels, scaled and shifted by the conditioning vector's products with column
    128·c + l of the two weights. -/
theorem out_apply
    (X : (⟨⟨3, ![4, 256, 4096]⟩, .f32⟩ : BufTy).Contents (Elt Ideal)) (T : (⟨⟨2, ![4, 128]⟩, .f32⟩ : BufTy).Contents (Elt Ideal))
    (Ws Wsh : (⟨⟨2, ![128, 4096]⟩, .f32⟩ : BufTy).Contents (Elt Ideal))
    (xb : Fin 32 → Vec Ideal S4x256x128 .f32)
    (hxb : ∀ d, xb d = Layout.block ⟨3, ![4, 256, 128]⟩ ⟨3, ![4, 256, 4096]⟩ 2 32 d X)
    (wsb wshb : Fin 32 → Vec Ideal S128x128 .f32)
    (hwsb : ∀ d, wsb d = Layout.block ⟨2, ![128, 128]⟩ ⟨2, ![128, 4096]⟩ 1 32 d Ws)
    (hwshb : ∀ d, wshb d = Layout.block ⟨2, ![128, 128]⟩ ⟨2, ![128, 4096]⟩ 1 32 d Wsh)
    (mine col : Fin 32 → Vec Ideal S8x256 .f32) (cz : Fin 32 → Vec Ideal S3x8x256 .f32) (cp : Fin 32 → Vec Ideal S7x8x256 .f32)
    (hmine_lo : ∀ d (r : Fin 4) (s : Fin 256), mine d (ix2 (⟨r.val, by omega⟩ : Fin 8) s) = k0_pay2 (xb d) (ix2 r s))
    (hmine_hi : ∀ d (r : Fin 4) (s : Fin 256), mine d (ix2 (⟨r.val + 4, by omega⟩ : Fin 8) s) = k0_pay3 (xb d) (ix2 r s))
    (hcz : ∀ c (k : Fin 3) (r : Fin 8) (s : Fin 256), cz c (ix3 k r s) = mine (src c ⟨k.val, by omega⟩) (ix2 r s))
    (hcol : ∀ c, col c = k0_pay7 (mine c) (cz c))
    (hcp : ∀ c (j : Fin 7) (r : Fin 8) (s : Fin 256), cp c (ix3 j r s) = col (src c ⟨j.val + 3, by omega⟩) (ix2 r s))
    (c : Fin 32) (b : Fin 4) (s : Fin 256) (l : Fin 128) :
    k0_pay11 (k0_pay1 (xb c)) (k0_pay5 T (wsb c)) (k0_pay6 T (wshb c)) (k0_pay9 (col c) (cp c)) (k0_pay10 (col c) (cp c))
        (Scalar.ofBits .f32 0x45800000#32) (ix3 b s l)
      = ((X (ix3 b s (⟨128 * c.val + l.val, by omega⟩ : Fin 4096))
            - Ideal.div (∑ j : Fin 4096, X (ix3 b s j)) (Ideal.ofBits .f32 0x45800000#32))
          * Ideal.rsqrt (Ideal.div (∑ j : Fin 4096, X (ix3 b s j) * X (ix3 b s j)) (Ideal.ofBits .f32 0x45800000#32)
              - Ideal.div (∑ j : Fin 4096, X (ix3 b s j)) (Ideal.ofBits .f32 0x45800000#32)
                * Ideal.div (∑ j : Fin 4096, X (ix3 b s j)) (Ideal.ofBits .f32 0x45800000#32)
              + Ideal.ofBits .f32 0x3727C5AC#32))
        * (Ideal.ofBits .f32 0x3F800000#32 + ∑ k : Fin 128, T (ix2 b k) * Ws (ix2 k (⟨128 * c.val + l.val, by omega⟩ : Fin 4096)))
        + ∑ k : Fin 128, T (ix2 b k) * Wsh (ix2 k (⟨128 * c.val + l.val, by omega⟩ : Fin 4096)) := by
  have h1 : ∑ d, mine d (ix2 (⟨b.val, by omega⟩ : Fin 8) s) = ∑ j : Fin 4096, X (ix3 b s j) := by
    rw [← sum_regroup (M := EReal) (fun j => X (ix3 b s j))]
    refine Finset.sum_congr rfl fun d _ => ?_
    rw [hmine_lo d b s, pay2_apply]
    exact Finset.sum_congr rfl fun l' _ => by rw [hxb d, xblock_apply]
  have h2 : ∑ d, mine d (ix2 (⟨b.val + 4, by omega⟩ : Fin 8) s) = ∑ j : Fin 4096, X (ix3 b s j) * X (ix3 b s j) := by
    rw [← sum_regroup (M := EReal) (fun j => X (ix3 b s j) * X (ix3 b s j))]
    refine Finset.sum_congr rfl fun d _ => ?_
    rw [hmine_hi d b s, pay3_apply]
    exact Finset.sum_congr rfl fun l' _ => by rw [hxb d, xblock_apply]
  rw [pay11_apply, pay1_eq, pay5_apply, pay6_apply, pay9_apply, pay10_apply,
    tot_apply mine col cz cp hcz hcol hcp, tot_apply mine col cz cp hcz hcol hcp, h1, h2, hxb c, xblock_apply]
  have h3 : ∀ k : Fin 128, wsb c (ix2 k l) = Ws (ix2 k (⟨128 * c.val + l.val, by omega⟩ : Fin 4096)) :=
    fun k => by rw [hwsb c, wblock_apply]
  have h4 : ∀ k : Fin 128, wshb c (ix2 k l) = Wsh (ix2 k (⟨128 * c.val + l.val, by omega⟩ : Fin 4096)) :=
    fun k => by rw [hwshb c, wblock_apply]
  simp only [h3, h4]
  rfl

/-! ## The kernel's result block is the device's block of the reference's result -/

theorem out_eq
    (X : (⟨⟨3, ![4, 256, 4096]⟩, .f32⟩ : BufTy).Contents (Elt Ideal)) (T : (⟨⟨2, ![4, 128]⟩, .f32⟩ : BufTy).Contents (Elt Ideal))
    (Ws Wsh : (⟨⟨2, ![128, 4096]⟩, .f32⟩ : BufTy).Contents (Elt Ideal))
    (hX : ∀ i, ∃ r : ℝ, X i = (r : EReal))
    (xb : Fin 32 → Vec Ideal S4x256x128 .f32)
    (hxb : ∀ d, xb d = Layout.block ⟨3, ![4, 256, 128]⟩ ⟨3, ![4, 256, 4096]⟩ 2 32 d X)
    (wsb wshb : Fin 32 → Vec Ideal S128x128 .f32)
    (hwsb : ∀ d, wsb d = Layout.block ⟨2, ![128, 128]⟩ ⟨2, ![128, 4096]⟩ 1 32 d Ws)
    (hwshb : ∀ d, wshb d = Layout.block ⟨2, ![128, 128]⟩ ⟨2, ![128, 4096]⟩ 1 32 d Wsh)
    (mine col : Fin 32 → Vec Ideal S8x256 .f32) (cz : Fin 32 → Vec Ideal S3x8x256 .f32) (cp : Fin 32 → Vec Ideal S7x8x256 .f32)
    (hmine_lo : ∀ d (r : Fin 4) (s : Fin 256), mine d (ix2 (⟨r.val, by omega⟩ : Fin 8) s) = k0_pay2 (xb d) (ix2 r s))
    (hmine_hi : ∀ d (r : Fin 4) (s : Fin 256), mine d (ix2 (⟨r.val + 4, by omega⟩ : Fin 8) s) = k0_pay3 (xb d) (ix2 r s))
    (hcz : ∀ c (k : Fin 3) (r : Fin 8) (s : Fin 256), cz c (ix3 k r s) = mine (src c ⟨k.val, by omega⟩) (ix2 r s))
    (hcol : ∀ c, col c = k0_pay7 (mine c) (cz c))
    (hcp : ∀ c (j : Fin 7) (r : Fin 8) (s : Fin 256), cp c (ix3 j r s) = col (src c ⟨j.val + 3, by omega⟩) (ix2 r s))
    (c : Fin 32) :
    k0_pay11 (k0_pay1 (xb c)) (k0_pay5 T (wsb c)) (k0_pay6 T (wshb c)) (k0_pay9 (col c) (cp c)) (k0_pay10 (col c) (cp c))
        (Scalar.ofBits .f32 0x45800000#32)
      = Layout.block ⟨3, ![4, 256, 128]⟩ ⟨3, ![4, 256, 4096]⟩ 2 32 c
          (Cert.ReferenceIdeal.RefTerm.refVal (F := Ideal) X T Ws Wsh) := by
  funext i
  obtain ⟨b, s, l, rfl⟩ : ∃ (b : Fin 4) (s : Fin 256) (l : Fin 128), i = ix3 b s l := ⟨i 0, i 1, i 2, eq_ix3 i⟩
  rw [out_apply X T Ws Wsh xb hxb wsb wshb hwsb hwshb mine col cz cp hmine_lo hmine_hi hcz hcol hcp c b s l,
    xblock_apply, Cert.ReferenceIdeal.RefValue.refVal_apply_kform X T Ws Wsh hX b s _]

/-- info: 'Cert.KernelIdeal.KValue.out_eq' depends on axioms: [propext, Classical.choice, Quot.sound] -/
#guard_msgs in #print axioms out_eq

end Cert.KernelIdeal.KValue
-- ==== Proof.Finite.lean ====
/-
  From the precondition to finiteness: the predicate of a device's four argument buffers is the
  conjunction of four "all entries have |·| < +∞"; at the extended reals an entry with |x| < ⊤ is a
  real number. The whole array, cut along its last axis into 32 blocks of 128 columns, has every
  entry in some block (entry (b, s, k) is entry (b, s, k % 128) of block k / 128), so it is real
  everywhere once every block is.
-/
import proofs.«900767_g7700000000000768_dist_diff_adaln_cshard_i_b4_s256_c128_v7x_i32_bf16_1_alg».proof.Defs
import proofs.«900767_g7700000000000768_dist_diff_adaln_cshard_i_b4_s256_c128_v7x_i32_bf16_1_alg».proof.Proof.Gen.Pre_finite_inputs_Kernel
import Idealize.ShloMosaic.Lib.ReduceAll
import Idealize.ShloMosaic.Lib.ValueIdx
import Idealize.ShloMosaic.Lib.Layout
import Idealize.ShloMosaic.PureOps.Ideal

namespace Cert.Finite

open Idealize.ShloMosaic

instance : Subsingleton Cert.Pre_finite_inputs_Kernel.S_.Idx := ⟨fun a b => funext fun d => d.elim0⟩

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 denotes +∞. -/
theorem ofBits_inf : Ideal.ofBits .f32 0x7F800000#32 = (⊤ : EReal) := by
  simp [Ideal.ofBits, Ideal.ieee]

/-- The element fact a comparison `|x| < +∞` that came out 1 states. -/
theorem real_of_cmp (x : EReal)
    (h : Ideal.cmp CmpFPredicate.olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- One device's x block is finite when the predicate holds of its four buffers. -/
theorem block_finite [Cert.Pre_finite_inputs_Kernel.Facts]
    (x : (⟨⟨3, ![4, 256, 128]⟩, .f32⟩ : BufTy).Contents (Elt Ideal)) (t : (⟨⟨2, ![4, 128]⟩, .f32⟩ : BufTy).Contents (Elt Ideal))
    (ws wsh : (⟨⟨2, ![128, 128]⟩, .f32⟩ : BufTy).Contents (Elt Ideal))
    (h : Cert.Pre_finite_inputs_Kernel.fn (F := Ideal) x t ws wsh = fun _ => 1#1) : ∀ i, ∃ r : ℝ, x i = (r : EReal) := by
  intro i
  have h0 := congrFun h ValueIdx.ix0
  dsimp only [Cert.Pre_finite_inputs_Kernel.fn, Cert.Pre_finite_inputs_Kernel.fn_part1, Idealize.ShloMosaic.andi] at h0
  have h1 := (IntOp.andi_eq_one.1 (IntOp.andi_eq_one.1 (IntOp.andi_eq_one.1 h0).1).1).1
  have h2 := Host.reduce_andi_all _ _ _ _ _ h1 i
  dsimp only [cmpf, Host.absf, broadcastInDim, constant] at h2
  exact real_of_cmp (x i) h2

/-- The other three buffers of a device are finite as well when the predicate holds. -/
theorem block_finite_rest [Cert.Pre_finite_inputs_Kernel.Facts]
    (x : (⟨⟨3, ![4, 256, 128]⟩, .f32⟩ : BufTy).Contents (Elt Ideal)) (t : (⟨⟨2, ![4, 128]⟩, .f32⟩ : BufTy).Contents (Elt Ideal))
    (ws wsh : (⟨⟨2, ![128, 128]⟩, .f32⟩ : BufTy).Contents (Elt Ideal))
    (h : Cert.Pre_finite_inputs_Kernel.fn (F := Ideal) x t ws wsh = fun _ => 1#1) :
    (∀ i, ∃ r : ℝ, t i = (r : EReal)) ∧ (∀ i, ∃ r : ℝ, ws i = (r : EReal)) ∧ (∀ i, ∃ r : ℝ, wsh i = (r : EReal)) := by
  have h0 := congrFun h ValueIdx.ix0
  dsimp only [Cert.Pre_finite_inputs_Kernel.fn, Cert.Pre_finite_inputs_Kernel.fn_part1, Idealize.ShloMosaic.andi] at h0
  obtain ⟨h123, h4⟩ := IntOp.andi_eq_one.1 h0
  obtain ⟨h12, h3⟩ := IntOp.andi_eq_one.1 h123
  obtain ⟨_, h2⟩ := IntOp.andi_eq_one.1 h12
  refine ⟨fun i => ?_, fun i => ?_, fun i => ?_⟩
  · have e := Host.reduce_andi_all _ _ _ _ _ h2 i
    dsimp only [cmpf, Host.absf, broadcastInDim, constant] at e
    exact real_of_cmp (t i) e
  · have e := Host.reduce_andi_all _ _ _ _ _ h3 i
    dsimp only [cmpf, Host.absf, broadcastInDim, constant] at e
    exact real_of_cmp (ws i) e
  · have e := Host.reduce_andi_all _ _ _ _ _ h4 i
    dsimp only [cmpf, Host.absf, broadcastInDim, constant] at e
    exact real_of_cmp (wsh i) e

/-- The whole array is finite when each of its 32 blocks along dimension 2 is. -/
theorem whole_finite (X : (⟨⟨3, ![4, 256, 4096]⟩, .f32⟩ : BufTy).Contents (Elt Ideal))
    (h : ∀ c : Fin 32, ∀ i, ∃ r : ℝ, (Layout.block ⟨3, ![4, 256, 128]⟩ ⟨3, ![4, 256, 4096]⟩ 2 32 c X) i = (r : EReal)) :
    ∀ i, ∃ r : ℝ, X i = (r : EReal) := by
  intro i
  have hi2 : (i 2).val < 4096 := (i 2).isLt
  obtain ⟨r, hr⟩ := h ⟨(i 2).val / 128, by omega⟩ (ValueIdx.ix3 (i 0) (i 1) ⟨(i 2).val % 128, Nat.mod_lt _ (by norm_num)⟩)
  refine ⟨r, ?_⟩
  rw [Layout.block_apply] at hr
  rw [← hr]
  congr 1
  funext b
  apply Fin.ext
  rw [Layout.Tiles.idx_val]
  match b with
  | ⟨0, _⟩ => rfl
  | ⟨1, _⟩ => rfl
  | ⟨2, _⟩ =>
    show (i 2).val = (i 2).val / 128 * 128 + (i 2).val % 128
    omega

open Idealize.SL.Sem in
/-- From the kernel's precondition on a memory whose x buffers are the 32 blocks of a whole array X:
    every entry of X is a real number. -/
theorem finite_of_pre [hF : Cert.Pre_finite_inputs_Kernel.Facts]
    (m : (ℓ : Loc Cert.KernelIdeal.nD Cert.KernelIdeal.τ Cert.KernelIdeal.sig) → Buf (Elt Ideal) ℓ)
    (X : (⟨⟨3, ![4, 256, 4096]⟩, .f32⟩ : BufTy).Contents (Elt Ideal))
    (hpre : Cert.Pre_KernelIdeal m)
    (hblk : ∀ c : Dev Cert.KernelIdeal.nD,
      m ((c.tc : Thread Cert.KernelIdeal.nD Cert.KernelIdeal.τ).loc Cert.KernelIdeal.main_arg0)
        = Layout.block ⟨3, ![4, 256, 128]⟩ ⟨3, ![4, 256, 4096]⟩ 2 32 c X) :
    ∀ i, ∃ r : ℝ, X i = (r : EReal) := by
  refine whole_finite X fun c i => ?_
  have h := block_finite _ _ _ _ (hpre c) i
  rw [hblk c] at h
  exact h

open Idealize.SL.Sem in
/-- The same in the form the comparison with the one-device program states it: the whole array is the
    one-device program's first argument, of which each device's first buffer is its block. -/
theorem finite_of_agree [hF : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hblk : ∀ c : Dev Cert.KernelIdeal.nD,
      m ((c.tc : Thread Cert.KernelIdeal.nD Cert.KernelIdeal.τ).loc Cert.KernelIdeal.main_arg0)
        = Layout.block ⟨3, ![4, 256, 128]⟩ ⟨3, ![4, 256, 4096]⟩ 2 32 c
            (m' (((0 : Dev Cert.ReferenceIdeal.nD).tc : Thread Cert.ReferenceIdeal.nD Cert.ReferenceIdeal.τ).loc Cert.ReferenceIdeal.main_arg0))) :
    ∀ i, ∃ r : ℝ,
      m' (((0 : Dev Cert.ReferenceIdeal.nD).tc : Thread Cert.ReferenceIdeal.nD Cert.ReferenceIdeal.τ).loc Cert.ReferenceIdeal.main_arg0) i
        = (r : EReal) :=
  finite_of_pre m _ hpre hblk

/-- info: 'Cert.Finite.finite_of_agree' depends on axioms: [propext, Classical.choice, Quot.sound] -/
#guard_msgs in #print axioms finite_of_agree

end Cert.Finite
-- ==== Proof.Assembly.lean ====
/-
  The five claims, from the two body lemmas.

  The two kernel frames are the kernel's run with the result dropped: each argument array is an input window's
  array, never written back. The reference's frame is its run with the value dropped. The algebraic claim joins
  the two runs at the exact values: every device's argument blocks are its blocks of the one-device program's
  arrays (its copy, for the conditioning vector), the final result array on device c is the kernel's block value,
  and that value is block c of the reference's result.
-/
import proofs.«900767_g7700000000000768_dist_diff_adaln_cshard_i_b4_s256_c128_v7x_i32_bf16_1_alg».proof.Defs
import proofs.«900767_g7700000000000768_dist_diff_adaln_cshard_i_b4_s256_c128_v7x_i32_bf16_1_alg».proof.Proof.Gen.Kernel
import proofs.«900767_g7700000000000768_dist_diff_adaln_cshard_i_b4_s256_c128_v7x_i32_bf16_1_alg».proof.Proof.Gen.KernelIdeal
import proofs.«900767_g7700000000000768_dist_diff_adaln_cshard_i_b4_s256_c128_v7x_i32_bf16_1_alg».proof.Proof.Gen.ReferenceIdeal
import proofs.«900767_g7700000000000768_dist_diff_adaln_cshard_i_b4_s256_c128_v7x_i32_bf16_1_alg».proof.Proof.Gen.Pre_finite_inputs_Kernel
import proofs.«900767_g7700000000000768_dist_diff_adaln_cshard_i_b4_s256_c128_v7x_i32_bf16_1_alg».proof.Proof.Gen.Pre_finite_inputs_ReferenceIdeal
import proofs.«900767_g7700000000000768_dist_diff_adaln_cshard_i_b4_s256_c128_v7x_i32_bf16_1_alg».proof.Proof.KernelLaunch
import proofs.«900767_g7700000000000768_dist_diff_adaln_cshard_i_b4_s256_c128_v7x_i32_bf16_1_alg».proof.Proof.KernelIdealLaunch
import proofs.«900767_g7700000000000768_dist_diff_adaln_cshard_i_b4_s256_c128_v7x_i32_bf16_1_alg».proof.Proof.KernelIdealVals
import proofs.«900767_g7700000000000768_dist_diff_adaln_cshard_i_b4_s256_c128_v7x_i32_bf16_1_alg».proof.Proof.RefRun
import proofs.«900767_g7700000000000768_dist_diff_adaln_cshard_i_b4_s256_c128_v7x_i32_bf16_1_alg».proof.Proof.KValue
import proofs.«900767_g7700000000000768_dist_diff_adaln_cshard_i_b4_s256_c128_v7x_i32_bf16_1_alg».proof.Proof.Finite

noncomputable section

namespace Cert.Assembly

open Idealize.ShloMosaic Idealize.ShloMosaic.TcCoe Idealize.SL.Sem

/-! ## An input window's block is the whole array: the staged contents are the array's -/

section Blocks
open Cert.KernelIdeal Cert.KernelIdeal.Gen Cert.KernelIdealProof

variable {F : FTy → Type} [FloatOps F]
variable (m : (ℓ : Loc nD τ sig) → Buf (Elt F) ℓ) (ρ : Dev nD → PrngReg)

theorem xb_eq (c : Dev nD) : xb m ρ c = m ((c.tc : Thread nD τ).loc main_arg0) :=
  Memref.read_access_unit_zero (Elt F) main_arg0 (funext fun a => Nat.zero_mul _) _ _
theorem tb_eq (c : Dev nD) : tb m ρ c = m ((c.tc : Thread nD τ).loc main_arg1) :=
  Memref.read_access_unit_zero (Elt F) main_arg1 (funext fun a => Nat.zero_mul _) _ _
theorem wsb_eq (c : Dev nD) : wsb m ρ c = m ((c.tc : Thread nD τ).loc main_arg2) :=
  Memref.read_access_unit_zero (Elt F) main_arg2 (funext fun a => Nat.zero_mul _) _ _
theorem wshb_eq (c : Dev nD) : wshb m ρ c = m ((c.tc : Thread nD τ).loc main_arg3) :=
  Memref.read_access_unit_zero (Elt F) main_arg3 (funext fun a => Nat.zero_mul _) _ _

end Blocks

/-! ## The frames -/

theorem frame_Kernel_of
    (hbK : ∀ (m : (ℓ : Loc Cert.Kernel.nD Cert.Kernel.τ Cert.Kernel.sig) → Buf (Elt Bits) ℓ) (ρ : Dev Cert.Kernel.nD → PrngReg),
      Cert.KernelProof.BodySound (F := Bits) m ρ) :
    Cert.frame_Kernel (hKernel := Cert.Kernel.Gen.facts) (hPre_finite_inputs_Kernel := Cert.Pre_finite_inputs_Kernel.Gen.facts) := by
  intro m g _
  refine (θ_run _ _ _).mono (fun r h c => ?_) (Cert.KernelProof.run_main m g (hbK m g))
  exact ⟨(h c (0 : Fin 5)).trans (Cert.KernelProof.finalA_in m g c (0 : Fin 5) (by decide)),
    (h c (1 : Fin 5)).trans (Cert.KernelProof.finalA_in m g c (1 : Fin 5) (by decide)),
    (h c (2 : Fin 5)).trans (Cert.KernelProof.finalA_in m g c (2 : Fin 5) (by decide)),
    (h c (3 : Fin 5)).trans (Cert.KernelProof.finalA_in m g c (3 : Fin 5) (by decide))⟩

theorem frame_KernelIdeal_of
    (hbKI : ∀ (m : (ℓ : Loc Cert.KernelIdeal.nD Cert.KernelIdeal.τ Cert.KernelIdeal.sig) → Buf (Elt Ideal) ℓ) (ρ : Dev Cert.KernelIdeal.nD → PrngReg),
      Cert.KernelIdealProof.BodySound (F := Ideal) m ρ) :
    Cert.frame_KernelIdeal (hKernelIdeal := Cert.KernelIdeal.Gen.facts) (hPre_finite_inputs_Kernel := Cert.Pre_finite_inputs_Kernel.Gen.facts) := by
  intro m g _
  refine (θ_run _ _ _).mono (fun r h c => ?_) (Cert.KernelIdealProof.run_main m g (hbKI m g))
  exact ⟨(h c (0 : Fin 5)).trans (Cert.KernelIdealProof.finalA_in m g c (0 : Fin 5) (by decide)),
    (h c (1 : Fin 5)).trans (Cert.KernelIdealProof.finalA_in m g c (1 : Fin 5) (by decide)),
    (h c (2 : Fin 5)).trans (Cert.KernelIdealProof.finalA_in m g c (2 : Fin 5) (by decide)),
    (h c (3 : Fin 5)).trans (Cert.KernelIdealProof.finalA_in m g c (3 : Fin 5) (by decide))⟩

theorem frame_ReferenceIdeal_holds :
    Cert.frame_ReferenceIdeal (hReferenceIdeal := Cert.ReferenceIdeal.Gen.facts) (hPre_finite_inputs_ReferenceIdeal := Cert.Pre_finite_inputs_ReferenceIdeal.Gen.facts) := by
  intro m g _
  exact (θ_run _ _ _).mono (fun r h c => (h c).2) (Cert.ReferenceIdeal.RefRun.run (F := Ideal) m g)

/-! ## The value: the kernel's block value on device c is block c of the reference's result -/

theorem outV_eq_block
    (m : (ℓ : Loc Cert.KernelIdeal.nD Cert.KernelIdeal.τ Cert.KernelIdeal.sig) → Buf (Elt Ideal) ℓ) (g : Dev Cert.KernelIdeal.nD → PrngReg)
    (X : (⟨⟨3, ![4, 256, 4096]⟩, .f32⟩ : BufTy).Contents (Elt Ideal)) (T : (⟨⟨2, ![4, 128]⟩, .f32⟩ : BufTy).Contents (Elt Ideal))
    (Ws Wsh : (⟨⟨2, ![128, 4096]⟩, .f32⟩ : BufTy).Contents (Elt Ideal))
    (hX : ∀ i, ∃ r : ℝ, X i = (r : EReal))
    (hagree : ∀ c : Dev Cert.KernelIdeal.nD,
      m ((c.tc : Thread Cert.KernelIdeal.nD Cert.KernelIdeal.τ).loc Cert.KernelIdeal.main_arg0) = Layout.block ⟨3, ![4, 256, 128]⟩ ⟨3, ![4, 256, 4096]⟩ 2 32 c X
      ∧ m ((c.tc : Thread Cert.KernelIdeal.nD Cert.KernelIdeal.τ).loc Cert.KernelIdeal.main_arg1) = T
      ∧ m ((c.tc : Thread Cert.KernelIdeal.nD Cert.KernelIdeal.τ).loc Cert.KernelIdeal.main_arg2) = Layout.block ⟨2, ![128, 128]⟩ ⟨2, ![128, 4096]⟩ 1 32 c Ws
      ∧ m ((c.tc : Thread Cert.KernelIdeal.nD Cert.KernelIdeal.τ).loc Cert.KernelIdeal.main_arg3) = Layout.block ⟨2, ![128, 128]⟩ ⟨2, ![128, 4096]⟩ 1 32 c Wsh)
    (c : Dev Cert.KernelIdeal.nD) :
    Cert.KernelIdealProof.outV (F := Ideal) m g c
      = Layout.block ⟨3, ![4, 256, 128]⟩ ⟨3, ![4, 256, 4096]⟩ 2 32 c (Cert.ReferenceIdeal.RefTerm.refVal (F := Ideal) X T Ws Wsh) := by
  have hT : ∀ d : Dev Cert.KernelIdeal.nD, Cert.KernelIdealProof.tb (F := Ideal) m g d = T := fun d => (tb_eq m g d).trans (hagree d).2.1
  have key := Cert.KernelIdeal.KValue.out_eq X T Ws Wsh hX
    (fun d => Cert.KernelIdealProof.xb (F := Ideal) m g d) (fun d => (xb_eq m g d).trans (hagree d).1)
    (fun d => Cert.KernelIdealProof.wsb (F := Ideal) m g d) (fun d => Cert.KernelIdealProof.wshb (F := Ideal) m g d)
    (fun d => (wsb_eq m g d).trans (hagree d).2.2.1) (fun d => (wshb_eq m g d).trans (hagree d).2.2.2)
    (fun d => Cert.KernelIdealProof.mineV (F := Ideal) m g d) (fun d => Cert.KernelIdealProof.colV (F := Ideal) m g d)
    (fun d => Cert.KernelIdealProof.czV (F := Ideal) m g d) (fun d => Cert.KernelIdealProof.cpV (F := Ideal) m g d)
    (Cert.KernelIdealProof.mineV_lo m g) (Cert.KernelIdealProof.mineV_hi m g) (Cert.KernelIdealProof.czV_apply m g)
    (fun c => rfl) (Cert.KernelIdealProof.cpV_apply m g) c
  refine Eq.trans ?_ key
  unfold Cert.KernelIdealProof.outV
  rw [hT c]

/-! ## The algebraic claim -/

theorem algebraic_of
    (hbKI : ∀ (m : (ℓ : Loc Cert.KernelIdeal.nD Cert.KernelIdeal.τ Cert.KernelIdeal.sig) → Buf (Elt Ideal) ℓ) (ρ : Dev Cert.KernelIdeal.nD → PrngReg),
      Cert.KernelIdealProof.BodySound (F := Ideal) m ρ) :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) := by
  intro m g m' g' hpre hagree
  refine ⟨Cert.ReferenceIdeal.RefTerm.refVal (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · have hX := Cert.Finite.finite_of_agree m m' hpre (fun c => (hagree c).1)
    refine (θ_run _ _ _).mono (fun r h c => ?_) (Cert.KernelIdealProof.run_main m g (hbKI m g))
    refine ⟨?_, (h c (0 : Fin 5)).trans (Cert.KernelIdealProof.finalA_in m g c (0 : Fin 5) (by decide)),
      (h c (1 : Fin 5)).trans (Cert.KernelIdealProof.finalA_in m g c (1 : Fin 5) (by decide)),
      (h c (2 : Fin 5)).trans (Cert.KernelIdealProof.finalA_in m g c (2 : Fin 5) (by decide)),
      (h c (3 : Fin 5)).trans (Cert.KernelIdealProof.finalA_in m g c (3 : Fin 5) (by decide))⟩
    exact (h c (4 : Fin 5)).trans ((Cert.KernelIdealProof.finalA_out_eq m g c).trans (outV_eq_block m g _ _ _ _ hX hagree c))
  · exact (θ_run _ _ _).mono (fun r h => h 0) (Cert.ReferenceIdeal.RefRun.run (F := Ideal) m' g')

/-! ## The claim -/

theorem claim_of
    (hbK : ∀ (m : (ℓ : Loc Cert.Kernel.nD Cert.Kernel.τ Cert.Kernel.sig) → Buf (Elt Bits) ℓ) (ρ : Dev Cert.Kernel.nD → PrngReg),
      Cert.KernelProof.BodySound (F := Bits) m ρ)
    (hbKI : ∀ (m : (ℓ : Loc Cert.KernelIdeal.nD Cert.KernelIdeal.τ Cert.KernelIdeal.sig) → Buf (Elt Ideal) ℓ) (ρ : Dev Cert.KernelIdeal.nD → PrngReg),
      Cert.KernelIdealProof.BodySound (F := Ideal) m ρ) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel_of hbK, frame_KernelIdeal_of hbKI, frame_ReferenceIdeal_holds, trivial, algebraic_of hbKI⟩

/-- info: 'Cert.Assembly.claim_of' depends on axioms: [propext, Classical.choice, Quot.sound] -/
#guard_msgs in #print axioms claim_of

end Cert.Assembly

end
-- ==== Proof.KernelRdTables.lean ====
import proofs.«900767_g7700000000000768_dist_diff_adaln_cshard_i_b4_s256_c128_v7x_i32_bf16_1_alg».proof.Proof.KernelSched

noncomputable section

namespace Cert.KernelProof

open Cert.Kernel Cert.Kernel.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]
local notation "𝕄" => MT nD τ sig Unit (Elt F) ℕ UU ℕ
variable (m : (ℓ : Loc nD τ sig) → Buf (Elt F) ℓ) (ρ : Dev nD → PrngReg)

theorem barPay_0 (X : Dev nD) : (barPay (F := F) X 0 : sProp 𝕄) = iprop((∃ f : (cc0_scratch2 : Ref sig .tc).ty.Contents (Elt F), ((slotM 0).view.loc (peer X 0 : Thread nD τ) ↦[(slotM 0).view.set]{fullShare} f)) ∗ reached ER (recvCell (peer X 0) 0) 0) := rfl
theorem barPay_1 (X : Dev nD) : (barPay (F := F) X 1 : sProp 𝕄) = iprop((∃ f : (cc0_scratch2 : Ref sig .tc).ty.Contents (Elt F), ((slotM 1).view.loc (peer X 1 : Thread nD τ) ↦[(slotM 1).view.set]{fullShare} f)) ∗ reached ER (recvCell (peer X 1) 1) 0) := rfl
theorem barPay_2 (X : Dev nD) : (barPay (F := F) X 2 : sProp 𝕄) = iprop((∃ f : (cc0_scratch2 : Ref sig .tc).ty.Contents (Elt F), ((slotM 2).view.loc (peer X 2 : Thread nD τ) ↦[(slotM 2).view.set]{fullShare} f)) ∗ reached ER (recvCell (peer X 2) 2) 0) := rfl
theorem barPay_3 (X : Dev nD) : (barPay (F := F) X 3 : sProp 𝕄) = iprop((∃ f : (cc0_scratch3 : Ref sig .tc).ty.Contents (Elt F), ((slotM 3).view.loc (peer X 3 : Thread nD τ) ↦[(slotM 3).view.set]{fullShare} f)) ∗ reached ER (recvCell (peer X 3) 3) 0) := rfl
theorem barPay_4 (X : Dev nD) : (barPay (F := F) X 4 : sProp 𝕄) = iprop((∃ f : (cc0_scratch3 : Ref sig .tc).ty.Contents (Elt F), ((slotM 4).view.loc (peer X 4 : Thread nD τ) ↦[(slotM 4).view.set]{fullShare} f)) ∗ reached ER (recvCell (peer X 4) 4) 0) := rfl
theorem barPay_5 (X : Dev nD) : (barPay (F := F) X 5 : sProp 𝕄) = iprop((∃ f : (cc0_scratch3 : Ref sig .tc).ty.Contents (Elt F), ((slotM 5).view.loc (peer X 5 : Thread nD τ) ↦[(slotM 5).view.set]{fullShare} f)) ∗ reached ER (recvCell (peer X 5) 5) 0) := rfl
theorem barPay_6 (X : Dev nD) : (barPay (F := F) X 6 : sProp 𝕄) = iprop((∃ f : (cc0_scratch3 : Ref sig .tc).ty.Contents (Elt F), ((slotM 6).view.loc (peer X 6 : Thread nD τ) ↦[(slotM 6).view.set]{fullShare} f)) ∗ reached ER (recvCell (peer X 6) 6) 0) := rfl
theorem barPay_7 (X : Dev nD) : (barPay (F := F) X 7 : sProp 𝕄) = iprop((∃ f : (cc0_scratch3 : Ref sig .tc).ty.Contents (Elt F), ((slotM 7).view.loc (peer X 7 : Thread nD τ) ↦[(slotM 7).view.set]{fullShare} f)) ∗ reached ER (recvCell (peer X 7) 7) 0) := rfl
theorem barPay_8 (X : Dev nD) : (barPay (F := F) X 8 : sProp 𝕄) = iprop((∃ f : (cc0_scratch3 : Ref sig .tc).ty.Contents (Elt F), ((slotM 8).view.loc (peer X 8 : Thread nD τ) ↦[(slotM 8).view.set]{fullShare} f)) ∗ reached ER (recvCell (peer X 8) 8) 0) := rfl
theorem barPay_9 (X : Dev nD) : (barPay (F := F) X 9 : sProp 𝕄) = iprop((∃ f : (cc0_scratch3 : Ref sig .tc).ty.Contents (Elt F), ((slotM 9).view.loc (peer X 9 : Thread nD τ) ↦[(slotM 9).view.set]{fullShare} f)) ∗ reached ER (recvCell (peer X 9) 9) 0) := rfl
theorem recvPay_0 (X : Dev nD) : recvPay m ρ X 0 = ((slotM 0).view.loc (X : Thread nD τ) ↦[(slotM 0).view.set]{fullShare} czV m ρ X : sProp 𝕄) := rfl
theorem recvPay_1 (X : Dev nD) : recvPay m ρ X 1 = ((slotM 1).view.loc (X : Thread nD τ) ↦[(slotM 1).view.set]{fullShare} czV m ρ X : sProp 𝕄) := rfl
theorem recvPay_2 (X : Dev nD) : recvPay m ρ X 2 = ((slotM 2).view.loc (X : Thread nD τ) ↦[(slotM 2).view.set]{fullShare} czV m ρ X : sProp 𝕄) := rfl
theorem recvPay_3 (X : Dev nD) : recvPay m ρ X 3 = ((slotM 3).view.loc (X : Thread nD τ) ↦[(slotM 3).view.set]{fullShare} cpV m ρ X : sProp 𝕄) := rfl
theorem recvPay_4 (X : Dev nD) : recvPay m ρ X 4 = ((slotM 4).view.loc (X : Thread nD τ) ↦[(slotM 4).view.set]{fullShare} cpV m ρ X : sProp 𝕄) := rfl
theorem recvPay_5 (X : Dev nD) : recvPay m ρ X 5 = ((slotM 5).view.loc (X : Thread nD τ) ↦[(slotM 5).view.set]{fullShare} cpV m ρ X : sProp 𝕄) := rfl
theorem recvPay_6 (X : Dev nD) : recvPay m ρ X 6 = ((slotM 6).view.loc (X : Thread nD τ) ↦[(slotM 6).view.set]{fullShare} cpV m ρ X : sProp 𝕄) := rfl
theorem recvPay_7 (X : Dev nD) : recvPay m ρ X 7 = ((slotM 7).view.loc (X : Thread nD τ) ↦[(slotM 7).view.set]{fullShare} cpV m ρ X : sProp 𝕄) := rfl
theorem recvPay_8 (X : Dev nD) : recvPay m ρ X 8 = ((slotM 8).view.loc (X : Thread nD τ) ↦[(slotM 8).view.set]{fullShare} cpV m ρ X : sProp 𝕄) := rfl
theorem recvPay_9 (X : Dev nD) : recvPay m ρ X 9 = ((slotM 9).view.loc (X : Thread nD τ) ↦[(slotM 9).view.set]{fullShare} cpV m ρ X : sProp 𝕄) := rfl
theorem sendPay_0 (X : Dev nD) : sendPay m ρ X 0 = ((mineM : Memref sig .tc .vmem S8x256 .f32).view.loc (X : Thread nD τ) ↦[(mineM : Memref sig .tc .vmem S8x256 .f32).view.set]{shareTok fullShare 3 0} mineV m ρ X : sProp 𝕄) := rfl
theorem sendPay_1 (X : Dev nD) : sendPay m ρ X 1 = ((mineM : Memref sig .tc .vmem S8x256 .f32).view.loc (X : Thread nD τ) ↦[(mineM : Memref sig .tc .vmem S8x256 .f32).view.set]{shareTok fullShare 3 1} mineV m ρ X : sProp 𝕄) := rfl
theorem sendPay_2 (X : Dev nD) : sendPay m ρ X 2 = ((mineM : Memref sig .tc .vmem S8x256 .f32).view.loc (X : Thread nD τ) ↦[(mineM : Memref sig .tc .vmem S8x256 .f32).view.set]{shareTok fullShare 3 2} mineV m ρ X : sProp 𝕄) := rfl
theorem sendPay_3 (X : Dev nD) : sendPay m ρ X 3 = ((colM : Memref sig .tc .vmem S8x256 .f32).view.loc (X : Thread nD τ) ↦[(colM : Memref sig .tc .vmem S8x256 .f32).view.set]{shareTok fullShare 7 0} colV m ρ X : sProp 𝕄) := rfl
theorem sendPay_4 (X : Dev nD) : sendPay m ρ X 4 = ((colM : Memref sig .tc .vmem S8x256 .f32).view.loc (X : Thread nD τ) ↦[(colM : Memref sig .tc .vmem S8x256 .f32).view.set]{shareTok fullShare 7 1} colV m ρ X : sProp 𝕄) := rfl
theorem sendPay_5 (X : Dev nD) : sendPay m ρ X 5 = ((colM : Memref sig .tc .vmem S8x256 .f32).view.loc (X : Thread nD τ) ↦[(colM : Memref sig .tc .vmem S8x256 .f32).view.set]{shareTok fullShare 7 2} colV m ρ X : sProp 𝕄) := rfl
theorem sendPay_6 (X : Dev nD) : sendPay m ρ X 6 = ((colM : Memref sig .tc .vmem S8x256 .f32).view.loc (X : Thread nD τ) ↦[(colM : Memref sig .tc .vmem S8x256 .f32).view.set]{shareTok fullShare 7 3} colV m ρ X : sProp 𝕄) := rfl
theorem sendPay_7 (X : Dev nD) : sendPay m ρ X 7 = ((colM : Memref sig .tc .vmem S8x256 .f32).view.loc (X : Thread nD τ) ↦[(colM : Memref sig .tc .vmem S8x256 .f32).view.set]{shareTok fullShare 7 4} colV m ρ X : sProp 𝕄) := rfl
theorem sendPay_8 (X : Dev nD) : sendPay m ρ X 8 = ((colM : Memref sig .tc .vmem S8x256 .f32).view.loc (X : Thread nD τ) ↦[(colM : Memref sig .tc .vmem S8x256 .f32).view.set]{shareTok fullShare 7 5} colV m ρ X : sProp 𝕄) := rfl
theorem sendPay_9 (X : Dev nD) : sendPay m ρ X 9 = ((colM : Memref sig .tc .vmem S8x256 .f32).view.loc (X : Thread nD τ) ↦[(colM : Memref sig .tc .vmem S8x256 .f32).view.set]{shareTok fullShare 7 6} colV m ρ X : sProp 𝕄) := rfl
theorem inv_0 : inv 0 = 2 := rfl
theorem inv_1 : inv 1 = 1 := rfl
theorem inv_2 : inv 2 = 0 := rfl
theorem inv_3 : inv 3 = 9 := rfl
theorem inv_4 : inv 4 = 8 := rfl
theorem inv_5 : inv 5 = 7 := rfl
theorem inv_6 : inv 6 = 6 := rfl
theorem inv_7 : inv 7 = 5 := rfl
theorem inv_8 : inv 8 = 4 := rfl
theorem inv_9 : inv 9 = 3 := rfl
theorem peer_peer_0 (c : Dev nD) : peer (peer c 0) 2 = c := by revert c; decide
theorem peer_peer_1 (c : Dev nD) : peer (peer c 1) 1 = c := by revert c; decide
theorem peer_peer_2 (c : Dev nD) : peer (peer c 2) 0 = c := by revert c; decide
theorem peer_peer_3 (c : Dev nD) : peer (peer c 3) 9 = c := by revert c; decide
theorem peer_peer_4 (c : Dev nD) : peer (peer c 4) 8 = c := by revert c; decide
theorem peer_peer_5 (c : Dev nD) : peer (peer c 5) 7 = c := by revert c; decide
theorem peer_peer_6 (c : Dev nD) : peer (peer c 6) 6 = c := by revert c; decide
theorem peer_peer_7 (c : Dev nD) : peer (peer c 7) 5 = c := by revert c; decide
theorem peer_peer_8 (c : Dev nD) : peer (peer c 8) 4 = c := by revert c; decide
theorem peer_peer_9 (c : Dev nD) : peer (peer c 9) 3 = c := by revert c; decide
theorem src_peer_0 (c : Dev nD) : src (peer c 0) 0 = c := src_peer c 0
theorem src_peer_1 (c : Dev nD) : src (peer c 1) 1 = c := src_peer c 1
theorem src_peer_2 (c : Dev nD) : src (peer c 2) 2 = c := src_peer c 2
theorem src_peer_3 (c : Dev nD) : src (peer c 3) 3 = c := src_peer c 3
theorem src_peer_4 (c : Dev nD) : src (peer c 4) 4 = c := src_peer c 4
theorem src_peer_5 (c : Dev nD) : src (peer c 5) 5 = c := src_peer c 5
theorem src_peer_6 (c : Dev nD) : src (peer c 6) 6 = c := src_peer c 6
theorem src_peer_7 (c : Dev nD) : src (peer c 7) 7 = c := src_peer c 7
theorem src_peer_8 (c : Dev nD) : src (peer c 8) 8 = c := src_peer c 8
theorem src_peer_9 (c : Dev nD) : src (peer c 9) 9 = c := src_peer c 9
theorem payload_sig_0 (c : Dev nD) : (rd (F := F) m ρ).payload (barCell (peer c 0)) 0 2 = iprop((∃ f : (cc0_scratch2 : Ref sig .tc).ty.Contents (Elt F), ((slotM 2).view.loc (c : Thread nD τ) ↦[(slotM 2).view.set]{fullShare} f)) ∗ reached ER (recvCell c 2) 0) := by rw [payload_bar, barPay_2, peer_peer_0]
theorem payload_sig_1 (c : Dev nD) : (rd (F := F) m ρ).payload (barCell (peer c 1)) 0 1 = iprop((∃ f : (cc0_scratch2 : Ref sig .tc).ty.Contents (Elt F), ((slotM 1).view.loc (c : Thread nD τ) ↦[(slotM 1).view.set]{fullShare} f)) ∗ reached ER (recvCell c 1) 0) := by rw [payload_bar, barPay_1, peer_peer_1]
theorem payload_sig_2 (c : Dev nD) : (rd (F := F) m ρ).payload (barCell (peer c 2)) 0 0 = iprop((∃ f : (cc0_scratch2 : Ref sig .tc).ty.Contents (Elt F), ((slotM 0).view.loc (c : Thread nD τ) ↦[(slotM 0).view.set]{fullShare} f)) ∗ reached ER (recvCell c 0) 0) := by rw [payload_bar, barPay_0, peer_peer_2]
theorem payload_sig_3 (c : Dev nD) : (rd (F := F) m ρ).payload (barCell (peer c 3)) 0 9 = iprop((∃ f : (cc0_scratch3 : Ref sig .tc).ty.Contents (Elt F), ((slotM 9).view.loc (c : Thread nD τ) ↦[(slotM 9).view.set]{fullShare} f)) ∗ reached ER (recvCell c 9) 0) := by rw [payload_bar, barPay_9, peer_peer_3]
theorem payload_sig_4 (c : Dev nD) : (rd (F := F) m ρ).payload (barCell (peer c 4)) 0 8 = iprop((∃ f : (cc0_scratch3 : Ref sig .tc).ty.Contents (Elt F), ((slotM 8).view.loc (c : Thread nD τ) ↦[(slotM 8).view.set]{fullShare} f)) ∗ reached ER (recvCell c 8) 0) := by rw [payload_bar, barPay_8, peer_peer_4]
theorem payload_sig_5 (c : Dev nD) : (rd (F := F) m ρ).payload (barCell (peer c 5)) 0 7 = iprop((∃ f : (cc0_scratch3 : Ref sig .tc).ty.Contents (Elt F), ((slotM 7).view.loc (c : Thread nD τ) ↦[(slotM 7).view.set]{fullShare} f)) ∗ reached ER (recvCell c 7) 0) := by rw [payload_bar, barPay_7, peer_peer_5]
theorem payload_sig_6 (c : Dev nD) : (rd (F := F) m ρ).payload (barCell (peer c 6)) 0 6 = iprop((∃ f : (cc0_scratch3 : Ref sig .tc).ty.Contents (Elt F), ((slotM 6).view.loc (c : Thread nD τ) ↦[(slotM 6).view.set]{fullShare} f)) ∗ reached ER (recvCell c 6) 0) := by rw [payload_bar, barPay_6, peer_peer_6]
theorem payload_sig_7 (c : Dev nD) : (rd (F := F) m ρ).payload (barCell (peer c 7)) 0 5 = iprop((∃ f : (cc0_scratch3 : Ref sig .tc).ty.Contents (Elt F), ((slotM 5).view.loc (c : Thread nD τ) ↦[(slotM 5).view.set]{fullShare} f)) ∗ reached ER (recvCell c 5) 0) := by rw [payload_bar, barPay_5, peer_peer_7]
theorem payload_sig_8 (c : Dev nD) : (rd (F := F) m ρ).payload (barCell (peer c 8)) 0 4 = iprop((∃ f : (cc0_scratch3 : Ref sig .tc).ty.Contents (Elt F), ((slotM 4).view.loc (c : Thread nD τ) ↦[(slotM 4).view.set]{fullShare} f)) ∗ reached ER (recvCell c 4) 0) := by rw [payload_bar, barPay_4, peer_peer_8]
theorem payload_sig_9 (c : Dev nD) : (rd (F := F) m ρ).payload (barCell (peer c 9)) 0 3 = iprop((∃ f : (cc0_scratch3 : Ref sig .tc).ty.Contents (Elt F), ((slotM 3).view.loc (c : Thread nD τ) ↦[(slotM 3).view.set]{fullShare} f)) ∗ reached ER (recvCell c 3) 0) := by rw [payload_bar, barPay_3, peer_peer_9]
theorem payload_own_0 (c : Dev nD) : (rd (F := F) m ρ).payload (barCell c) 0 0 = iprop((∃ f : (cc0_scratch2 : Ref sig .tc).ty.Contents (Elt F), ((slotM 0).view.loc (peer c 0 : Thread nD τ) ↦[(slotM 0).view.set]{fullShare} f)) ∗ reached ER (recvCell (peer c 0) 0) 0) := by rw [payload_bar, barPay_0]
theorem payload_own_1 (c : Dev nD) : (rd (F := F) m ρ).payload (barCell c) 0 1 = iprop((∃ f : (cc0_scratch2 : Ref sig .tc).ty.Contents (Elt F), ((slotM 1).view.loc (peer c 1 : Thread nD τ) ↦[(slotM 1).view.set]{fullShare} f)) ∗ reached ER (recvCell (peer c 1) 1) 0) := by rw [payload_bar, barPay_1]
theorem payload_own_2 (c : Dev nD) : (rd (F := F) m ρ).payload (barCell c) 0 2 = iprop((∃ f : (cc0_scratch2 : Ref sig .tc).ty.Contents (Elt F), ((slotM 2).view.loc (peer c 2 : Thread nD τ) ↦[(slotM 2).view.set]{fullShare} f)) ∗ reached ER (recvCell (peer c 2) 2) 0) := by rw [payload_bar, barPay_2]
theorem payload_own_3 (c : Dev nD) : (rd (F := F) m ρ).payload (barCell c) 0 3 = iprop((∃ f : (cc0_scratch3 : Ref sig .tc).ty.Contents (Elt F), ((slotM 3).view.loc (peer c 3 : Thread nD τ) ↦[(slotM 3).view.set]{fullShare} f)) ∗ reached ER (recvCell (peer c 3) 3) 0) := by rw [payload_bar, barPay_3]
theorem payload_own_4 (c : Dev nD) : (rd (F := F) m ρ).payload (barCell c) 0 4 = iprop((∃ f : (cc0_scratch3 : Ref sig .tc).ty.Contents (Elt F), ((slotM 4).view.loc (peer c 4 : Thread nD τ) ↦[(slotM 4).view.set]{fullShare} f)) ∗ reached ER (recvCell (peer c 4) 4) 0) := by rw [payload_bar, barPay_4]
theorem payload_own_5 (c : Dev nD) : (rd (F := F) m ρ).payload (barCell c) 0 5 = iprop((∃ f : (cc0_scratch3 : Ref sig .tc).ty.Contents (Elt F), ((slotM 5).view.loc (peer c 5 : Thread nD τ) ↦[(slotM 5).view.set]{fullShare} f)) ∗ reached ER (recvCell (peer c 5) 5) 0) := by rw [payload_bar, barPay_5]
theorem payload_own_6 (c : Dev nD) : (rd (F := F) m ρ).payload (barCell c) 0 6 = iprop((∃ f : (cc0_scratch3 : Ref sig .tc).ty.Contents (Elt F), ((slotM 6).view.loc (peer c 6 : Thread nD τ) ↦[(slotM 6).view.set]{fullShare} f)) ∗ reached ER (recvCell (peer c 6) 6) 0) := by rw [payload_bar, barPay_6]
theorem payload_own_7 (c : Dev nD) : (rd (F := F) m ρ).payload (barCell c) 0 7 = iprop((∃ f : (cc0_scratch3 : Ref sig .tc).ty.Contents (Elt F), ((slotM 7).view.loc (peer c 7 : Thread nD τ) ↦[(slotM 7).view.set]{fullShare} f)) ∗ reached ER (recvCell (peer c 7) 7) 0) := by rw [payload_bar, barPay_7]
theorem payload_own_8 (c : Dev nD) : (rd (F := F) m ρ).payload (barCell c) 0 8 = iprop((∃ f : (cc0_scratch3 : Ref sig .tc).ty.Contents (Elt F), ((slotM 8).view.loc (peer c 8 : Thread nD τ) ↦[(slotM 8).view.set]{fullShare} f)) ∗ reached ER (recvCell (peer c 8) 8) 0) := by rw [payload_bar, barPay_8]
theorem payload_own_9 (c : Dev nD) : (rd (F := F) m ρ).payload (barCell c) 0 9 = iprop((∃ f : (cc0_scratch3 : Ref sig .tc).ty.Contents (Elt F), ((slotM 9).view.loc (peer c 9 : Thread nD τ) ↦[(slotM 9).view.set]{fullShare} f)) ∗ reached ER (recvCell (peer c 9) 9) 0) := by rw [payload_bar, barPay_9]

end Cert.KernelProof

end
-- ==== Proof.KernelVals.lean ====
/-
  The contents of the exchange buffers, read at an index.

  The row-sum buffer is written by two stores through the two halves of its rows, which together cover it: what it
  held before is gone, rows 0-3 are the lane sums of the block and rows 4-7 the lane sums of its squares. Each landing
  buffer is written page by page; the pages are disjoint and cover it, so page k reads what was copied into it whatever
  the order of the writes, a single copy into a page already leaves the final contents on that page, and the buffer
  splits into its pages and is joined back from them.
-/
import proofs.«900767_g7700000000000768_dist_diff_adaln_cshard_i_b4_s256_c128_v7x_i32_bf16_1_alg».proof.Proof.KernelSched
import Idealize.ShloMosaic.Lib.Pipeline.Value
import Idealize.ShloMosaic.Lib.ValueIdx

noncomputable section

namespace Cert.KernelProof

open Cert.Kernel Cert.Kernel.Gen Cert.Mesh

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

/-! ## Writes through a view, read at an element -/

section ViewFacts

variable {sg : RefSig} {κ : Kind} {sp : Space} {s : Shape} {e : EltTy} {Val : EltTy → Type} (v : View sg κ sp s e)

/-- An unmasked write leaves its payload under each index of the view. -/
theorem write_univ_emb (f : v.ty.Contents Val) (w : s.Idx → Val e) (x : s.Idx) :
    v.write Val f w Finset.univ (v.emb x) = _root_.cast (congrArg Val v.elt_eq.symm) (w x) :=
  View.write_emb_of_mem f w (Finset.mem_univ x)

/-- Off the view it leaves the contents alone. -/
theorem write_univ_of_not_mem (f : v.ty.Contents Val) (w : s.Idx → Val e) {i : v.ty.Idx} (h : i ∉ v.set) :
    v.write Val f w Finset.univ i = f i :=
  View.write_of_not_mem f w _ (by rwa [View.setOn_univ])

/-- Under the view, what was there before does not matter. -/
theorem write_univ_indep (f f' : v.ty.Contents Val) (w : s.Idx → Val e) {i : v.ty.Idx} (h : i ∈ v.set) :
    v.write Val f w Finset.univ i = v.write Val f' w Finset.univ i := by
  obtain ⟨x, rfl⟩ := View.exists_emb_of_mem_set v h
  rw [write_univ_emb, write_univ_emb]

/-- Contents that agree at an element still agree there after the same write. -/
theorem write_univ_congr_base {f f' : v.ty.Contents Val} (w : s.Idx → Val e) {i : v.ty.Idx} (h : f i = f' i) :
    v.write Val f w Finset.univ i = v.write Val f' w Finset.univ i := by
  by_cases hi : i ∈ v.set
  · exact write_univ_indep v f f' w hi
  · rw [write_univ_of_not_mem v f w hi, write_univ_of_not_mem v f' w hi, h]

end ViewFacts

variable {F : FTy → Type} [FloatOps F]

/-! ## The row-sum buffer -/

/-- Rows 0-3 and rows 4-7 cover the [8, 256] buffer. -/
theorem cover8 (i : S8x256.Idx) : i ∈ rLo.set ∨ i ∈ rHi.set := by
  have h1 : (i 1).val < 256 := (i 1).isLt
  have h0 : (i 0).val < 8 := (i 0).isLt
  by_cases h : (i 0).val < 4
  · left
    rw [Rect.mem_set_unit]
    intro a
    match a with
    | ⟨0, _⟩ => exact ⟨Nat.zero_le _, by show (i 0).val < 0 + 4; omega⟩
    | ⟨1, _⟩ => exact ⟨Nat.zero_le _, by show (i 1).val < 0 + 256; omega⟩
  · right
    rw [Rect.mem_set_unit]
    intro a
    match a with
    | ⟨0, _⟩ => exact ⟨by show 4 ≤ (i 0).val; omega, by show (i 0).val < 4 + 4; omega⟩
    | ⟨1, _⟩ => exact ⟨Nat.zero_le _, by show (i 1).val < 0 + 256; omega⟩

/-- The two stores overwrite every element: what the buffer held before is gone. -/
theorem mineOf_indep (f0 f0' : (cc0_scratch0 : Ref sig .tc).ty.Contents (Elt F)) (x : (cc0_stg0_0 : Ref sig .tc).ty.Contents (Elt F)) :
    mineOf f0 x = mineOf f0' x := by
  funext i
  unfold mineOf
  by_cases h : i ∈ ((mineM : Memref sig .tc .vmem S8x256 .f32).access rHi : View sig .tc _ _ _).set
  · exact write_univ_indep _ _ _ _ h
  · refine write_univ_congr_base _ _ ?_
    refine write_univ_indep _ _ _ _ ?_
    rw [View.set_slice_whole] at h ⊢
    exact (cover8 i).resolve_right h

/-- Row r of the low half is row r of the buffer. -/
theorem rLo_emb (r : Fin 4) (s : Fin 256) : rLo.emb (ix2 r s) = ix2 (⟨r.val, by omega⟩ : Fin 8) s := by
  funext a
  match a with
  | ⟨0, _⟩ => exact Fin.ext (by show 0 + 1 * r.val = r.val; omega)
  | ⟨1, _⟩ => exact Fin.ext (by show 0 + 1 * s.val = s.val; omega)

/-- Row r of the high half is row r + 4 of the buffer. -/
theorem rHi_emb (r : Fin 4) (s : Fin 256) : rHi.emb (ix2 r s) = ix2 (⟨r.val + 4, by omega⟩ : Fin 8) s := by
  funext a
  match a with
  | ⟨0, _⟩ => exact Fin.ext (by show 4 + 1 * r.val = r.val + 4; omega)
  | ⟨1, _⟩ => exact Fin.ext (by show 0 + 1 * s.val = s.val; omega)

/-- The low half is not touched by the store through the high half. -/
theorem rLo_emb_not_mem_rHi (y : rLo.shape.Idx) : rLo.emb y ∉ rHi.set := by
  intro h
  obtain ⟨r, s, rfl⟩ : ∃ (r : Fin 4) (s : Fin 256), y = ix2 r s := ⟨y 0, y 1, eq_ix2 y⟩
  rw [rLo_emb] at h
  have h0 := (Rect.mem_set_unit.mp h (0 : Fin 2)).1
  have h0' : 4 ≤ r.val := h0
  omega

/-- The high half after the two stores: the second payload. -/
theorem mineOf_hi (f0 : (cc0_scratch0 : Ref sig .tc).ty.Contents (Elt F)) (x : (cc0_stg0_0 : Ref sig .tc).ty.Contents (Elt F))
    (y : rHi.shape.Idx) : mineOf f0 x (rHi.emb y) = k0_pay3 x y := by
  unfold mineOf
  exact (write_univ_emb ((mineM : Memref sig .tc .vmem S8x256 .f32).access rHi : View sig .tc _ _ _) _ _ y).trans rfl

/-- The low half after the two stores: the first payload. -/
theorem mineOf_lo (f0 : (cc0_scratch0 : Ref sig .tc).ty.Contents (Elt F)) (x : (cc0_stg0_0 : Ref sig .tc).ty.Contents (Elt F))
    (y : rLo.shape.Idx) : mineOf f0 x (rLo.emb y) = k0_pay2 x y := by
  unfold mineOf
  refine (write_univ_of_not_mem ((mineM : Memref sig .tc .vmem S8x256 .f32).access rHi : View sig .tc _ _ _) _ _ ?_).trans ?_
  · rw [View.set_slice_whole]; exact rLo_emb_not_mem_rHi y
  · exact (write_univ_emb ((mineM : Memref sig .tc .vmem S8x256 .f32).access rLo : View sig .tc _ _ _) _ _ y).trans rfl

variable (m : (ℓ : Loc nD τ sig) → Buf (Elt F) ℓ) (ρ : Dev nD → PrngReg)

/-- Whatever the row-sum buffer held, the two stores leave the canonical contents. -/
theorem mineOf_eq_mineV (f0 : (cc0_scratch0 : Ref sig .tc).ty.Contents (Elt F)) (c : Dev nD) :
    mineOf f0 (xb m ρ c) = mineV m ρ c := mineOf_indep f0 z8 _

/-- Rows 0-3 of the row-sum buffer: the lane sums of the block. -/
theorem mineV_lo (c : Dev nD) (r : Fin 4) (s : Fin 256) :
    mineV m ρ c (ix2 (⟨r.val, by omega⟩ : Fin 8) s) = k0_pay2 (xb m ρ c) (ix2 r s) := by
  have h := mineOf_lo z8 (xb m ρ c) (ix2 r s)
  rw [rLo_emb] at h
  exact h

/-- Rows 4-7 of the row-sum buffer: the lane sums of the squares. -/
theorem mineV_hi (c : Dev nD) (r : Fin 4) (s : Fin 256) :
    mineV m ρ c (ix2 (⟨r.val + 4, by omega⟩ : Fin 8) s) = k0_pay3 (xb m ρ c) (ix2 r s) := by
  have h := mineOf_hi z8 (xb m ρ c) (ix2 r s)
  rw [rHi_emb] at h
  exact h

/-! ## Pages of a landing buffer -/

section Pages

variable {sg : RefSig} {κ : Kind} {sp : Space} {e : EltTy} {Val : EltTy → Type} {n : ℕ}
  (V : View sg κ sp (⟨3, ![n, 8, 256]⟩ : Shape) e)

/-- Page k of an [n, 8, 256] buffer, viewed as [8, 256]. -/
abbrev pageV (k : ℕ) (inb : ∀ a, (![k, 0, 0] : Fin 3 → ℕ) a + S1x8x256.size a ≤ (⟨3, ![n, 8, 256]⟩ : Shape).size a) :
    View sg κ sp S8x256 e :=
  (V.slice (Rect.unit (s := (⟨3, ![n, 8, 256]⟩ : Shape)) ![k, 0, 0] S1x8x256.size inb)).reshape S8x256
    squeezes_S1x8x256_S8x256.numel_eq

/-- Element (r, s) of page k is element (k, r, s) of the buffer. -/
theorem pageV_emb (k : ℕ) (inb : ∀ a, (![k, 0, 0] : Fin 3 → ℕ) a + S1x8x256.size a ≤ (⟨3, ![n, 8, 256]⟩ : Shape).size a) (hk : k < n)
    (r : Fin 8) (s : Fin 256) :
    (pageV V k inb).emb (ix2 r s) = V.emb (ix3 (⟨k, hk⟩ : Fin n) r s) := by
  show V.emb ((Rect.unit (s := (⟨3, ![n, 8, 256]⟩ : Shape)) ![k, 0, 0] S1x8x256.size inb).emb
    (Shape.reshapeEquiv squeezes_S1x8x256_S8x256.numel_eq (ix2 r s))) = _
  have h1 : Shape.reshapeEquiv squeezes_S1x8x256_S8x256.numel_eq (ix2 r s) = (ix3 (0 : Fin 1) r s : S1x8x256.Idx) := by
    apply Shape.reshapeEquiv_eq_of_rowMajor
    rw [Shape.rowMajor_val_two, Shape.rowMajor_val_three]
    show (0 * 8 + r.val) * 256 + s.val = r.val * 256 + s.val
    omega
  rw [h1]
  congr 1
  funext a
  match a with
  | ⟨0, _⟩ => exact Fin.ext (by show k + 1 * 0 = k; omega)
  | ⟨1, _⟩ => exact Fin.ext (by show 0 + 1 * r.val = r.val; omega)
  | ⟨2, _⟩ => exact Fin.ext (by show 0 + 1 * s.val = s.val; omega)

/-- The elements of page k are the (k, r, s). -/
theorem mem_pageV_set (k : ℕ) (inb : ∀ a, (![k, 0, 0] : Fin 3 → ℕ) a + S1x8x256.size a ≤ (⟨3, ![n, 8, 256]⟩ : Shape).size a) (hk : k < n)
    {i : V.ty.Idx} : i ∈ (pageV V k inb).set ↔ ∃ (r : Fin 8) (s : Fin 256), V.emb (ix3 (⟨k, hk⟩ : Fin n) r s) = i := by
  constructor
  · intro h
    obtain ⟨x, rfl⟩ := View.exists_emb_of_mem_set (pageV V k inb) h
    exact ⟨x 0, x 1, ((congrArg (pageV V k inb).emb (eq_ix2 x)).trans (pageV_emb V k inb hk (x 0) (x 1))).symm⟩
  · rintro ⟨r, s, rfl⟩
    rw [← pageV_emb V k inb hk]
    exact View.emb_mem_set _ _

/-- An element of page k is in no other page. -/
theorem pageV_not_mem (k : ℕ) (hk : k < n) (k' : ℕ)
    (inb' : ∀ a, (![k', 0, 0] : Fin 3 → ℕ) a + S1x8x256.size a ≤ (⟨3, ![n, 8, 256]⟩ : Shape).size a) (hk' : k' < n)
    (hne : k ≠ k') (r : Fin 8) (s : Fin 256) :
    V.emb (ix3 (⟨k, hk⟩ : Fin n) r s) ∉ (pageV V k' inb').set := by
  intro h
  obtain ⟨r', s', h'⟩ := (mem_pageV_set V k' inb' hk').mp h
  have := congrArg (fun y : (⟨3, ![n, 8, 256]⟩ : Shape).Idx => (y (0 : Fin 3)).val) (V.emb.injective h')
  exact hne (this.symm)

/-- Distinct pages are disjoint. -/
theorem pageV_disjoint (k : ℕ) (inb : ∀ a, (![k, 0, 0] : Fin 3 → ℕ) a + S1x8x256.size a ≤ (⟨3, ![n, 8, 256]⟩ : Shape).size a) (hk : k < n)
    (k' : ℕ) (inb' : ∀ a, (![k', 0, 0] : Fin 3 → ℕ) a + S1x8x256.size a ≤ (⟨3, ![n, 8, 256]⟩ : Shape).size a) (hk' : k' < n)
    (hne : k ≠ k') : Disjoint (pageV V k inb).set (pageV V k' inb').set := by
  refine Finset.disjoint_left.mpr fun i hi => ?_
  obtain ⟨r, s, rfl⟩ := (mem_pageV_set V k inb hk).mp hi
  exact pageV_not_mem V k hk k' inb' hk' hne r s

/-- A copy into page k leaves its payload on page k, -/
theorem pageV_write_self (k : ℕ) (inb : ∀ a, (![k, 0, 0] : Fin 3 → ℕ) a + S1x8x256.size a ≤ (⟨3, ![n, 8, 256]⟩ : Shape).size a) (hk : k < n)
    (f : V.ty.Contents Val) (w : S8x256.Idx → Val e) (r : Fin 8) (s : Fin 256) :
    (pageV V k inb).write Val f w Finset.univ (V.emb (ix3 (⟨k, hk⟩ : Fin n) r s))
      = _root_.cast (congrArg Val V.elt_eq.symm) (w (ix2 r s)) := by
  rw [← pageV_emb V k inb hk]
  exact write_univ_emb (pageV V k inb) f w (ix2 r s)

/-- and the other pages alone. -/
theorem pageV_write_other (k : ℕ) (hk : k < n) (k' : ℕ)
    (inb' : ∀ a, (![k', 0, 0] : Fin 3 → ℕ) a + S1x8x256.size a ≤ (⟨3, ![n, 8, 256]⟩ : Shape).size a) (hk' : k' < n)
    (hne : k ≠ k') (f : V.ty.Contents Val) (w : S8x256.Idx → Val e) (r : Fin 8) (s : Fin 256) :
    (pageV V k' inb').write Val f w Finset.univ (V.emb (ix3 (⟨k, hk⟩ : Fin n) r s)) = f (V.emb (ix3 (⟨k, hk⟩ : Fin n) r s)) :=
  write_univ_of_not_mem (pageV V k' inb') f w (pageV_not_mem V k hk k' inb' hk' hne r s)

end Pages

/-! ## The landing buffers, page by page -/

/-- The ten landing slots are the pages of the two landing buffers. -/
theorem slotM_view_0 : (slotM 0).view = pageV (czM : Memref sig .tc .vmem S3x8x256 .f32).view 0 inb_S3x8x256_S1x8x256_0_0_0 := rfl
theorem slotM_view_1 : (slotM 1).view = pageV (czM : Memref sig .tc .vmem S3x8x256 .f32).view 1 inb_S3x8x256_S1x8x256_1_0_0 := rfl
theorem slotM_view_2 : (slotM 2).view = pageV (czM : Memref sig .tc .vmem S3x8x256 .f32).view 2 inb_S3x8x256_S1x8x256_2_0_0 := rfl
theorem slotM_view_3 : (slotM 3).view = pageV (cpM : Memref sig .tc .vmem S7x8x256 .f32).view 0 inb_S7x8x256_S1x8x256_0_0_0 := rfl
theorem slotM_view_4 : (slotM 4).view = pageV (cpM : Memref sig .tc .vmem S7x8x256 .f32).view 1 inb_S7x8x256_S1x8x256_1_0_0 := rfl
theorem slotM_view_5 : (slotM 5).view = pageV (cpM : Memref sig .tc .vmem S7x8x256 .f32).view 2 inb_S7x8x256_S1x8x256_2_0_0 := rfl
theorem slotM_view_6 : (slotM 6).view = pageV (cpM : Memref sig .tc .vmem S7x8x256 .f32).view 3 inb_S7x8x256_S1x8x256_3_0_0 := rfl
theorem slotM_view_7 : (slotM 7).view = pageV (cpM : Memref sig .tc .vmem S7x8x256 .f32).view 4 inb_S7x8x256_S1x8x256_4_0_0 := rfl
theorem slotM_view_8 : (slotM 8).view = pageV (cpM : Memref sig .tc .vmem S7x8x256 .f32).view 5 inb_S7x8x256_S1x8x256_5_0_0 := rfl
theorem slotM_view_9 : (slotM 9).view = pageV (cpM : Memref sig .tc .vmem S7x8x256 .f32).view 6 inb_S7x8x256_S1x8x256_6_0_0 := rfl

theorem czV_page0 (c : Dev nD) (r : Fin 8) (s : Fin 256) :
    czV m ρ c (ix3 (0 : Fin 3) r s) = mineV m ρ (src c 0) (ix2 r s) := by
  unfold czV
  refine (pageV_write_other (czM : Memref sig .tc .vmem S3x8x256 .f32).view 0 (by decide) 2 inb_S3x8x256_S1x8x256_2_0_0 (by decide) (by decide) _ _ r s).trans ?_
  refine (pageV_write_other (czM : Memref sig .tc .vmem S3x8x256 .f32).view 0 (by decide) 1 inb_S3x8x256_S1x8x256_1_0_0 (by decide) (by decide) _ _ r s).trans ?_
  exact (pageV_write_self (czM : Memref sig .tc .vmem S3x8x256 .f32).view 0 inb_S3x8x256_S1x8x256_0_0_0 (by decide) _ _ r s).trans rfl

theorem czV_page1 (c : Dev nD) (r : Fin 8) (s : Fin 256) :
    czV m ρ c (ix3 (1 : Fin 3) r s) = mineV m ρ (src c 1) (ix2 r s) := by
  unfold czV
  refine (pageV_write_other (czM : Memref sig .tc .vmem S3x8x256 .f32).view 1 (by decide) 2 inb_S3x8x256_S1x8x256_2_0_0 (by decide) (by decide) _ _ r s).trans ?_
  exact (pageV_write_self (czM : Memref sig .tc .vmem S3x8x256 .f32).view 1 inb_S3x8x256_S1x8x256_1_0_0 (by decide) _ _ r s).trans rfl

theorem czV_page2 (c : Dev nD) (r : Fin 8) (s : Fin 256) :
    czV m ρ c (ix3 (2 : Fin 3) r s) = mineV m ρ (src c 2) (ix2 r s) := by
  unfold czV
  exact (pageV_write_self (czM : Memref sig .tc .vmem S3x8x256 .f32).view 2 inb_S3x8x256_S1x8x256_2_0_0 (by decide) _ _ r s).trans rfl

/-- Page k of the column-group landing buffer holds the row sums of the device whose k-th copy lands there. -/
theorem czV_apply (c : Dev nD) (k : Fin 3) (r : Fin 8) (s : Fin 256) :
    czV m ρ c (ix3 k r s) = mineV m ρ (src c ⟨k.val, by omega⟩) (ix2 r s) :=
  match k with
  | ⟨0, _⟩ => czV_page0 m ρ c r s
  | ⟨1, _⟩ => czV_page1 m ρ c r s
  | ⟨2, _⟩ => czV_page2 m ρ c r s

theorem cpV_page0 (c : Dev nD) (r : Fin 8) (s : Fin 256) :
    cpV m ρ c (ix3 (0 : Fin 7) r s) = colV m ρ (src c 3) (ix2 r s) := by
  unfold cpV
  refine (pageV_write_other (cpM : Memref sig .tc .vmem S7x8x256 .f32).view 0 (by decide) 6 inb_S7x8x256_S1x8x256_6_0_0 (by decide) (by decide) _ _ r s).trans ?_
  refine (pageV_write_other (cpM : Memref sig .tc .vmem S7x8x256 .f32).view 0 (by decide) 5 inb_S7x8x256_S1x8x256_5_0_0 (by decide) (by decide) _ _ r s).trans ?_
  refine (pageV_write_other (cpM : Memref sig .tc .vmem S7x8x256 .f32).view 0 (by decide) 4 inb_S7x8x256_S1x8x256_4_0_0 (by decide) (by decide) _ _ r s).trans ?_
  refine (pageV_write_other (cpM : Memref sig .tc .vmem S7x8x256 .f32).view 0 (by decide) 3 inb_S7x8x256_S1x8x256_3_0_0 (by decide) (by decide) _ _ r s).trans ?_
  refine (pageV_write_other (cpM : Memref sig .tc .vmem S7x8x256 .f32).view 0 (by decide) 2 inb_S7x8x256_S1x8x256_2_0_0 (by decide) (by decide) _ _ r s).trans ?_
  refine (pageV_write_other (cpM : Memref sig .tc .vmem S7x8x256 .f32).view 0 (by decide) 1 inb_S7x8x256_S1x8x256_1_0_0 (by decide) (by decide) _ _ r s).trans ?_
  exact (pageV_write_self (cpM : Memref sig .tc .vmem S7x8x256 .f32).view 0 inb_S7x8x256_S1x8x256_0_0_0 (by decide) _ _ r s).trans rfl

theorem cpV_page1 (c : Dev nD) (r : Fin 8) (s : Fin 256) :
    cpV m ρ c (ix3 (1 : Fin 7) r s) = colV m ρ (src c 4) (ix2 r s) := by
  unfold cpV
  refine (pageV_write_other (cpM : Memref sig .tc .vmem S7x8x256 .f32).view 1 (by decide) 6 inb_S7x8x256_S1x8x256_6_0_0 (by decide) (by decide) _ _ r s).trans ?_
  refine (pageV_write_other (cpM : Memref sig .tc .vmem S7x8x256 .f32).view 1 (by decide) 5 inb_S7x8x256_S1x8x256_5_0_0 (by decide) (by decide) _ _ r s).trans ?_
  refine (pageV_write_other (cpM : Memref sig .tc .vmem S7x8x256 .f32).view 1 (by decide) 4 inb_S7x8x256_S1x8x256_4_0_0 (by decide) (by decide) _ _ r s).trans ?_
  refine (pageV_write_other (cpM : Memref sig .tc .vmem S7x8x256 .f32).view 1 (by decide) 3 inb_S7x8x256_S1x8x256_3_0_0 (by decide) (by decide) _ _ r s).trans ?_
  refine (pageV_write_other (cpM : Memref sig .tc .vmem S7x8x256 .f32).view 1 (by decide) 2 inb_S7x8x256_S1x8x256_2_0_0 (by decide) (by decide) _ _ r s).trans ?_
  exact (pageV_write_self (cpM : Memref sig .tc .vmem S7x8x256 .f32).view 1 inb_S7x8x256_S1x8x256_1_0_0 (by decide) _ _ r s).trans rfl

theorem cpV_page2 (c : Dev nD) (r : Fin 8) (s : Fin 256) :
    cpV m ρ c (ix3 (2 : Fin 7) r s) = colV m ρ (src c 5) (ix2 r s) := by
  unfold cpV
  refine (pageV_write_other (cpM : Memref sig .tc .vmem S7x8x256 .f32).view 2 (by decide) 6 inb_S7x8x256_S1x8x256_6_0_0 (by decide) (by decide) _ _ r s).trans ?_
  refine (pageV_write_other (cpM : Memref sig .tc .vmem S7x8x256 .f32).view 2 (by decide) 5 inb_S7x8x256_S1x8x256_5_0_0 (by decide) (by decide) _ _ r s).trans ?_
  refine (pageV_write_other (cpM : Memref sig .tc .vmem S7x8x256 .f32).view 2 (by decide) 4 inb_S7x8x256_S1x8x256_4_0_0 (by decide) (by decide) _ _ r s).trans ?_
  refine (pageV_write_other (cpM : Memref sig .tc .vmem S7x8x256 .f32).view 2 (by decide) 3 inb_S7x8x256_S1x8x256_3_0_0 (by decide) (by decide) _ _ r s).trans ?_
  exact (pageV_write_self (cpM : Memref sig .tc .vmem S7x8x256 .f32).view 2 inb_S7x8x256_S1x8x256_2_0_0 (by decide) _ _ r s).trans rfl

theorem cpV_page3 (c : Dev nD) (r : Fin 8) (s : Fin 256) :
    cpV m ρ c (ix3 (3 : Fin 7) r s) = colV m ρ (src c 6) (ix2 r s) := by
  unfold cpV
  refine (pageV_write_other (cpM : Memref sig .tc .vmem S7x8x256 .f32).view 3 (by decide) 6 inb_S7x8x256_S1x8x256_6_0_0 (by decide) (by decide) _ _ r s).trans ?_
  refine (pageV_write_other (cpM : Memref sig .tc .vmem S7x8x256 .f32).view 3 (by decide) 5 inb_S7x8x256_S1x8x256_5_0_0 (by decide) (by decide) _ _ r s).trans ?_
  refine (pageV_write_other (cpM : Memref sig .tc .vmem S7x8x256 .f32).view 3 (by decide) 4 inb_S7x8x256_S1x8x256_4_0_0 (by decide) (by decide) _ _ r s).trans ?_
  exact (pageV_write_self (cpM : Memref sig .tc .vmem S7x8x256 .f32).view 3 inb_S7x8x256_S1x8x256_3_0_0 (by decide) _ _ r s).trans rfl

theorem cpV_page4 (c : Dev nD) (r : Fin 8) (s : Fin 256) :
    cpV m ρ c (ix3 (4 : Fin 7) r s) = colV m ρ (src c 7) (ix2 r s) := by
  unfold cpV
  refine (pageV_write_other (cpM : Memref sig .tc .vmem S7x8x256 .f32).view 4 (by decide) 6 inb_S7x8x256_S1x8x256_6_0_0 (by decide) (by decide) _ _ r s).trans ?_
  refine (pageV_write_other (cpM : Memref sig .tc .vmem S7x8x256 .f32).view 4 (by decide) 5 inb_S7x8x256_S1x8x256_5_0_0 (by decide) (by decide) _ _ r s).trans ?_
  exact (pageV_write_self (cpM : Memref sig .tc .vmem S7x8x256 .f32).view 4 inb_S7x8x256_S1x8x256_4_0_0 (by decide) _ _ r s).trans rfl

theorem cpV_page5 (c : Dev nD) (r : Fin 8) (s : Fin 256) :
    cpV m ρ c (ix3 (5 : Fin 7) r s) = colV m ρ (src c 8) (ix2 r s) := by
  unfold cpV
  refine (pageV_write_other (cpM : Memref sig .tc .vmem S7x8x256 .f32).view 5 (by decide) 6 inb_S7x8x256_S1x8x256_6_0_0 (by decide) (by decide) _ _ r s).trans ?_
  exact (pageV_write_self (cpM : Memref sig .tc .vmem S7x8x256 .f32).view 5 inb_S7x8x256_S1x8x256_5_0_0 (by decide) _ _ r s).trans rfl

theorem cpV_page6 (c : Dev nD) (r : Fin 8) (s : Fin 256) :
    cpV m ρ c (ix3 (6 : Fin 7) r s) = colV m ρ (src c 9) (ix2 r s) := by
  unfold cpV
  exact (pageV_write_self (cpM : Memref sig .tc .vmem S7x8x256 .f32).view 6 inb_S7x8x256_S1x8x256_6_0_0 (by decide) _ _ r s).trans rfl

/-- Page j of the row-group landing buffer holds the column-group sums of the device whose (j + 3)-th copy lands there. -/
theorem cpV_apply (c : Dev nD) (j : Fin 7) (r : Fin 8) (s : Fin 256) :
    cpV m ρ c (ix3 j r s) = colV m ρ (src c ⟨j.val + 3, by omega⟩) (ix2 r s) :=
  match j with
  | ⟨0, _⟩ => cpV_page0 m ρ c r s
  | ⟨1, _⟩ => cpV_page1 m ρ c r s
  | ⟨2, _⟩ => cpV_page2 m ρ c r s
  | ⟨3, _⟩ => cpV_page3 m ρ c r s
  | ⟨4, _⟩ => cpV_page4 m ρ c r s
  | ⟨5, _⟩ => cpV_page5 m ρ c r s
  | ⟨6, _⟩ => cpV_page6 m ρ c r s

end Cert.KernelProof

end
-- ==== Proof.KernelPages.lean ====
/-
  The landing buffers as separation-logic resources, page by page.

  A copy into one page of a landing buffer, over whatever the buffer held, already leaves the final contents on that
  page: the points-to of the page at the written contents is the receive payload. The pages of a landing buffer are
  pairwise disjoint and cover it, so the whole buffer splits into its pages and is joined back from them.
-/
import proofs.«900767_g7700000000000768_dist_diff_adaln_cshard_i_b4_s256_c128_v7x_i32_bf16_1_alg».proof.Proof.KernelVals
import Idealize.ShloMosaic.Rules.PointsTo

noncomputable section

namespace Cert.KernelProof

open Cert.Kernel Cert.Kernel.Gen Cert.Mesh

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## Landing: one copy into a page leaves the final contents on that page -/

theorem land_0 (X : Dev nD) (fd : (cc0_scratch2 : Ref sig .tc).ty.Contents (Elt F)) :
    ∀ y ∈ (slotM 0).view.set,
      (slotM 0).view.write (Elt F) fd ((srcM 0).view.read (Elt F) (mineV m ρ (src X 0))) Finset.univ y = czV m ρ X y := by
  intro y hy
  obtain ⟨r, s, rfl⟩ := (mem_pageV_set (czM : Memref sig .tc .vmem S3x8x256 .f32).view 0 inb_S3x8x256_S1x8x256_0_0_0 (by decide)).mp hy
  exact ((pageV_write_self (czM : Memref sig .tc .vmem S3x8x256 .f32).view 0 inb_S3x8x256_S1x8x256_0_0_0 (by decide) _ _ r s).trans rfl).trans (czV_page0 m ρ X r s).symm

theorem recvPay_of_land_0 (X : Dev nD) (fd : (cc0_scratch2 : Ref sig .tc).ty.Contents (Elt F)) :
    (((slotM 0).view.loc (X : Thread nD τ) ↦[(slotM 0).view.set]{fullShare}
        (slotM 0).view.write (Elt F) fd ((srcM 0).view.read (Elt F) (mineV m ρ (src X 0))) Finset.univ) : sProp 𝕄)
      ⊢ recvPay m ρ X 0 :=
  Entails.of_eq (pointsTo_congr (land_0 m ρ X fd))

theorem land_1 (X : Dev nD) (fd : (cc0_scratch2 : Ref sig .tc).ty.Contents (Elt F)) :
    ∀ y ∈ (slotM 1).view.set,
      (slotM 1).view.write (Elt F) fd ((srcM 1).view.read (Elt F) (mineV m ρ (src X 1))) Finset.univ y = czV m ρ X y := by
  intro y hy
  obtain ⟨r, s, rfl⟩ := (mem_pageV_set (czM : Memref sig .tc .vmem S3x8x256 .f32).view 1 inb_S3x8x256_S1x8x256_1_0_0 (by decide)).mp hy
  exact ((pageV_write_self (czM : Memref sig .tc .vmem S3x8x256 .f32).view 1 inb_S3x8x256_S1x8x256_1_0_0 (by decide) _ _ r s).trans rfl).trans (czV_page1 m ρ X r s).symm

theorem recvPay_of_land_1 (X : Dev nD) (fd : (cc0_scratch2 : Ref sig .tc).ty.Contents (Elt F)) :
    (((slotM 1).view.loc (X : Thread nD τ) ↦[(slotM 1).view.set]{fullShare}
        (slotM 1).view.write (Elt F) fd ((srcM 1).view.read (Elt F) (mineV m ρ (src X 1))) Finset.univ) : sProp 𝕄)
      ⊢ recvPay m ρ X 1 :=
  Entails.of_eq (pointsTo_congr (land_1 m ρ X fd))

theorem land_2 (X : Dev nD) (fd : (cc0_scratch2 : Ref sig .tc).ty.Contents (Elt F)) :
    ∀ y ∈ (slotM 2).view.set,
      (slotM 2).view.write (Elt F) fd ((srcM 2).view.read (Elt F) (mineV m ρ (src X 2))) Finset.univ y = czV m ρ X y := by
  intro y hy
  obtain ⟨r, s, rfl⟩ := (mem_pageV_set (czM : Memref sig .tc .vmem S3x8x256 .f32).view 2 inb_S3x8x256_S1x8x256_2_0_0 (by decide)).mp hy
  exact ((pageV_write_self (czM : Memref sig .tc .vmem S3x8x256 .f32).view 2 inb_S3x8x256_S1x8x256_2_0_0 (by decide) _ _ r s).trans rfl).trans (czV_page2 m ρ X r s).symm

theorem recvPay_of_land_2 (X : Dev nD) (fd : (cc0_scratch2 : Ref sig .tc).ty.Contents (Elt F)) :
    (((slotM 2).view.loc (X : Thread nD τ) ↦[(slotM 2).view.set]{fullShare}
        (slotM 2).view.write (Elt F) fd ((srcM 2).view.read (Elt F) (mineV m ρ (src X 2))) Finset.univ) : sProp 𝕄)
      ⊢ recvPay m ρ X 2 :=
  Entails.of_eq (pointsTo_congr (land_2 m ρ X fd))

theorem land_3 (X : Dev nD) (fd : (cc0_scratch3 : Ref sig .tc).ty.Contents (Elt F)) :
    ∀ y ∈ (slotM 3).view.set,
      (slotM 3).view.write (Elt F) fd ((srcM 3).view.read (Elt F) (colV m ρ (src X 3))) Finset.univ y = cpV m ρ X y := by
  intro y hy
  obtain ⟨r, s, rfl⟩ := (mem_pageV_set (cpM : Memref sig .tc .vmem S7x8x256 .f32).view 0 inb_S7x8x256_S1x8x256_0_0_0 (by decide)).mp hy
  exact ((pageV_write_self (cpM : Memref sig .tc .vmem S7x8x256 .f32).view 0 inb_S7x8x256_S1x8x256_0_0_0 (by decide) _ _ r s).trans rfl).trans (cpV_page0 m ρ X r s).symm

theorem recvPay_of_land_3 (X : Dev nD) (fd : (cc0_scratch3 : Ref sig .tc).ty.Contents (Elt F)) :
    (((slotM 3).view.loc (X : Thread nD τ) ↦[(slotM 3).view.set]{fullShare}
        (slotM 3).view.write (Elt F) fd ((srcM 3).view.read (Elt F) (colV m ρ (src X 3))) Finset.univ) : sProp 𝕄)
      ⊢ recvPay m ρ X 3 :=
  Entails.of_eq (pointsTo_congr (land_3 m ρ X fd))

theorem land_4 (X : Dev nD) (fd : (cc0_scratch3 : Ref sig .tc).ty.Contents (Elt F)) :
    ∀ y ∈ (slotM 4).view.set,
      (slotM 4).view.write (Elt F) fd ((srcM 4).view.read (Elt F) (colV m ρ (src X 4))) Finset.univ y = cpV m ρ X y := by
  intro y hy
  obtain ⟨r, s, rfl⟩ := (mem_pageV_set (cpM : Memref sig .tc .vmem S7x8x256 .f32).view 1 inb_S7x8x256_S1x8x256_1_0_0 (by decide)).mp hy
  exact ((pageV_write_self (cpM : Memref sig .tc .vmem S7x8x256 .f32).view 1 inb_S7x8x256_S1x8x256_1_0_0 (by decide) _ _ r s).trans rfl).trans (cpV_page1 m ρ X r s).symm

theorem recvPay_of_land_4 (X : Dev nD) (fd : (cc0_scratch3 : Ref sig .tc).ty.Contents (Elt F)) :
    (((slotM 4).view.loc (X : Thread nD τ) ↦[(slotM 4).view.set]{fullShare}
        (slotM 4).view.write (Elt F) fd ((srcM 4).view.read (Elt F) (colV m ρ (src X 4))) Finset.univ) : sProp 𝕄)
      ⊢ recvPay m ρ X 4 :=
  Entails.of_eq (pointsTo_congr (land_4 m ρ X fd))

theorem land_5 (X : Dev nD) (fd : (cc0_scratch3 : Ref sig .tc).ty.Contents (Elt F)) :
    ∀ y ∈ (slotM 5).view.set,
      (slotM 5).view.write (Elt F) fd ((srcM 5).view.read (Elt F) (colV m ρ (src X 5))) Finset.univ y = cpV m ρ X y := by
  intro y hy
  obtain ⟨r, s, rfl⟩ := (mem_pageV_set (cpM : Memref sig .tc .vmem S7x8x256 .f32).view 2 inb_S7x8x256_S1x8x256_2_0_0 (by decide)).mp hy
  exact ((pageV_write_self (cpM : Memref sig .tc .vmem S7x8x256 .f32).view 2 inb_S7x8x256_S1x8x256_2_0_0 (by decide) _ _ r s).trans rfl).trans (cpV_page2 m ρ X r s).symm

theorem recvPay_of_land_5 (X : Dev nD) (fd : (cc0_scratch3 : Ref sig .tc).ty.Contents (Elt F)) :
    (((slotM 5).view.loc (X : Thread nD τ) ↦[(slotM 5).view.set]{fullShare}
        (slotM 5).view.write (Elt F) fd ((srcM 5).view.read (Elt F) (colV m ρ (src X 5))) Finset.univ) : sProp 𝕄)
      ⊢ recvPay m ρ X 5 :=
  Entails.of_eq (pointsTo_congr (land_5 m ρ X fd))

theorem land_6 (X : Dev nD) (fd : (cc0_scratch3 : Ref sig .tc).ty.Contents (Elt F)) :
    ∀ y ∈ (slotM 6).view.set,
      (slotM 6).view.write (Elt F) fd ((srcM 6).view.read (Elt F) (colV m ρ (src X 6))) Finset.univ y = cpV m ρ X y := by
  intro y hy
  obtain ⟨r, s, rfl⟩ := (mem_pageV_set (cpM : Memref sig .tc .vmem S7x8x256 .f32).view 3 inb_S7x8x256_S1x8x256_3_0_0 (by decide)).mp hy
  exact ((pageV_write_self (cpM : Memref sig .tc .vmem S7x8x256 .f32).view 3 inb_S7x8x256_S1x8x256_3_0_0 (by decide) _ _ r s).trans rfl).trans (cpV_page3 m ρ X r s).symm

theorem recvPay_of_land_6 (X : Dev nD) (fd : (cc0_scratch3 : Ref sig .tc).ty.Contents (Elt F)) :
    (((slotM 6).view.loc (X : Thread nD τ) ↦[(slotM 6).view.set]{fullShare}
        (slotM 6).view.write (Elt F) fd ((srcM 6).view.read (Elt F) (colV m ρ (src X 6))) Finset.univ) : sProp 𝕄)
      ⊢ recvPay m ρ X 6 :=
  Entails.of_eq (pointsTo_congr (land_6 m ρ X fd))

theorem land_7 (X : Dev nD) (fd : (cc0_scratch3 : Ref sig .tc).ty.Contents (Elt F)) :
    ∀ y ∈ (slotM 7).view.set,
      (slotM 7).view.write (Elt F) fd ((srcM 7).view.read (Elt F) (colV m ρ (src X 7))) Finset.univ y = cpV m ρ X y := by
  intro y hy
  obtain ⟨r, s, rfl⟩ := (mem_pageV_set (cpM : Memref sig .tc .vmem S7x8x256 .f32).view 4 inb_S7x8x256_S1x8x256_4_0_0 (by decide)).mp hy
  exact ((pageV_write_self (cpM : Memref sig .tc .vmem S7x8x256 .f32).view 4 inb_S7x8x256_S1x8x256_4_0_0 (by decide) _ _ r s).trans rfl).trans (cpV_page4 m ρ X r s).symm

theorem recvPay_of_land_7 (X : Dev nD) (fd : (cc0_scratch3 : Ref sig .tc).ty.Contents (Elt F)) :
    (((slotM 7).view.loc (X : Thread nD τ) ↦[(slotM 7).view.set]{fullShare}
        (slotM 7).view.write (Elt F) fd ((srcM 7).view.read (Elt F) (colV m ρ (src X 7))) Finset.univ) : sProp 𝕄)
      ⊢ recvPay m ρ X 7 :=
  Entails.of_eq (pointsTo_congr (land_7 m ρ X fd))

theorem land_8 (X : Dev nD) (fd : (cc0_scratch3 : Ref sig .tc).ty.Contents (Elt F)) :
    ∀ y ∈ (slotM 8).view.set,
      (slotM 8).view.write (Elt F) fd ((srcM 8).view.read (Elt F) (colV m ρ (src X 8))) Finset.univ y = cpV m ρ X y := by
  intro y hy
  obtain ⟨r, s, rfl⟩ := (mem_pageV_set (cpM : Memref sig .tc .vmem S7x8x256 .f32).view 5 inb_S7x8x256_S1x8x256_5_0_0 (by decide)).mp hy
  exact ((pageV_write_self (cpM : Memref sig .tc .vmem S7x8x256 .f32).view 5 inb_S7x8x256_S1x8x256_5_0_0 (by decide) _ _ r s).trans rfl).trans (cpV_page5 m ρ X r s).symm

theorem recvPay_of_land_8 (X : Dev nD) (fd : (cc0_scratch3 : Ref sig .tc).ty.Contents (Elt F)) :
    (((slotM 8).view.loc (X : Thread nD τ) ↦[(slotM 8).view.set]{fullShare}
        (slotM 8).view.write (Elt F) fd ((srcM 8).view.read (Elt F) (colV m ρ (src X 8))) Finset.univ) : sProp 𝕄)
      ⊢ recvPay m ρ X 8 :=
  Entails.of_eq (pointsTo_congr (land_8 m ρ X fd))

theorem land_9 (X : Dev nD) (fd : (cc0_scratch3 : Ref sig .tc).ty.Contents (Elt F)) :
    ∀ y ∈ (slotM 9).view.set,
      (slotM 9).view.write (Elt F) fd ((srcM 9).view.read (Elt F) (colV m ρ (src X 9))) Finset.univ y = cpV m ρ X y := by
  intro y hy
  obtain ⟨r, s, rfl⟩ := (mem_pageV_set (cpM : Memref sig .tc .vmem S7x8x256 .f32).view 6 inb_S7x8x256_S1x8x256_6_0_0 (by decide)).mp hy
  exact ((pageV_write_self (cpM : Memref sig .tc .vmem S7x8x256 .f32).view 6 inb_S7x8x256_S1x8x256_6_0_0 (by decide) _ _ r s).trans rfl).trans (cpV_page6 m ρ X r s).symm

theorem recvPay_of_land_9 (X : Dev nD) (fd : (cc0_scratch3 : Ref sig .tc).ty.Contents (Elt F)) :
    (((slotM 9).view.loc (X : Thread nD τ) ↦[(slotM 9).view.set]{fullShare}
        (slotM 9).view.write (Elt F) fd ((srcM 9).view.read (Elt F) (colV m ρ (src X 9))) Finset.univ) : sProp 𝕄)
      ⊢ recvPay m ρ X 9 :=
  Entails.of_eq (pointsTo_congr (land_9 m ρ X fd))

/-! ## A landing buffer splits into its pages -/

section Cover

variable {sg : RefSig} {κ : Kind} {sp : Space} {e : EltTy} {n : ℕ} (V : View sg κ sp (⟨3, ![n, 8, 256]⟩ : Shape) e)

/-- An element whose first coordinate is k is on page k. -/
theorem mem_pageV_of_coord (k : ℕ) (inb : ∀ a, (![k, 0, 0] : Fin 3 → ℕ) a + S1x8x256.size a ≤ (⟨3, ![n, 8, 256]⟩ : Shape).size a) (hk : k < n)
    (y : (⟨3, ![n, 8, 256]⟩ : Shape).Idx) (h : (y 0).val = k) : V.emb y ∈ (pageV V k inb).set := by
  refine (mem_pageV_set V k inb hk).mpr ⟨y 1, y 2, congrArg V.emb ?_⟩
  have e0 : (⟨k, hk⟩ : Fin n) = y 0 := Fin.ext h.symm
  rw [e0]
  exact (eq_ix3 y).symm

end Cover

/-- The pages cover the buffer. -/
theorem cz_cover (i : S3x8x256.Idx) : i ∈ (slotM 0).view.set ∪ ((slotM 1).view.set ∪ ((slotM 2).view.set)) := by
  have hi : (i 0).val < 3 := (i 0).isLt
  rcases (by omega : (i 0).val = 0 ∨ (i 0).val = 1 ∨ (i 0).val = 2) with h | h | h
  · exact (Finset.mem_union_left _ (mem_pageV_of_coord (czM : Memref sig .tc .vmem S3x8x256 .f32).view 0 inb_S3x8x256_S1x8x256_0_0_0 (by decide) i h))
  · exact (Finset.mem_union_right _ (Finset.mem_union_left _ (mem_pageV_of_coord (czM : Memref sig .tc .vmem S3x8x256 .f32).view 1 inb_S3x8x256_S1x8x256_1_0_0 (by decide) i h)))
  · exact (Finset.mem_union_right _ (Finset.mem_union_right _ (mem_pageV_of_coord (czM : Memref sig .tc .vmem S3x8x256 .f32).view 2 inb_S3x8x256_S1x8x256_2_0_0 (by decide) i h)))

/-- Distinct pages are disjoint. -/
theorem cz_disj (k k' : Fin 3) (hne : k ≠ k') :
    ∀ (inb : ∀ a, (![k.val, 0, 0] : Fin 3 → ℕ) a + S1x8x256.size a ≤ S3x8x256.size a)
      (inb' : ∀ a, (![k'.val, 0, 0] : Fin 3 → ℕ) a + S1x8x256.size a ≤ S3x8x256.size a),
      Disjoint (pageV (czM : Memref sig .tc .vmem S3x8x256 .f32).view k.val inb).set (pageV (czM : Memref sig .tc .vmem S3x8x256 .f32).view k'.val inb').set :=
  fun inb inb' => pageV_disjoint (czM : Memref sig .tc .vmem S3x8x256 .f32).view k.val inb k.isLt k'.val inb' k'.isLt (fun h => hne (Fin.ext h))

/-- The whole buffer is its pages, side by side. -/
theorem cz_pages (c : Dev nD) (f : Buf (Elt F) ((c : Thread nD τ).loc cc0_scratch2)) :
    ((((c : Thread nD τ).loc cc0_scratch2) ↦{fullShare} f) : sProp 𝕄)
      ⊣⊢ iprop(((slotM 0).view.loc (c : Thread nD τ) ↦[(slotM 0).view.set]{fullShare} f) ∗ ((slotM 1).view.loc (c : Thread nD τ) ↦[(slotM 1).view.set]{fullShare} f) ∗ ((slotM 2).view.loc (c : Thread nD τ) ↦[(slotM 2).view.set]{fullShare} f)) := by
  have hU : (Finset.univ : Finset (Idx ((c : Thread nD τ).loc cc0_scratch2))) = (slotM 0).view.set ∪ ((slotM 1).view.set ∪ ((slotM 2).view.set)) :=
    (Finset.eq_univ_iff_forall.mpr cz_cover).symm
  refine (BiEntails.of_eq (congrArg (fun S => ((((c : Thread nD τ).loc cc0_scratch2) ↦[S]{fullShare} f) : sProp 𝕄)) hU)).trans ?_
  refine (pointsTo_union (Finset.disjoint_union_right.mpr ⟨(cz_disj 0 1 (by decide) inb_S3x8x256_S1x8x256_0_0_0 inb_S3x8x256_S1x8x256_1_0_0), (cz_disj 0 2 (by decide) inb_S3x8x256_S1x8x256_0_0_0 inb_S3x8x256_S1x8x256_2_0_0)⟩)).trans (sep_congr_right ?_)
  exact pointsTo_union (cz_disj 1 2 (by decide) inb_S3x8x256_S1x8x256_1_0_0 inb_S3x8x256_S1x8x256_2_0_0)

/-- The pages cover the buffer. -/
theorem cp_cover (i : S7x8x256.Idx) : i ∈ (slotM 3).view.set ∪ ((slotM 4).view.set ∪ ((slotM 5).view.set ∪ ((slotM 6).view.set ∪ ((slotM 7).view.set ∪ ((slotM 8).view.set ∪ ((slotM 9).view.set)))))) := by
  have hi : (i 0).val < 7 := (i 0).isLt
  rcases (by omega : (i 0).val = 0 ∨ (i 0).val = 1 ∨ (i 0).val = 2 ∨ (i 0).val = 3 ∨ (i 0).val = 4 ∨ (i 0).val = 5 ∨ (i 0).val = 6) with h | h | h | h | h | h | h
  · exact (Finset.mem_union_left _ (mem_pageV_of_coord (cpM : Memref sig .tc .vmem S7x8x256 .f32).view 0 inb_S7x8x256_S1x8x256_0_0_0 (by decide) i h))
  · exact (Finset.mem_union_right _ (Finset.mem_union_left _ (mem_pageV_of_coord (cpM : Memref sig .tc .vmem S7x8x256 .f32).view 1 inb_S7x8x256_S1x8x256_1_0_0 (by decide) i h)))
  · exact (Finset.mem_union_right _ (Finset.mem_union_right _ (Finset.mem_union_left _ (mem_pageV_of_coord (cpM : Memref sig .tc .vmem S7x8x256 .f32).view 2 inb_S7x8x256_S1x8x256_2_0_0 (by decide) i h))))
  · exact (Finset.mem_union_right _ (Finset.mem_union_right _ (Finset.mem_union_right _ (Finset.mem_union_left _ (mem_pageV_of_coord (cpM : Memref sig .tc .vmem S7x8x256 .f32).view 3 inb_S7x8x256_S1x8x256_3_0_0 (by decide) i h)))))
  · exact (Finset.mem_union_right _ (Finset.mem_union_right _ (Finset.mem_union_right _ (Finset.mem_union_right _ (Finset.mem_union_left _ (mem_pageV_of_coord (cpM : Memref sig .tc .vmem S7x8x256 .f32).view 4 inb_S7x8x256_S1x8x256_4_0_0 (by decide) i h))))))
  · exact (Finset.mem_union_right _ (Finset.mem_union_right _ (Finset.mem_union_right _ (Finset.mem_union_right _ (Finset.mem_union_right _ (Finset.mem_union_left _ (mem_pageV_of_coord (cpM : Memref sig .tc .vmem S7x8x256 .f32).view 5 inb_S7x8x256_S1x8x256_5_0_0 (by decide) i h)))))))
  · exact (Finset.mem_union_right _ (Finset.mem_union_right _ (Finset.mem_union_right _ (Finset.mem_union_right _ (Finset.mem_union_right _ (Finset.mem_union_right _ (mem_pageV_of_coord (cpM : Memref sig .tc .vmem S7x8x256 .f32).view 6 inb_S7x8x256_S1x8x256_6_0_0 (by decide) i h)))))))

/-- Distinct pages are disjoint. -/
theorem cp_disj (k k' : Fin 7) (hne : k ≠ k') :
    ∀ (inb : ∀ a, (![k.val, 0, 0] : Fin 3 → ℕ) a + S1x8x256.size a ≤ S7x8x256.size a)
      (inb' : ∀ a, (![k'.val, 0, 0] : Fin 3 → ℕ) a + S1x8x256.size a ≤ S7x8x256.size a),
      Disjoint (pageV (cpM : Memref sig .tc .vmem S7x8x256 .f32).view k.val inb).set (pageV (cpM : Memref sig .tc .vmem S7x8x256 .f32).view k'.val inb').set :=
  fun inb inb' => pageV_disjoint (cpM : Memref sig .tc .vmem S7x8x256 .f32).view k.val inb k.isLt k'.val inb' k'.isLt (fun h => hne (Fin.ext h))

/-- The whole buffer is its pages, side by side. -/
theorem cp_pages (c : Dev nD) (f : Buf (Elt F) ((c : Thread nD τ).loc cc0_scratch3)) :
    ((((c : Thread nD τ).loc cc0_scratch3) ↦{fullShare} f) : sProp 𝕄)
      ⊣⊢ iprop(((slotM 3).view.loc (c : Thread nD τ) ↦[(slotM 3).view.set]{fullShare} f) ∗ ((slotM 4).view.loc (c : Thread nD τ) ↦[(slotM 4).view.set]{fullShare} f) ∗ ((slotM 5).view.loc (c : Thread nD τ) ↦[(slotM 5).view.set]{fullShare} f) ∗ ((slotM 6).view.loc (c : Thread nD τ) ↦[(slotM 6).view.set]{fullShare} f) ∗ ((slotM 7).view.loc (c : Thread nD τ) ↦[(slotM 7).view.set]{fullShare} f) ∗ ((slotM 8).view.loc (c : Thread nD τ) ↦[(slotM 8).view.set]{fullShare} f) ∗ ((slotM 9).view.loc (c : Thread nD τ) ↦[(slotM 9).view.set]{fullShare} f)) := by
  have hU : (Finset.univ : Finset (Idx ((c : Thread nD τ).loc cc0_scratch3))) = (slotM 3).view.set ∪ ((slotM 4).view.set ∪ ((slotM 5).view.set ∪ ((slotM 6).view.set ∪ ((slotM 7).view.set ∪ ((slotM 8).view.set ∪ ((slotM 9).view.set)))))) :=
    (Finset.eq_univ_iff_forall.mpr cp_cover).symm
  refine (BiEntails.of_eq (congrArg (fun S => ((((c : Thread nD τ).loc cc0_scratch3) ↦[S]{fullShare} f) : sProp 𝕄)) hU)).trans ?_
  refine (pointsTo_union (Finset.disjoint_union_right.mpr ⟨(cp_disj 0 1 (by decide) inb_S7x8x256_S1x8x256_0_0_0 inb_S7x8x256_S1x8x256_1_0_0), (Finset.disjoint_union_right.mpr ⟨(cp_disj 0 2 (by decide) inb_S7x8x256_S1x8x256_0_0_0 inb_S7x8x256_S1x8x256_2_0_0), (Finset.disjoint_union_right.mpr ⟨(cp_disj 0 3 (by decide) inb_S7x8x256_S1x8x256_0_0_0 inb_S7x8x256_S1x8x256_3_0_0), (Finset.disjoint_union_right.mpr ⟨(cp_disj 0 4 (by decide) inb_S7x8x256_S1x8x256_0_0_0 inb_S7x8x256_S1x8x256_4_0_0), (Finset.disjoint_union_right.mpr ⟨(cp_disj 0 5 (by decide) inb_S7x8x256_S1x8x256_0_0_0 inb_S7x8x256_S1x8x256_5_0_0), (cp_disj 0 6 (by decide) inb_S7x8x256_S1x8x256_0_0_0 inb_S7x8x256_S1x8x256_6_0_0)⟩)⟩)⟩)⟩)⟩)).trans (sep_congr_right ?_)
  refine (pointsTo_union (Finset.disjoint_union_right.mpr ⟨(cp_disj 1 2 (by decide) inb_S7x8x256_S1x8x256_1_0_0 inb_S7x8x256_S1x8x256_2_0_0), (Finset.disjoint_union_right.mpr ⟨(cp_disj 1 3 (by decide) inb_S7x8x256_S1x8x256_1_0_0 inb_S7x8x256_S1x8x256_3_0_0), (Finset.disjoint_union_right.mpr ⟨(cp_disj 1 4 (by decide) inb_S7x8x256_S1x8x256_1_0_0 inb_S7x8x256_S1x8x256_4_0_0), (Finset.disjoint_union_right.mpr ⟨(cp_disj 1 5 (by decide) inb_S7x8x256_S1x8x256_1_0_0 inb_S7x8x256_S1x8x256_5_0_0), (cp_disj 1 6 (by decide) inb_S7x8x256_S1x8x256_1_0_0 inb_S7x8x256_S1x8x256_6_0_0)⟩)⟩)⟩)⟩)).trans (sep_congr_right ?_)
  refine (pointsTo_union (Finset.disjoint_union_right.mpr ⟨(cp_disj 2 3 (by decide) inb_S7x8x256_S1x8x256_2_0_0 inb_S7x8x256_S1x8x256_3_0_0), (Finset.disjoint_union_right.mpr ⟨(cp_disj 2 4 (by decide) inb_S7x8x256_S1x8x256_2_0_0 inb_S7x8x256_S1x8x256_4_0_0), (Finset.disjoint_union_right.mpr ⟨(cp_disj 2 5 (by decide) inb_S7x8x256_S1x8x256_2_0_0 inb_S7x8x256_S1x8x256_5_0_0), (cp_disj 2 6 (by decide) inb_S7x8x256_S1x8x256_2_0_0 inb_S7x8x256_S1x8x256_6_0_0)⟩)⟩)⟩)).trans (sep_congr_right ?_)
  refine (pointsTo_union (Finset.disjoint_union_right.mpr ⟨(cp_disj 3 4 (by decide) inb_S7x8x256_S1x8x256_3_0_0 inb_S7x8x256_S1x8x256_4_0_0), (Finset.disjoint_union_right.mpr ⟨(cp_disj 3 5 (by decide) inb_S7x8x256_S1x8x256_3_0_0 inb_S7x8x256_S1x8x256_5_0_0), (cp_disj 3 6 (by decide) inb_S7x8x256_S1x8x256_3_0_0 inb_S7x8x256_S1x8x256_6_0_0)⟩)⟩)).trans (sep_congr_right ?_)
  refine (pointsTo_union (Finset.disjoint_union_right.mpr ⟨(cp_disj 4 5 (by decide) inb_S7x8x256_S1x8x256_4_0_0 inb_S7x8x256_S1x8x256_5_0_0), (cp_disj 4 6 (by decide) inb_S7x8x256_S1x8x256_4_0_0 inb_S7x8x256_S1x8x256_6_0_0)⟩)).trans (sep_congr_right ?_)
  exact pointsTo_union (cp_disj 5 6 (by decide) inb_S7x8x256_S1x8x256_5_0_0 inb_S7x8x256_S1x8x256_6_0_0)

/-! ## The landed pages joined back; the column-group sums by definition -/

/-- The three landed pages of the column group are its landing buffer at the canonical contents. -/
theorem cz_join (c : Dev nD) :
    (iprop(recvPay m ρ c 0 ∗ recvPay m ρ c 1 ∗ recvPay m ρ c 2) : sProp 𝕄) ⊣⊢ (((c : Thread nD τ).loc cc0_scratch2) ↦{fullShare} czV m ρ c) :=
  (cz_pages c (czV m ρ c)).symm

/-- The seven landed pages of the row group are its landing buffer at the canonical contents. -/
theorem cp_join (c : Dev nD) :
    (iprop(recvPay m ρ c 3 ∗ recvPay m ρ c 4 ∗ recvPay m ρ c 5 ∗ recvPay m ρ c 6 ∗ recvPay m ρ c 7 ∗ recvPay m ρ c 8 ∗ recvPay m ρ c 9) : sProp 𝕄) ⊣⊢ (((c : Thread nD τ).loc cc0_scratch3) ↦{fullShare} cpV m ρ c) :=
  (cp_pages c (cpV m ρ c)).symm

/-- The column group's sums are, by definition, the own row sums plus the three landed pages. -/
theorem colV_eq (c : Dev nD) : colV m ρ c = k0_pay7 (mineV m ρ c) (czV m ρ c) := rfl

/-- info: 'Cert.KernelProof.mineOf_indep' depends on axioms: [propext, Classical.choice, Quot.sound] -/
#guard_msgs in #print axioms mineOf_indep
/-- info: 'Cert.KernelProof.mineV_lo' depends on axioms: [propext, Classical.choice, Quot.sound] -/
#guard_msgs in #print axioms mineV_lo
/-- info: 'Cert.KernelProof.mineV_hi' depends on axioms: [propext, Classical.choice, Quot.sound] -/
#guard_msgs in #print axioms mineV_hi
/-- info: 'Cert.KernelProof.czV_apply' depends on axioms: [propext, Classical.choice, Quot.sound] -/
#guard_msgs in #print axioms czV_apply
/-- info: 'Cert.KernelProof.cpV_apply' depends on axioms: [propext, Classical.choice, Quot.sound] -/
#guard_msgs in #print axioms cpV_apply
/-- info: 'Cert.KernelProof.recvPay_of_land_0' depends on axioms: [propext, Classical.choice, Quot.sound] -/
#guard_msgs in #print axioms recvPay_of_land_0
/-- info: 'Cert.KernelProof.recvPay_of_land_9' depends on axioms: [propext, Classical.choice, Quot.sound] -/
#guard_msgs in #print axioms recvPay_of_land_9
/-- info: 'Cert.KernelProof.cz_pages' depends on axioms: [propext, Classical.choice, Quot.sound] -/
#guard_msgs in #print axioms cz_pages
/-- info: 'Cert.KernelProof.cp_pages' depends on axioms: [propext, Classical.choice, Quot.sound] -/
#guard_msgs in #print axioms cp_pages
/-- info: 'Cert.KernelProof.cz_join' depends on axioms: [propext, Classical.choice, Quot.sound] -/
#guard_msgs in #print axioms cz_join
/-- info: 'Cert.KernelProof.cp_join' depends on axioms: [propext, Classical.choice, Quot.sound] -/
#guard_msgs in #print axioms cp_join

end Cert.KernelProof

end
-- ==== Proof.KernelNames.lean ====
import proofs.«900767_g7700000000000768_dist_diff_adaln_cshard_i_b4_s256_c128_v7x_i32_bf16_1_alg».proof.Proof.KernelRdTables
import proofs.«900767_g7700000000000768_dist_diff_adaln_cshard_i_b4_s256_c128_v7x_i32_bf16_1_alg».proof.Proof.KernelPages
import Idealize.ShloMosaic.Lib.Tactic

noncomputable section

namespace Cert.KernelProof

open Cert.Kernel Cert.Kernel.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]
local notation "𝕄" => MT nD τ sig Unit (Elt F) ℕ UU ℕ
variable (m : (ℓ : Loc nD τ sig) → Buf (Elt F) ℓ) (ρ : Dev nD → PrngReg)

def bX : Memref sig .tc .vmem S4x256x128 .f32 := xM
def bT : Memref sig .tc .vmem S4x128 .f32 := tM
def bWs : Memref sig .tc .vmem S128x128 .f32 := wsM
def bWsh : Memref sig .tc .vmem S128x128 .f32 := wshM
def bO : Memref sig .tc .vmem S4x256x128 .f32 := oM
def bMine : Memref sig .tc .vmem S8x256 .f32 := mineM
def bCol : Memref sig .tc .vmem S8x256 .f32 := colM
def bCz : Memref sig .tc .vmem S3x8x256 .f32 := czM
def bCp : Memref sig .tc .vmem S7x8x256 .f32 := cpM
def bSlot (i : Fin 10) : Memref sig .tc .vmem S8x256 .f32 := slotM i

theorem canon_bX : (Memref.whole cc0_stg0_0 : Memref sig .tc .vmem S4x256x128 .f32) = bX := by unfold bX; rfl
theorem canon_bT : (Memref.whole cc0_stg1_0 : Memref sig .tc .vmem S4x128 .f32) = bT := by unfold bT; rfl
theorem canon_bWs : (Memref.whole cc0_stg2_0 : Memref sig .tc .vmem S128x128 .f32) = bWs := by unfold bWs; rfl
theorem canon_bWsh : (Memref.whole cc0_stg3_0 : Memref sig .tc .vmem S128x128 .f32) = bWsh := by unfold bWsh; rfl
theorem canon_bO : (Memref.whole cc0_stg4_0 : Memref sig .tc .vmem S4x256x128 .f32) = bO := by unfold bO; rfl
theorem canon_bMine : (Memref.whole cc0_scratch0 : Memref sig .tc .vmem S8x256 .f32) = bMine := by unfold bMine; rfl
theorem canon_bCol : (Memref.whole cc0_scratch1 : Memref sig .tc .vmem S8x256 .f32) = bCol := by unfold bCol; rfl
theorem canon_bCz : (Memref.whole cc0_scratch2 : Memref sig .tc .vmem S3x8x256 .f32) = bCz := by unfold bCz; rfl
theorem canon_bCp : (Memref.whole cc0_scratch3 : Memref sig .tc .vmem S7x8x256 .f32) = bCp := by unfold bCp; rfl
theorem canon_slot_0 (h) : (bCz.slice (Rect.unit (s := S3x8x256) ![0, 0, 0] S1x8x256.size inb_S3x8x256_S1x8x256_0_0_0) h).squeeze S8x256 squeezes_S1x8x256_S8x256 = bSlot 0 := by unfold bCz bSlot; rfl
theorem canon_slot_1 (h) : (bCz.slice (Rect.unit (s := S3x8x256) ![1, 0, 0] S1x8x256.size inb_S3x8x256_S1x8x256_1_0_0) h).squeeze S8x256 squeezes_S1x8x256_S8x256 = bSlot 1 := by unfold bCz bSlot; rfl
theorem canon_slot_2 (h) : (bCz.slice (Rect.unit (s := S3x8x256) ![2, 0, 0] S1x8x256.size inb_S3x8x256_S1x8x256_2_0_0) h).squeeze S8x256 squeezes_S1x8x256_S8x256 = bSlot 2 := by unfold bCz bSlot; rfl
theorem canon_slot_3 (h) : (bCp.slice (Rect.unit (s := S7x8x256) ![0, 0, 0] S1x8x256.size inb_S7x8x256_S1x8x256_0_0_0) h).squeeze S8x256 squeezes_S1x8x256_S8x256 = bSlot 3 := by unfold bCp bSlot; rfl
theorem canon_slot_4 (h) : (bCp.slice (Rect.unit (s := S7x8x256) ![1, 0, 0] S1x8x256.size inb_S7x8x256_S1x8x256_1_0_0) h).squeeze S8x256 squeezes_S1x8x256_S8x256 = bSlot 4 := by unfold bCp bSlot; rfl
theorem canon_slot_5 (h) : (bCp.slice (Rect.unit (s := S7x8x256) ![2, 0, 0] S1x8x256.size inb_S7x8x256_S1x8x256_2_0_0) h).squeeze S8x256 squeezes_S1x8x256_S8x256 = bSlot 5 := by unfold bCp bSlot; rfl
theorem canon_slot_6 (h) : (bCp.slice (Rect.unit (s := S7x8x256) ![3, 0, 0] S1x8x256.size inb_S7x8x256_S1x8x256_3_0_0) h).squeeze S8x256 squeezes_S1x8x256_S8x256 = bSlot 6 := by unfold bCp bSlot; rfl
theorem canon_slot_7 (h) : (bCp.slice (Rect.unit (s := S7x8x256) ![4, 0, 0] S1x8x256.size inb_S7x8x256_S1x8x256_4_0_0) h).squeeze S8x256 squeezes_S1x8x256_S8x256 = bSlot 7 := by unfold bCp bSlot; rfl
theorem canon_slot_8 (h) : (bCp.slice (Rect.unit (s := S7x8x256) ![5, 0, 0] S1x8x256.size inb_S7x8x256_S1x8x256_5_0_0) h).squeeze S8x256 squeezes_S1x8x256_S8x256 = bSlot 8 := by unfold bCp bSlot; rfl
theorem canon_slot_9 (h) : (bCp.slice (Rect.unit (s := S7x8x256) ![6, 0, 0] S1x8x256.size inb_S7x8x256_S1x8x256_6_0_0) h).squeeze S8x256 squeezes_S1x8x256_S8x256 = bSlot 9 := by unfold bCp bSlot; rfl

theorem pts_bX (c : Dev nD) (f : Buf (Elt F) ((c : Thread nD τ).loc cc0_stg0_0)) : ((((c : Thread nD τ).loc cc0_stg0_0) ↦{fullShare} f : sProp 𝕄)) = (bX.view.loc (c : Thread nD τ) ↦[bX.view.set]{fullShare} f) := by unfold bX; rw [View.set_whole]
theorem pts_bT (c : Dev nD) (f : Buf (Elt F) ((c : Thread nD τ).loc cc0_stg1_0)) : ((((c : Thread nD τ).loc cc0_stg1_0) ↦{fullShare} f : sProp 𝕄)) = (bT.view.loc (c : Thread nD τ) ↦[bT.view.set]{fullShare} f) := by unfold bT; rw [View.set_whole]
theorem pts_bWs (c : Dev nD) (f : Buf (Elt F) ((c : Thread nD τ).loc cc0_stg2_0)) : ((((c : Thread nD τ).loc cc0_stg2_0) ↦{fullShare} f : sProp 𝕄)) = (bWs.view.loc (c : Thread nD τ) ↦[bWs.view.set]{fullShare} f) := by unfold bWs; rw [View.set_whole]
theorem pts_bWsh (c : Dev nD) (f : Buf (Elt F) ((c : Thread nD τ).loc cc0_stg3_0)) : ((((c : Thread nD τ).loc cc0_stg3_0) ↦{fullShare} f : sProp 𝕄)) = (bWsh.view.loc (c : Thread nD τ) ↦[bWsh.view.set]{fullShare} f) := by unfold bWsh; rw [View.set_whole]
theorem pts_bO (c : Dev nD) (f : Buf (Elt F) ((c : Thread nD τ).loc cc0_stg4_0)) : ((((c : Thread nD τ).loc cc0_stg4_0) ↦{fullShare} f : sProp 𝕄)) = (bO.view.loc (c : Thread nD τ) ↦[bO.view.set]{fullShare} f) := by unfold bO; rw [View.set_whole]
theorem pts_bMine (c : Dev nD) (f : Buf (Elt F) ((c : Thread nD τ).loc cc0_scratch0)) : ((((c : Thread nD τ).loc cc0_scratch0) ↦{fullShare} f : sProp 𝕄)) = (bMine.view.loc (c : Thread nD τ) ↦[bMine.view.set]{fullShare} f) := by unfold bMine; rw [View.set_whole]
theorem pts_bCol (c : Dev nD) (f : Buf (Elt F) ((c : Thread nD τ).loc cc0_scratch1)) : ((((c : Thread nD τ).loc cc0_scratch1) ↦{fullShare} f : sProp 𝕄)) = (bCol.view.loc (c : Thread nD τ) ↦[bCol.view.set]{fullShare} f) := by unfold bCol; rw [View.set_whole]
theorem pts_bCz (c : Dev nD) (f : Buf (Elt F) ((c : Thread nD τ).loc cc0_scratch2)) : ((((c : Thread nD τ).loc cc0_scratch2) ↦{fullShare} f : sProp 𝕄)) = (bCz.view.loc (c : Thread nD τ) ↦[bCz.view.set]{fullShare} f) := by unfold bCz; rw [View.set_whole]
theorem pts_bCp (c : Dev nD) (f : Buf (Elt F) ((c : Thread nD τ).loc cc0_scratch3)) : ((((c : Thread nD τ).loc cc0_scratch3) ↦{fullShare} f : sProp 𝕄)) = (bCp.view.loc (c : Thread nD τ) ↦[bCp.view.set]{fullShare} f) := by unfold bCp; rw [View.set_whole]
theorem pts_slot_0 (X : Dev nD) (q : PosShare TreeShare) (f : (cc0_scratch2 : Ref sig .tc).ty.Contents (Elt F)) : (((slotM 0).view.loc (X : Thread nD τ) ↦[(slotM 0).view.set]{q} f : sProp 𝕄)) = ((bSlot 0).view.loc (X : Thread nD τ) ↦[(bSlot 0).view.set]{q} f) := by unfold bSlot; rfl
theorem pts_slot_1 (X : Dev nD) (q : PosShare TreeShare) (f : (cc0_scratch2 : Ref sig .tc).ty.Contents (Elt F)) : (((slotM 1).view.loc (X : Thread nD τ) ↦[(slotM 1).view.set]{q} f : sProp 𝕄)) = ((bSlot 1).view.loc (X : Thread nD τ) ↦[(bSlot 1).view.set]{q} f) := by unfold bSlot; rfl
theorem pts_slot_2 (X : Dev nD) (q : PosShare TreeShare) (f : (cc0_scratch2 : Ref sig .tc).ty.Contents (Elt F)) : (((slotM 2).view.loc (X : Thread nD τ) ↦[(slotM 2).view.set]{q} f : sProp 𝕄)) = ((bSlot 2).view.loc (X : Thread nD τ) ↦[(bSlot 2).view.set]{q} f) := by unfold bSlot; rfl
theorem pts_slot_3 (X : Dev nD) (q : PosShare TreeShare) (f : (cc0_scratch3 : Ref sig .tc).ty.Contents (Elt F)) : (((slotM 3).view.loc (X : Thread nD τ) ↦[(slotM 3).view.set]{q} f : sProp 𝕄)) = ((bSlot 3).view.loc (X : Thread nD τ) ↦[(bSlot 3).view.set]{q} f) := by unfold bSlot; rfl
theorem pts_slot_4 (X : Dev nD) (q : PosShare TreeShare) (f : (cc0_scratch3 : Ref sig .tc).ty.Contents (Elt F)) : (((slotM 4).view.loc (X : Thread nD τ) ↦[(slotM 4).view.set]{q} f : sProp 𝕄)) = ((bSlot 4).view.loc (X : Thread nD τ) ↦[(bSlot 4).view.set]{q} f) := by unfold bSlot; rfl
theorem pts_slot_5 (X : Dev nD) (q : PosShare TreeShare) (f : (cc0_scratch3 : Ref sig .tc).ty.Contents (Elt F)) : (((slotM 5).view.loc (X : Thread nD τ) ↦[(slotM 5).view.set]{q} f : sProp 𝕄)) = ((bSlot 5).view.loc (X : Thread nD τ) ↦[(bSlot 5).view.set]{q} f) := by unfold bSlot; rfl
theorem pts_slot_6 (X : Dev nD) (q : PosShare TreeShare) (f : (cc0_scratch3 : Ref sig .tc).ty.Contents (Elt F)) : (((slotM 6).view.loc (X : Thread nD τ) ↦[(slotM 6).view.set]{q} f : sProp 𝕄)) = ((bSlot 6).view.loc (X : Thread nD τ) ↦[(bSlot 6).view.set]{q} f) := by unfold bSlot; rfl
theorem pts_slot_7 (X : Dev nD) (q : PosShare TreeShare) (f : (cc0_scratch3 : Ref sig .tc).ty.Contents (Elt F)) : (((slotM 7).view.loc (X : Thread nD τ) ↦[(slotM 7).view.set]{q} f : sProp 𝕄)) = ((bSlot 7).view.loc (X : Thread nD τ) ↦[(bSlot 7).view.set]{q} f) := by unfold bSlot; rfl
theorem pts_slot_8 (X : Dev nD) (q : PosShare TreeShare) (f : (cc0_scratch3 : Ref sig .tc).ty.Contents (Elt F)) : (((slotM 8).view.loc (X : Thread nD τ) ↦[(slotM 8).view.set]{q} f : sProp 𝕄)) = ((bSlot 8).view.loc (X : Thread nD τ) ↦[(bSlot 8).view.set]{q} f) := by unfold bSlot; rfl
theorem pts_slot_9 (X : Dev nD) (q : PosShare TreeShare) (f : (cc0_scratch3 : Ref sig .tc).ty.Contents (Elt F)) : (((slotM 9).view.loc (X : Thread nD τ) ↦[(slotM 9).view.set]{q} f : sProp 𝕄)) = ((bSlot 9).view.loc (X : Thread nD τ) ↦[(bSlot 9).view.set]{q} f) := by unfold bSlot; rfl

theorem npay_sig_0 (c : Dev nD) : (rd (F := F) m ρ).payload (barCell (peer c 0)) 0 2 = iprop((∃ f : (cc0_scratch2 : Ref sig .tc).ty.Contents (Elt F), ((bSlot 2).view.loc (c : Thread nD τ) ↦[(bSlot 2).view.set]{fullShare} f)) ∗ reached ER (recvCell c 2) 0) := by unfold bSlot; exact payload_sig_0 m ρ c
theorem npay_sig_1 (c : Dev nD) : (rd (F := F) m ρ).payload (barCell (peer c 1)) 0 1 = iprop((∃ f : (cc0_scratch2 : Ref sig .tc).ty.Contents (Elt F), ((bSlot 1).view.loc (c : Thread nD τ) ↦[(bSlot 1).view.set]{fullShare} f)) ∗ reached ER (recvCell c 1) 0) := by unfold bSlot; exact payload_sig_1 m ρ c
theorem npay_sig_2 (c : Dev nD) : (rd (F := F) m ρ).payload (barCell (peer c 2)) 0 0 = iprop((∃ f : (cc0_scratch2 : Ref sig .tc).ty.Contents (Elt F), ((bSlot 0).view.loc (c : Thread nD τ) ↦[(bSlot 0).view.set]{fullShare} f)) ∗ reached ER (recvCell c 0) 0) := by unfold bSlot; exact payload_sig_2 m ρ c
theorem npay_sig_3 (c : Dev nD) : (rd (F := F) m ρ).payload (barCell (peer c 3)) 0 9 = iprop((∃ f : (cc0_scratch3 : Ref sig .tc).ty.Contents (Elt F), ((bSlot 9).view.loc (c : Thread nD τ) ↦[(bSlot 9).view.set]{fullShare} f)) ∗ reached ER (recvCell c 9) 0) := by unfold bSlot; exact payload_sig_3 m ρ c
theorem npay_sig_4 (c : Dev nD) : (rd (F := F) m ρ).payload (barCell (peer c 4)) 0 8 = iprop((∃ f : (cc0_scratch3 : Ref sig .tc).ty.Contents (Elt F), ((bSlot 8).view.loc (c : Thread nD τ) ↦[(bSlot 8).view.set]{fullShare} f)) ∗ reached ER (recvCell c 8) 0) := by unfold bSlot; exact payload_sig_4 m ρ c
theorem npay_sig_5 (c : Dev nD) : (rd (F := F) m ρ).payload (barCell (peer c 5)) 0 7 = iprop((∃ f : (cc0_scratch3 : Ref sig .tc).ty.Contents (Elt F), ((bSlot 7).view.loc (c : Thread nD τ) ↦[(bSlot 7).view.set]{fullShare} f)) ∗ reached ER (recvCell c 7) 0) := by unfold bSlot; exact payload_sig_5 m ρ c
theorem npay_sig_6 (c : Dev nD) : (rd (F := F) m ρ).payload (barCell (peer c 6)) 0 6 = iprop((∃ f : (cc0_scratch3 : Ref sig .tc).ty.Contents (Elt F), ((bSlot 6).view.loc (c : Thread nD τ) ↦[(bSlot 6).view.set]{fullShare} f)) ∗ reached ER (recvCell c 6) 0) := by unfold bSlot; exact payload_sig_6 m ρ c
theorem npay_sig_7 (c : Dev nD) : (rd (F := F) m ρ).payload (barCell (peer c 7)) 0 5 = iprop((∃ f : (cc0_scratch3 : Ref sig .tc).ty.Contents (Elt F), ((bSlot 5).view.loc (c : Thread nD τ) ↦[(bSlot 5).view.set]{fullShare} f)) ∗ reached ER (recvCell c 5) 0) := by unfold bSlot; exact payload_sig_7 m ρ c
theorem npay_sig_8 (c : Dev nD) : (rd (F := F) m ρ).payload (barCell (peer c 8)) 0 4 = iprop((∃ f : (cc0_scratch3 : Ref sig .tc).ty.Contents (Elt F), ((bSlot 4).view.loc (c : Thread nD τ) ↦[(bSlot 4).view.set]{fullShare} f)) ∗ reached ER (recvCell c 4) 0) := by unfold bSlot; exact payload_sig_8 m ρ c
theorem npay_sig_9 (c : Dev nD) : (rd (F := F) m ρ).payload (barCell (peer c 9)) 0 3 = iprop((∃ f : (cc0_scratch3 : Ref sig .tc).ty.Contents (Elt F), ((bSlot 3).view.loc (c : Thread nD τ) ↦[(bSlot 3).view.set]{fullShare} f)) ∗ reached ER (recvCell c 3) 0) := by unfold bSlot; exact payload_sig_9 m ρ c
theorem npay_own_0 (c : Dev nD) : (rd (F := F) m ρ).payload (barCell c) 0 0 = iprop((∃ f : BufTy.Contents (Elt F) (bSlot 0).view.ty, ((bSlot 0).view.loc (peer c 0 : Thread nD τ) ↦[(bSlot 0).view.set]{fullShare} f)) ∗ reached ER (recvCell (peer c 0) 0) 0) := by unfold bSlot; exact payload_own_0 m ρ c
theorem npay_own_1 (c : Dev nD) : (rd (F := F) m ρ).payload (barCell c) 0 1 = iprop((∃ f : BufTy.Contents (Elt F) (bSlot 1).view.ty, ((bSlot 1).view.loc (peer c 1 : Thread nD τ) ↦[(bSlot 1).view.set]{fullShare} f)) ∗ reached ER (recvCell (peer c 1) 1) 0) := by unfold bSlot; exact payload_own_1 m ρ c
theorem npay_own_2 (c : Dev nD) : (rd (F := F) m ρ).payload (barCell c) 0 2 = iprop((∃ f : BufTy.Contents (Elt F) (bSlot 2).view.ty, ((bSlot 2).view.loc (peer c 2 : Thread nD τ) ↦[(bSlot 2).view.set]{fullShare} f)) ∗ reached ER (recvCell (peer c 2) 2) 0) := by unfold bSlot; exact payload_own_2 m ρ c
theorem npay_own_3 (c : Dev nD) : (rd (F := F) m ρ).payload (barCell c) 0 3 = iprop((∃ f : BufTy.Contents (Elt F) (bSlot 3).view.ty, ((bSlot 3).view.loc (peer c 3 : Thread nD τ) ↦[(bSlot 3).view.set]{fullShare} f)) ∗ reached ER (recvCell (peer c 3) 3) 0) := by unfold bSlot; exact payload_own_3 m ρ c
theorem npay_own_4 (c : Dev nD) : (rd (F := F) m ρ).payload (barCell c) 0 4 = iprop((∃ f : BufTy.Contents (Elt F) (bSlot 4).view.ty, ((bSlot 4).view.loc (peer c 4 : Thread nD τ) ↦[(bSlot 4).view.set]{fullShare} f)) ∗ reached ER (recvCell (peer c 4) 4) 0) := by unfold bSlot; exact payload_own_4 m ρ c
theorem npay_own_5 (c : Dev nD) : (rd (F := F) m ρ).payload (barCell c) 0 5 = iprop((∃ f : BufTy.Contents (Elt F) (bSlot 5).view.ty, ((bSlot 5).view.loc (peer c 5 : Thread nD τ) ↦[(bSlot 5).view.set]{fullShare} f)) ∗ reached ER (recvCell (peer c 5) 5) 0) := by unfold bSlot; exact payload_own_5 m ρ c
theorem npay_own_6 (c : Dev nD) : (rd (F := F) m ρ).payload (barCell c) 0 6 = iprop((∃ f : BufTy.Contents (Elt F) (bSlot 6).view.ty, ((bSlot 6).view.loc (peer c 6 : Thread nD τ) ↦[(bSlot 6).view.set]{fullShare} f)) ∗ reached ER (recvCell (peer c 6) 6) 0) := by unfold bSlot; exact payload_own_6 m ρ c
theorem npay_own_7 (c : Dev nD) : (rd (F := F) m ρ).payload (barCell c) 0 7 = iprop((∃ f : BufTy.Contents (Elt F) (bSlot 7).view.ty, ((bSlot 7).view.loc (peer c 7 : Thread nD τ) ↦[(bSlot 7).view.set]{fullShare} f)) ∗ reached ER (recvCell (peer c 7) 7) 0) := by unfold bSlot; exact payload_own_7 m ρ c
theorem npay_own_8 (c : Dev nD) : (rd (F := F) m ρ).payload (barCell c) 0 8 = iprop((∃ f : BufTy.Contents (Elt F) (bSlot 8).view.ty, ((bSlot 8).view.loc (peer c 8 : Thread nD τ) ↦[(bSlot 8).view.set]{fullShare} f)) ∗ reached ER (recvCell (peer c 8) 8) 0) := by unfold bSlot; exact payload_own_8 m ρ c
theorem npay_own_9 (c : Dev nD) : (rd (F := F) m ρ).payload (barCell c) 0 9 = iprop((∃ f : BufTy.Contents (Elt F) (bSlot 9).view.ty, ((bSlot 9).view.loc (peer c 9 : Thread nD τ) ↦[(bSlot 9).view.set]{fullShare} f)) ∗ reached ER (recvCell (peer c 9) 9) 0) := by unfold bSlot; exact payload_own_9 m ρ c
theorem npay_recv_0 (X : Dev nD) (d : Fin 10) : (rd (F := F) m ρ).payload (recvCell X 0) 0 d = ((bSlot 0).view.loc (X : Thread nD τ) ↦[(bSlot 0).view.set]{fullShare} czV m ρ X : sProp 𝕄) := by unfold bSlot; exact (payload_recv m ρ X 0 d).trans (recvPay_0 m ρ X)
theorem npay_recv_1 (X : Dev nD) (d : Fin 10) : (rd (F := F) m ρ).payload (recvCell X 1) 0 d = ((bSlot 1).view.loc (X : Thread nD τ) ↦[(bSlot 1).view.set]{fullShare} czV m ρ X : sProp 𝕄) := by unfold bSlot; exact (payload_recv m ρ X 1 d).trans (recvPay_1 m ρ X)
theorem npay_recv_2 (X : Dev nD) (d : Fin 10) : (rd (F := F) m ρ).payload (recvCell X 2) 0 d = ((bSlot 2).view.loc (X : Thread nD τ) ↦[(bSlot 2).view.set]{fullShare} czV m ρ X : sProp 𝕄) := by unfold bSlot; exact (payload_recv m ρ X 2 d).trans (recvPay_2 m ρ X)
theorem npay_recv_3 (X : Dev nD) (d : Fin 10) : (rd (F := F) m ρ).payload (recvCell X 3) 0 d = ((bSlot 3).view.loc (X : Thread nD τ) ↦[(bSlot 3).view.set]{fullShare} cpV m ρ X : sProp 𝕄) := by unfold bSlot; exact (payload_recv m ρ X 3 d).trans (recvPay_3 m ρ X)
theorem npay_recv_4 (X : Dev nD) (d : Fin 10) : (rd (F := F) m ρ).payload (recvCell X 4) 0 d = ((bSlot 4).view.loc (X : Thread nD τ) ↦[(bSlot 4).view.set]{fullShare} cpV m ρ X : sProp 𝕄) := by unfold bSlot; exact (payload_recv m ρ X 4 d).trans (recvPay_4 m ρ X)
theorem npay_recv_5 (X : Dev nD) (d : Fin 10) : (rd (F := F) m ρ).payload (recvCell X 5) 0 d = ((bSlot 5).view.loc (X : Thread nD τ) ↦[(bSlot 5).view.set]{fullShare} cpV m ρ X : sProp 𝕄) := by unfold bSlot; exact (payload_recv m ρ X 5 d).trans (recvPay_5 m ρ X)
theorem npay_recv_6 (X : Dev nD) (d : Fin 10) : (rd (F := F) m ρ).payload (recvCell X 6) 0 d = ((bSlot 6).view.loc (X : Thread nD τ) ↦[(bSlot 6).view.set]{fullShare} cpV m ρ X : sProp 𝕄) := by unfold bSlot; exact (payload_recv m ρ X 6 d).trans (recvPay_6 m ρ X)
theorem npay_recv_7 (X : Dev nD) (d : Fin 10) : (rd (F := F) m ρ).payload (recvCell X 7) 0 d = ((bSlot 7).view.loc (X : Thread nD τ) ↦[(bSlot 7).view.set]{fullShare} cpV m ρ X : sProp 𝕄) := by unfold bSlot; exact (payload_recv m ρ X 7 d).trans (recvPay_7 m ρ X)
theorem npay_recv_8 (X : Dev nD) (d : Fin 10) : (rd (F := F) m ρ).payload (recvCell X 8) 0 d = ((bSlot 8).view.loc (X : Thread nD τ) ↦[(bSlot 8).view.set]{fullShare} cpV m ρ X : sProp 𝕄) := by unfold bSlot; exact (payload_recv m ρ X 8 d).trans (recvPay_8 m ρ X)
theorem npay_recv_9 (X : Dev nD) (d : Fin 10) : (rd (F := F) m ρ).payload (recvCell X 9) 0 d = ((bSlot 9).view.loc (X : Thread nD τ) ↦[(bSlot 9).view.set]{fullShare} cpV m ρ X : sProp 𝕄) := by unfold bSlot; exact (payload_recv m ρ X 9 d).trans (recvPay_9 m ρ X)
theorem npay_send_0 (X : Dev nD) (d : Fin 10) : (rd (F := F) m ρ).payload (sendCell X 0) 0 d = (bMine.view.loc (X : Thread nD τ) ↦[bMine.view.set]{shareTok fullShare 3 0} mineV m ρ X : sProp 𝕄) := by unfold bMine; exact (payload_send m ρ X 0 d).trans (sendPay_0 m ρ X)
theorem npay_send_1 (X : Dev nD) (d : Fin 10) : (rd (F := F) m ρ).payload (sendCell X 1) 0 d = (bMine.view.loc (X : Thread nD τ) ↦[bMine.view.set]{shareTok fullShare 3 1} mineV m ρ X : sProp 𝕄) := by unfold bMine; exact (payload_send m ρ X 1 d).trans (sendPay_1 m ρ X)
theorem npay_send_2 (X : Dev nD) (d : Fin 10) : (rd (F := F) m ρ).payload (sendCell X 2) 0 d = (bMine.view.loc (X : Thread nD τ) ↦[bMine.view.set]{shareTok fullShare 3 2} mineV m ρ X : sProp 𝕄) := by unfold bMine; exact (payload_send m ρ X 2 d).trans (sendPay_2 m ρ X)
theorem npay_send_3 (X : Dev nD) (d : Fin 10) : (rd (F := F) m ρ).payload (sendCell X 3) 0 d = (bCol.view.loc (X : Thread nD τ) ↦[bCol.view.set]{shareTok fullShare 7 0} colV m ρ X : sProp 𝕄) := by unfold bCol; exact (payload_send m ρ X 3 d).trans (sendPay_3 m ρ X)
theorem npay_send_4 (X : Dev nD) (d : Fin 10) : (rd (F := F) m ρ).payload (sendCell X 4) 0 d = (bCol.view.loc (X : Thread nD τ) ↦[bCol.view.set]{shareTok fullShare 7 1} colV m ρ X : sProp 𝕄) := by unfold bCol; exact (payload_send m ρ X 4 d).trans (sendPay_4 m ρ X)
theorem npay_send_5 (X : Dev nD) (d : Fin 10) : (rd (F := F) m ρ).payload (sendCell X 5) 0 d = (bCol.view.loc (X : Thread nD τ) ↦[bCol.view.set]{shareTok fullShare 7 2} colV m ρ X : sProp 𝕄) := by unfold bCol; exact (payload_send m ρ X 5 d).trans (sendPay_5 m ρ X)
theorem npay_send_6 (X : Dev nD) (d : Fin 10) : (rd (F := F) m ρ).payload (sendCell X 6) 0 d = (bCol.view.loc (X : Thread nD τ) ↦[bCol.view.set]{shareTok fullShare 7 3} colV m ρ X : sProp 𝕄) := by unfold bCol; exact (payload_send m ρ X 6 d).trans (sendPay_6 m ρ X)
theorem npay_send_7 (X : Dev nD) (d : Fin 10) : (rd (F := F) m ρ).payload (sendCell X 7) 0 d = (bCol.view.loc (X : Thread nD τ) ↦[bCol.view.set]{shareTok fullShare 7 4} colV m ρ X : sProp 𝕄) := by unfold bCol; exact (payload_send m ρ X 7 d).trans (sendPay_7 m ρ X)
theorem npay_send_8 (X : Dev nD) (d : Fin 10) : (rd (F := F) m ρ).payload (sendCell X 8) 0 d = (bCol.view.loc (X : Thread nD τ) ↦[bCol.view.set]{shareTok fullShare 7 5} colV m ρ X : sProp 𝕄) := by unfold bCol; exact (payload_send m ρ X 8 d).trans (sendPay_8 m ρ X)
theorem npay_send_9 (X : Dev nD) (d : Fin 10) : (rd (F := F) m ρ).payload (sendCell X 9) 0 d = (bCol.view.loc (X : Thread nD τ) ↦[bCol.view.set]{shareTok fullShare 7 6} colV m ρ X : sProp 𝕄) := by unfold bCol; exact (payload_send m ρ X 9 d).trans (sendPay_9 m ρ X)
theorem xdut_send_0 (X : Dev nD) : (rd (F := F) m ρ).duties ((X : Thread nD τ), SemLoc.dma ((cc0_scratch4.slice (Rect.unit (s := S3) ![0] S1.size inb_S3_S1_0)).squeeze S_ squeezes_S1_S_).sem) 0 = {0} := duties_send m ρ X 0
theorem xamt_send_0 (X : Dev nD) : (rd (F := F) m ρ).amount ((X : Thread nD τ), SemLoc.dma ((cc0_scratch4.slice (Rect.unit (s := S3) ![0] S1.size inb_S3_S1_0)).squeeze S_ squeezes_S1_S_).sem) 0 0 = N := amount_send m ρ X 0 0
theorem xexp_send_0 (X : Dev nD) : (rd (F := F) m ρ).expect ((X : Thread nD τ), SemLoc.dma ((cc0_scratch4.slice (Rect.unit (s := S3) ![0] S1.size inb_S3_S1_0)).squeeze S_ squeezes_S1_S_).sem) 0 = N := expect_send m ρ X 0
theorem xdut_send_1 (X : Dev nD) : (rd (F := F) m ρ).duties ((X : Thread nD τ), SemLoc.dma ((cc0_scratch4.slice (Rect.unit (s := S3) ![1] S1.size inb_S3_S1_1)).squeeze S_ squeezes_S1_S_).sem) 0 = {0} := duties_send m ρ X 1
theorem xamt_send_1 (X : Dev nD) : (rd (F := F) m ρ).amount ((X : Thread nD τ), SemLoc.dma ((cc0_scratch4.slice (Rect.unit (s := S3) ![1] S1.size inb_S3_S1_1)).squeeze S_ squeezes_S1_S_).sem) 0 0 = N := amount_send m ρ X 1 0
theorem xexp_send_1 (X : Dev nD) : (rd (F := F) m ρ).expect ((X : Thread nD τ), SemLoc.dma ((cc0_scratch4.slice (Rect.unit (s := S3) ![1] S1.size inb_S3_S1_1)).squeeze S_ squeezes_S1_S_).sem) 0 = N := expect_send m ρ X 1
theorem xdut_send_2 (X : Dev nD) : (rd (F := F) m ρ).duties ((X : Thread nD τ), SemLoc.dma ((cc0_scratch4.slice (Rect.unit (s := S3) ![2] S1.size inb_S3_S1_2)).squeeze S_ squeezes_S1_S_).sem) 0 = {0} := duties_send m ρ X 2
theorem xamt_send_2 (X : Dev nD) : (rd (F := F) m ρ).amount ((X : Thread nD τ), SemLoc.dma ((cc0_scratch4.slice (Rect.unit (s := S3) ![2] S1.size inb_S3_S1_2)).squeeze S_ squeezes_S1_S_).sem) 0 0 = N := amount_send m ρ X 2 0
theorem xexp_send_2 (X : Dev nD) : (rd (F := F) m ρ).expect ((X : Thread nD τ), SemLoc.dma ((cc0_scratch4.slice (Rect.unit (s := S3) ![2] S1.size inb_S3_S1_2)).squeeze S_ squeezes_S1_S_).sem) 0 = N := expect_send m ρ X 2
theorem xdut_send_3 (X : Dev nD) : (rd (F := F) m ρ).duties ((X : Thread nD τ), SemLoc.dma ((cc0_scratch6.slice (Rect.unit (s := S7) ![0] S1.size inb_S7_S1_0)).squeeze S_ squeezes_S1_S_).sem) 0 = {0} := duties_send m ρ X 3
theorem xamt_send_3 (X : Dev nD) : (rd (F := F) m ρ).amount ((X : Thread nD τ), SemLoc.dma ((cc0_scratch6.slice (Rect.unit (s := S7) ![0] S1.size inb_S7_S1_0)).squeeze S_ squeezes_S1_S_).sem) 0 0 = N := amount_send m ρ X 3 0
theorem xexp_send_3 (X : Dev nD) : (rd (F := F) m ρ).expect ((X : Thread nD τ), SemLoc.dma ((cc0_scratch6.slice (Rect.unit (s := S7) ![0] S1.size inb_S7_S1_0)).squeeze S_ squeezes_S1_S_).sem) 0 = N := expect_send m ρ X 3
theorem xdut_send_4 (X : Dev nD) : (rd (F := F) m ρ).duties ((X : Thread nD τ), SemLoc.dma ((cc0_scratch6.slice (Rect.unit (s := S7) ![1] S1.size inb_S7_S1_1)).squeeze S_ squeezes_S1_S_).sem) 0 = {0} := duties_send m ρ X 4
theorem xamt_send_4 (X : Dev nD) : (rd (F := F) m ρ).amount ((X : Thread nD τ), SemLoc.dma ((cc0_scratch6.slice (Rect.unit (s := S7) ![1] S1.size inb_S7_S1_1)).squeeze S_ squeezes_S1_S_).sem) 0 0 = N := amount_send m ρ X 4 0
theorem xexp_send_4 (X : Dev nD) : (rd (F := F) m ρ).expect ((X : Thread nD τ), SemLoc.dma ((cc0_scratch6.slice (Rect.unit (s := S7) ![1] S1.size inb_S7_S1_1)).squeeze S_ squeezes_S1_S_).sem) 0 = N := expect_send m ρ X 4
theorem xdut_send_5 (X : Dev nD) : (rd (F := F) m ρ).duties ((X : Thread nD τ), SemLoc.dma ((cc0_scratch6.slice (Rect.unit (s := S7) ![2] S1.size inb_S7_S1_2)).squeeze S_ squeezes_S1_S_).sem) 0 = {0} := duties_send m ρ X 5
theorem xamt_send_5 (X : Dev nD) : (rd (F := F) m ρ).amount ((X : Thread nD τ), SemLoc.dma ((cc0_scratch6.slice (Rect.unit (s := S7) ![2] S1.size inb_S7_S1_2)).squeeze S_ squeezes_S1_S_).sem) 0 0 = N := amount_send m ρ X 5 0
theorem xexp_send_5 (X : Dev nD) : (rd (F := F) m ρ).expect ((X : Thread nD τ), SemLoc.dma ((cc0_scratch6.slice (Rect.unit (s := S7) ![2] S1.size inb_S7_S1_2)).squeeze S_ squeezes_S1_S_).sem) 0 = N := expect_send m ρ X 5
theorem xdut_send_6 (X : Dev nD) : (rd (F := F) m ρ).duties ((X : Thread nD τ), SemLoc.dma ((cc0_scratch6.slice (Rect.unit (s := S7) ![3] S1.size inb_S7_S1_3)).squeeze S_ squeezes_S1_S_).sem) 0 = {0} := duties_send m ρ X 6
theorem xamt_send_6 (X : Dev nD) : (rd (F := F) m ρ).amount ((X : Thread nD τ), SemLoc.dma ((cc0_scratch6.slice (Rect.unit (s := S7) ![3] S1.size inb_S7_S1_3)).squeeze S_ squeezes_S1_S_).sem) 0 0 = N := amount_send m ρ X 6 0
theorem xexp_send_6 (X : Dev nD) : (rd (F := F) m ρ).expect ((X : Thread nD τ), SemLoc.dma ((cc0_scratch6.slice (Rect.unit (s := S7) ![3] S1.size inb_S7_S1_3)).squeeze S_ squeezes_S1_S_).sem) 0 = N := expect_send m ρ X 6
theorem xdut_send_7 (X : Dev nD) : (rd (F := F) m ρ).duties ((X : Thread nD τ), SemLoc.dma ((cc0_scratch6.slice (Rect.unit (s := S7) ![4] S1.size inb_S7_S1_4)).squeeze S_ squeezes_S1_S_).sem) 0 = {0} := duties_send m ρ X 7
theorem xamt_send_7 (X : Dev nD) : (rd (F := F) m ρ).amount ((X : Thread nD τ), SemLoc.dma ((cc0_scratch6.slice (Rect.unit (s := S7) ![4] S1.size inb_S7_S1_4)).squeeze S_ squeezes_S1_S_).sem) 0 0 = N := amount_send m ρ X 7 0
theorem xexp_send_7 (X : Dev nD) : (rd (F := F) m ρ).expect ((X : Thread nD τ), SemLoc.dma ((cc0_scratch6.slice (Rect.unit (s := S7) ![4] S1.size inb_S7_S1_4)).squeeze S_ squeezes_S1_S_).sem) 0 = N := expect_send m ρ X 7
theorem xdut_send_8 (X : Dev nD) : (rd (F := F) m ρ).duties ((X : Thread nD τ), SemLoc.dma ((cc0_scratch6.slice (Rect.unit (s := S7) ![5] S1.size inb_S7_S1_5)).squeeze S_ squeezes_S1_S_).sem) 0 = {0} := duties_send m ρ X 8
theorem xamt_send_8 (X : Dev nD) : (rd (F := F) m ρ).amount ((X : Thread nD τ), SemLoc.dma ((cc0_scratch6.slice (Rect.unit (s := S7) ![5] S1.size inb_S7_S1_5)).squeeze S_ squeezes_S1_S_).sem) 0 0 = N := amount_send m ρ X 8 0
theorem xexp_send_8 (X : Dev nD) : (rd (F := F) m ρ).expect ((X : Thread nD τ), SemLoc.dma ((cc0_scratch6.slice (Rect.unit (s := S7) ![5] S1.size inb_S7_S1_5)).squeeze S_ squeezes_S1_S_).sem) 0 = N := expect_send m ρ X 8
theorem xdut_send_9 (X : Dev nD) : (rd (F := F) m ρ).duties ((X : Thread nD τ), SemLoc.dma ((cc0_scratch6.slice (Rect.unit (s := S7) ![6] S1.size inb_S7_S1_6)).squeeze S_ squeezes_S1_S_).sem) 0 = {0} := duties_send m ρ X 9
theorem xamt_send_9 (X : Dev nD) : (rd (F := F) m ρ).amount ((X : Thread nD τ), SemLoc.dma ((cc0_scratch6.slice (Rect.unit (s := S7) ![6] S1.size inb_S7_S1_6)).squeeze S_ squeezes_S1_S_).sem) 0 0 = N := amount_send m ρ X 9 0
theorem xexp_send_9 (X : Dev nD) : (rd (F := F) m ρ).expect ((X : Thread nD τ), SemLoc.dma ((cc0_scratch6.slice (Rect.unit (s := S7) ![6] S1.size inb_S7_S1_6)).squeeze S_ squeezes_S1_S_).sem) 0 = N := expect_send m ρ X 9
theorem xdut_recv_0 (X : Dev nD) : (rd (F := F) m ρ).duties ((X : Thread nD τ), SemLoc.dma ((cc0_scratch5.slice (Rect.unit (s := S3) ![0] S1.size inb_S3_S1_0)).squeeze S_ squeezes_S1_S_).sem) 0 = {0} := duties_recv m ρ X 0
theorem xamt_recv_0 (X : Dev nD) : (rd (F := F) m ρ).amount ((X : Thread nD τ), SemLoc.dma ((cc0_scratch5.slice (Rect.unit (s := S3) ![0] S1.size inb_S3_S1_0)).squeeze S_ squeezes_S1_S_).sem) 0 0 = N := amount_recv m ρ X 0 0
theorem xexp_recv_0 (X : Dev nD) : (rd (F := F) m ρ).expect ((X : Thread nD τ), SemLoc.dma ((cc0_scratch5.slice (Rect.unit (s := S3) ![0] S1.size inb_S3_S1_0)).squeeze S_ squeezes_S1_S_).sem) 0 = N := expect_recv m ρ X 0
theorem xdut_recv_1 (X : Dev nD) : (rd (F := F) m ρ).duties ((X : Thread nD τ), SemLoc.dma ((cc0_scratch5.slice (Rect.unit (s := S3) ![1] S1.size inb_S3_S1_1)).squeeze S_ squeezes_S1_S_).sem) 0 = {0} := duties_recv m ρ X 1
theorem xamt_recv_1 (X : Dev nD) : (rd (F := F) m ρ).amount ((X : Thread nD τ), SemLoc.dma ((cc0_scratch5.slice (Rect.unit (s := S3) ![1] S1.size inb_S3_S1_1)).squeeze S_ squeezes_S1_S_).sem) 0 0 = N := amount_recv m ρ X 1 0
theorem xexp_recv_1 (X : Dev nD) : (rd (F := F) m ρ).expect ((X : Thread nD τ), SemLoc.dma ((cc0_scratch5.slice (Rect.unit (s := S3) ![1] S1.size inb_S3_S1_1)).squeeze S_ squeezes_S1_S_).sem) 0 = N := expect_recv m ρ X 1
theorem xdut_recv_2 (X : Dev nD) : (rd (F := F) m ρ).duties ((X : Thread nD τ), SemLoc.dma ((cc0_scratch5.slice (Rect.unit (s := S3) ![2] S1.size inb_S3_S1_2)).squeeze S_ squeezes_S1_S_).sem) 0 = {0} := duties_recv m ρ X 2
theorem xamt_recv_2 (X : Dev nD) : (rd (F := F) m ρ).amount ((X : Thread nD τ), SemLoc.dma ((cc0_scratch5.slice (Rect.unit (s := S3) ![2] S1.size inb_S3_S1_2)).squeeze S_ squeezes_S1_S_).sem) 0 0 = N := amount_recv m ρ X 2 0
theorem xexp_recv_2 (X : Dev nD) : (rd (F := F) m ρ).expect ((X : Thread nD τ), SemLoc.dma ((cc0_scratch5.slice (Rect.unit (s := S3) ![2] S1.size inb_S3_S1_2)).squeeze S_ squeezes_S1_S_).sem) 0 = N := expect_recv m ρ X 2
theorem xdut_recv_3 (X : Dev nD) : (rd (F := F) m ρ).duties ((X : Thread nD τ), SemLoc.dma ((cc0_scratch7.slice (Rect.unit (s := S7) ![0] S1.size inb_S7_S1_0)).squeeze S_ squeezes_S1_S_).sem) 0 = {0} := duties_recv m ρ X 3
theorem xamt_recv_3 (X : Dev nD) : (rd (F := F) m ρ).amount ((X : Thread nD τ), SemLoc.dma ((cc0_scratch7.slice (Rect.unit (s := S7) ![0] S1.size inb_S7_S1_0)).squeeze S_ squeezes_S1_S_).sem) 0 0 = N := amount_recv m ρ X 3 0
theorem xexp_recv_3 (X : Dev nD) : (rd (F := F) m ρ).expect ((X : Thread nD τ), SemLoc.dma ((cc0_scratch7.slice (Rect.unit (s := S7) ![0] S1.size inb_S7_S1_0)).squeeze S_ squeezes_S1_S_).sem) 0 = N := expect_recv m ρ X 3
theorem xdut_recv_4 (X : Dev nD) : (rd (F := F) m ρ).duties ((X : Thread nD τ), SemLoc.dma ((cc0_scratch7.slice (Rect.unit (s := S7) ![1] S1.size inb_S7_S1_1)).squeeze S_ squeezes_S1_S_).sem) 0 = {0} := duties_recv m ρ X 4
theorem xamt_recv_4 (X : Dev nD) : (rd (F := F) m ρ).amount ((X : Thread nD τ), SemLoc.dma ((cc0_scratch7.slice (Rect.unit (s := S7) ![1] S1.size inb_S7_S1_1)).squeeze S_ squeezes_S1_S_).sem) 0 0 = N := amount_recv m ρ X 4 0
theorem xexp_recv_4 (X : Dev nD) : (rd (F := F) m ρ).expect ((X : Thread nD τ), SemLoc.dma ((cc0_scratch7.slice (Rect.unit (s := S7) ![1] S1.size inb_S7_S1_1)).squeeze S_ squeezes_S1_S_).sem) 0 = N := expect_recv m ρ X 4
theorem xdut_recv_5 (X : Dev nD) : (rd (F := F) m ρ).duties ((X : Thread nD τ), SemLoc.dma ((cc0_scratch7.slice (Rect.unit (s := S7) ![2] S1.size inb_S7_S1_2)).squeeze S_ squeezes_S1_S_).sem) 0 = {0} := duties_recv m ρ X 5
theorem xamt_recv_5 (X : Dev nD) : (rd (F := F) m ρ).amount ((X : Thread nD τ), SemLoc.dma ((cc0_scratch7.slice (Rect.unit (s := S7) ![2] S1.size inb_S7_S1_2)).squeeze S_ squeezes_S1_S_).sem) 0 0 = N := amount_recv m ρ X 5 0
theorem xexp_recv_5 (X : Dev nD) : (rd (F := F) m ρ).expect ((X : Thread nD τ), SemLoc.dma ((cc0_scratch7.slice (Rect.unit (s := S7) ![2] S1.size inb_S7_S1_2)).squeeze S_ squeezes_S1_S_).sem) 0 = N := expect_recv m ρ X 5
theorem xdut_recv_6 (X : Dev nD) : (rd (F := F) m ρ).duties ((X : Thread nD τ), SemLoc.dma ((cc0_scratch7.slice (Rect.unit (s := S7) ![3] S1.size inb_S7_S1_3)).squeeze S_ squeezes_S1_S_).sem) 0 = {0} := duties_recv m ρ X 6
theorem xamt_recv_6 (X : Dev nD) : (rd (F := F) m ρ).amount ((X : Thread nD τ), SemLoc.dma ((cc0_scratch7.slice (Rect.unit (s := S7) ![3] S1.size inb_S7_S1_3)).squeeze S_ squeezes_S1_S_).sem) 0 0 = N := amount_recv m ρ X 6 0
theorem xexp_recv_6 (X : Dev nD) : (rd (F := F) m ρ).expect ((X : Thread nD τ), SemLoc.dma ((cc0_scratch7.slice (Rect.unit (s := S7) ![3] S1.size inb_S7_S1_3)).squeeze S_ squeezes_S1_S_).sem) 0 = N := expect_recv m ρ X 6
theorem xdut_recv_7 (X : Dev nD) : (rd (F := F) m ρ).duties ((X : Thread nD τ), SemLoc.dma ((cc0_scratch7.slice (Rect.unit (s := S7) ![4] S1.size inb_S7_S1_4)).squeeze S_ squeezes_S1_S_).sem) 0 = {0} := duties_recv m ρ X 7
theorem xamt_recv_7 (X : Dev nD) : (rd (F := F) m ρ).amount ((X : Thread nD τ), SemLoc.dma ((cc0_scratch7.slice (Rect.unit (s := S7) ![4] S1.size inb_S7_S1_4)).squeeze S_ squeezes_S1_S_).sem) 0 0 = N := amount_recv m ρ X 7 0
theorem xexp_recv_7 (X : Dev nD) : (rd (F := F) m ρ).expect ((X : Thread nD τ), SemLoc.dma ((cc0_scratch7.slice (Rect.unit (s := S7) ![4] S1.size inb_S7_S1_4)).squeeze S_ squeezes_S1_S_).sem) 0 = N := expect_recv m ρ X 7
theorem xdut_recv_8 (X : Dev nD) : (rd (F := F) m ρ).duties ((X : Thread nD τ), SemLoc.dma ((cc0_scratch7.slice (Rect.unit (s := S7) ![5] S1.size inb_S7_S1_5)).squeeze S_ squeezes_S1_S_).sem) 0 = {0} := duties_recv m ρ X 8
theorem xamt_recv_8 (X : Dev nD) : (rd (F := F) m ρ).amount ((X : Thread nD τ), SemLoc.dma ((cc0_scratch7.slice (Rect.unit (s := S7) ![5] S1.size inb_S7_S1_5)).squeeze S_ squeezes_S1_S_).sem) 0 0 = N := amount_recv m ρ X 8 0
theorem xexp_recv_8 (X : Dev nD) : (rd (F := F) m ρ).expect ((X : Thread nD τ), SemLoc.dma ((cc0_scratch7.slice (Rect.unit (s := S7) ![5] S1.size inb_S7_S1_5)).squeeze S_ squeezes_S1_S_).sem) 0 = N := expect_recv m ρ X 8
theorem xdut_recv_9 (X : Dev nD) : (rd (F := F) m ρ).duties ((X : Thread nD τ), SemLoc.dma ((cc0_scratch7.slice (Rect.unit (s := S7) ![6] S1.size inb_S7_S1_6)).squeeze S_ squeezes_S1_S_).sem) 0 = {0} := duties_recv m ρ X 9
theorem xamt_recv_9 (X : Dev nD) : (rd (F := F) m ρ).amount ((X : Thread nD τ), SemLoc.dma ((cc0_scratch7.slice (Rect.unit (s := S7) ![6] S1.size inb_S7_S1_6)).squeeze S_ squeezes_S1_S_).sem) 0 0 = N := amount_recv m ρ X 9 0
theorem xexp_recv_9 (X : Dev nD) : (rd (F := F) m ρ).expect ((X : Thread nD τ), SemLoc.dma ((cc0_scratch7.slice (Rect.unit (s := S7) ![6] S1.size inb_S7_S1_6)).squeeze S_ squeezes_S1_S_).sem) 0 = N := expect_recv m ρ X 9
theorem xpay_recv_0 (X : Dev nD) : (rd (F := F) m ρ).payload ((X : Thread nD τ), SemLoc.dma ((cc0_scratch5.slice (Rect.unit (s := S3) ![0] S1.size inb_S3_S1_0)).squeeze S_ squeezes_S1_S_).sem) 0 0 = ((bSlot 0).view.loc (X : Thread nD τ) ↦[(bSlot 0).view.set]{fullShare} czV m ρ X : sProp 𝕄) := npay_recv_0 m ρ X 0
theorem xpay_recv_1 (X : Dev nD) : (rd (F := F) m ρ).payload ((X : Thread nD τ), SemLoc.dma ((cc0_scratch5.slice (Rect.unit (s := S3) ![1] S1.size inb_S3_S1_1)).squeeze S_ squeezes_S1_S_).sem) 0 0 = ((bSlot 1).view.loc (X : Thread nD τ) ↦[(bSlot 1).view.set]{fullShare} czV m ρ X : sProp 𝕄) := npay_recv_1 m ρ X 0
theorem xpay_recv_2 (X : Dev nD) : (rd (F := F) m ρ).payload ((X : Thread nD τ), SemLoc.dma ((cc0_scratch5.slice (Rect.unit (s := S3) ![2] S1.size inb_S3_S1_2)).squeeze S_ squeezes_S1_S_).sem) 0 0 = ((bSlot 2).view.loc (X : Thread nD τ) ↦[(bSlot 2).view.set]{fullShare} czV m ρ X : sProp 𝕄) := npay_recv_2 m ρ X 0
theorem xpay_recv_3 (X : Dev nD) : (rd (F := F) m ρ).payload ((X : Thread nD τ), SemLoc.dma ((cc0_scratch7.slice (Rect.unit (s := S7) ![0] S1.size inb_S7_S1_0)).squeeze S_ squeezes_S1_S_).sem) 0 0 = ((bSlot 3).view.loc (X : Thread nD τ) ↦[(bSlot 3).view.set]{fullShare} cpV m ρ X : sProp 𝕄) := npay_recv_3 m ρ X 0
theorem xpay_recv_4 (X : Dev nD) : (rd (F := F) m ρ).payload ((X : Thread nD τ), SemLoc.dma ((cc0_scratch7.slice (Rect.unit (s := S7) ![1] S1.size inb_S7_S1_1)).squeeze S_ squeezes_S1_S_).sem) 0 0 = ((bSlot 4).view.loc (X : Thread nD τ) ↦[(bSlot 4).view.set]{fullShare} cpV m ρ X : sProp 𝕄) := npay_recv_4 m ρ X 0
theorem xpay_recv_5 (X : Dev nD) : (rd (F := F) m ρ).payload ((X : Thread nD τ), SemLoc.dma ((cc0_scratch7.slice (Rect.unit (s := S7) ![2] S1.size inb_S7_S1_2)).squeeze S_ squeezes_S1_S_).sem) 0 0 = ((bSlot 5).view.loc (X : Thread nD τ) ↦[(bSlot 5).view.set]{fullShare} cpV m ρ X : sProp 𝕄) := npay_recv_5 m ρ X 0
theorem xpay_recv_6 (X : Dev nD) : (rd (F := F) m ρ).payload ((X : Thread nD τ), SemLoc.dma ((cc0_scratch7.slice (Rect.unit (s := S7) ![3] S1.size inb_S7_S1_3)).squeeze S_ squeezes_S1_S_).sem) 0 0 = ((bSlot 6).view.loc (X : Thread nD τ) ↦[(bSlot 6).view.set]{fullShare} cpV m ρ X : sProp 𝕄) := npay_recv_6 m ρ X 0
theorem xpay_recv_7 (X : Dev nD) : (rd (F := F) m ρ).payload ((X : Thread nD τ), SemLoc.dma ((cc0_scratch7.slice (Rect.unit (s := S7) ![4] S1.size inb_S7_S1_4)).squeeze S_ squeezes_S1_S_).sem) 0 0 = ((bSlot 7).view.loc (X : Thread nD τ) ↦[(bSlot 7).view.set]{fullShare} cpV m ρ X : sProp 𝕄) := npay_recv_7 m ρ X 0
theorem xpay_recv_8 (X : Dev nD) : (rd (F := F) m ρ).payload ((X : Thread nD τ), SemLoc.dma ((cc0_scratch7.slice (Rect.unit (s := S7) ![5] S1.size inb_S7_S1_5)).squeeze S_ squeezes_S1_S_).sem) 0 0 = ((bSlot 8).view.loc (X : Thread nD τ) ↦[(bSlot 8).view.set]{fullShare} cpV m ρ X : sProp 𝕄) := npay_recv_8 m ρ X 0
theorem xpay_recv_9 (X : Dev nD) : (rd (F := F) m ρ).payload ((X : Thread nD τ), SemLoc.dma ((cc0_scratch7.slice (Rect.unit (s := S7) ![6] S1.size inb_S7_S1_6)).squeeze S_ squeezes_S1_S_).sem) 0 0 = ((bSlot 9).view.loc (X : Thread nD τ) ↦[(bSlot 9).view.set]{fullShare} cpV m ρ X : sProp 𝕄) := npay_recv_9 m ρ X 0
theorem xpay_send_0 (X : Dev nD) : (rd (F := F) m ρ).payload ((X : Thread nD τ), SemLoc.dma ((cc0_scratch4.slice (Rect.unit (s := S3) ![0] S1.size inb_S3_S1_0)).squeeze S_ squeezes_S1_S_).sem) 0 0 = (bMine.view.loc (X : Thread nD τ) ↦[bMine.view.set]{shareTok fullShare 3 0} mineV m ρ X : sProp 𝕄) := npay_send_0 m ρ X 0
theorem xpay_send_1 (X : Dev nD) : (rd (F := F) m ρ).payload ((X : Thread nD τ), SemLoc.dma ((cc0_scratch4.slice (Rect.unit (s := S3) ![1] S1.size inb_S3_S1_1)).squeeze S_ squeezes_S1_S_).sem) 0 0 = (bMine.view.loc (X : Thread nD τ) ↦[bMine.view.set]{shareTok fullShare 3 1} mineV m ρ X : sProp 𝕄) := npay_send_1 m ρ X 0
theorem xpay_send_2 (X : Dev nD) : (rd (F := F) m ρ).payload ((X : Thread nD τ), SemLoc.dma ((cc0_scratch4.slice (Rect.unit (s := S3) ![2] S1.size inb_S3_S1_2)).squeeze S_ squeezes_S1_S_).sem) 0 0 = (bMine.view.loc (X : Thread nD τ) ↦[bMine.view.set]{shareTok fullShare 3 2} mineV m ρ X : sProp 𝕄) := npay_send_2 m ρ X 0
theorem xpay_send_3 (X : Dev nD) : (rd (F := F) m ρ).payload ((X : Thread nD τ), SemLoc.dma ((cc0_scratch6.slice (Rect.unit (s := S7) ![0] S1.size inb_S7_S1_0)).squeeze S_ squeezes_S1_S_).sem) 0 0 = (bCol.view.loc (X : Thread nD τ) ↦[bCol.view.set]{shareTok fullShare 7 0} colV m ρ X : sProp 𝕄) := npay_send_3 m ρ X 0
theorem xpay_send_4 (X : Dev nD) : (rd (F := F) m ρ).payload ((X : Thread nD τ), SemLoc.dma ((cc0_scratch6.slice (Rect.unit (s := S7) ![1] S1.size inb_S7_S1_1)).squeeze S_ squeezes_S1_S_).sem) 0 0 = (bCol.view.loc (X : Thread nD τ) ↦[bCol.view.set]{shareTok fullShare 7 1} colV m ρ X : sProp 𝕄) := npay_send_4 m ρ X 0
theorem xpay_send_5 (X : Dev nD) : (rd (F := F) m ρ).payload ((X : Thread nD τ), SemLoc.dma ((cc0_scratch6.slice (Rect.unit (s := S7) ![2] S1.size inb_S7_S1_2)).squeeze S_ squeezes_S1_S_).sem) 0 0 = (bCol.view.loc (X : Thread nD τ) ↦[bCol.view.set]{shareTok fullShare 7 2} colV m ρ X : sProp 𝕄) := npay_send_5 m ρ X 0
theorem xpay_send_6 (X : Dev nD) : (rd (F := F) m ρ).payload ((X : Thread nD τ), SemLoc.dma ((cc0_scratch6.slice (Rect.unit (s := S7) ![3] S1.size inb_S7_S1_3)).squeeze S_ squeezes_S1_S_).sem) 0 0 = (bCol.view.loc (X : Thread nD τ) ↦[bCol.view.set]{shareTok fullShare 7 3} colV m ρ X : sProp 𝕄) := npay_send_6 m ρ X 0
theorem xpay_send_7 (X : Dev nD) : (rd (F := F) m ρ).payload ((X : Thread nD τ), SemLoc.dma ((cc0_scratch6.slice (Rect.unit (s := S7) ![4] S1.size inb_S7_S1_4)).squeeze S_ squeezes_S1_S_).sem) 0 0 = (bCol.view.loc (X : Thread nD τ) ↦[bCol.view.set]{shareTok fullShare 7 4} colV m ρ X : sProp 𝕄) := npay_send_7 m ρ X 0
theorem xpay_send_8 (X : Dev nD) : (rd (F := F) m ρ).payload ((X : Thread nD τ), SemLoc.dma ((cc0_scratch6.slice (Rect.unit (s := S7) ![5] S1.size inb_S7_S1_5)).squeeze S_ squeezes_S1_S_).sem) 0 0 = (bCol.view.loc (X : Thread nD τ) ↦[bCol.view.set]{shareTok fullShare 7 5} colV m ρ X : sProp 𝕄) := npay_send_8 m ρ X 0
theorem xpay_send_9 (X : Dev nD) : (rd (F := F) m ρ).payload ((X : Thread nD τ), SemLoc.dma ((cc0_scratch6.slice (Rect.unit (s := S7) ![6] S1.size inb_S7_S1_6)).squeeze S_ squeezes_S1_S_).sem) 0 0 = (bCol.view.loc (X : Thread nD τ) ↦[bCol.view.set]{shareTok fullShare 7 6} colV m ρ X : sProp 𝕄) := npay_send_9 m ρ X 0
theorem slot_credit_0 : (bSlot 0).view.dmaCredit = N := by unfold bSlot; rfl
theorem slot_amount_0 (s : DmaSem sig) : (bSlot 0).view.amount (SemLoc.dma s) = N := by unfold bSlot; rfl
theorem slot_credit_1 : (bSlot 1).view.dmaCredit = N := by unfold bSlot; rfl
theorem slot_amount_1 (s : DmaSem sig) : (bSlot 1).view.amount (SemLoc.dma s) = N := by unfold bSlot; rfl
theorem slot_credit_2 : (bSlot 2).view.dmaCredit = N := by unfold bSlot; rfl
theorem slot_amount_2 (s : DmaSem sig) : (bSlot 2).view.amount (SemLoc.dma s) = N := by unfold bSlot; rfl
theorem slot_credit_3 : (bSlot 3).view.dmaCredit = N := by unfold bSlot; rfl
theorem slot_amount_3 (s : DmaSem sig) : (bSlot 3).view.amount (SemLoc.dma s) = N := by unfold bSlot; rfl
theorem slot_credit_4 : (bSlot 4).view.dmaCredit = N := by unfold bSlot; rfl
theorem slot_amount_4 (s : DmaSem sig) : (bSlot 4).view.amount (SemLoc.dma s) = N := by unfold bSlot; rfl
theorem slot_credit_5 : (bSlot 5).view.dmaCredit = N := by unfold bSlot; rfl
theorem slot_amount_5 (s : DmaSem sig) : (bSlot 5).view.amount (SemLoc.dma s) = N := by unfold bSlot; rfl
theorem slot_credit_6 : (bSlot 6).view.dmaCredit = N := by unfold bSlot; rfl
theorem slot_amount_6 (s : DmaSem sig) : (bSlot 6).view.amount (SemLoc.dma s) = N := by unfold bSlot; rfl
theorem slot_credit_7 : (bSlot 7).view.dmaCredit = N := by unfold bSlot; rfl
theorem slot_amount_7 (s : DmaSem sig) : (bSlot 7).view.amount (SemLoc.dma s) = N := by unfold bSlot; rfl
theorem slot_credit_8 : (bSlot 8).view.dmaCredit = N := by unfold bSlot; rfl
theorem slot_amount_8 (s : DmaSem sig) : (bSlot 8).view.amount (SemLoc.dma s) = N := by unfold bSlot; rfl
theorem slot_credit_9 : (bSlot 9).view.dmaCredit = N := by unfold bSlot; rfl
theorem slot_amount_9 (s : DmaSem sig) : (bSlot 9).view.amount (SemLoc.dma s) = N := by unfold bSlot; rfl
theorem mine_credit : bMine.view.dmaCredit = N := by unfold bMine; rfl
theorem col_credit : bCol.view.dmaCredit = N := by unfold bCol; rfl
theorem landed_0 (c : Dev nD) (fd : BufTy.Contents (Elt F) (bSlot 0).view.ty) : ((bSlot 0).view.loc (peer c 0 : Thread nD τ) ↦[(bSlot 0).view.set]{fullShare} View.write (Elt F) (bSlot 0).view fd (View.read (Elt F) bMine.view (mineV m ρ c)) Finset.univ : sProp 𝕄) ⊢ (rd (F := F) m ρ).payload (recvCell (peer c 0) 0) 0 0 := by
  have h := recvPay_of_land_0 m ρ (peer c 0) fd
  rw [src_peer] at h
  unfold bSlot bMine
  exact h.trans (Entails.of_eq (payload_recv m ρ (peer c 0) 0 0).symm)
theorem landed_1 (c : Dev nD) (fd : BufTy.Contents (Elt F) (bSlot 1).view.ty) : ((bSlot 1).view.loc (peer c 1 : Thread nD τ) ↦[(bSlot 1).view.set]{fullShare} View.write (Elt F) (bSlot 1).view fd (View.read (Elt F) bMine.view (mineV m ρ c)) Finset.univ : sProp 𝕄) ⊢ (rd (F := F) m ρ).payload (recvCell (peer c 1) 1) 0 0 := by
  have h := recvPay_of_land_1 m ρ (peer c 1) fd
  rw [src_peer] at h
  unfold bSlot bMine
  exact h.trans (Entails.of_eq (payload_recv m ρ (peer c 1) 1 0).symm)
theorem landed_2 (c : Dev nD) (fd : BufTy.Contents (Elt F) (bSlot 2).view.ty) : ((bSlot 2).view.loc (peer c 2 : Thread nD τ) ↦[(bSlot 2).view.set]{fullShare} View.write (Elt F) (bSlot 2).view fd (View.read (Elt F) bMine.view (mineV m ρ c)) Finset.univ : sProp 𝕄) ⊢ (rd (F := F) m ρ).payload (recvCell (peer c 2) 2) 0 0 := by
  have h := recvPay_of_land_2 m ρ (peer c 2) fd
  rw [src_peer] at h
  unfold bSlot bMine
  exact h.trans (Entails.of_eq (payload_recv m ρ (peer c 2) 2 0).symm)
theorem landed_3 (c : Dev nD) (fd : BufTy.Contents (Elt F) (bSlot 3).view.ty) : ((bSlot 3).view.loc (peer c 3 : Thread nD τ) ↦[(bSlot 3).view.set]{fullShare} View.write (Elt F) (bSlot 3).view fd (View.read (Elt F) bCol.view (colV m ρ c)) Finset.univ : sProp 𝕄) ⊢ (rd (F := F) m ρ).payload (recvCell (peer c 3) 3) 0 0 := by
  have h := recvPay_of_land_3 m ρ (peer c 3) fd
  rw [src_peer] at h
  unfold bSlot bCol
  exact h.trans (Entails.of_eq (payload_recv m ρ (peer c 3) 3 0).symm)
theorem landed_4 (c : Dev nD) (fd : BufTy.Contents (Elt F) (bSlot 4).view.ty) : ((bSlot 4).view.loc (peer c 4 : Thread nD τ) ↦[(bSlot 4).view.set]{fullShare} View.write (Elt F) (bSlot 4).view fd (View.read (Elt F) bCol.view (colV m ρ c)) Finset.univ : sProp 𝕄) ⊢ (rd (F := F) m ρ).payload (recvCell (peer c 4) 4) 0 0 := by
  have h := recvPay_of_land_4 m ρ (peer c 4) fd
  rw [src_peer] at h
  unfold bSlot bCol
  exact h.trans (Entails.of_eq (payload_recv m ρ (peer c 4) 4 0).symm)
theorem landed_5 (c : Dev nD) (fd : BufTy.Contents (Elt F) (bSlot 5).view.ty) : ((bSlot 5).view.loc (peer c 5 : Thread nD τ) ↦[(bSlot 5).view.set]{fullShare} View.write (Elt F) (bSlot 5).view fd (View.read (Elt F) bCol.view (colV m ρ c)) Finset.univ : sProp 𝕄) ⊢ (rd (F := F) m ρ).payload (recvCell (peer c 5) 5) 0 0 := by
  have h := recvPay_of_land_5 m ρ (peer c 5) fd
  rw [src_peer] at h
  unfold bSlot bCol
  exact h.trans (Entails.of_eq (payload_recv m ρ (peer c 5) 5 0).symm)
theorem landed_6 (c : Dev nD) (fd : BufTy.Contents (Elt F) (bSlot 6).view.ty) : ((bSlot 6).view.loc (peer c 6 : Thread nD τ) ↦[(bSlot 6).view.set]{fullShare} View.write (Elt F) (bSlot 6).view fd (View.read (Elt F) bCol.view (colV m ρ c)) Finset.univ : sProp 𝕄) ⊢ (rd (F := F) m ρ).payload (recvCell (peer c 6) 6) 0 0 := by
  have h := recvPay_of_land_6 m ρ (peer c 6) fd
  rw [src_peer] at h
  unfold bSlot bCol
  exact h.trans (Entails.of_eq (payload_recv m ρ (peer c 6) 6 0).symm)
theorem landed_7 (c : Dev nD) (fd : BufTy.Contents (Elt F) (bSlot 7).view.ty) : ((bSlot 7).view.loc (peer c 7 : Thread nD τ) ↦[(bSlot 7).view.set]{fullShare} View.write (Elt F) (bSlot 7).view fd (View.read (Elt F) bCol.view (colV m ρ c)) Finset.univ : sProp 𝕄) ⊢ (rd (F := F) m ρ).payload (recvCell (peer c 7) 7) 0 0 := by
  have h := recvPay_of_land_7 m ρ (peer c 7) fd
  rw [src_peer] at h
  unfold bSlot bCol
  exact h.trans (Entails.of_eq (payload_recv m ρ (peer c 7) 7 0).symm)
theorem landed_8 (c : Dev nD) (fd : BufTy.Contents (Elt F) (bSlot 8).view.ty) : ((bSlot 8).view.loc (peer c 8 : Thread nD τ) ↦[(bSlot 8).view.set]{fullShare} View.write (Elt F) (bSlot 8).view fd (View.read (Elt F) bCol.view (colV m ρ c)) Finset.univ : sProp 𝕄) ⊢ (rd (F := F) m ρ).payload (recvCell (peer c 8) 8) 0 0 := by
  have h := recvPay_of_land_8 m ρ (peer c 8) fd
  rw [src_peer] at h
  unfold bSlot bCol
  exact h.trans (Entails.of_eq (payload_recv m ρ (peer c 8) 8 0).symm)
theorem landed_9 (c : Dev nD) (fd : BufTy.Contents (Elt F) (bSlot 9).view.ty) : ((bSlot 9).view.loc (peer c 9 : Thread nD τ) ↦[(bSlot 9).view.set]{fullShare} View.write (Elt F) (bSlot 9).view fd (View.read (Elt F) bCol.view (colV m ρ c)) Finset.univ : sProp 𝕄) ⊢ (rd (F := F) m ρ).payload (recvCell (peer c 9) 9) 0 0 := by
  have h := recvPay_of_land_9 m ρ (peer c 9) fd
  rw [src_peer] at h
  unfold bSlot bCol
  exact h.trans (Entails.of_eq (payload_recv m ρ (peer c 9) 9 0).symm)

end Cert.KernelProof

end
-- ==== Proof.KernelWrites.lean ====
/-
  What the stores of the body leave in each buffer, as the list of its writes, is the canonical contents.

  A load of a whole buffer through the rectangle at the origin of the buffer's own sizes reads its contents, and a
  store through that rectangle leaves its payload; the row-sum buffer's two stores through its two halves leave the
  row sums whatever it held before.
-/
import proofs.«900767_g7700000000000768_dist_diff_adaln_cshard_i_b4_s256_c128_v7x_i32_bf16_1_alg».proof.Proof.KernelNames
import proofs.«900767_g7700000000000768_dist_diff_adaln_cshard_i_b4_s256_c128_v7x_i32_bf16_1_alg».proof.Proof.KernelPages
import Idealize.ShloMosaic.Lib.Writes

noncomputable section

namespace Cert.KernelProof

open Cert.Kernel Cert.Kernel.Gen Cert.Mesh

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

theorem zeros2 : (![0, 0] : Fin 2 → ℕ) = fun _ => 0 := by decide
theorem zeros3 : (![0, 0, 0] : Fin 3 → ℕ) = fun _ => 0 := by decide

/-! ## Whole-buffer loads and stores through the rectangle at the origin -/

theorem readAt_bX (f : (cc0_stg0_0 : Ref sig .tc).ty.Contents (Elt F)) :
    View.readAt (Elt F) bX.view (Rect.unit (s := S4x256x128) ![0, 0, 0] S4x256x128.size inb_S4x256x128_S4x256x128_0_0_0).toLoadRect f = f :=
  Memref.readAt_unit_zero (Elt F) cc0_stg0_0 zeros3 inb_S4x256x128_S4x256x128_0_0_0 f

theorem writes_bX (f : (cc0_stg0_0 : Ref sig .tc).ty.Contents (Elt F)) (w : S4x256x128.Idx → Elt F .f32) :
    bX.view.writes (Elt F) f [⟨(Rect.unit (s := S4x256x128) ![0, 0, 0] S4x256x128.size inb_S4x256x128_S4x256x128_0_0_0), w⟩] = w :=
  Memref.write_access_unit_zero_univ (Elt F) cc0_stg0_0 zeros3 inb_S4x256x128_S4x256x128_0_0_0 f w

theorem readAt_bT (f : (cc0_stg1_0 : Ref sig .tc).ty.Contents (Elt F)) :
    View.readAt (Elt F) bT.view (Rect.unit (s := S4x128) ![0, 0] S4x128.size inb_S4x128_S4x128_0_0).toLoadRect f = f :=
  Memref.readAt_unit_zero (Elt F) cc0_stg1_0 zeros2 inb_S4x128_S4x128_0_0 f

theorem writes_bT (f : (cc0_stg1_0 : Ref sig .tc).ty.Contents (Elt F)) (w : S4x128.Idx → Elt F .f32) :
    bT.view.writes (Elt F) f [⟨(Rect.unit (s := S4x128) ![0, 0] S4x128.size inb_S4x128_S4x128_0_0), w⟩] = w :=
  Memref.write_access_unit_zero_univ (Elt F) cc0_stg1_0 zeros2 inb_S4x128_S4x128_0_0 f w

theorem readAt_bWs (f : (cc0_stg2_0 : Ref sig .tc).ty.Contents (Elt F)) :
    View.readAt (Elt F) bWs.view (Rect.unit (s := S128x128) ![0, 0] S128x128.size inb_S128x128_S128x128_0_0).toLoadRect f = f :=
  Memref.readAt_unit_zero (Elt F) cc0_stg2_0 zeros2 inb_S128x128_S128x128_0_0 f

theorem writes_bWs (f : (cc0_stg2_0 : Ref sig .tc).ty.Contents (Elt F)) (w : S128x128.Idx → Elt F .f32) :
    bWs.view.writes (Elt F) f [⟨(Rect.unit (s := S128x128) ![0, 0] S128x128.size inb_S128x128_S128x128_0_0), w⟩] = w :=
  Memref.write_access_unit_zero_univ (Elt F) cc0_stg2_0 zeros2 inb_S128x128_S128x128_0_0 f w

theorem readAt_bWsh (f : (cc0_stg3_0 : Ref sig .tc).ty.Contents (Elt F)) :
    View.readAt (Elt F) bWsh.view (Rect.unit (s := S128x128) ![0, 0] S128x128.size inb_S128x128_S128x128_0_0).toLoadRect f = f :=
  Memref.readAt_unit_zero (Elt F) cc0_stg3_0 zeros2 inb_S128x128_S128x128_0_0 f

theorem writes_bWsh (f : (cc0_stg3_0 : Ref sig .tc).ty.Contents (Elt F)) (w : S128x128.Idx → Elt F .f32) :
    bWsh.view.writes (Elt F) f [⟨(Rect.unit (s := S128x128) ![0, 0] S128x128.size inb_S128x128_S128x128_0_0), w⟩] = w :=
  Memref.write_access_unit_zero_univ (Elt F) cc0_stg3_0 zeros2 inb_S128x128_S128x128_0_0 f w

theorem readAt_bO (f : (cc0_stg4_0 : Ref sig .tc).ty.Contents (Elt F)) :
    View.readAt (Elt F) bO.view (Rect.unit (s := S4x256x128) ![0, 0, 0] S4x256x128.size inb_S4x256x128_S4x256x128_0_0_0).toLoadRect f = f :=
  Memref.readAt_unit_zero (Elt F) cc0_stg4_0 zeros3 inb_S4x256x128_S4x256x128_0_0_0 f

theorem writes_bO (f : (cc0_stg4_0 : Ref sig .tc).ty.Contents (Elt F)) (w : S4x256x128.Idx → Elt F .f32) :
    bO.view.writes (Elt F) f [⟨(Rect.unit (s := S4x256x128) ![0, 0, 0] S4x256x128.size inb_S4x256x128_S4x256x128_0_0_0), w⟩] = w :=
  Memref.write_access_unit_zero_univ (Elt F) cc0_stg4_0 zeros3 inb_S4x256x128_S4x256x128_0_0_0 f w

theorem readAt_bMine (f : (cc0_scratch0 : Ref sig .tc).ty.Contents (Elt F)) :
    View.readAt (Elt F) bMine.view (Rect.unit (s := S8x256) ![0, 0] S8x256.size inb_S8x256_S8x256_0_0).toLoadRect f = f :=
  Memref.readAt_unit_zero (Elt F) cc0_scratch0 zeros2 inb_S8x256_S8x256_0_0 f

theorem writes_bMine (f : (cc0_scratch0 : Ref sig .tc).ty.Contents (Elt F)) (w : S8x256.Idx → Elt F .f32) :
    bMine.view.writes (Elt F) f [⟨(Rect.unit (s := S8x256) ![0, 0] S8x256.size inb_S8x256_S8x256_0_0), w⟩] = w :=
  Memref.write_access_unit_zero_univ (Elt F) cc0_scratch0 zeros2 inb_S8x256_S8x256_0_0 f w

theorem readAt_bCol (f : (cc0_scratch1 : Ref sig .tc).ty.Contents (Elt F)) :
    View.readAt (Elt F) bCol.view (Rect.unit (s := S8x256) ![0, 0] S8x256.size inb_S8x256_S8x256_0_0).toLoadRect f = f :=
  Memref.readAt_unit_zero (Elt F) cc0_scratch1 zeros2 inb_S8x256_S8x256_0_0 f

theorem writes_bCol (f : (cc0_scratch1 : Ref sig .tc).ty.Contents (Elt F)) (w : S8x256.Idx → Elt F .f32) :
    bCol.view.writes (Elt F) f [⟨(Rect.unit (s := S8x256) ![0, 0] S8x256.size inb_S8x256_S8x256_0_0), w⟩] = w :=
  Memref.write_access_unit_zero_univ (Elt F) cc0_scratch1 zeros2 inb_S8x256_S8x256_0_0 f w

theorem readAt_bCz (f : (cc0_scratch2 : Ref sig .tc).ty.Contents (Elt F)) :
    View.readAt (Elt F) bCz.view (Rect.unit (s := S3x8x256) ![0, 0, 0] S3x8x256.size inb_S3x8x256_S3x8x256_0_0_0).toLoadRect f = f :=
  Memref.readAt_unit_zero (Elt F) cc0_scratch2 zeros3 inb_S3x8x256_S3x8x256_0_0_0 f

theorem writes_bCz (f : (cc0_scratch2 : Ref sig .tc).ty.Contents (Elt F)) (w : S3x8x256.Idx → Elt F .f32) :
    bCz.view.writes (Elt F) f [⟨(Rect.unit (s := S3x8x256) ![0, 0, 0] S3x8x256.size inb_S3x8x256_S3x8x256_0_0_0), w⟩] = w :=
  Memref.write_access_unit_zero_univ (Elt F) cc0_scratch2 zeros3 inb_S3x8x256_S3x8x256_0_0_0 f w

theorem readAt_bCp (f : (cc0_scratch3 : Ref sig .tc).ty.Contents (Elt F)) :
    View.readAt (Elt F) bCp.view (Rect.unit (s := S7x8x256) ![0, 0, 0] S7x8x256.size inb_S7x8x256_S7x8x256_0_0_0).toLoadRect f = f :=
  Memref.readAt_unit_zero (Elt F) cc0_scratch3 zeros3 inb_S7x8x256_S7x8x256_0_0_0 f

theorem writes_bCp (f : (cc0_scratch3 : Ref sig .tc).ty.Contents (Elt F)) (w : S7x8x256.Idx → Elt F .f32) :
    bCp.view.writes (Elt F) f [⟨(Rect.unit (s := S7x8x256) ![0, 0, 0] S7x8x256.size inb_S7x8x256_S7x8x256_0_0_0), w⟩] = w :=
  Memref.write_access_unit_zero_univ (Elt F) cc0_scratch3 zeros3 inb_S7x8x256_S7x8x256_0_0_0 f w

variable (m : (ℓ : Loc nD τ sig) → Buf (Elt F) ℓ) (ρ : Dev nD → PrngReg)

/-! ## The three stored buffers -/

/-- The row-sum buffer after its two stores, over whatever it held. -/
theorem mine_writes (c : Dev nD) (f0 : Buf (Elt F) ((c : Thread nD τ).loc cc0_scratch0)) :
    bMine.view.writes (Elt F) f0
      [⟨Rect.unit (s := S8x256) ![4, 0] S4x256.size inb_S8x256_S4x256_4_0, k0_pay3 (View.readAt (Elt F) bX.view (Rect.unit (s := S4x256x128) ![0, 0, 0] S4x256x128.size inb_S4x256x128_S4x256x128_0_0_0).toLoadRect (xb m ρ c))⟩,
       ⟨Rect.unit (s := S8x256) ![0, 0] S4x256.size inb_S8x256_S4x256_0_0, k0_pay2 (View.readAt (Elt F) bX.view (Rect.unit (s := S4x256x128) ![0, 0, 0] S4x256x128.size inb_S4x256x128_S4x256x128_0_0_0).toLoadRect (xb m ρ c))⟩]
      = mineV m ρ c := by
  rw [readAt_bX]
  exact mineOf_eq_mineV m ρ f0 c

/-- The column-group sums after their store. -/
theorem col_writes (c : Dev nD) (f1 : Buf (Elt F) ((c : Thread nD τ).loc cc0_scratch1)) :
    bCol.view.writes (Elt F) f1
      [⟨Rect.unit (s := S8x256) ![0, 0] S8x256.size inb_S8x256_S8x256_0_0,
        k0_pay7 (View.readAt (Elt F) bMine.view (Rect.unit (s := S8x256) ![0, 0] S8x256.size inb_S8x256_S8x256_0_0).toLoadRect (mineV m ρ c)) (View.readAt (Elt F) bCz.view (Rect.unit (s := S3x8x256) ![0, 0, 0] S3x8x256.size inb_S3x8x256_S3x8x256_0_0_0).toLoadRect (czV m ρ c))⟩]
      = colV m ρ c := by
  rw [readAt_bMine, readAt_bCz]
  exact writes_bCol f1 _

/-- The result block after its store. -/
theorem out_writes (c : Dev nD) (g4 : Buf (Elt F) ((c : Thread nD τ).loc cc0_stg4_0)) :
    bO.view.writes (Elt F) g4
      [⟨Rect.unit (s := S4x256x128) ![0, 0, 0] S4x256x128.size inb_S4x256x128_S4x256x128_0_0_0,
        k0_pay11 (k0_pay1 (View.readAt (Elt F) bX.view (Rect.unit (s := S4x256x128) ![0, 0, 0] S4x256x128.size inb_S4x256x128_S4x256x128_0_0_0).toLoadRect (xb m ρ c))) (k0_pay5 (View.readAt (Elt F) bT.view (Rect.unit (s := S4x128) ![0, 0] S4x128.size inb_S4x128_S4x128_0_0).toLoadRect (tb m ρ c)) (View.readAt (Elt F) bWs.view (Rect.unit (s := S128x128) ![0, 0] S128x128.size inb_S128x128_S128x128_0_0).toLoadRect (wsb m ρ c)))
          (k0_pay6 (View.readAt (Elt F) bT.view (Rect.unit (s := S4x128) ![0, 0] S4x128.size inb_S4x128_S4x128_0_0).toLoadRect (tb m ρ c)) (View.readAt (Elt F) bWsh.view (Rect.unit (s := S128x128) ![0, 0] S128x128.size inb_S128x128_S128x128_0_0).toLoadRect (wshb m ρ c)))
          (k0_pay9 (View.readAt (Elt F) bCol.view (Rect.unit (s := S8x256) ![0, 0] S8x256.size inb_S8x256_S8x256_0_0).toLoadRect (colV m ρ c)) (View.readAt (Elt F) bCp.view (Rect.unit (s := S7x8x256) ![0, 0, 0] S7x8x256.size inb_S7x8x256_S7x8x256_0_0_0).toLoadRect (cpV m ρ c)))
          (k0_pay10 (View.readAt (Elt F) bCol.view (Rect.unit (s := S8x256) ![0, 0] S8x256.size inb_S8x256_S8x256_0_0).toLoadRect (colV m ρ c)) (View.readAt (Elt F) bCp.view (Rect.unit (s := S7x8x256) ![0, 0, 0] S7x8x256.size inb_S7x8x256_S7x8x256_0_0_0).toLoadRect (cpV m ρ c))) (Scalar.ofBits .f32 0x45800000#32)⟩]
      = outV m ρ c := by
  rw [readAt_bX, readAt_bT, readAt_bWs, readAt_bWsh, readAt_bCol, readAt_bCp]
  exact writes_bO g4 _

/-- info: 'Cert.KernelProof.mine_writes' depends on axioms: [propext, Classical.choice, Quot.sound] -/
#guard_msgs in #print axioms mine_writes
/-- info: 'Cert.KernelProof.col_writes' depends on axioms: [propext, Classical.choice, Quot.sound] -/
#guard_msgs in #print axioms col_writes
/-- info: 'Cert.KernelProof.out_writes' depends on axioms: [propext, Classical.choice, Quot.sound] -/
#guard_msgs in #print axioms out_writes

end Cert.KernelProof

end
-- ==== Proof.KernelBody.lean ====
/-
  One device's body under the protocol: ten barrier signals, the row sums, the barrier wait, the column
  group's three copies and their landings, the column-group sums, the row group's seven copies and their
  landings, the normalised and modulated block, and the ten read-out waits.
-/
import proofs.«900767_g7700000000000768_dist_diff_adaln_cshard_i_b4_s256_c128_v7x_i32_bf16_1_alg».proof.Proof.KernelSched
import proofs.«900767_g7700000000000768_dist_diff_adaln_cshard_i_b4_s256_c128_v7x_i32_bf16_1_alg».proof.Proof.KernelRdTables
import proofs.«900767_g7700000000000768_dist_diff_adaln_cshard_i_b4_s256_c128_v7x_i32_bf16_1_alg».proof.Proof.KernelNames
import proofs.«900767_g7700000000000768_dist_diff_adaln_cshard_i_b4_s256_c128_v7x_i32_bf16_1_alg».proof.Proof.KernelPages
import proofs.«900767_g7700000000000768_dist_diff_adaln_cshard_i_b4_s256_c128_v7x_i32_bf16_1_alg».proof.Proof.KernelWrites
import Idealize.ShloMosaic.Lib.Pipeline.Launch
import Idealize.ShloMosaic.Lib.Pipeline.Kit
import Idealize.ShloMosaic.Lib.Transfers
import Idealize.ShloMosaic.Lib.Tactic

noncomputable section

namespace Cert.KernelProof
namespace Body

open Cert.Kernel Cert.Kernel.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem bigSep_fin20 (Φ : Fin 20 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- What device c owes at launch, summand by summand. -/
theorem OR_eq (c : Dev nD) : OR c = tallyAt (recvCell (peer c 0) 0) () N + (tallyAt (recvCell (peer c 1) 1) () N + (tallyAt (recvCell (peer c 2) 2) () N
    + (tallyAt (recvCell (peer c 3) 3) () N + (tallyAt (recvCell (peer c 4) 4) () N + (tallyAt (recvCell (peer c 5) 5) () N + (tallyAt (recvCell (peer c 6) 6) () N
    + (tallyAt (recvCell (peer c 7) 7) () N + (tallyAt (recvCell (peer c 8) 8) () N + tallyAt (recvCell (peer c 9) 9) () N)))))))) := by
  unfold OR
  simp only [Fin.sum_univ_succ, Fin.sum_univ_zero, add_zero]
  rfl
theorem OS_eq (c : Dev nD) : OS c = tallyAt (barCell (peer c 0)) () 1 + (tallyAt (barCell (peer c 1)) () 1 + (tallyAt (barCell (peer c 2)) () 1
    + (tallyAt (barCell (peer c 3)) () 1 + (tallyAt (barCell (peer c 4)) () 1 + (tallyAt (barCell (peer c 5)) () 1 + (tallyAt (barCell (peer c 6)) () 1
    + (tallyAt (barCell (peer c 7)) () 1 + (tallyAt (barCell (peer c 8)) () 1 + tallyAt (barCell (peer c 9)) () 1)))))))) := by
  unfold OS
  simp only [Fin.sum_univ_succ, Fin.sum_univ_zero, add_zero]
  rfl

/-! ## The invariants and open-round facts one device's body uses -/

theorem csem_ixS : ∀ i : Fin 10, csem (ixS i) = .dma (sendS i).sem := by decide
theorem csem_ixR : ∀ i : Fin 10, csem (ixR i) = .dma (recvS i).sem := by decide
theorem kcell_B (c : Dev nD) : kcell (c, ixB) = barCell c := rfl
theorem kcell_S (c : Dev nD) (i : Fin 10) : kcell (c, ixS i) = sendCell c i := by
  show ((c : Thread nD τ), csem (ixS i)) = _; rw [csem_ixS]
theorem kcell_R (c : Dev nD) (i : Fin 10) : kcell (c, ixR i) = recvCell c i := by
  show ((c : Thread nD τ), csem (ixR i)) = _; rw [csem_ixR]

theorem inv_at (K : Dev nD × Fin 21 → ℕ) (ck : Dev nD × Fin 21) :
    (bigSep Finset.univ fun ck : Dev nD × Fin 21 => (cellInv ER (rd m ρ) (K ck) (kcell ck) : sProp 𝕄)) ⊢ cellInv ER (rd m ρ) (K ck) (kcell ck) :=
  bigSep_elim (Finset.mem_univ ck)
theorem reached_at (ck : Dev nD × Fin 21) :
    (bigSep Finset.univ fun ck : Dev nD × Fin 21 => (reached ER (kcell ck) 0 : sProp 𝕄)) ⊢ reached ER (kcell ck) 0 :=
  bigSep_elim (Finset.mem_univ ck)

theorem inv_of (K : Dev nD × Fin 21 → ℕ) (ck : Dev nD × Fin 21) (g : GSem nD τ sig) (hg : kcell ck = g) :
    records m ρ K ⊢ cellInv ER (rd m ρ) (K ck) g := by
  subst hg; unfold records
  iintro ⟨#HI, -⟩
  iapply (inv_at m ρ K ck); iexact HI
theorem reached_of (K : Dev nD × Fin 21 → ℕ) (ck : Dev nD × Fin 21) (g : GSem nD τ sig) (hg : kcell ck = g) :
    records m ρ K ⊢ reached ER g 0 := by
  subst hg; unfold records
  iintro ⟨-, #HR⟩
  iapply (reached_at (F := F) ck); iexact HR

def invsOf (K : Dev nD × Fin 21 → ℕ) (c : Dev nD) : sProp 𝕄 :=
  iprop(cellInv ER (rd m ρ) (K (c, ixB)) (barCell c)
    ∗ (bigSep Finset.univ fun i : Fin 10 => cellInv ER (rd m ρ) (K (c, ixS i)) (sendCell c i))
    ∗ (bigSep Finset.univ fun i : Fin 10 => cellInv ER (rd m ρ) (K (c, ixR i)) (recvCell c i))
    ∗ (bigSep Finset.univ fun i : Fin 10 => cellInv ER (rd m ρ) (K (peer c i, ixB)) (barCell (peer c i)))
    ∗ (bigSep Finset.univ fun i : Fin 10 => cellInv ER (rd m ρ) (K (peer c i, ixR i)) (recvCell (peer c i) i))
    ∗ (bigSep Finset.univ fun i : Fin 10 => reached ER (sendCell c i) 0)
    ∗ (bigSep Finset.univ fun i : Fin 10 => reached ER (recvCell c i) 0)
    ∗ (bigSep Finset.univ fun i : Fin 10 => reached ER (barCell (peer c i)) 0)
    ∗ (bigSep Finset.univ fun i : Fin 10 => reached ER (recvCell (peer c i) i) 0))

theorem records_elim (K : Dev nD × Fin 21 → ℕ) (c : Dev nD) : records m ρ K ⊢ invsOf m ρ K c := by
  unfold invsOf
  iintro #H
  isplitr; · iapply (inv_of m ρ K (c, ixB) _ (kcell_B c)); iexact H
  isplitr; · iapply (BI.bigSep_intro_persistent fun i _ => inv_of m ρ K (c, ixS i) _ (kcell_S c i)); iexact H
  isplitr; · iapply (BI.bigSep_intro_persistent fun i _ => inv_of m ρ K (c, ixR i) _ (kcell_R c i)); iexact H
  isplitr; · iapply (BI.bigSep_intro_persistent fun i _ => inv_of m ρ K (peer c i, ixB) _ (kcell_B (peer c i))); iexact H
  isplitr; · iapply (BI.bigSep_intro_persistent fun i _ => inv_of m ρ K (peer c i, ixR i) _ (kcell_R (peer c i) i)); iexact H
  isplitr; · iapply (BI.bigSep_intro_persistent fun i _ => reached_of m ρ K (c, ixS i) _ (kcell_S c i)); iexact H
  isplitr; · iapply (BI.bigSep_intro_persistent fun i _ => reached_of m ρ K (c, ixR i) _ (kcell_R c i)); iexact H
  isplitr; · iapply (BI.bigSep_intro_persistent fun i _ => reached_of m ρ K (peer c i, ixB) _ (kcell_B (peer c i))); iexact H
  iapply (BI.bigSep_intro_persistent fun i _ => reached_of m ρ K (peer c i, ixR i) _ (kcell_R (peer c i) i)); iexact H

/-- A whole buffer's points-to, read through its memref's view (the form the symbolic run holds buffers in). -/
theorem pts_view (c : Dev nD) (b : Ref sig .tc) (f : Buf (Elt F) ((c : Thread nD τ).loc b)) :
    ((((c : Thread nD τ).loc b) ↦{fullShare} f : sProp 𝕄))
      = ((Memref.whole b).view.loc (c : Thread nD τ) ↦[(Memref.whole b).view.set]{fullShare} f) := by
  rw [View.set_whole]

/-! ## What is left to pay -/

/-- Device c's payments in REVERSE program order: the landing of copy 9 first, …, the landing of copy 0,
    then the signal to peer 9, …, the signal to peer 0 last. -/
def payRev (c : Dev nD) : ℕ → CellTallies nD τ sig Unit
  | 0 => tallyAt (recvCell (peer c 9) 9) () N
  | 1 => tallyAt (recvCell (peer c 8) 8) () N
  | 2 => tallyAt (recvCell (peer c 7) 7) () N
  | 3 => tallyAt (recvCell (peer c 6) 6) () N
  | 4 => tallyAt (recvCell (peer c 5) 5) () N
  | 5 => tallyAt (recvCell (peer c 4) 4) () N
  | 6 => tallyAt (recvCell (peer c 3) 3) () N
  | 7 => tallyAt (recvCell (peer c 2) 2) () N
  | 8 => tallyAt (recvCell (peer c 1) 1) () N
  | 9 => tallyAt (recvCell (peer c 0) 0) () N
  | 10 => tallyAt (barCell (peer c 9)) () 1
  | 11 => tallyAt (barCell (peer c 8)) () 1
  | 12 => tallyAt (barCell (peer c 7)) () 1
  | 13 => tallyAt (barCell (peer c 6)) () 1
  | 14 => tallyAt (barCell (peer c 5)) () 1
  | 15 => tallyAt (barCell (peer c 4)) () 1
  | 16 => tallyAt (barCell (peer c 3)) () 1
  | 17 => tallyAt (barCell (peer c 2)) () 1
  | 18 => tallyAt (barCell (peer c 1)) () 1
  | 19 => tallyAt (barCell (peer c 0)) () 1
  | _ + 20 => 0

/-- What device c owes while its last n payments are still to come: n = 20 at launch, 10 after the ten signals,
    7 after the column group's copies, 0 at the end. -/
def owe (c : Dev nD) : ℕ → CellTallies nD τ sig Unit
  | 0 => 0
  | n + 1 => owe c n + payRev c n

theorem owe_10 (c : Dev nD) : owe c 10 = OR c := by
  have h : owe c 10 = 0 + tallyAt (recvCell (peer c 9) 9) () N + tallyAt (recvCell (peer c 8) 8) () N + tallyAt (recvCell (peer c 7) 7) () N
      + tallyAt (recvCell (peer c 6) 6) () N + tallyAt (recvCell (peer c 5) 5) () N + tallyAt (recvCell (peer c 4) 4) () N + tallyAt (recvCell (peer c 3) 3) () N
      + tallyAt (recvCell (peer c 2) 2) () N + tallyAt (recvCell (peer c 1) 1) () N + tallyAt (recvCell (peer c 0) 0) () N := rfl
  rw [h, OR_eq]; abel
theorem owe_20 (c : Dev nD) : O₀ c = owe c 20 := by
  have h : owe c 20 = owe c 10 + tallyAt (barCell (peer c 9)) () 1 + tallyAt (barCell (peer c 8)) () 1 + tallyAt (barCell (peer c 7)) () 1
      + tallyAt (barCell (peer c 6)) () 1 + tallyAt (barCell (peer c 5)) () 1 + tallyAt (barCell (peer c 4)) () 1 + tallyAt (barCell (peer c 3)) () 1
      + tallyAt (barCell (peer c 2)) () 1 + tallyAt (barCell (peer c 1)) () 1 + tallyAt (barCell (peer c 0)) () 1 := rfl
  rw [h, owe_10]; unfold O₀; rw [OS_eq]; abel
theorem owe_7_pos {c : Dev nD} {g : GSem nD τ sig} {u : Unit} (h : 0 < owe c 7 g u) : ∃ i : Fin 10, 3 ≤ i.val ∧ g = recvCell (peer c i) i := by
  have e : owe c 7 = 0 + tallyAt (recvCell (peer c 9) 9) () N + tallyAt (recvCell (peer c 8) 8) () N + tallyAt (recvCell (peer c 7) 7) () N
      + tallyAt (recvCell (peer c 6) 6) () N + tallyAt (recvCell (peer c 5) 5) () N + tallyAt (recvCell (peer c 4) 4) () N + tallyAt (recvCell (peer c 3) 3) () N := rfl
  rw [e] at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · rcases Pipeline.add_pos_cases h with h | h
              · exact absurd h (Nat.lt_irrefl 0)
              · exact ⟨9, by decide, tallyAt_pos h⟩
            · exact ⟨8, by decide, tallyAt_pos h⟩
          · exact ⟨7, by decide, tallyAt_pos h⟩
        · exact ⟨6, by decide, tallyAt_pos h⟩
      · exact ⟨5, by decide, tallyAt_pos h⟩
    · exact ⟨4, by decide, tallyAt_pos h⟩
  · exact ⟨3, by decide, tallyAt_pos h⟩

theorem mayWait_bar' (c : Dev nD) : (levAts L lv : sProp 𝕄) ⊢ MayWait (c : Thread nD τ) (.reg barS) () (owe c 10) := by
  rw [owe_10]; exact mayWait_bar c
/-- A wait on any DMA cell of level at most 2 while only the row group's landings are owed. -/
theorem mayWait_low (c : Dev nD) (s : DmaSem sig) (hs : lv ((c : Thread nD τ), SemLoc.dma s) () ≤ 2) :
    (levAts L lv : sProp 𝕄) ⊢ MayWait (c : Thread nD τ) (.dma s) () (owe c 7) :=
  mayWait_cut c _ _ 2 hs fun g u hg => by
    obtain ⟨j, hj, rfl⟩ := owe_7_pos hg
    refine ⟨rfl, ?_⟩
    rw [lv_recv, if_neg (by omega)]; decide

/-- Each payment in turn, peeled off what is owed. -/
theorem peelB0 (c : Dev nD) : owe c 20 = owe c 19 + tallyAt (barCell (peer c 0)) () 1 := rfl
theorem peelB1 (c : Dev nD) : owe c 19 = owe c 18 + tallyAt (barCell (peer c 1)) () 1 := rfl
theorem peelB2 (c : Dev nD) : owe c 18 = owe c 17 + tallyAt (barCell (peer c 2)) () 1 := rfl
theorem peelB3 (c : Dev nD) : owe c 17 = owe c 16 + tallyAt (barCell (peer c 3)) () 1 := rfl
theorem peelB4 (c : Dev nD) : owe c 16 = owe c 15 + tallyAt (barCell (peer c 4)) () 1 := rfl
theorem peelB5 (c : Dev nD) : owe c 15 = owe c 14 + tallyAt (barCell (peer c 5)) () 1 := rfl
theorem peelB6 (c : Dev nD) : owe c 14 = owe c 13 + tallyAt (barCell (peer c 6)) () 1 := rfl
theorem peelB7 (c : Dev nD) : owe c 13 = owe c 12 + tallyAt (barCell (peer c 7)) () 1 := rfl
theorem peelB8 (c : Dev nD) : owe c 12 = owe c 11 + tallyAt (barCell (peer c 8)) () 1 := rfl
theorem peelB9 (c : Dev nD) : owe c 11 = owe c 10 + tallyAt (barCell (peer c 9)) () 1 := rfl
theorem peelR0 (c : Dev nD) : owe c 10 = owe c 9 + tallyAt (recvCell (peer c 0) 0) () N := rfl
theorem peelR1 (c : Dev nD) : owe c 9 = owe c 8 + tallyAt (recvCell (peer c 1) 1) () N := rfl
theorem peelR2 (c : Dev nD) : owe c 8 = owe c 7 + tallyAt (recvCell (peer c 2) 2) () N := rfl
theorem peelR3 (c : Dev nD) : owe c 7 = owe c 6 + tallyAt (recvCell (peer c 3) 3) () N := rfl
theorem peelR4 (c : Dev nD) : owe c 6 = owe c 5 + tallyAt (recvCell (peer c 4) 4) () N := rfl
theorem peelR5 (c : Dev nD) : owe c 5 = owe c 4 + tallyAt (recvCell (peer c 5) 5) () N := rfl
theorem peelR6 (c : Dev nD) : owe c 4 = owe c 3 + tallyAt (recvCell (peer c 6) 6) () N := rfl
theorem peelR7 (c : Dev nD) : owe c 3 = owe c 2 + tallyAt (recvCell (peer c 7) 7) () N := rfl
theorem peelR8 (c : Dev nD) : owe c 2 = owe c 1 + tallyAt (recvCell (peer c 8) 8) () N := rfl
theorem peelR9 (c : Dev nD) : owe c 1 = 0 + tallyAt (recvCell (peer c 9) 9) () N := rfl

/-- The column group's landing buffer, whole again from its three pages at their final contents. -/
theorem join_cz (c : Dev nD) :
    iprop(((bSlot 0).view.loc (c : Thread nD τ) ↦[(bSlot 0).view.set]{fullShare} czV m ρ c)
        ∗ ((bSlot 1).view.loc (c : Thread nD τ) ↦[(bSlot 1).view.set]{fullShare} czV m ρ c)
        ∗ ((bSlot 2).view.loc (c : Thread nD τ) ↦[(bSlot 2).view.set]{fullShare} czV m ρ c))
      ⊢ (bCz.view.loc (c : Thread nD τ) ↦[bCz.view.set]{fullShare} czV m ρ c : sProp 𝕄) := by
  rw [← pts_slot_0, ← pts_slot_1, ← pts_slot_2, ← recvPay_0, ← recvPay_1, ← recvPay_2, ← pts_bCz]
  exact (cz_join m ρ c).1
/-- The row group's landing buffer, whole again from its seven pages. -/
theorem join_cp (c : Dev nD) :
    iprop(((bSlot 3).view.loc (c : Thread nD τ) ↦[(bSlot 3).view.set]{fullShare} cpV m ρ c)
        ∗ ((bSlot 4).view.loc (c : Thread nD τ) ↦[(bSlot 4).view.set]{fullShare} cpV m ρ c)
        ∗ ((bSlot 5).view.loc (c : Thread nD τ) ↦[(bSlot 5).view.set]{fullShare} cpV m ρ c)
        ∗ ((bSlot 6).view.loc (c : Thread nD τ) ↦[(bSlot 6).view.set]{fullShare} cpV m ρ c)
        ∗ ((bSlot 7).view.loc (c : Thread nD τ) ↦[(bSlot 7).view.set]{fullShare} cpV m ρ c)
        ∗ ((bSlot 8).view.loc (c : Thread nD τ) ↦[(bSlot 8).view.set]{fullShare} cpV m ρ c)
        ∗ ((bSlot 9).view.loc (c : Thread nD τ) ↦[(bSlot 9).view.set]{fullShare} cpV m ρ c))
      ⊢ (bCp.view.loc (c : Thread nD τ) ↦[bCp.view.set]{fullShare} cpV m ρ c : sProp 𝕄) := by
  rw [← pts_slot_3, ← pts_slot_4, ← pts_slot_5, ← pts_slot_6, ← pts_slot_7, ← pts_slot_8, ← pts_slot_9,
    ← recvPay_3, ← recvPay_4, ← recvPay_5, ← recvPay_6, ← recvPay_7, ← recvPay_8, ← recvPay_9, ← pts_bCp]
  exact (cp_join m ρ c).1

/-- Three read shares of the row sums for the three copies, the rest kept for the loads; and back. -/
theorem split_mine (c : Dev nD) :
    (bMine.view.loc (c : Thread nD τ) ↦[bMine.view.set]{fullShare} mineV m ρ c : sProp 𝕄)
      ⊢ iprop((bMine.view.loc (c : Thread nD τ) ↦[bMine.view.set]{shareDrop fullShare 3} mineV m ρ c)
          ∗ (bMine.view.loc (c : Thread nD τ) ↦[bMine.view.set]{shareTok fullShare 3 0} mineV m ρ c)
          ∗ (bMine.view.loc (c : Thread nD τ) ↦[bMine.view.set]{shareTok fullShare 3 1} mineV m ρ c)
          ∗ (bMine.view.loc (c : Thread nD τ) ↦[bMine.view.set]{shareTok fullShare 3 2} mineV m ρ c)) := by
  refine (Transfers.pointsTo_toks_split fullShare 3).trans (Entails.of_eq ?_)
  rw [bigSep_fin3]
theorem join_mine (c : Dev nD) :
    iprop((bMine.view.loc (c : Thread nD τ) ↦[bMine.view.set]{shareDrop fullShare 3} mineV m ρ c)
        ∗ (bMine.view.loc (c : Thread nD τ) ↦[bMine.view.set]{shareTok fullShare 3 0} mineV m ρ c)
        ∗ (bMine.view.loc (c : Thread nD τ) ↦[bMine.view.set]{shareTok fullShare 3 1} mineV m ρ c)
        ∗ (bMine.view.loc (c : Thread nD τ) ↦[bMine.view.set]{shareTok fullShare 3 2} mineV m ρ c))
      ⊢ (((c : Thread nD τ).loc cc0_scratch0) ↦{fullShare} mineV m ρ c : sProp 𝕄) := by
  rw [pts_bMine]
  refine (Entails.of_eq ?_).trans (Transfers.pointsTo_toks_join fullShare 3)
  rw [bigSep_fin3]
/-- Seven read shares of the column-group sums for the seven copies, the rest kept for the loads; and back. -/
theorem split_col (c : Dev nD) :
    (bCol.view.loc (c : Thread nD τ) ↦[bCol.view.set]{fullShare} colV m ρ c : sProp 𝕄)
      ⊢ iprop((bCol.view.loc (c : Thread nD τ) ↦[bCol.view.set]{shareDrop fullShare 7} colV m ρ c)
          ∗ (bCol.view.loc (c : Thread nD τ) ↦[bCol.view.set]{shareTok fullShare 7 0} colV m ρ c)
          ∗ (bCol.view.loc (c : Thread nD τ) ↦[bCol.view.set]{shareTok fullShare 7 1} colV m ρ c)
          ∗ (bCol.view.loc (c : Thread nD τ) ↦[bCol.view.set]{shareTok fullShare 7 2} colV m ρ c)
          ∗ (bCol.view.loc (c : Thread nD τ) ↦[bCol.view.set]{shareTok fullShare 7 3} colV m ρ c)
          ∗ (bCol.view.loc (c : Thread nD τ) ↦[bCol.view.set]{shareTok fullShare 7 4} colV m ρ c)
          ∗ (bCol.view.loc (c : Thread nD τ) ↦[bCol.view.set]{shareTok fullShare 7 5} colV m ρ c)
          ∗ (bCol.view.loc (c : Thread nD τ) ↦[bCol.view.set]{shareTok fullShare 7 6} colV m ρ c)) := by
  refine (Transfers.pointsTo_toks_split fullShare 7).trans (Entails.of_eq ?_)
  rw [bigSep_fin7]
theorem join_col (c : Dev nD) :
    iprop((bCol.view.loc (c : Thread nD τ) ↦[bCol.view.set]{shareDrop fullShare 7} colV m ρ c)
        ∗ (bCol.view.loc (c : Thread nD τ) ↦[bCol.view.set]{shareTok fullShare 7 0} colV m ρ c)
        ∗ (bCol.view.loc (c : Thread nD τ) ↦[bCol.view.set]{shareTok fullShare 7 1} colV m ρ c)
        ∗ (bCol.view.loc (c : Thread nD τ) ↦[bCol.view.set]{shareTok fullShare 7 2} colV m ρ c)
        ∗ (bCol.view.loc (c : Thread nD τ) ↦[bCol.view.set]{shareTok fullShare 7 3} colV m ρ c)
        ∗ (bCol.view.loc (c : Thread nD τ) ↦[bCol.view.set]{shareTok fullShare 7 4} colV m ρ c)
        ∗ (bCol.view.loc (c : Thread nD τ) ↦[bCol.view.set]{shareTok fullShare 7 5} colV m ρ c)
        ∗ (bCol.view.loc (c : Thread nD τ) ↦[bCol.view.set]{shareTok fullShare 7 6} colV m ρ c))
      ⊢ (((c : Thread nD τ).loc cc0_scratch1) ↦{fullShare} colV m ρ c : sProp 𝕄) := by
  rw [pts_bCol]
  refine (Entails.of_eq ?_).trans (Transfers.pointsTo_toks_join fullShare 7)
  rw [bigSep_fin7]

/-- The payloads of a round with the one duty 0, as that duty's payload. -/
theorem one_payload_recv (c : Dev nD) (i : Fin 10) :
    (bigSep ((rd (F := F) m ρ).duties (recvCell c i) 0 \ ∅) fun d => (rd (F := F) m ρ).payload (recvCell c i) 0 d)
      ⊢ (rd (F := F) m ρ).payload (recvCell c i) 0 0 := by
  rw [duties_recv, Finset.sdiff_empty, BI.bigSep_singleton]
theorem one_payload_send (c : Dev nD) (i : Fin 10) :
    (bigSep ((rd (F := F) m ρ).duties (sendCell c i) 0 \ ∅) fun d => (rd (F := F) m ρ).payload (sendCell c i) 0 d)
      ⊢ (rd (F := F) m ρ).payload (sendCell c i) 0 0 := by
  rw [duties_send, Finset.sdiff_empty, BI.bigSep_singleton]

/-! ## The body -/

attribute [local sl_rounds] duties_bar amount_bar expect_bar
  npay_own_0 npay_own_1 npay_own_2 npay_own_3 npay_own_4 npay_own_5 npay_own_6 npay_own_7 npay_own_8 npay_own_9
  xdut_send_0 xdut_send_1 xdut_send_2 xdut_send_3 xdut_send_4 xdut_send_5 xdut_send_6 xdut_send_7 xdut_send_8 xdut_send_9
  xamt_send_0 xamt_send_1 xamt_send_2 xamt_send_3 xamt_send_4 xamt_send_5 xamt_send_6 xamt_send_7 xamt_send_8 xamt_send_9
  xexp_send_0 xexp_send_1 xexp_send_2 xexp_send_3 xexp_send_4 xexp_send_5 xexp_send_6 xexp_send_7 xexp_send_8 xexp_send_9
  xdut_recv_0 xdut_recv_1 xdut_recv_2 xdut_recv_3 xdut_recv_4 xdut_recv_5 xdut_recv_6 xdut_recv_7 xdut_recv_8 xdut_recv_9
  xamt_recv_0 xamt_recv_1 xamt_recv_2 xamt_recv_3 xamt_recv_4 xamt_recv_5 xamt_recv_6 xamt_recv_7 xamt_recv_8 xamt_recv_9
  xexp_recv_0 xexp_recv_1 xexp_recv_2 xexp_recv_3 xexp_recv_4 xexp_recv_5 xexp_recv_6 xexp_recv_7 xexp_recv_8 xexp_recv_9
  xpay_recv_0 xpay_recv_1 xpay_recv_2 xpay_recv_3 xpay_recv_4 xpay_recv_5 xpay_recv_6 xpay_recv_7 xpay_recv_8 xpay_recv_9
  xpay_send_0 xpay_send_1 xpay_send_2 xpay_send_3 xpay_send_4 xpay_send_5 xpay_send_6 xpay_send_7 xpay_send_8 xpay_send_9

attribute [local sl_rounds high] npay_sig_0 npay_sig_1 npay_sig_2 npay_sig_3 npay_sig_4 npay_sig_5 npay_sig_6 npay_sig_7 npay_sig_8 npay_sig_9

attribute [local irreducible] bSlot Cert.Mesh.peer Cert.Mesh.src owe payRev

attribute [local sl_canon] dev1_eq dev2_eq dev3_eq dev4_eq dev5_eq dev6_eq dev7_eq dev8_eq dev9_eq dev10_eq
  canon_bX canon_bT canon_bWs canon_bWsh canon_bO canon_bMine canon_bCol canon_bCz canon_bCp
  canon_slot_0 canon_slot_1 canon_slot_2 canon_slot_3 canon_slot_4 canon_slot_5 canon_slot_6 canon_slot_7 canon_slot_8 canon_slot_9

set_option hygiene false in
/-- One copy by the addressed-transfer rule of the rounds discipline: device c lends the read share `hTok` of its
    source, hands over the peer's landing slot (held at contents `fd` since the barrier), pays the landing's tally off
    what it owes, and keeps a credit for the read-out. The two cells' invariants are read off the records for the
    step and dropped after it. The side facts are the schedule's tables at this index; that what lands is the receive
    cell's payload is the landing lemma. -/
local macro "copy_step " deq:ident dk:ident dlt:ident src:ident i:num q:term:max fs:term:max fd:ident
    xds:ident xdr:ident xas:ident xar:ident xps:ident lnd:ident amt:ident rest:term:max
    hTok:ident hD:ident hTS:ident hRS:ident hTR:ident hRR:ident hC:ident : tactic =>
  `(tactic| (
    ihave #HcIS := (inv_of m ρ K (c, ixS $i) _ (kcell_S c $i)) $$ HRec
    ihave #HcIR := (inv_of m ρ K (peer c $i, ixR $i) _ (kcell_R (peer c $i) $i)) $$ HRec
    rw [← $deq c]
    iapply (Rounds.wp_send_pointsTo 𝒱₀ ER (rd m ρ) (c : Thread nD τ) none
        (c' := ((⟨$dk c, $dlt c⟩ : Dev nD) : Thread nD τ)) (src := $src) (dst := bSlot $i) (q := $q)
        (fs := $fs) (fd := $fd) (r₁ := 0) (r₂ := 0) (d₁ := 0) (d₂ := 0)
        (by rw [$xds:ident]; exact Finset.mem_singleton_self _) (by rw [$xdr:ident]; exact Finset.mem_singleton_self _)
        () () N ($amt _) ($xas m ρ c) ($xar m ρ _) $rest rfl
        (Entails.of_eq ($xps m ρ c).symm) (by rw [$deq c]; exact $lnd m ρ c $fd)) $$ [$hTok:ident $hD:ident HO $hTS:ident $hTR:ident]
    · isplitr; · iexact HcIS
      isplitr; · iexact HcIR
      isplitl [$hTok:ident]; · iexact $hTok
      isplitl [$hD:ident]; · iexact $hD
      isplitl [HO]; · iexact HO
      isplitl [$hTS:ident]; · iexact $hTS
      isplitr; · iexact $hRS
      isplitl [$hTR:ident]; · iexact $hTR
      iexact $hRR
    iintro ⟨$hC:ident, HO⟩
    iclear HcIS HcIR
    rw [$deq c]))

set_option hygiene false in
/-- One wait for a DMA cell's whole round by the rounds discipline's wait rule: device c hands in the credit for
    the round's units and its position, shows (by `mw`) that the cell lies below everything it still owes, and comes
    back with the round's one payload `hP`, read through the schedule's tables. The cell's invariant is read off the
    records for the step and dropped after it. -/
local macro "wait_step " kix:term:max kc:term:max sem:term:max xexp:term:max onep:term:max xpay:term:max cred:ident O:term:max
    hC:ident hAt:ident hP:ident " by " mw:tacticSeq : tactic =>
  `(tactic| (
    ihave #HwI := (inv_of m ρ K $kix _ $kc) $$ HRec
    iapply (Rounds.wp_wait_rest_token 𝒱₀ ER (rd m ρ) (c : Thread nD τ) none (κ := K $kix) (sm := SemLoc.dma $sem)
        (wpE_waitDma2_eq 𝒱₀ (c : Thread nD τ) none Set.univ) (Set.mem_univ _) () (O := $O) (R := 0) (m := 0) (T := ∅)
        (by rw [Nat.zero_add, $xexp:term] <;> exact $cred)) $$ [$hC:ident HO $hAt:ident]
    · isplitr; · iexact HwI
      isplitl [$hC:ident]; · iexact $hC
      isplitl [HO]; · iexact HO
      isplitr; · ($mw)
      iexact $hAt
    iintro ⟨HO, $hAt:ident, -, $hP:ident⟩
    ihave $hP:ident := ($onep) $$ $hP:ident
    ihave $hP:ident := (Entails.of_eq $xpay) $$ $hP:ident
    iclear HwI))

set_option hygiene false in
/-- One of the device's own cells closed after its one round: from its invariant (read off the records) and the
    position at round 1, the counter back at zero. -/
local macro "close_step " kix:term:max kc:term:max cell:term:max hAt:ident hZ:ident : tactic =>
  `(tactic| (
    ihave #HxI := (inv_of m ρ K $kix _ $kc) $$ HRec
    imod (Rounds.cell_close ER (rd m ρ) (Set.mem_univ (K $kix)) (fun h => h) (R := 0 + 1) (duties_later m ρ $cell)) $$ [$hAt:ident] with $hZ:ident
    · isplitr; · iexact HxI
      iexact $hAt
    iclear HxI))

set_option maxHeartbeats 4000000 in
set_option maxRecDepth 16384 in
theorem sound_body : BodySound (F := F) m ρ := by
  intro c Kt
  unfold bodyPre Φ₀ start ghost creds scr positions payToks
  iintro ⟨⟨⟨⟨⟨⟨%K, #HRec⟩, HatPos, HtTok⟩, HcCred, #Hlev⟩, Hscr⟩, Ho, ⟨%d0, %g0, %hg0, Hx⟩, ⟨%d1, %g1, %hg1, Ht⟩, ⟨%d2, %g2, %hg2, Hws⟩, ⟨%d3, %g3, %hg3, Hwsh⟩, ⟨%d4, %g4, %hg4, Hout⟩⟩, Hk⟩
  ihave #HI := (records_elim m ρ K c) $$ HRec
  unfold invsOf
  simp only [bigSep_fin10, inv_0, inv_1, inv_2, inv_3, inv_4, inv_5, inv_6, inv_7, inv_8, inv_9]
  -- of the invariants only the barrier cells' stay in the context; the send and receive cells' are read off the records at each step
  icases HI with ⟨#HIB, -, -,
    ⟨#HIPB0, #HIPB1, #HIPB2, #HIPB3, #HIPB4, #HIPB5, #HIPB6, #HIPB7, #HIPB8, #HIPB9⟩, -,
    ⟨#HrS0, #HrS1, #HrS2, #HrS3, #HrS4, #HrS5, #HrS6, #HrS7, #HrS8, #HrS9⟩, ⟨#HrR0, #HrR1, #HrR2, #HrR3, #HrR4, #HrR5, #HrR6, #HrR7, #HrR8, #HrR9⟩,
    ⟨#HrPB0, #HrPB1, #HrPB2, #HrPB3, #HrPB4, #HrPB5, #HrPB6, #HrPB7, #HrPB8, #HrPB9⟩, ⟨#HrPR0, #HrPR1, #HrPR2, #HrPR3, #HrPR4, #HrPR5, #HrPR6, #HrPR7, #HrPR8, #HrPR9⟩⟩
  icases HatPos with ⟨HatB, ⟨HatS0, HatS1, HatS2, HatS3, HatS4, HatS5, HatS6, HatS7, HatS8, HatS9⟩, ⟨HatR0, HatR1, HatR2, HatR3, HatR4, HatR5, HatR6, HatR7, HatR8, HatR9⟩⟩
  icases HtTok with ⟨⟨HtB0, HtB1, HtB2, HtB3, HtB4, HtB5, HtB6, HtB7, HtB8, HtB9⟩, ⟨HtS0, HtS1, HtS2, HtS3, HtS4, HtS5, HtS6, HtS7, HtS8, HtS9⟩, ⟨HtR0, HtR1, HtR2, HtR3, HtR4, HtR5, HtR6, HtR7, HtR8, HtR9⟩⟩
  icases HcCred with ⟨HcB, ⟨HcR0, HcR1, HcR2, HcR3, HcR4, HcR5, HcR6, HcR7, HcR8, HcR9⟩⟩
  icases Hscr with ⟨⟨%f0, Hmine⟩, ⟨%f1, Hcol⟩, ⟨%f2, Hcz⟩, ⟨%f3, Hcp⟩⟩
  -- what the device owes, behind its name with the ten signals' tallies spelt out; the staged blocks by name
  unfold Dat.owesAt Pipeline.owesWithin
  icases Ho with ⟨%W, %hW, HO⟩
  rw [show (dats m ρ 0 c).owed t₀.castSucc = O₀ c from rfl, owe_20, peelB0, peelB1, peelB2, peelB3, peelB4, peelB5, peelB6, peelB7, peelB8, peelB9]
  have hx : g0 = xb m ρ c := by rw [hg0]; unfold Dat.before; rw [if_pos (fetch0_0 t₀)]; rfl
  have ht : g1 = tb m ρ c := by rw [hg1]; unfold Dat.before; rw [if_pos (fetch0_1 t₀)]; rfl
  have hws : g2 = wsb m ρ c := by rw [hg2]; unfold Dat.before; rw [if_pos (fetch0_2 t₀)]; rfl
  have hwsh : g3 = wshb m ρ c := by rw [hg3]; unfold Dat.before; rw [if_pos (fetch0_3 t₀)]; rfl
  subst hx ht hws hwsh
  -- the two landing buffers page by page: each page goes to the peer whose copy lands there
  ihave Hz := ((cz_pages (F := F) c f2).1) $$ Hcz
  icases Hz with ⟨Hsl0, Hsl1, Hsl2⟩
  ihave Hp := ((cp_pages (F := F) c f3).1) $$ Hcp
  icases Hp with ⟨Hsl3, Hsl4, Hsl5, Hsl6, Hsl7, Hsl8, Hsl9⟩
  -- every buffer held through its name
  ihave Hx := (Entails.of_eq (pts_bX c _)) $$ Hx
  ihave Ht := (Entails.of_eq (pts_bT c _)) $$ Ht
  ihave Hws := (Entails.of_eq (pts_bWs c _)) $$ Hws
  ihave Hwsh := (Entails.of_eq (pts_bWsh c _)) $$ Hwsh
  ihave Hout := (Entails.of_eq (pts_bO c _)) $$ Hout
  ihave Hmine := (Entails.of_eq (pts_bMine c _)) $$ Hmine
  ihave Hcol := (Entails.of_eq (pts_bCol c _)) $$ Hcol
  ihave Hsl0 := (Entails.of_eq (pts_slot_0 c fullShare f2)) $$ Hsl0
  ihave Hsl1 := (Entails.of_eq (pts_slot_1 c fullShare f2)) $$ Hsl1
  ihave Hsl2 := (Entails.of_eq (pts_slot_2 c fullShare f2)) $$ Hsl2
  ihave Hsl3 := (Entails.of_eq (pts_slot_3 c fullShare f3)) $$ Hsl3
  ihave Hsl4 := (Entails.of_eq (pts_slot_4 c fullShare f3)) $$ Hsl4
  ihave Hsl5 := (Entails.of_eq (pts_slot_5 c fullShare f3)) $$ Hsl5
  ihave Hsl6 := (Entails.of_eq (pts_slot_6 c fullShare f3)) $$ Hsl6
  ihave Hsl7 := (Entails.of_eq (pts_slot_7 c fullShare f3)) $$ Hsl7
  ihave Hsl8 := (Entails.of_eq (pts_slot_8 c fullShare f3)) $$ Hsl8
  ihave Hsl9 := (Entails.of_eq (pts_slot_9 c fullShare f3)) $$ Hsl9
  have hmwB := mayWait_bar' (F := F) c
  unfold bodyProg
  simp only [cc0_body_eq_skeleton]; unfold cc0_body_skel
  -- the ten signals, the row sums, the barrier wait
  sl_exec_parts
  -- the barrier's ten payloads: each peer's landing slot (over some contents), and that its receive cell is open
  ihave Hpay := (Entails.of_eq (bigSep_fin10 _)) $$ HatB_pay1
  simp only [npay_own_0, npay_own_1, npay_own_2, npay_own_3, npay_own_4, npay_own_5, npay_own_6, npay_own_7, npay_own_8, npay_own_9]
  icases Hpay with ⟨⟨⟨%e0, Hd0⟩, -⟩, ⟨⟨%e1, Hd1⟩, -⟩, ⟨⟨%e2, Hd2⟩, -⟩, ⟨⟨%e3, Hd3⟩, -⟩, ⟨⟨%e4, Hd4⟩, -⟩, ⟨⟨%e5, Hd5⟩, -⟩, ⟨⟨%e6, Hd6⟩, -⟩, ⟨⟨%e7, Hd7⟩, -⟩, ⟨⟨%e8, Hd8⟩, -⟩, ⟨⟨%e9, Hd9⟩, -⟩⟩
  -- the column group's three landings are what is paid next
  rw [peelR0, peelR1, peelR2]
  -- the row sums, by value; three read shares of them for the three copies, the rest kept for the loads
  have hmineC := mine_writes m ρ c f0
  delta sound_body.sl.Hmine_2
  beta_reduce
  rw [hmineC]
  ihave Hm := (split_mine m ρ c) $$ Hmine
  icases Hm with ⟨Hmine, Hmt0, Hmt1, Hmt2⟩
  -- the column group: three copies, three landings
  copy_step dev11_eq k0_dev11 k0_dev11_lt bMine 0 (shareTok fullShare 3 0) (mineV m ρ c) e0 xdut_send_0 xdut_recv_0 xamt_send_0 xamt_recv_0 xpay_send_0 landed_0 slot_amount_0 (owe c 7 + tallyAt (recvCell (peer c 2) 2) () N + tallyAt (recvCell (peer c 1) 1) () N) Hmt0 Hd0 HtS0 HrS0 HtR0 HrPR0 HcS0
  try sl_exec_parts
  copy_step dev12_eq k0_dev12 k0_dev12_lt bMine 1 (shareTok fullShare 3 1) (mineV m ρ c) e1 xdut_send_1 xdut_recv_1 xamt_send_1 xamt_recv_1 xpay_send_1 landed_1 slot_amount_1 (owe c 7 + tallyAt (recvCell (peer c 2) 2) () N) Hmt1 Hd1 HtS1 HrS1 HtR1 HrPR1 HcS1
  try sl_exec_parts
  copy_step dev13_eq k0_dev13 k0_dev13_lt bMine 2 (shareTok fullShare 3 2) (mineV m ρ c) e2 xdut_send_2 xdut_recv_2 xamt_send_2 xamt_recv_2 xpay_send_2 landed_2 slot_amount_2 (owe c 7) Hmt2 Hd2 HtS2 HrS2 HtR2 HrPR2 HcS2
  try sl_exec_parts
  wait_step (c, ixR 0) (kcell_R c 0) (recvS 0).sem (expect_recv m ρ c 0) (one_payload_recv m ρ c 0) (npay_recv_0 m ρ c 0) slot_credit_0 (owe c 7) HcR0 HatR0 Hq0 by iapply (mayWait_low (F := F) c _ (by rw [lv_recv]; decide)); iexact Hlev
  try sl_exec_parts
  wait_step (c, ixR 1) (kcell_R c 1) (recvS 1).sem (expect_recv m ρ c 1) (one_payload_recv m ρ c 1) (npay_recv_1 m ρ c 0) slot_credit_1 (owe c 7) HcR1 HatR1 Hq1 by iapply (mayWait_low (F := F) c _ (by rw [lv_recv]; decide)); iexact Hlev
  try sl_exec_parts
  wait_step (c, ixR 2) (kcell_R c 2) (recvS 2).sem (expect_recv m ρ c 2) (one_payload_recv m ρ c 2) (npay_recv_2 m ρ c 0) slot_credit_2 (owe c 7) HcR2 HatR2 Hq2 by iapply (mayWait_low (F := F) c _ (by rw [lv_recv]; decide)); iexact Hlev
  -- the three pages have landed: the landing buffer is whole again, at its final contents
  ihave Hcz := (join_cz m ρ c) $$ [Hq0 Hq1 Hq2]
  · isplitl [Hq0]; · iexact Hq0
    isplitl [Hq1]; · iexact Hq1
    iexact Hq2
  -- the column-group sums
  sl_exec_parts
  -- the row group's seven landings are what is paid next; after them nothing is owed
  rw [peelR3, peelR4, peelR5, peelR6, peelR7, peelR8, peelR9]
  -- the column-group sums, by value; seven read shares of them for the seven copies, the rest kept for the loads
  have hcolC := col_writes m ρ c f1
  delta sound_body.sl.Hcol_1
  beta_reduce
  rw [hcolC]
  ihave Hc := (split_col m ρ c) $$ Hcol
  icases Hc with ⟨Hcol, Hct0, Hct1, Hct2, Hct3, Hct4, Hct5, Hct6⟩
  -- the row group: seven copies, seven landings
  copy_step dev14_eq k0_dev14 k0_dev14_lt bCol 3 (shareTok fullShare 7 0) (colV m ρ c) e3 xdut_send_3 xdut_recv_3 xamt_send_3 xamt_recv_3 xpay_send_3 landed_3 slot_amount_3 (0 + tallyAt (recvCell (peer c 9) 9) () N + tallyAt (recvCell (peer c 8) 8) () N + tallyAt (recvCell (peer c 7) 7) () N + tallyAt (recvCell (peer c 6) 6) () N + tallyAt (recvCell (peer c 5) 5) () N + tallyAt (recvCell (peer c 4) 4) () N) Hct0 Hd3 HtS3 HrS3 HtR3 HrPR3 HcS3
  try sl_exec_parts
  copy_step dev15_eq k0_dev15 k0_dev15_lt bCol 4 (shareTok fullShare 7 1) (colV m ρ c) e4 xdut_send_4 xdut_recv_4 xamt_send_4 xamt_recv_4 xpay_send_4 landed_4 slot_amount_4 (0 + tallyAt (recvCell (peer c 9) 9) () N + tallyAt (recvCell (peer c 8) 8) () N + tallyAt (recvCell (peer c 7) 7) () N + tallyAt (recvCell (peer c 6) 6) () N + tallyAt (recvCell (peer c 5) 5) () N) Hct1 Hd4 HtS4 HrS4 HtR4 HrPR4 HcS4
  try sl_exec_parts
  copy_step dev16_eq k0_dev16 k0_dev16_lt bCol 5 (shareTok fullShare 7 2) (colV m ρ c) e5 xdut_send_5 xdut_recv_5 xamt_send_5 xamt_recv_5 xpay_send_5 landed_5 slot_amount_5 (0 + tallyAt (recvCell (peer c 9) 9) () N + tallyAt (recvCell (peer c 8) 8) () N + tallyAt (recvCell (peer c 7) 7) () N + tallyAt (recvCell (peer c 6) 6) () N) Hct2 Hd5 HtS5 HrS5 HtR5 HrPR5 HcS5
  try sl_exec_parts
  copy_step dev17_eq k0_dev17 k0_dev17_lt bCol 6 (shareTok fullShare 7 3) (colV m ρ c) e6 xdut_send_6 xdut_recv_6 xamt_send_6 xamt_recv_6 xpay_send_6 landed_6 slot_amount_6 (0 + tallyAt (recvCell (peer c 9) 9) () N + tallyAt (recvCell (peer c 8) 8) () N + tallyAt (recvCell (peer c 7) 7) () N) Hct3 Hd6 HtS6 HrS6 HtR6 HrPR6 HcS6
  try sl_exec_parts
  copy_step dev18_eq k0_dev18 k0_dev18_lt bCol 7 (shareTok fullShare 7 4) (colV m ρ c) e7 xdut_send_7 xdut_recv_7 xamt_send_7 xamt_recv_7 xpay_send_7 landed_7 slot_amount_7 (0 + tallyAt (recvCell (peer c 9) 9) () N + tallyAt (recvCell (peer c 8) 8) () N) Hct4 Hd7 HtS7 HrS7 HtR7 HrPR7 HcS7
  try sl_exec_parts
  copy_step dev19_eq k0_dev19 k0_dev19_lt bCol 8 (shareTok fullShare 7 5) (colV m ρ c) e8 xdut_send_8 xdut_recv_8 xamt_send_8 xamt_recv_8 xpay_send_8 landed_8 slot_amount_8 (0 + tallyAt (recvCell (peer c 9) 9) () N) Hct5 Hd8 HtS8 HrS8 HtR8 HrPR8 HcS8
  try sl_exec_parts
  copy_step dev20_eq k0_dev20 k0_dev20_lt bCol 9 (shareTok fullShare 7 6) (colV m ρ c) e9 xdut_send_9 xdut_recv_9 xamt_send_9 xamt_recv_9 xpay_send_9 landed_9 slot_amount_9 0 Hct6 Hd9 HtS9 HrS9 HtR9 HrPR9 HcS9
  try sl_exec_parts
  wait_step (c, ixR 3) (kcell_R c 3) (recvS 3).sem (expect_recv m ρ c 3) (one_payload_recv m ρ c 3) (npay_recv_3 m ρ c 0) slot_credit_3 0 HcR3 HatR3 Hq3 by rw [MayWait_zero]; iempintro
  try sl_exec_parts
  wait_step (c, ixR 4) (kcell_R c 4) (recvS 4).sem (expect_recv m ρ c 4) (one_payload_recv m ρ c 4) (npay_recv_4 m ρ c 0) slot_credit_4 0 HcR4 HatR4 Hq4 by rw [MayWait_zero]; iempintro
  try sl_exec_parts
  wait_step (c, ixR 5) (kcell_R c 5) (recvS 5).sem (expect_recv m ρ c 5) (one_payload_recv m ρ c 5) (npay_recv_5 m ρ c 0) slot_credit_5 0 HcR5 HatR5 Hq5 by rw [MayWait_zero]; iempintro
  try sl_exec_parts
  wait_step (c, ixR 6) (kcell_R c 6) (recvS 6).sem (expect_recv m ρ c 6) (one_payload_recv m ρ c 6) (npay_recv_6 m ρ c 0) slot_credit_6 0 HcR6 HatR6 Hq6 by rw [MayWait_zero]; iempintro
  try sl_exec_parts
  wait_step (c, ixR 7) (kcell_R c 7) (recvS 7).sem (expect_recv m ρ c 7) (one_payload_recv m ρ c 7) (npay_recv_7 m ρ c 0) slot_credit_7 0 HcR7 HatR7 Hq7 by rw [MayWait_zero]; iempintro
  try sl_exec_parts
  wait_step (c, ixR 8) (kcell_R c 8) (recvS 8).sem (expect_recv m ρ c 8) (one_payload_recv m ρ c 8) (npay_recv_8 m ρ c 0) slot_credit_8 0 HcR8 HatR8 Hq8 by rw [MayWait_zero]; iempintro
  try sl_exec_parts
  wait_step (c, ixR 9) (kcell_R c 9) (recvS 9).sem (expect_recv m ρ c 9) (one_payload_recv m ρ c 9) (npay_recv_9 m ρ c 0) slot_credit_9 0 HcR9 HatR9 Hq9 by rw [MayWait_zero]; iempintro
  -- the seven pages have landed: the landing buffer is whole again, at its final contents
  ihave Hcp := (join_cp m ρ c) $$ [Hq3 Hq4 Hq5 Hq6 Hq7 Hq8 Hq9]
  · isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    iexact Hq9
  -- the totals, the normalised and modulated block, stored to the result's staging buffer
  sl_exec_parts
  -- the result block, by value
  have houtC : bO.view.writes (Elt F) g4
      [⟨Rect.unit (s := S4x256x128) ![0, 0, 0] S4x256x128.size inb_S4x256x128_S4x256x128_0_0_0,
        k0_pay11 (sound_body.sl.r m ρ c) (sound_body.sl.r_1 m ρ c) (sound_body.sl.r_2 m ρ c) (sound_body.sl.r_4 m ρ c)
          (sound_body.sl.r_5 m ρ c) sound_body.sl.cst_364⟩] = outV m ρ c := out_writes m ρ c g4
  rw [houtC]
  -- the ten read-outs: each hands back the read share it was lent
  wait_step (c, ixS 0) (kcell_S c 0) (sendS 0).sem (expect_send m ρ c 0) (one_payload_send m ρ c 0) (npay_send_0 m ρ c 0) mine_credit 0 HcS0 HatS0 Hs0 by rw [MayWait_zero]; iempintro
  try sl_exec_parts
  wait_step (c, ixS 1) (kcell_S c 1) (sendS 1).sem (expect_send m ρ c 1) (one_payload_send m ρ c 1) (npay_send_1 m ρ c 0) mine_credit 0 HcS1 HatS1 Hs1 by rw [MayWait_zero]; iempintro
  try sl_exec_parts
  wait_step (c, ixS 2) (kcell_S c 2) (sendS 2).sem (expect_send m ρ c 2) (one_payload_send m ρ c 2) (npay_send_2 m ρ c 0) mine_credit 0 HcS2 HatS2 Hs2 by rw [MayWait_zero]; iempintro
  try sl_exec_parts
  wait_step (c, ixS 3) (kcell_S c 3) (sendS 3).sem (expect_send m ρ c 3) (one_payload_send m ρ c 3) (npay_send_3 m ρ c 0) col_credit 0 HcS3 HatS3 Hs3 by rw [MayWait_zero]; iempintro
  try sl_exec_parts
  wait_step (c, ixS 4) (kcell_S c 4) (sendS 4).sem (expect_send m ρ c 4) (one_payload_send m ρ c 4) (npay_send_4 m ρ c 0) col_credit 0 HcS4 HatS4 Hs4 by rw [MayWait_zero]; iempintro
  try sl_exec_parts
  wait_step (c, ixS 5) (kcell_S c 5) (sendS 5).sem (expect_send m ρ c 5) (one_payload_send m ρ c 5) (npay_send_5 m ρ c 0) col_credit 0 HcS5 HatS5 Hs5 by rw [MayWait_zero]; iempintro
  try sl_exec_parts
  wait_step (c, ixS 6) (kcell_S c 6) (sendS 6).sem (expect_send m ρ c 6) (one_payload_send m ρ c 6) (npay_send_6 m ρ c 0) col_credit 0 HcS6 HatS6 Hs6 by rw [MayWait_zero]; iempintro
  try sl_exec_parts
  wait_step (c, ixS 7) (kcell_S c 7) (sendS 7).sem (expect_send m ρ c 7) (one_payload_send m ρ c 7) (npay_send_7 m ρ c 0) col_credit 0 HcS7 HatS7 Hs7 by rw [MayWait_zero]; iempintro
  try sl_exec_parts
  wait_step (c, ixS 8) (kcell_S c 8) (sendS 8).sem (expect_send m ρ c 8) (one_payload_send m ρ c 8) (npay_send_8 m ρ c 0) col_credit 0 HcS8 HatS8 Hs8 by rw [MayWait_zero]; iempintro
  try sl_exec_parts
  wait_step (c, ixS 9) (kcell_S c 9) (sendS 9).sem (expect_send m ρ c 9) (one_payload_send m ρ c 9) (npay_send_9 m ρ c 0) col_credit 0 HcS9 HatS9 Hs9 by rw [MayWait_zero]; iempintro
  try sl_exec_parts
  -- the twenty own cells are closed: their counters are back at zero
  close_step (c, ixS 0) (kcell_S c 0) (sendCell c 0) HatS0 Hz0
  close_step (c, ixS 1) (kcell_S c 1) (sendCell c 1) HatS1 Hz1
  close_step (c, ixS 2) (kcell_S c 2) (sendCell c 2) HatS2 Hz2
  close_step (c, ixS 3) (kcell_S c 3) (sendCell c 3) HatS3 Hz3
  close_step (c, ixS 4) (kcell_S c 4) (sendCell c 4) HatS4 Hz4
  close_step (c, ixS 5) (kcell_S c 5) (sendCell c 5) HatS5 Hz5
  close_step (c, ixS 6) (kcell_S c 6) (sendCell c 6) HatS6 Hz6
  close_step (c, ixS 7) (kcell_S c 7) (sendCell c 7) HatS7 Hz7
  close_step (c, ixS 8) (kcell_S c 8) (sendCell c 8) HatS8 Hz8
  close_step (c, ixS 9) (kcell_S c 9) (sendCell c 9) HatS9 Hz9
  close_step (c, ixR 0) (kcell_R c 0) (recvCell c 0) HatR0 Hz10
  close_step (c, ixR 1) (kcell_R c 1) (recvCell c 1) HatR1 Hz11
  close_step (c, ixR 2) (kcell_R c 2) (recvCell c 2) HatR2 Hz12
  close_step (c, ixR 3) (kcell_R c 3) (recvCell c 3) HatR3 Hz13
  close_step (c, ixR 4) (kcell_R c 4) (recvCell c 4) HatR4 Hz14
  close_step (c, ixR 5) (kcell_R c 5) (recvCell c 5) HatR5 Hz15
  close_step (c, ixR 6) (kcell_R c 6) (recvCell c 6) HatR6 Hz16
  close_step (c, ixR 7) (kcell_R c 7) (recvCell c 7) HatR7 Hz17
  close_step (c, ixR 8) (kcell_R c 8) (recvCell c 8) HatR8 Hz18
  close_step (c, ixR 9) (kcell_R c 9) (recvCell c 9) HatR9 Hz19
  -- the read shares rejoin; every buffer back in its plain form
  ihave Hmine := (join_mine m ρ c) $$ [Hmine Hs0 Hs1 Hs2]
  · isplitl [Hmine]; · iexact Hmine
    isplitl [Hs0]; · iexact Hs0
    isplitl [Hs1]; · iexact Hs1
    iexact Hs2
  ihave Hcol := (join_col m ρ c) $$ [Hcol Hs3 Hs4 Hs5 Hs6 Hs7 Hs8 Hs9]
  · isplitl [Hcol]; · iexact Hcol
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hs9
  ihave Hcz := (Entails.of_eq (pts_bCz c _).symm) $$ Hcz
  ihave Hcp := (Entails.of_eq (pts_bCp c _).symm) $$ Hcp
  ihave Hx := (Entails.of_eq (pts_bX c _).symm) $$ Hx
  ihave Ht := (Entails.of_eq (pts_bT c _).symm) $$ Ht
  ihave Hws := (Entails.of_eq (pts_bWs c _).symm) $$ Hws
  ihave Hwsh := (Entails.of_eq (pts_bWsh c _).symm) $$ Hwsh
  ihave Hout := (Entails.of_eq (pts_bO c _).symm) $$ Hout
  -- the return, and the post reassembled
  first | sl_step | (simp only [Prog.bind]; sl_step) | (sl_exec; sl_step)
  iapply Hk
  unfold bodyPost Φ₁ scr
  rw [bigSep_fin20]
  isplitl [Hmine Hcol Hcz Hcp Hz0 Hz1 Hz2 Hz3 Hz4 Hz5 Hz6 Hz7 Hz8 Hz9 Hz10 Hz11 Hz12 Hz13 Hz14 Hz15 Hz16 Hz17 Hz18 Hz19]
  · isplitl [Hmine Hcol Hcz Hcp]
    · isplitl [Hmine]; · iexists _; iexact Hmine
      isplitl [Hcol]; · iexists _; iexact Hcol
      isplitl [Hcz]; · iexists _; iexact Hcz
      iexists _; iexact Hcp
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      iexact Hz19
  isplitl [HO]
  · unfold Dat.owesAt Pipeline.owesWithin
    iexists _
    isplitr
    rotate_left
    · iexact HO
    · ipureintro; exact fun _ _ => Or.inl trivial
  isplitl [Hx]
  · iexists _
    isplitr; · ipureintro; rfl
    iexact Hx
  isplitl [Ht]
  · iexists _
    isplitr; · ipureintro; rfl
    iexact Ht
  isplitl [Hws]
  · iexists _
    isplitr; · ipureintro; rfl
    iexact Hws
  isplitl [Hwsh]
  · iexists _
    isplitr; · ipureintro; rfl
    iexact Hwsh
  iexists _
  isplitr; · ipureintro; rfl
  iexact Hout

end Body
end Cert.KernelProof

end
-- ==== Proof.KernelIdealRdTables.lean ====
import proofs.«900767_g7700000000000768_dist_diff_adaln_cshard_i_b4_s256_c128_v7x_i32_bf16_1_alg».proof.Proof.KernelIdealSched

noncomputable section

namespace Cert.KernelIdealProof

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]
local notation "𝕄" => MT nD τ sig Unit (Elt F) ℕ UU ℕ
variable (m : (ℓ : Loc nD τ sig) → Buf (Elt F) ℓ) (ρ : Dev nD → PrngReg)

theorem barPay_0 (X : Dev nD) : (barPay (F := F) X 0 : sProp 𝕄) = iprop((∃ f : (cc0_scratch2 : Ref sig .tc).ty.Contents (Elt F), ((slotM 0).view.loc (peer X 0 : Thread nD τ) ↦[(slotM 0).view.set]{fullShare} f)) ∗ reached ER (recvCell (peer X 0) 0) 0) := rfl
theorem barPay_1 (X : Dev nD) : (barPay (F := F) X 1 : sProp 𝕄) = iprop((∃ f : (cc0_scratch2 : Ref sig .tc).ty.Contents (Elt F), ((slotM 1).view.loc (peer X 1 : Thread nD τ) ↦[(slotM 1).view.set]{fullShare} f)) ∗ reached ER (recvCell (peer X 1) 1) 0) := rfl
theorem barPay_2 (X : Dev nD) : (barPay (F := F) X 2 : sProp 𝕄) = iprop((∃ f : (cc0_scratch2 : Ref sig .tc).ty.Contents (Elt F), ((slotM 2).view.loc (peer X 2 : Thread nD τ) ↦[(slotM 2).view.set]{fullShare} f)) ∗ reached ER (recvCell (peer X 2) 2) 0) := rfl
theorem barPay_3 (X : Dev nD) : (barPay (F := F) X 3 : sProp 𝕄) = iprop((∃ f : (cc0_scratch3 : Ref sig .tc).ty.Contents (Elt F), ((slotM 3).view.loc (peer X 3 : Thread nD τ) ↦[(slotM 3).view.set]{fullShare} f)) ∗ reached ER (recvCell (peer X 3) 3) 0) := rfl
theorem barPay_4 (X : Dev nD) : (barPay (F := F) X 4 : sProp 𝕄) = iprop((∃ f : (cc0_scratch3 : Ref sig .tc).ty.Contents (Elt F), ((slotM 4).view.loc (peer X 4 : Thread nD τ) ↦[(slotM 4).view.set]{fullShare} f)) ∗ reached ER (recvCell (peer X 4) 4) 0) := rfl
theorem barPay_5 (X : Dev nD) : (barPay (F := F) X 5 : sProp 𝕄) = iprop((∃ f : (cc0_scratch3 : Ref sig .tc).ty.Contents (Elt F), ((slotM 5).view.loc (peer X 5 : Thread nD τ) ↦[(slotM 5).view.set]{fullShare} f)) ∗ reached ER (recvCell (peer X 5) 5) 0) := rfl
theorem barPay_6 (X : Dev nD) : (barPay (F := F) X 6 : sProp 𝕄) = iprop((∃ f : (cc0_scratch3 : Ref sig .tc).ty.Contents (Elt F), ((slotM 6).view.loc (peer X 6 : Thread nD τ) ↦[(slotM 6).view.set]{fullShare} f)) ∗ reached ER (recvCell (peer X 6) 6) 0) := rfl
theorem barPay_7 (X : Dev nD) : (barPay (F := F) X 7 : sProp 𝕄) = iprop((∃ f : (cc0_scratch3 : Ref sig .tc).ty.Contents (Elt F), ((slotM 7).view.loc (peer X 7 : Thread nD τ) ↦[(slotM 7).view.set]{fullShare} f)) ∗ reached ER (recvCell (peer X 7) 7) 0) := rfl
theorem barPay_8 (X : Dev nD) : (barPay (F := F) X 8 : sProp 𝕄) = iprop((∃ f : (cc0_scratch3 : Ref sig .tc).ty.Contents (Elt F), ((slotM 8).view.loc (peer X 8 : Thread nD τ) ↦[(slotM 8).view.set]{fullShare} f)) ∗ reached ER (recvCell (peer X 8) 8) 0) := rfl
theorem barPay_9 (X : Dev nD) : (barPay (F := F) X 9 : sProp 𝕄) = iprop((∃ f : (cc0_scratch3 : Ref sig .tc).ty.Contents (Elt F), ((slotM 9).view.loc (peer X 9 : Thread nD τ) ↦[(slotM 9).view.set]{fullShare} f)) ∗ reached ER (recvCell (peer X 9) 9) 0) := rfl
theorem recvPay_0 (X : Dev nD) : recvPay m ρ X 0 = ((slotM 0).view.loc (X : Thread nD τ) ↦[(slotM 0).view.set]{fullShare} czV m ρ X : sProp 𝕄) := rfl
theorem recvPay_1 (X : Dev nD) : recvPay m ρ X 1 = ((slotM 1).view.loc (X : Thread nD τ) ↦[(slotM 1).view.set]{fullShare} czV m ρ X : sProp 𝕄) := rfl
theorem recvPay_2 (X : Dev nD) : recvPay m ρ X 2 = ((slotM 2).view.loc (X : Thread nD τ) ↦[(slotM 2).view.set]{fullShare} czV m ρ X : sProp 𝕄) := rfl
theorem recvPay_3 (X : Dev nD) : recvPay m ρ X 3 = ((slotM 3).view.loc (X : Thread nD τ) ↦[(slotM 3).view.set]{fullShare} cpV m ρ X : sProp 𝕄) := rfl
theorem recvPay_4 (X : Dev nD) : recvPay m ρ X 4 = ((slotM 4).view.loc (X : Thread nD τ) ↦[(slotM 4).view.set]{fullShare} cpV m ρ X : sProp 𝕄) := rfl
theorem recvPay_5 (X : Dev nD) : recvPay m ρ X 5 = ((slotM 5).view.loc (X : Thread nD τ) ↦[(slotM 5).view.set]{fullShare} cpV m ρ X : sProp 𝕄) := rfl
theorem recvPay_6 (X : Dev nD) : recvPay m ρ X 6 = ((slotM 6).view.loc (X : Thread nD τ) ↦[(slotM 6).view.set]{fullShare} cpV m ρ X : sProp 𝕄) := rfl
theorem recvPay_7 (X : Dev nD) : recvPay m ρ X 7 = ((slotM 7).view.loc (X : Thread nD τ) ↦[(slotM 7).view.set]{fullShare} cpV m ρ X : sProp 𝕄) := rfl
theorem recvPay_8 (X : Dev nD) : recvPay m ρ X 8 = ((slotM 8).view.loc (X : Thread nD τ) ↦[(slotM 8).view.set]{fullShare} cpV m ρ X : sProp 𝕄) := rfl
theorem recvPay_9 (X : Dev nD) : recvPay m ρ X 9 = ((slotM 9).view.loc (X : Thread nD τ) ↦[(slotM 9).view.set]{fullShare} cpV m ρ X : sProp 𝕄) := rfl
theorem sendPay_0 (X : Dev nD) : sendPay m ρ X 0 = ((mineM : Memref sig .tc .vmem S8x256 .f32).view.loc (X : Thread nD τ) ↦[(mineM : Memref sig .tc .vmem S8x256 .f32).view.set]{shareTok fullShare 3 0} mineV m ρ X : sProp 𝕄) := rfl
theorem sendPay_1 (X : Dev nD) : sendPay m ρ X 1 = ((mineM : Memref sig .tc .vmem S8x256 .f32).view.loc (X : Thread nD τ) ↦[(mineM : Memref sig .tc .vmem S8x256 .f32).view.set]{shareTok fullShare 3 1} mineV m ρ X : sProp 𝕄) := rfl
theorem sendPay_2 (X : Dev nD) : sendPay m ρ X 2 = ((mineM : Memref sig .tc .vmem S8x256 .f32).view.loc (X : Thread nD τ) ↦[(mineM : Memref sig .tc .vmem S8x256 .f32).view.set]{shareTok fullShare 3 2} mineV m ρ X : sProp 𝕄) := rfl
theorem sendPay_3 (X : Dev nD) : sendPay m ρ X 3 = ((colM : Memref sig .tc .vmem S8x256 .f32).view.loc (X : Thread nD τ) ↦[(colM : Memref sig .tc .vmem S8x256 .f32).view.set]{shareTok fullShare 7 0} colV m ρ X : sProp 𝕄) := rfl
theorem sendPay_4 (X : Dev nD) : sendPay m ρ X 4 = ((colM : Memref sig .tc .vmem S8x256 .f32).view.loc (X : Thread nD τ) ↦[(colM : Memref sig .tc .vmem S8x256 .f32).view.set]{shareTok fullShare 7 1} colV m ρ X : sProp 𝕄) := rfl
theorem sendPay_5 (X : Dev nD) : sendPay m ρ X 5 = ((colM : Memref sig .tc .vmem S8x256 .f32).view.loc (X : Thread nD τ) ↦[(colM : Memref sig .tc .vmem S8x256 .f32).view.set]{shareTok fullShare 7 2} colV m ρ X : sProp 𝕄) := rfl
theorem sendPay_6 (X : Dev nD) : sendPay m ρ X 6 = ((colM : Memref sig .tc .vmem S8x256 .f32).view.loc (X : Thread nD τ) ↦[(colM : Memref sig .tc .vmem S8x256 .f32).view.set]{shareTok fullShare 7 3} colV m ρ X : sProp 𝕄) := rfl
theorem sendPay_7 (X : Dev nD) : sendPay m ρ X 7 = ((colM : Memref sig .tc .vmem S8x256 .f32).view.loc (X : Thread nD τ) ↦[(colM : Memref sig .tc .vmem S8x256 .f32).view.set]{shareTok fullShare 7 4} colV m ρ X : sProp 𝕄) := rfl
theorem sendPay_8 (X : Dev nD) : sendPay m ρ X 8 = ((colM : Memref sig .tc .vmem S8x256 .f32).view.loc (X : Thread nD τ) ↦[(colM : Memref sig .tc .vmem S8x256 .f32).view.set]{shareTok fullShare 7 5} colV m ρ X : sProp 𝕄) := rfl
theorem sendPay_9 (X : Dev nD) : sendPay m ρ X 9 = ((colM : Memref sig .tc .vmem S8x256 .f32).view.loc (X : Thread nD τ) ↦[(colM : Memref sig .tc .vmem S8x256 .f32).view.set]{shareTok fullShare 7 6} colV m ρ X : sProp 𝕄) := rfl
theorem inv_0 : inv 0 = 2 := rfl
theorem inv_1 : inv 1 = 1 := rfl
theorem inv_2 : inv 2 = 0 := rfl
theorem inv_3 : inv 3 = 9 := rfl
theorem inv_4 : inv 4 = 8 := rfl
theorem inv_5 : inv 5 = 7 := rfl
theorem inv_6 : inv 6 = 6 := rfl
theorem inv_7 : inv 7 = 5 := rfl
theorem inv_8 : inv 8 = 4 := rfl
theorem inv_9 : inv 9 = 3 := rfl
theorem peer_peer_0 (c : Dev nD) : peer (peer c 0) 2 = c := by revert c; decide
theorem peer_peer_1 (c : Dev nD) : peer (peer c 1) 1 = c := by revert c; decide
theorem peer_peer_2 (c : Dev nD) : peer (peer c 2) 0 = c := by revert c; decide
theorem peer_peer_3 (c : Dev nD) : peer (peer c 3) 9 = c := by revert c; decide
theorem peer_peer_4 (c : Dev nD) : peer (peer c 4) 8 = c := by revert c; decide
theorem peer_peer_5 (c : Dev nD) : peer (peer c 5) 7 = c := by revert c; decide
theorem peer_peer_6 (c : Dev nD) : peer (peer c 6) 6 = c := by revert c; decide
theorem peer_peer_7 (c : Dev nD) : peer (peer c 7) 5 = c := by revert c; decide
theorem peer_peer_8 (c : Dev nD) : peer (peer c 8) 4 = c := by revert c; decide
theorem peer_peer_9 (c : Dev nD) : peer (peer c 9) 3 = c := by revert c; decide
theorem src_peer_0 (c : Dev nD) : src (peer c 0) 0 = c := src_peer c 0
theorem src_peer_1 (c : Dev nD) : src (peer c 1) 1 = c := src_peer c 1
theorem src_peer_2 (c : Dev nD) : src (peer c 2) 2 = c := src_peer c 2
theorem src_peer_3 (c : Dev nD) : src (peer c 3) 3 = c := src_peer c 3
theorem src_peer_4 (c : Dev nD) : src (peer c 4) 4 = c := src_peer c 4
theorem src_peer_5 (c : Dev nD) : src (peer c 5) 5 = c := src_peer c 5
theorem src_peer_6 (c : Dev nD) : src (peer c 6) 6 = c := src_peer c 6
theorem src_peer_7 (c : Dev nD) : src (peer c 7) 7 = c := src_peer c 7
theorem src_peer_8 (c : Dev nD) : src (peer c 8) 8 = c := src_peer c 8
theorem src_peer_9 (c : Dev nD) : src (peer c 9) 9 = c := src_peer c 9
theorem payload_sig_0 (c : Dev nD) : (rd (F := F) m ρ).payload (barCell (peer c 0)) 0 2 = iprop((∃ f : (cc0_scratch2 : Ref sig .tc).ty.Contents (Elt F), ((slotM 2).view.loc (c : Thread nD τ) ↦[(slotM 2).view.set]{fullShare} f)) ∗ reached ER (recvCell c 2) 0) := by rw [payload_bar, barPay_2, peer_peer_0]
theorem payload_sig_1 (c : Dev nD) : (rd (F := F) m ρ).payload (barCell (peer c 1)) 0 1 = iprop((∃ f : (cc0_scratch2 : Ref sig .tc).ty.Contents (Elt F), ((slotM 1).view.loc (c : Thread nD τ) ↦[(slotM 1).view.set]{fullShare} f)) ∗ reached ER (recvCell c 1) 0) := by rw [payload_bar, barPay_1, peer_peer_1]
theorem payload_sig_2 (c : Dev nD) : (rd (F := F) m ρ).payload (barCell (peer c 2)) 0 0 = iprop((∃ f : (cc0_scratch2 : Ref sig .tc).ty.Contents (Elt F), ((slotM 0).view.loc (c : Thread nD τ) ↦[(slotM 0).view.set]{fullShare} f)) ∗ reached ER (recvCell c 0) 0) := by rw [payload_bar, barPay_0, peer_peer_2]
theorem payload_sig_3 (c : Dev nD) : (rd (F := F) m ρ).payload (barCell (peer c 3)) 0 9 = iprop((∃ f : (cc0_scratch3 : Ref sig .tc).ty.Contents (Elt F), ((slotM 9).view.loc (c : Thread nD τ) ↦[(slotM 9).view.set]{fullShare} f)) ∗ reached ER (recvCell c 9) 0) := by rw [payload_bar, barPay_9, peer_peer_3]
theorem payload_sig_4 (c : Dev nD) : (rd (F := F) m ρ).payload (barCell (peer c 4)) 0 8 = iprop((∃ f : (cc0_scratch3 : Ref sig .tc).ty.Contents (Elt F), ((slotM 8).view.loc (c : Thread nD τ) ↦[(slotM 8).view.set]{fullShare} f)) ∗ reached ER (recvCell c 8) 0) := by rw [payload_bar, barPay_8, peer_peer_4]
theorem payload_sig_5 (c : Dev nD) : (rd (F := F) m ρ).payload (barCell (peer c 5)) 0 7 = iprop((∃ f : (cc0_scratch3 : Ref sig .tc).ty.Contents (Elt F), ((slotM 7).view.loc (c : Thread nD τ) ↦[(slotM 7).view.set]{fullShare} f)) ∗ reached ER (recvCell c 7) 0) := by rw [payload_bar, barPay_7, peer_peer_5]
theorem payload_sig_6 (c : Dev nD) : (rd (F := F) m ρ).payload (barCell (peer c 6)) 0 6 = iprop((∃ f : (cc0_scratch3 : Ref sig .tc).ty.Contents (Elt F), ((slotM 6).view.loc (c : Thread nD τ) ↦[(slotM 6).view.set]{fullShare} f)) ∗ reached ER (recvCell c 6) 0) := by rw [payload_bar, barPay_6, peer_peer_6]
theorem payload_sig_7 (c : Dev nD) : (rd (F := F) m ρ).payload (barCell (peer c 7)) 0 5 = iprop((∃ f : (cc0_scratch3 : Ref sig .tc).ty.Contents (Elt F), ((slotM 5).view.loc (c : Thread nD τ) ↦[(slotM 5).view.set]{fullShare} f)) ∗ reached ER (recvCell c 5) 0) := by rw [payload_bar, barPay_5, peer_peer_7]
theorem payload_sig_8 (c : Dev nD) : (rd (F := F) m ρ).payload (barCell (peer c 8)) 0 4 = iprop((∃ f : (cc0_scratch3 : Ref sig .tc).ty.Contents (Elt F), ((slotM 4).view.loc (c : Thread nD τ) ↦[(slotM 4).view.set]{fullShare} f)) ∗ reached ER (recvCell c 4) 0) := by rw [payload_bar, barPay_4, peer_peer_8]
theorem payload_sig_9 (c : Dev nD) : (rd (F := F) m ρ).payload (barCell (peer c 9)) 0 3 = iprop((∃ f : (cc0_scratch3 : Ref sig .tc).ty.Contents (Elt F), ((slotM 3).view.loc (c : Thread nD τ) ↦[(slotM 3).view.set]{fullShare} f)) ∗ reached ER (recvCell c 3) 0) := by rw [payload_bar, barPay_3, peer_peer_9]
theorem payload_own_0 (c : Dev nD) : (rd (F := F) m ρ).payload (barCell c) 0 0 = iprop((∃ f : (cc0_scratch2 : Ref sig .tc).ty.Contents (Elt F), ((slotM 0).view.loc (peer c 0 : Thread nD τ) ↦[(slotM 0).view.set]{fullShare} f)) ∗ reached ER (recvCell (peer c 0) 0) 0) := by rw [payload_bar, barPay_0]
theorem payload_own_1 (c : Dev nD) : (rd (F := F) m ρ).payload (barCell c) 0 1 = iprop((∃ f : (cc0_scratch2 : Ref sig .tc).ty.Contents (Elt F), ((slotM 1).view.loc (peer c 1 : Thread nD τ) ↦[(slotM 1).view.set]{fullShare} f)) ∗ reached ER (recvCell (peer c 1) 1) 0) := by rw [payload_bar, barPay_1]
theorem payload_own_2 (c : Dev nD) : (rd (F := F) m ρ).payload (barCell c) 0 2 = iprop((∃ f : (cc0_scratch2 : Ref sig .tc).ty.Contents (Elt F), ((slotM 2).view.loc (peer c 2 : Thread nD τ) ↦[(slotM 2).view.set]{fullShare} f)) ∗ reached ER (recvCell (peer c 2) 2) 0) := by rw [payload_bar, barPay_2]
theorem payload_own_3 (c : Dev nD) : (rd (F := F) m ρ).payload (barCell c) 0 3 = iprop((∃ f : (cc0_scratch3 : Ref sig .tc).ty.Contents (Elt F), ((slotM 3).view.loc (peer c 3 : Thread nD τ) ↦[(slotM 3).view.set]{fullShare} f)) ∗ reached ER (recvCell (peer c 3) 3) 0) := by rw [payload_bar, barPay_3]
theorem payload_own_4 (c : Dev nD) : (rd (F := F) m ρ).payload (barCell c) 0 4 = iprop((∃ f : (cc0_scratch3 : Ref sig .tc).ty.Contents (Elt F), ((slotM 4).view.loc (peer c 4 : Thread nD τ) ↦[(slotM 4).view.set]{fullShare} f)) ∗ reached ER (recvCell (peer c 4) 4) 0) := by rw [payload_bar, barPay_4]
theorem payload_own_5 (c : Dev nD) : (rd (F := F) m ρ).payload (barCell c) 0 5 = iprop((∃ f : (cc0_scratch3 : Ref sig .tc).ty.Contents (Elt F), ((slotM 5).view.loc (peer c 5 : Thread nD τ) ↦[(slotM 5).view.set]{fullShare} f)) ∗ reached ER (recvCell (peer c 5) 5) 0) := by rw [payload_bar, barPay_5]
theorem payload_own_6 (c : Dev nD) : (rd (F := F) m ρ).payload (barCell c) 0 6 = iprop((∃ f : (cc0_scratch3 : Ref sig .tc).ty.Contents (Elt F), ((slotM 6).view.loc (peer c 6 : Thread nD τ) ↦[(slotM 6).view.set]{fullShare} f)) ∗ reached ER (recvCell (peer c 6) 6) 0) := by rw [payload_bar, barPay_6]
theorem payload_own_7 (c : Dev nD) : (rd (F := F) m ρ).payload (barCell c) 0 7 = iprop((∃ f : (cc0_scratch3 : Ref sig .tc).ty.Contents (Elt F), ((slotM 7).view.loc (peer c 7 : Thread nD τ) ↦[(slotM 7).view.set]{fullShare} f)) ∗ reached ER (recvCell (peer c 7) 7) 0) := by rw [payload_bar, barPay_7]
theorem payload_own_8 (c : Dev nD) : (rd (F := F) m ρ).payload (barCell c) 0 8 = iprop((∃ f : (cc0_scratch3 : Ref sig .tc).ty.Contents (Elt F), ((slotM 8).view.loc (peer c 8 : Thread nD τ) ↦[(slotM 8).view.set]{fullShare} f)) ∗ reached ER (recvCell (peer c 8) 8) 0) := by rw [payload_bar, barPay_8]
theorem payload_own_9 (c : Dev nD) : (rd (F := F) m ρ).payload (barCell c) 0 9 = iprop((∃ f : (cc0_scratch3 : Ref sig .tc).ty.Contents (Elt F), ((slotM 9).view.loc (peer c 9 : Thread nD τ) ↦[(slotM 9).view.set]{fullShare} f)) ∗ reached ER (recvCell (peer c 9) 9) 0) := by rw [payload_bar, barPay_9]

end Cert.KernelIdealProof

end
-- ==== Proof.KernelIdealPages.lean ====
/-
  The landing buffers as separation-logic resources, page by page.

  A copy into one page of a landing buffer, over whatever the buffer held, already leaves the final contents on that
  page: the points-to of the page at the written contents is the receive payload. The pages of a landing buffer are
  pairwise disjoint and cover it, so the whole buffer splits into its pages and is joined back from them.
-/
import proofs.«900767_g7700000000000768_dist_diff_adaln_cshard_i_b4_s256_c128_v7x_i32_bf16_1_alg».proof.Proof.KernelIdealVals
import Idealize.ShloMosaic.Rules.PointsTo

noncomputable section

namespace Cert.KernelIdealProof

open Cert.KernelIdeal Cert.KernelIdeal.Gen Cert.Mesh

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## Landing: one copy into a page leaves the final contents on that page -/

theorem land_0 (X : Dev nD) (fd : (cc0_scratch2 : Ref sig .tc).ty.Contents (Elt F)) :
    ∀ y ∈ (slotM 0).view.set,
      (slotM 0).view.write (Elt F) fd ((srcM 0).view.read (Elt F) (mineV m ρ (src X 0))) Finset.univ y = czV m ρ X y := by
  intro y hy
  obtain ⟨r, s, rfl⟩ := (mem_pageV_set (czM : Memref sig .tc .vmem S3x8x256 .f32).view 0 inb_S3x8x256_S1x8x256_0_0_0 (by decide)).mp hy
  exact ((pageV_write_self (czM : Memref sig .tc .vmem S3x8x256 .f32).view 0 inb_S3x8x256_S1x8x256_0_0_0 (by decide) _ _ r s).trans rfl).trans (czV_page0 m ρ X r s).symm

theorem recvPay_of_land_0 (X : Dev nD) (fd : (cc0_scratch2 : Ref sig .tc).ty.Contents (Elt F)) :
    (((slotM 0).view.loc (X : Thread nD τ) ↦[(slotM 0).view.set]{fullShare}
        (slotM 0).view.write (Elt F) fd ((srcM 0).view.read (Elt F) (mineV m ρ (src X 0))) Finset.univ) : sProp 𝕄)
      ⊢ recvPay m ρ X 0 :=
  Entails.of_eq (pointsTo_congr (land_0 m ρ X fd))

theorem land_1 (X : Dev nD) (fd : (cc0_scratch2 : Ref sig .tc).ty.Contents (Elt F)) :
    ∀ y ∈ (slotM 1).view.set,
      (slotM 1).view.write (Elt F) fd ((srcM 1).view.read (Elt F) (mineV m ρ (src X 1))) Finset.univ y = czV m ρ X y := by
  intro y hy
  obtain ⟨r, s, rfl⟩ := (mem_pageV_set (czM : Memref sig .tc .vmem S3x8x256 .f32).view 1 inb_S3x8x256_S1x8x256_1_0_0 (by decide)).mp hy
  exact ((pageV_write_self (czM : Memref sig .tc .vmem S3x8x256 .f32).view 1 inb_S3x8x256_S1x8x256_1_0_0 (by decide) _ _ r s).trans rfl).trans (czV_page1 m ρ X r s).symm

theorem recvPay_of_land_1 (X : Dev nD) (fd : (cc0_scratch2 : Ref sig .tc).ty.Contents (Elt F)) :
    (((slotM 1).view.loc (X : Thread nD τ) ↦[(slotM 1).view.set]{fullShare}
        (slotM 1).view.write (Elt F) fd ((srcM 1).view.read (Elt F) (mineV m ρ (src X 1))) Finset.univ) : sProp 𝕄)
      ⊢ recvPay m ρ X 1 :=
  Entails.of_eq (pointsTo_congr (land_1 m ρ X fd))

theorem land_2 (X : Dev nD) (fd : (cc0_scratch2 : Ref sig .tc).ty.Contents (Elt F)) :
    ∀ y ∈ (slotM 2).view.set,
      (slotM 2).view.write (Elt F) fd ((srcM 2).view.read (Elt F) (mineV m ρ (src X 2))) Finset.univ y = czV m ρ X y := by
  intro y hy
  obtain ⟨r, s, rfl⟩ := (mem_pageV_set (czM : Memref sig .tc .vmem S3x8x256 .f32).view 2 inb_S3x8x256_S1x8x256_2_0_0 (by decide)).mp hy
  exact ((pageV_write_self (czM : Memref sig .tc .vmem S3x8x256 .f32).view 2 inb_S3x8x256_S1x8x256_2_0_0 (by decide) _ _ r s).trans rfl).trans (czV_page2 m ρ X r s).symm

theorem recvPay_of_land_2 (X : Dev nD) (fd : (cc0_scratch2 : Ref sig .tc).ty.Contents (Elt F)) :
    (((slotM 2).view.loc (X : Thread nD τ) ↦[(slotM 2).view.set]{fullShare}
        (slotM 2).view.write (Elt F) fd ((srcM 2).view.read (Elt F) (mineV m ρ (src X 2))) Finset.univ) : sProp 𝕄)
      ⊢ recvPay m ρ X 2 :=
  Entails.of_eq (pointsTo_congr (land_2 m ρ X fd))

theorem land_3 (X : Dev nD) (fd : (cc0_scratch3 : Ref sig .tc).ty.Contents (Elt F)) :
    ∀ y ∈ (slotM 3).view.set,
      (slotM 3).view.write (Elt F) fd ((srcM 3).view.read (Elt F) (colV m ρ (src X 3))) Finset.univ y = cpV m ρ X y := by
  intro y hy
  obtain ⟨r, s, rfl⟩ := (mem_pageV_set (cpM : Memref sig .tc .vmem S7x8x256 .f32).view 0 inb_S7x8x256_S1x8x256_0_0_0 (by decide)).mp hy
  exact ((pageV_write_self (cpM : Memref sig .tc .vmem S7x8x256 .f32).view 0 inb_S7x8x256_S1x8x256_0_0_0 (by decide) _ _ r s).trans rfl).trans (cpV_page0 m ρ X r s).symm

theorem recvPay_of_land_3 (X : Dev nD) (fd : (cc0_scratch3 : Ref sig .tc).ty.Contents (Elt F)) :
    (((slotM 3).view.loc (X : Thread nD τ) ↦[(slotM 3).view.set]{fullShare}
        (slotM 3).view.write (Elt F) fd ((srcM 3).view.read (Elt F) (colV m ρ (src X 3))) Finset.univ) : sProp 𝕄)
      ⊢ recvPay m ρ X 3 :=
  Entails.of_eq (pointsTo_congr (land_3 m ρ X fd))

theorem land_4 (X : Dev nD) (fd : (cc0_scratch3 : Ref sig .tc).ty.Contents (Elt F)) :
    ∀ y ∈ (slotM 4).view.set,
      (slotM 4).view.write (Elt F) fd ((srcM 4).view.read (Elt F) (colV m ρ (src X 4))) Finset.univ y = cpV m ρ X y := by
  intro y hy
  obtain ⟨r, s, rfl⟩ := (mem_pageV_set (cpM : Memref sig .tc .vmem S7x8x256 .f32).view 1 inb_S7x8x256_S1x8x256_1_0_0 (by decide)).mp hy
  exact ((pageV_write_self (cpM : Memref sig .tc .vmem S7x8x256 .f32).view 1 inb_S7x8x256_S1x8x256_1_0_0 (by decide) _ _ r s).trans rfl).trans (cpV_page1 m ρ X r s).symm

theorem recvPay_of_land_4 (X : Dev nD) (fd : (cc0_scratch3 : Ref sig .tc).ty.Contents (Elt F)) :
    (((slotM 4).view.loc (X : Thread nD τ) ↦[(slotM 4).view.set]{fullShare}
        (slotM 4).view.write (Elt F) fd ((srcM 4).view.read (Elt F) (colV m ρ (src X 4))) Finset.univ) : sProp 𝕄)
      ⊢ recvPay m ρ X 4 :=
  Entails.of_eq (pointsTo_congr (land_4 m ρ X fd))

theorem land_5 (X : Dev nD) (fd : (cc0_scratch3 : Ref sig .tc).ty.Contents (Elt F)) :
    ∀ y ∈ (slotM 5).view.set,
      (slotM 5).view.write (Elt F) fd ((srcM 5).view.read (Elt F) (colV m ρ (src X 5))) Finset.univ y = cpV m ρ X y := by
  intro y hy
  obtain ⟨r, s, rfl⟩ := (mem_pageV_set (cpM : Memref sig .tc .vmem S7x8x256 .f32).view 2 inb_S7x8x256_S1x8x256_2_0_0 (by decide)).mp hy
  exact ((pageV_write_self (cpM : Memref sig .tc .vmem S7x8x256 .f32).view 2 inb_S7x8x256_S1x8x256_2_0_0 (by decide) _ _ r s).trans rfl).trans (cpV_page2 m ρ X r s).symm

theorem recvPay_of_land_5 (X : Dev nD) (fd : (cc0_scratch3 : Ref sig .tc).ty.Contents (Elt F)) :
    (((slotM 5).view.loc (X : Thread nD τ) ↦[(slotM 5).view.set]{fullShare}
        (slotM 5).view.write (Elt F) fd ((srcM 5).view.read (Elt F) (colV m ρ (src X 5))) Finset.univ) : sProp 𝕄)
      ⊢ recvPay m ρ X 5 :=
  Entails.of_eq (pointsTo_congr (land_5 m ρ X fd))

theorem land_6 (X : Dev nD) (fd : (cc0_scratch3 : Ref sig .tc).ty.Contents (Elt F)) :
    ∀ y ∈ (slotM 6).view.set,
      (slotM 6).view.write (Elt F) fd ((srcM 6).view.read (Elt F) (colV m ρ (src X 6))) Finset.univ y = cpV m ρ X y := by
  intro y hy
  obtain ⟨r, s, rfl⟩ := (mem_pageV_set (cpM : Memref sig .tc .vmem S7x8x256 .f32).view 3 inb_S7x8x256_S1x8x256_3_0_0 (by decide)).mp hy
  exact ((pageV_write_self (cpM : Memref sig .tc .vmem S7x8x256 .f32).view 3 inb_S7x8x256_S1x8x256_3_0_0 (by decide) _ _ r s).trans rfl).trans (cpV_page3 m ρ X r s).symm

theorem recvPay_of_land_6 (X : Dev nD) (fd : (cc0_scratch3 : Ref sig .tc).ty.Contents (Elt F)) :
    (((slotM 6).view.loc (X : Thread nD τ) ↦[(slotM 6).view.set]{fullShare}
        (slotM 6).view.write (Elt F) fd ((srcM 6).view.read (Elt F) (colV m ρ (src X 6))) Finset.univ) : sProp 𝕄)
      ⊢ recvPay m ρ X 6 :=
  Entails.of_eq (pointsTo_congr (land_6 m ρ X fd))

theorem land_7 (X : Dev nD) (fd : (cc0_scratch3 : Ref sig .tc).ty.Contents (Elt F)) :
    ∀ y ∈ (slotM 7).view.set,
      (slotM 7).view.write (Elt F) fd ((srcM 7).view.read (Elt F) (colV m ρ (src X 7))) Finset.univ y = cpV m ρ X y := by
  intro y hy
  obtain ⟨r, s, rfl⟩ := (mem_pageV_set (cpM : Memref sig .tc .vmem S7x8x256 .f32).view 4 inb_S7x8x256_S1x8x256_4_0_0 (by decide)).mp hy
  exact ((pageV_write_self (cpM : Memref sig .tc .vmem S7x8x256 .f32).view 4 inb_S7x8x256_S1x8x256_4_0_0 (by decide) _ _ r s).trans rfl).trans (cpV_page4 m ρ X r s).symm

theorem recvPay_of_land_7 (X : Dev nD) (fd : (cc0_scratch3 : Ref sig .tc).ty.Contents (Elt F)) :
    (((slotM 7).view.loc (X : Thread nD τ) ↦[(slotM 7).view.set]{fullShare}
        (slotM 7).view.write (Elt F) fd ((srcM 7).view.read (Elt F) (colV m ρ (src X 7))) Finset.univ) : sProp 𝕄)
      ⊢ recvPay m ρ X 7 :=
  Entails.of_eq (pointsTo_congr (land_7 m ρ X fd))

theorem land_8 (X : Dev nD) (fd : (cc0_scratch3 : Ref sig .tc).ty.Contents (Elt F)) :
    ∀ y ∈ (slotM 8).view.set,
      (slotM 8).view.write (Elt F) fd ((srcM 8).view.read (Elt F) (colV m ρ (src X 8))) Finset.univ y = cpV m ρ X y := by
  intro y hy
  obtain ⟨r, s, rfl⟩ := (mem_pageV_set (cpM : Memref sig .tc .vmem S7x8x256 .f32).view 5 inb_S7x8x256_S1x8x256_5_0_0 (by decide)).mp hy
  exact ((pageV_write_self (cpM : Memref sig .tc .vmem S7x8x256 .f32).view 5 inb_S7x8x256_S1x8x256_5_0_0 (by decide) _ _ r s).trans rfl).trans (cpV_page5 m ρ X r s).symm

theorem recvPay_of_land_8 (X : Dev nD) (fd : (cc0_scratch3 : Ref sig .tc).ty.Contents (Elt F)) :
    (((slotM 8).view.loc (X : Thread nD τ) ↦[(slotM 8).view.set]{fullShare}
        (slotM 8).view.write (Elt F) fd ((srcM 8).view.read (Elt F) (colV m ρ (src X 8))) Finset.univ) : sProp 𝕄)
      ⊢ recvPay m ρ X 8 :=
  Entails.of_eq (pointsTo_congr (land_8 m ρ X fd))

theorem land_9 (X : Dev nD) (fd : (cc0_scratch3 : Ref sig .tc).ty.Contents (Elt F)) :
    ∀ y ∈ (slotM 9).view.set,
      (slotM 9).view.write (Elt F) fd ((srcM 9).view.read (Elt F) (colV m ρ (src X 9))) Finset.univ y = cpV m ρ X y := by
  intro y hy
  obtain ⟨r, s, rfl⟩ := (mem_pageV_set (cpM : Memref sig .tc .vmem S7x8x256 .f32).view 6 inb_S7x8x256_S1x8x256_6_0_0 (by decide)).mp hy
  exact ((pageV_write_self (cpM : Memref sig .tc .vmem S7x8x256 .f32).view 6 inb_S7x8x256_S1x8x256_6_0_0 (by decide) _ _ r s).trans rfl).trans (cpV_page6 m ρ X r s).symm

theorem recvPay_of_land_9 (X : Dev nD) (fd : (cc0_scratch3 : Ref sig .tc).ty.Contents (Elt F)) :
    (((slotM 9).view.loc (X : Thread nD τ) ↦[(slotM 9).view.set]{fullShare}
        (slotM 9).view.write (Elt F) fd ((srcM 9).view.read (Elt F) (colV m ρ (src X 9))) Finset.univ) : sProp 𝕄)
      ⊢ recvPay m ρ X 9 :=
  Entails.of_eq (pointsTo_congr (land_9 m ρ X fd))

/-! ## A landing buffer splits into its pages -/

section Cover

variable {sg : RefSig} {κ : Kind} {sp : Space} {e : EltTy} {n : ℕ} (V : View sg κ sp (⟨3, ![n, 8, 256]⟩ : Shape) e)

/-- An element whose first coordinate is k is on page k. -/
theorem mem_pageV_of_coord (k : ℕ) (inb : ∀ a, (![k, 0, 0] : Fin 3 → ℕ) a + S1x8x256.size a ≤ (⟨3, ![n, 8, 256]⟩ : Shape).size a) (hk : k < n)
    (y : (⟨3, ![n, 8, 256]⟩ : Shape).Idx) (h : (y 0).val = k) : V.emb y ∈ (pageV V k inb).set := by
  refine (mem_pageV_set V k inb hk).mpr ⟨y 1, y 2, congrArg V.emb ?_⟩
  have e0 : (⟨k, hk⟩ : Fin n) = y 0 := Fin.ext h.symm
  rw [e0]
  exact (eq_ix3 y).symm

end Cover

/-- The pages cover the buffer. -/
theorem cz_cover (i : S3x8x256.Idx) : i ∈ (slotM 0).view.set ∪ ((slotM 1).view.set ∪ ((slotM 2).view.set)) := by
  have hi : (i 0).val < 3 := (i 0).isLt
  rcases (by omega : (i 0).val = 0 ∨ (i 0).val = 1 ∨ (i 0).val = 2) with h | h | h
  · exact (Finset.mem_union_left _ (mem_pageV_of_coord (czM : Memref sig .tc .vmem S3x8x256 .f32).view 0 inb_S3x8x256_S1x8x256_0_0_0 (by decide) i h))
  · exact (Finset.mem_union_right _ (Finset.mem_union_left _ (mem_pageV_of_coord (czM : Memref sig .tc .vmem S3x8x256 .f32).view 1 inb_S3x8x256_S1x8x256_1_0_0 (by decide) i h)))
  · exact (Finset.mem_union_right _ (Finset.mem_union_right _ (mem_pageV_of_coord (czM : Memref sig .tc .vmem S3x8x256 .f32).view 2 inb_S3x8x256_S1x8x256_2_0_0 (by decide) i h)))

/-- Distinct pages are disjoint. -/
theorem cz_disj (k k' : Fin 3) (hne : k ≠ k') :
    ∀ (inb : ∀ a, (![k.val, 0, 0] : Fin 3 → ℕ) a + S1x8x256.size a ≤ S3x8x256.size a)
      (inb' : ∀ a, (![k'.val, 0, 0] : Fin 3 → ℕ) a + S1x8x256.size a ≤ S3x8x256.size a),
      Disjoint (pageV (czM : Memref sig .tc .vmem S3x8x256 .f32).view k.val inb).set (pageV (czM : Memref sig .tc .vmem S3x8x256 .f32).view k'.val inb').set :=
  fun inb inb' => pageV_disjoint (czM : Memref sig .tc .vmem S3x8x256 .f32).view k.val inb k.isLt k'.val inb' k'.isLt (fun h => hne (Fin.ext h))

/-- The whole buffer is its pages, side by side. -/
theorem cz_pages (c : Dev nD) (f : Buf (Elt F) ((c : Thread nD τ).loc cc0_scratch2)) :
    ((((c : Thread nD τ).loc cc0_scratch2) ↦{fullShare} f) : sProp 𝕄)
      ⊣⊢ iprop(((slotM 0).view.loc (c : Thread nD τ) ↦[(slotM 0).view.set]{fullShare} f) ∗ ((slotM 1).view.loc (c : Thread nD τ) ↦[(slotM 1).view.set]{fullShare} f) ∗ ((slotM 2).view.loc (c : Thread nD τ) ↦[(slotM 2).view.set]{fullShare} f)) := by
  have hU : (Finset.univ : Finset (Idx ((c : Thread nD τ).loc cc0_scratch2))) = (slotM 0).view.set ∪ ((slotM 1).view.set ∪ ((slotM 2).view.set)) :=
    (Finset.eq_univ_iff_forall.mpr cz_cover).symm
  refine (BiEntails.of_eq (congrArg (fun S => ((((c : Thread nD τ).loc cc0_scratch2) ↦[S]{fullShare} f) : sProp 𝕄)) hU)).trans ?_
  refine (pointsTo_union (Finset.disjoint_union_right.mpr ⟨(cz_disj 0 1 (by decide) inb_S3x8x256_S1x8x256_0_0_0 inb_S3x8x256_S1x8x256_1_0_0), (cz_disj 0 2 (by decide) inb_S3x8x256_S1x8x256_0_0_0 inb_S3x8x256_S1x8x256_2_0_0)⟩)).trans (sep_congr_right ?_)
  exact pointsTo_union (cz_disj 1 2 (by decide) inb_S3x8x256_S1x8x256_1_0_0 inb_S3x8x256_S1x8x256_2_0_0)

/-- The pages cover the buffer. -/
theorem cp_cover (i : S7x8x256.Idx) : i ∈ (slotM 3).view.set ∪ ((slotM 4).view.set ∪ ((slotM 5).view.set ∪ ((slotM 6).view.set ∪ ((slotM 7).view.set ∪ ((slotM 8).view.set ∪ ((slotM 9).view.set)))))) := by
  have hi : (i 0).val < 7 := (i 0).isLt
  rcases (by omega : (i 0).val = 0 ∨ (i 0).val = 1 ∨ (i 0).val = 2 ∨ (i 0).val = 3 ∨ (i 0).val = 4 ∨ (i 0).val = 5 ∨ (i 0).val = 6) with h | h | h | h | h | h | h
  · exact (Finset.mem_union_left _ (mem_pageV_of_coord (cpM : Memref sig .tc .vmem S7x8x256 .f32).view 0 inb_S7x8x256_S1x8x256_0_0_0 (by decide) i h))
  · exact (Finset.mem_union_right _ (Finset.mem_union_left _ (mem_pageV_of_coord (cpM : Memref sig .tc .vmem S7x8x256 .f32).view 1 inb_S7x8x256_S1x8x256_1_0_0 (by decide) i h)))
  · exact (Finset.mem_union_right _ (Finset.mem_union_right _ (Finset.mem_union_left _ (mem_pageV_of_coord (cpM : Memref sig .tc .vmem S7x8x256 .f32).view 2 inb_S7x8x256_S1x8x256_2_0_0 (by decide) i h))))
  · exact (Finset.mem_union_right _ (Finset.mem_union_right _ (Finset.mem_union_right _ (Finset.mem_union_left _ (mem_pageV_of_coord (cpM : Memref sig .tc .vmem S7x8x256 .f32).view 3 inb_S7x8x256_S1x8x256_3_0_0 (by decide) i h)))))
  · exact (Finset.mem_union_right _ (Finset.mem_union_right _ (Finset.mem_union_right _ (Finset.mem_union_right _ (Finset.mem_union_left _ (mem_pageV_of_coord (cpM : Memref sig .tc .vmem S7x8x256 .f32).view 4 inb_S7x8x256_S1x8x256_4_0_0 (by decide) i h))))))
  · exact (Finset.mem_union_right _ (Finset.mem_union_right _ (Finset.mem_union_right _ (Finset.mem_union_right _ (Finset.mem_union_right _ (Finset.mem_union_left _ (mem_pageV_of_coord (cpM : Memref sig .tc .vmem S7x8x256 .f32).view 5 inb_S7x8x256_S1x8x256_5_0_0 (by decide) i h)))))))
  · exact (Finset.mem_union_right _ (Finset.mem_union_right _ (Finset.mem_union_right _ (Finset.mem_union_right _ (Finset.mem_union_right _ (Finset.mem_union_right _ (mem_pageV_of_coord (cpM : Memref sig .tc .vmem S7x8x256 .f32).view 6 inb_S7x8x256_S1x8x256_6_0_0 (by decide) i h)))))))

/-- Distinct pages are disjoint. -/
theorem cp_disj (k k' : Fin 7) (hne : k ≠ k') :
    ∀ (inb : ∀ a, (![k.val, 0, 0] : Fin 3 → ℕ) a + S1x8x256.size a ≤ S7x8x256.size a)
      (inb' : ∀ a, (![k'.val, 0, 0] : Fin 3 → ℕ) a + S1x8x256.size a ≤ S7x8x256.size a),
      Disjoint (pageV (cpM : Memref sig .tc .vmem S7x8x256 .f32).view k.val inb).set (pageV (cpM : Memref sig .tc .vmem S7x8x256 .f32).view k'.val inb').set :=
  fun inb inb' => pageV_disjoint (cpM : Memref sig .tc .vmem S7x8x256 .f32).view k.val inb k.isLt k'.val inb' k'.isLt (fun h => hne (Fin.ext h))

/-- The whole buffer is its pages, side by side. -/
theorem cp_pages (c : Dev nD) (f : Buf (Elt F) ((c : Thread nD τ).loc cc0_scratch3)) :
    ((((c : Thread nD τ).loc cc0_scratch3) ↦{fullShare} f) : sProp 𝕄)
      ⊣⊢ iprop(((slotM 3).view.loc (c : Thread nD τ) ↦[(slotM 3).view.set]{fullShare} f) ∗ ((slotM 4).view.loc (c : Thread nD τ) ↦[(slotM 4).view.set]{fullShare} f) ∗ ((slotM 5).view.loc (c : Thread nD τ) ↦[(slotM 5).view.set]{fullShare} f) ∗ ((slotM 6).view.loc (c : Thread nD τ) ↦[(slotM 6).view.set]{fullShare} f) ∗ ((slotM 7).view.loc (c : Thread nD τ) ↦[(slotM 7).view.set]{fullShare} f) ∗ ((slotM 8).view.loc (c : Thread nD τ) ↦[(slotM 8).view.set]{fullShare} f) ∗ ((slotM 9).view.loc (c : Thread nD τ) ↦[(slotM 9).view.set]{fullShare} f)) := by
  have hU : (Finset.univ : Finset (Idx ((c : Thread nD τ).loc cc0_scratch3))) = (slotM 3).view.set ∪ ((slotM 4).view.set ∪ ((slotM 5).view.set ∪ ((slotM 6).view.set ∪ ((slotM 7).view.set ∪ ((slotM 8).view.set ∪ ((slotM 9).view.set)))))) :=
    (Finset.eq_univ_iff_forall.mpr cp_cover).symm
  refine (BiEntails.of_eq (congrArg (fun S => ((((c : Thread nD τ).loc cc0_scratch3) ↦[S]{fullShare} f) : sProp 𝕄)) hU)).trans ?_
  refine (pointsTo_union (Finset.disjoint_union_right.mpr ⟨(cp_disj 0 1 (by decide) inb_S7x8x256_S1x8x256_0_0_0 inb_S7x8x256_S1x8x256_1_0_0), (Finset.disjoint_union_right.mpr ⟨(cp_disj 0 2 (by decide) inb_S7x8x256_S1x8x256_0_0_0 inb_S7x8x256_S1x8x256_2_0_0), (Finset.disjoint_union_right.mpr ⟨(cp_disj 0 3 (by decide) inb_S7x8x256_S1x8x256_0_0_0 inb_S7x8x256_S1x8x256_3_0_0), (Finset.disjoint_union_right.mpr ⟨(cp_disj 0 4 (by decide) inb_S7x8x256_S1x8x256_0_0_0 inb_S7x8x256_S1x8x256_4_0_0), (Finset.disjoint_union_right.mpr ⟨(cp_disj 0 5 (by decide) inb_S7x8x256_S1x8x256_0_0_0 inb_S7x8x256_S1x8x256_5_0_0), (cp_disj 0 6 (by decide) inb_S7x8x256_S1x8x256_0_0_0 inb_S7x8x256_S1x8x256_6_0_0)⟩)⟩)⟩)⟩)⟩)).trans (sep_congr_right ?_)
  refine (pointsTo_union (Finset.disjoint_union_right.mpr ⟨(cp_disj 1 2 (by decide) inb_S7x8x256_S1x8x256_1_0_0 inb_S7x8x256_S1x8x256_2_0_0), (Finset.disjoint_union_right.mpr ⟨(cp_disj 1 3 (by decide) inb_S7x8x256_S1x8x256_1_0_0 inb_S7x8x256_S1x8x256_3_0_0), (Finset.disjoint_union_right.mpr ⟨(cp_disj 1 4 (by decide) inb_S7x8x256_S1x8x256_1_0_0 inb_S7x8x256_S1x8x256_4_0_0), (Finset.disjoint_union_right.mpr ⟨(cp_disj 1 5 (by decide) inb_S7x8x256_S1x8x256_1_0_0 inb_S7x8x256_S1x8x256_5_0_0), (cp_disj 1 6 (by decide) inb_S7x8x256_S1x8x256_1_0_0 inb_S7x8x256_S1x8x256_6_0_0)⟩)⟩)⟩)⟩)).trans (sep_congr_right ?_)
  refine (pointsTo_union (Finset.disjoint_union_right.mpr ⟨(cp_disj 2 3 (by decide) inb_S7x8x256_S1x8x256_2_0_0 inb_S7x8x256_S1x8x256_3_0_0), (Finset.disjoint_union_right.mpr ⟨(cp_disj 2 4 (by decide) inb_S7x8x256_S1x8x256_2_0_0 inb_S7x8x256_S1x8x256_4_0_0), (Finset.disjoint_union_right.mpr ⟨(cp_disj 2 5 (by decide) inb_S7x8x256_S1x8x256_2_0_0 inb_S7x8x256_S1x8x256_5_0_0), (cp_disj 2 6 (by decide) inb_S7x8x256_S1x8x256_2_0_0 inb_S7x8x256_S1x8x256_6_0_0)⟩)⟩)⟩)).trans (sep_congr_right ?_)
  refine (pointsTo_union (Finset.disjoint_union_right.mpr ⟨(cp_disj 3 4 (by decide) inb_S7x8x256_S1x8x256_3_0_0 inb_S7x8x256_S1x8x256_4_0_0), (Finset.disjoint_union_right.mpr ⟨(cp_disj 3 5 (by decide) inb_S7x8x256_S1x8x256_3_0_0 inb_S7x8x256_S1x8x256_5_0_0), (cp_disj 3 6 (by decide) inb_S7x8x256_S1x8x256_3_0_0 inb_S7x8x256_S1x8x256_6_0_0)⟩)⟩)).trans (sep_congr_right ?_)
  refine (pointsTo_union (Finset.disjoint_union_right.mpr ⟨(cp_disj 4 5 (by decide) inb_S7x8x256_S1x8x256_4_0_0 inb_S7x8x256_S1x8x256_5_0_0), (cp_disj 4 6 (by decide) inb_S7x8x256_S1x8x256_4_0_0 inb_S7x8x256_S1x8x256_6_0_0)⟩)).trans (sep_congr_right ?_)
  exact pointsTo_union (cp_disj 5 6 (by decide) inb_S7x8x256_S1x8x256_5_0_0 inb_S7x8x256_S1x8x256_6_0_0)

/-! ## The landed pages joined back; the column-group sums by definition -/

/-- The three landed pages of the column group are its landing buffer at the canonical contents. -/
theorem cz_join (c : Dev nD) :
    (iprop(recvPay m ρ c 0 ∗ recvPay m ρ c 1 ∗ recvPay m ρ c 2) : sProp 𝕄) ⊣⊢ (((c : Thread nD τ).loc cc0_scratch2) ↦{fullShare} czV m ρ c) :=
  (cz_pages c (czV m ρ c)).symm

/-- The seven landed pages of the row group are its landing buffer at the canonical contents. -/
theorem cp_join (c : Dev nD) :
    (iprop(recvPay m ρ c 3 ∗ recvPay m ρ c 4 ∗ recvPay m ρ c 5 ∗ recvPay m ρ c 6 ∗ recvPay m ρ c 7 ∗ recvPay m ρ c 8 ∗ recvPay m ρ c 9) : sProp 𝕄) ⊣⊢ (((c : Thread nD τ).loc cc0_scratch3) ↦{fullShare} cpV m ρ c) :=
  (cp_pages c (cpV m ρ c)).symm

/-- The column group's sums are, by definition, the own row sums plus the three landed pages. -/
theorem colV_eq (c : Dev nD) : colV m ρ c = k0_pay7 (mineV m ρ c) (czV m ρ c) := rfl

/-- info: 'Cert.KernelIdealProof.mineOf_indep' depends on axioms: [propext, Classical.choice, Quot.sound] -/
#guard_msgs in #print axioms mineOf_indep
/-- info: 'Cert.KernelIdealProof.mineV_lo' depends on axioms: [propext, Classical.choice, Quot.sound] -/
#guard_msgs in #print axioms mineV_lo
/-- info: 'Cert.KernelIdealProof.mineV_hi' depends on axioms: [propext, Classical.choice, Quot.sound] -/
#guard_msgs in #print axioms mineV_hi
/-- info: 'Cert.KernelIdealProof.czV_apply' depends on axioms: [propext, Classical.choice, Quot.sound] -/
#guard_msgs in #print axioms czV_apply
/-- info: 'Cert.KernelIdealProof.cpV_apply' depends on axioms: [propext, Classical.choice, Quot.sound] -/
#guard_msgs in #print axioms cpV_apply
/-- info: 'Cert.KernelIdealProof.recvPay_of_land_0' depends on axioms: [propext, Classical.choice, Quot.sound] -/
#guard_msgs in #print axioms recvPay_of_land_0
/-- info: 'Cert.KernelIdealProof.recvPay_of_land_9' depends on axioms: [propext, Classical.choice, Quot.sound] -/
#guard_msgs in #print axioms recvPay_of_land_9
/-- info: 'Cert.KernelIdealProof.cz_pages' depends on axioms: [propext, Classical.choice, Quot.sound] -/
#guard_msgs in #print axioms cz_pages
/-- info: 'Cert.KernelIdealProof.cp_pages' depends on axioms: [propext, Classical.choice, Quot.sound] -/
#guard_msgs in #print axioms cp_pages
/-- info: 'Cert.KernelIdealProof.cz_join' depends on axioms: [propext, Classical.choice, Quot.sound] -/
#guard_msgs in #print axioms cz_join
/-- info: 'Cert.KernelIdealProof.cp_join' depends on axioms: [propext, Classical.choice, Quot.sound] -/
#guard_msgs in #print axioms cp_join

end Cert.KernelIdealProof

end
-- ==== Proof.KernelIdealNames.lean ====
import proofs.«900767_g7700000000000768_dist_diff_adaln_cshard_i_b4_s256_c128_v7x_i32_bf16_1_alg».proof.Proof.KernelIdealRdTables
import proofs.«900767_g7700000000000768_dist_diff_adaln_cshard_i_b4_s256_c128_v7x_i32_bf16_1_alg».proof.Proof.KernelIdealPages
import Idealize.ShloMosaic.Lib.Tactic

noncomputable section

namespace Cert.KernelIdealProof

open Cert.KernelIdeal Cert.KernelIdeal.Gen Cert.Mesh
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]
local notation "𝕄" => MT nD τ sig Unit (Elt F) ℕ UU ℕ
variable (m : (ℓ : Loc nD τ sig) → Buf (Elt F) ℓ) (ρ : Dev nD → PrngReg)

def bX : Memref sig .tc .vmem S4x256x128 .f32 := xM
def bT : Memref sig .tc .vmem S4x128 .f32 := tM
def bWs : Memref sig .tc .vmem S128x128 .f32 := wsM
def bWsh : Memref sig .tc .vmem S128x128 .f32 := wshM
def bO : Memref sig .tc .vmem S4x256x128 .f32 := oM
def bMine : Memref sig .tc .vmem S8x256 .f32 := mineM
def bCol : Memref sig .tc .vmem S8x256 .f32 := colM
def bCz : Memref sig .tc .vmem S3x8x256 .f32 := czM
def bCp : Memref sig .tc .vmem S7x8x256 .f32 := cpM
def bSlot (i : Fin 10) : Memref sig .tc .vmem S8x256 .f32 := slotM i

theorem canon_bX : (Memref.whole cc0_stg0_0 : Memref sig .tc .vmem S4x256x128 .f32) = bX := by unfold bX; rfl
theorem canon_bT : (Memref.whole cc0_stg1_0 : Memref sig .tc .vmem S4x128 .f32) = bT := by unfold bT; rfl
theorem canon_bWs : (Memref.whole cc0_stg2_0 : Memref sig .tc .vmem S128x128 .f32) = bWs := by unfold bWs; rfl
theorem canon_bWsh : (Memref.whole cc0_stg3_0 : Memref sig .tc .vmem S128x128 .f32) = bWsh := by unfold bWsh; rfl
theorem canon_bO : (Memref.whole cc0_stg4_0 : Memref sig .tc .vmem S4x256x128 .f32) = bO := by unfold bO; rfl
theorem canon_bMine : (Memref.whole cc0_scratch0 : Memref sig .tc .vmem S8x256 .f32) = bMine := by unfold bMine; rfl
theorem canon_bCol : (Memref.whole cc0_scratch1 : Memref sig .tc .vmem S8x256 .f32) = bCol := by unfold bCol; rfl
theorem canon_bCz : (Memref.whole cc0_scratch2 : Memref sig .tc .vmem S3x8x256 .f32) = bCz := by unfold bCz; rfl
theorem canon_bCp : (Memref.whole cc0_scratch3 : Memref sig .tc .vmem S7x8x256 .f32) = bCp := by unfold bCp; rfl
theorem canon_slot_0 (h) : (bCz.slice (Rect.unit (s := S3x8x256) ![0, 0, 0] S1x8x256.size inb_S3x8x256_S1x8x256_0_0_0) h).squeeze S8x256 squeezes_S1x8x256_S8x256 = bSlot 0 := by unfold bCz bSlot; rfl
theorem canon_slot_1 (h) : (bCz.slice (Rect.unit (s := S3x8x256) ![1, 0, 0] S1x8x256.size inb_S3x8x256_S1x8x256_1_0_0) h).squeeze S8x256 squeezes_S1x8x256_S8x256 = bSlot 1 := by unfold bCz bSlot; rfl
theorem canon_slot_2 (h) : (bCz.slice (Rect.unit (s := S3x8x256) ![2, 0, 0] S1x8x256.size inb_S3x8x256_S1x8x256_2_0_0) h).squeeze S8x256 squeezes_S1x8x256_S8x256 = bSlot 2 := by unfold bCz bSlot; rfl
theorem canon_slot_3 (h) : (bCp.slice (Rect.unit (s := S7x8x256) ![0, 0, 0] S1x8x256.size inb_S7x8x256_S1x8x256_0_0_0) h).squeeze S8x256 squeezes_S1x8x256_S8x256 = bSlot 3 := by unfold bCp bSlot; rfl
theorem canon_slot_4 (h) : (bCp.slice (Rect.unit (s := S7x8x256) ![1, 0, 0] S1x8x256.size inb_S7x8x256_S1x8x256_1_0_0) h).squeeze S8x256 squeezes_S1x8x256_S8x256 = bSlot 4 := by unfold bCp bSlot; rfl
theorem canon_slot_5 (h) : (bCp.slice (Rect.unit (s := S7x8x256) ![2, 0, 0] S1x8x256.size inb_S7x8x256_S1x8x256_2_0_0) h).squeeze S8x256 squeezes_S1x8x256_S8x256 = bSlot 5 := by unfold bCp bSlot; rfl
theorem canon_slot_6 (h) : (bCp.slice (Rect.unit (s := S7x8x256) ![3, 0, 0] S1x8x256.size inb_S7x8x256_S1x8x256_3_0_0) h).squeeze S8x256 squeezes_S1x8x256_S8x256 = bSlot 6 := by unfold bCp bSlot; rfl
theorem canon_slot_7 (h) : (bCp.slice (Rect.unit (s := S7x8x256) ![4, 0, 0] S1x8x256.size inb_S7x8x256_S1x8x256_4_0_0) h).squeeze S8x256 squeezes_S1x8x256_S8x256 = bSlot 7 := by unfold bCp bSlot; rfl
theorem canon_slot_8 (h) : (bCp.slice (Rect.unit (s := S7x8x256) ![5, 0, 0] S1x8x256.size inb_S7x8x256_S1x8x256_5_0_0) h).squeeze S8x256 squeezes_S1x8x256_S8x256 = bSlot 8 := by unfold bCp bSlot; rfl
theorem canon_slot_9 (h) : (bCp.slice (Rect.unit (s := S7x8x256) ![6, 0, 0] S1x8x256.size inb_S7x8x256_S1x8x256_6_0_0) h).squeeze S8x256 squeezes_S1x8x256_S8x256 = bSlot 9 := by unfold bCp bSlot; rfl

theorem pts_bX (c : Dev nD) (f : Buf (Elt F) ((c : Thread nD τ).loc cc0_stg0_0)) : ((((c : Thread nD τ).loc cc0_stg0_0) ↦{fullShare} f : sProp 𝕄)) = (bX.view.loc (c : Thread nD τ) ↦[bX.view.set]{fullShare} f) := by unfold bX; rw [View.set_whole]
theorem pts_bT (c : Dev nD) (f : Buf (Elt F) ((c : Thread nD τ).loc cc0_stg1_0)) : ((((c : Thread nD τ).loc cc0_stg1_0) ↦{fullShare} f : sProp 𝕄)) = (bT.view.loc (c : Thread nD τ) ↦[bT.view.set]{fullShare} f) := by unfold bT; rw [View.set_whole]
theorem pts_bWs (c : Dev nD) (f : Buf (Elt F) ((c : Thread nD τ).loc cc0_stg2_0)) : ((((c : Thread nD τ).loc cc0_stg2_0) ↦{fullShare} f : sProp 𝕄)) = (bWs.view.loc (c : Thread nD τ) ↦[bWs.view.set]{fullShare} f) := by unfold bWs; rw [View.set_whole]
theorem pts_bWsh (c : Dev nD) (f : Buf (Elt F) ((c : Thread nD τ).loc cc0_stg3_0)) : ((((c : Thread nD τ).loc cc0_stg3_0) ↦{fullShare} f : sProp 𝕄)) = (bWsh.view.loc (c : Thread nD τ) ↦[bWsh.view.set]{fullShare} f) := by unfold bWsh; rw [View.set_whole]
theorem pts_bO (c : Dev nD) (f : Buf (Elt F) ((c : Thread nD τ).loc cc0_stg4_0)) : ((((c : Thread nD τ).loc cc0_stg4_0) ↦{fullShare} f : sProp 𝕄)) = (bO.view.loc (c : Thread nD τ) ↦[bO.view.set]{fullShare} f) := by unfold bO; rw [View.set_whole]
theorem pts_bMine (c : Dev nD) (f : Buf (Elt F) ((c : Thread nD τ).loc cc0_scratch0)) : ((((c : Thread nD τ).loc cc0_scratch0) ↦{fullShare} f : sProp 𝕄)) = (bMine.view.loc (c : Thread nD τ) ↦[bMine.view.set]{fullShare} f) := by unfold bMine; rw [View.set_whole]
theorem pts_bCol (c : Dev nD) (f : Buf (Elt F) ((c : Thread nD τ).loc cc0_scratch1)) : ((((c : Thread nD τ).loc cc0_scratch1) ↦{fullShare} f : sProp 𝕄)) = (bCol.view.loc (c : Thread nD τ) ↦[bCol.view.set]{fullShare} f) := by unfold bCol; rw [View.set_whole]
theorem pts_bCz (c : Dev nD) (f : Buf (Elt F) ((c : Thread nD τ).loc cc0_scratch2)) : ((((c : Thread nD τ).loc cc0_scratch2) ↦{fullShare} f : sProp 𝕄)) = (bCz.view.loc (c : Thread nD τ) ↦[bCz.view.set]{fullShare} f) := by unfold bCz; rw [View.set_whole]
theorem pts_bCp (c : Dev nD) (f : Buf (Elt F) ((c : Thread nD τ).loc cc0_scratch3)) : ((((c : Thread nD τ).loc cc0_scratch3) ↦{fullShare} f : sProp 𝕄)) = (bCp.view.loc (c : Thread nD τ) ↦[bCp.view.set]{fullShare} f) := by unfold bCp; rw [View.set_whole]
theorem pts_slot_0 (X : Dev nD) (q : PosShare TreeShare) (f : (cc0_scratch2 : Ref sig .tc).ty.Contents (Elt F)) : (((slotM 0).view.loc (X : Thread nD τ) ↦[(slotM 0).view.set]{q} f : sProp 𝕄)) = ((bSlot 0).view.loc (X : Thread nD τ) ↦[(bSlot 0).view.set]{q} f) := by unfold bSlot; rfl
theorem pts_slot_1 (X : Dev nD) (q : PosShare TreeShare) (f : (cc0_scratch2 : Ref sig .tc).ty.Contents (Elt F)) : (((slotM 1).view.loc (X : Thread nD τ) ↦[(slotM 1).view.set]{q} f : sProp 𝕄)) = ((bSlot 1).view.loc (X : Thread nD τ) ↦[(bSlot 1).view.set]{q} f) := by unfold bSlot; rfl
theorem pts_slot_2 (X : Dev nD) (q : PosShare TreeShare) (f : (cc0_scratch2 : Ref sig .tc).ty.Contents (Elt F)) : (((slotM 2).view.loc (X : Thread nD τ) ↦[(slotM 2).view.set]{q} f : sProp 𝕄)) = ((bSlot 2).view.loc (X : Thread nD τ) ↦[(bSlot 2).view.set]{q} f) := by unfold bSlot; rfl
theorem pts_slot_3 (X : Dev nD) (q : PosShare TreeShare) (f : (cc0_scratch3 : Ref sig .tc).ty.Contents (Elt F)) : (((slotM 3).view.loc (X : Thread nD τ) ↦[(slotM 3).view.set]{q} f : sProp 𝕄)) = ((bSlot 3).view.loc (X : Thread nD τ) ↦[(bSlot 3).view.set]{q} f) := by unfold bSlot; rfl
theorem pts_slot_4 (X : Dev nD) (q : PosShare TreeShare) (f : (cc0_scratch3 : Ref sig .tc).ty.Contents (Elt F)) : (((slotM 4).view.loc (X : Thread nD τ) ↦[(slotM 4).view.set]{q} f : sProp 𝕄)) = ((bSlot 4).view.loc (X : Thread nD τ) ↦[(bSlot 4).view.set]{q} f) := by unfold bSlot; rfl
theorem pts_slot_5 (X : Dev nD) (q : PosShare TreeShare) (f : (cc0_scratch3 : Ref sig .tc).ty.Contents (Elt F)) : (((slotM 5).view.loc (X : Thread nD τ) ↦[(slotM 5).view.set]{q} f : sProp 𝕄)) = ((bSlot 5).view.loc (X : Thread nD τ) ↦[(bSlot 5).view.set]{q} f) := by unfold bSlot; rfl
theorem pts_slot_6 (X : Dev nD) (q : PosShare TreeShare) (f : (cc0_scratch3 : Ref sig .tc).ty.Contents (Elt F)) : (((slotM 6).view.loc (X : Thread nD τ) ↦[(slotM 6).view.set]{q} f : sProp 𝕄)) = ((bSlot 6).view.loc (X : Thread nD τ) ↦[(bSlot 6).view.set]{q} f) := by unfold bSlot; rfl
theorem pts_slot_7 (X : Dev nD) (q : PosShare TreeShare) (f : (cc0_scratch3 : Ref sig .tc).ty.Contents (Elt F)) : (((slotM 7).view.loc (X : Thread nD τ) ↦[(slotM 7).view.set]{q} f : sProp 𝕄)) = ((bSlot 7).view.loc (X : Thread nD τ) ↦[(bSlot 7).view.set]{q} f) := by unfold bSlot; rfl
theorem pts_slot_8 (X : Dev nD) (q : PosShare TreeShare) (f : (cc0_scratch3 : Ref sig .tc).ty.Contents (Elt F)) : (((slotM 8).view.loc (X : Thread nD τ) ↦[(slotM 8).view.set]{q} f : sProp 𝕄)) = ((bSlot 8).view.loc (X : Thread nD τ) ↦[(bSlot 8).view.set]{q} f) := by unfold bSlot; rfl
theorem pts_slot_9 (X : Dev nD) (q : PosShare TreeShare) (f : (cc0_scratch3 : Ref sig .tc).ty.Contents (Elt F)) : (((slotM 9).view.loc (X : Thread nD τ) ↦[(slotM 9).view.set]{q} f : sProp 𝕄)) = ((bSlot 9).view.loc (X : Thread nD τ) ↦[(bSlot 9).view.set]{q} f) := by unfold bSlot; rfl

theorem npay_sig_0 (c : Dev nD) : (rd (F := F) m ρ).payload (barCell (peer c 0)) 0 2 = iprop((∃ f : (cc0_scratch2 : Ref sig .tc).ty.Contents (Elt F), ((bSlot 2).view.loc (c : Thread nD τ) ↦[(bSlot 2).view.set]{fullShare} f)) ∗ reached ER (recvCell c 2) 0) := by unfold bSlot; exact payload_sig_0 m ρ c
theorem npay_sig_1 (c : Dev nD) : (rd (F := F) m ρ).payload (barCell (peer c 1)) 0 1 = iprop((∃ f : (cc0_scratch2 : Ref sig .tc).ty.Contents (Elt F), ((bSlot 1).view.loc (c : Thread nD τ) ↦[(bSlot 1).view.set]{fullShare} f)) ∗ reached ER (recvCell c 1) 0) := by unfold bSlot; exact payload_sig_1 m ρ c
theorem npay_sig_2 (c : Dev nD) : (rd (F := F) m ρ).payload (barCell (peer c 2)) 0 0 = iprop((∃ f : (cc0_scratch2 : Ref sig .tc).ty.Contents (Elt F), ((bSlot 0).view.loc (c : Thread nD τ) ↦[(bSlot 0).view.set]{fullShare} f)) ∗ reached ER (recvCell c 0) 0) := by unfold bSlot; exact payload_sig_2 m ρ c
theorem npay_sig_3 (c : Dev nD) : (rd (F := F) m ρ).payload (barCell (peer c 3)) 0 9 = iprop((∃ f : (cc0_scratch3 : Ref sig .tc).ty.Contents (Elt F), ((bSlot 9).view.loc (c : Thread nD τ) ↦[(bSlot 9).view.set]{fullShare} f)) ∗ reached ER (recvCell c 9) 0) := by unfold bSlot; exact payload_sig_3 m ρ c
theorem npay_sig_4 (c : Dev nD) : (rd (F := F) m ρ).payload (barCell (peer c 4)) 0 8 = iprop((∃ f : (cc0_scratch3 : Ref sig .tc).ty.Contents (Elt F), ((bSlot 8).view.loc (c : Thread nD τ) ↦[(bSlot 8).view.set]{fullShare} f)) ∗ reached ER (recvCell c 8) 0) := by unfold bSlot; exact payload_sig_4 m ρ c
theorem npay_sig_5 (c : Dev nD) : (rd (F := F) m ρ).payload (barCell (peer c 5)) 0 7 = iprop((∃ f : (cc0_scratch3 : Ref sig .tc).ty.Contents (Elt F), ((bSlot 7).view.loc (c : Thread nD τ) ↦[(bSlot 7).view.set]{fullShare} f)) ∗ reached ER (recvCell c 7) 0) := by unfold bSlot; exact payload_sig_5 m ρ c
theorem npay_sig_6 (c : Dev nD) : (rd (F := F) m ρ).payload (barCell (peer c 6)) 0 6 = iprop((∃ f : (cc0_scratch3 : Ref sig .tc).ty.Contents (Elt F), ((bSlot 6).view.loc (c : Thread nD τ) ↦[(bSlot 6).view.set]{fullShare} f)) ∗ reached ER (recvCell c 6) 0) := by unfold bSlot; exact payload_sig_6 m ρ c
theorem npay_sig_7 (c : Dev nD) : (rd (F := F) m ρ).payload (barCell (peer c 7)) 0 5 = iprop((∃ f : (cc0_scratch3 : Ref sig .tc).ty.Contents (Elt F), ((bSlot 5).view.loc (c : Thread nD τ) ↦[(bSlot 5).view.set]{fullShare} f)) ∗ reached ER (recvCell c 5) 0) := by unfold bSlot; exact payload_sig_7 m ρ c
theorem npay_sig_8 (c : Dev nD) : (rd (F := F) m ρ).payload (barCell (peer c 8)) 0 4 = iprop((∃ f : (cc0_scratch3 : Ref sig .tc).ty.Contents (Elt F), ((bSlot 4).view.loc (c : Thread nD τ) ↦[(bSlot 4).view.set]{fullShare} f)) ∗ reached ER (recvCell c 4) 0) := by unfold bSlot; exact payload_sig_8 m ρ c
theorem npay_sig_9 (c : Dev nD) : (rd (F := F) m ρ).payload (barCell (peer c 9)) 0 3 = iprop((∃ f : (cc0_scratch3 : Ref sig .tc).ty.Contents (Elt F), ((bSlot 3).view.loc (c : Thread nD τ) ↦[(bSlot 3).view.set]{fullShare} f)) ∗ reached ER (recvCell c 3) 0) := by unfold bSlot; exact payload_sig_9 m ρ c
theorem npay_own_0 (c : Dev nD) : (rd (F := F) m ρ).payload (barCell c) 0 0 = iprop((∃ f : BufTy.Contents (Elt F) (bSlot 0).view.ty, ((bSlot 0).view.loc (peer c 0 : Thread nD τ) ↦[(bSlot 0).view.set]{fullShare} f)) ∗ reached ER (recvCell (peer c 0) 0) 0) := by unfold bSlot; exact payload_own_0 m ρ c
theorem npay_own_1 (c : Dev nD) : (rd (F := F) m ρ).payload (barCell c) 0 1 = iprop((∃ f : BufTy.Contents (Elt F) (bSlot 1).view.ty, ((bSlot 1).view.loc (peer c 1 : Thread nD τ) ↦[(bSlot 1).view.set]{fullShare} f)) ∗ reached ER (recvCell (peer c 1) 1) 0) := by unfold bSlot; exact payload_own_1 m ρ c
theorem npay_own_2 (c : Dev nD) : (rd (F := F) m ρ).payload (barCell c) 0 2 = iprop((∃ f : BufTy.Contents (Elt F) (bSlot 2).view.ty, ((bSlot 2).view.loc (peer c 2 : Thread nD τ) ↦[(bSlot 2).view.set]{fullShare} f)) ∗ reached ER (recvCell (peer c 2) 2) 0) := by unfold bSlot; exact payload_own_2 m ρ c
theorem npay_own_3 (c : Dev nD) : (rd (F := F) m ρ).payload (barCell c) 0 3 = iprop((∃ f : BufTy.Contents (Elt F) (bSlot 3).view.ty, ((bSlot 3).view.loc (peer c 3 : Thread nD τ) ↦[(bSlot 3).view.set]{fullShare} f)) ∗ reached ER (recvCell (peer c 3) 3) 0) := by unfold bSlot; exact payload_own_3 m ρ c
theorem npay_own_4 (c : Dev nD) : (rd (F := F) m ρ).payload (barCell c) 0 4 = iprop((∃ f : BufTy.Contents (Elt F) (bSlot 4).view.ty, ((bSlot 4).view.loc (peer c 4 : Thread nD τ) ↦[(bSlot 4).view.set]{fullShare} f)) ∗ reached ER (recvCell (peer c 4) 4) 0) := by unfold bSlot; exact payload_own_4 m ρ c
theorem npay_own_5 (c : Dev nD) : (rd (F := F) m ρ).payload (barCell c) 0 5 = iprop((∃ f : BufTy.Contents (Elt F) (bSlot 5).view.ty, ((bSlot 5).view.loc (peer c 5 : Thread nD τ) ↦[(bSlot 5).view.set]{fullShare} f)) ∗ reached ER (recvCell (peer c 5) 5) 0) := by unfold bSlot; exact payload_own_5 m ρ c
theorem npay_own_6 (c : Dev nD) : (rd (F := F) m ρ).payload (barCell c) 0 6 = iprop((∃ f : BufTy.Contents (Elt F) (bSlot 6).view.ty, ((bSlot 6).view.loc (peer c 6 : Thread nD τ) ↦[(bSlot 6).view.set]{fullShare} f)) ∗ reached ER (recvCell (peer c 6) 6) 0) := by unfold bSlot; exact payload_own_6 m ρ c
theorem npay_own_7 (c : Dev nD) : (rd (F := F) m ρ).payload (barCell c) 0 7 = iprop((∃ f : BufTy.Contents (Elt F) (bSlot 7).view.ty, ((bSlot 7).view.loc (peer c 7 : Thread nD τ) ↦[(bSlot 7).view.set]{fullShare} f)) ∗ reached ER (recvCell (peer c 7) 7) 0) := by unfold bSlot; exact payload_own_7 m ρ c
theorem npay_own_8 (c : Dev nD) : (rd (F := F) m ρ).payload (barCell c) 0 8 = iprop((∃ f : BufTy.Contents (Elt F) (bSlot 8).view.ty, ((bSlot 8).view.loc (peer c 8 : Thread nD τ) ↦[(bSlot 8).view.set]{fullShare} f)) ∗ reached ER (recvCell (peer c 8) 8) 0) := by unfold bSlot; exact payload_own_8 m ρ c
theorem npay_own_9 (c : Dev nD) : (rd (F := F) m ρ).payload (barCell c) 0 9 = iprop((∃ f : BufTy.Contents (Elt F) (bSlot 9).view.ty, ((bSlot 9).view.loc (peer c 9 : Thread nD τ) ↦[(bSlot 9).view.set]{fullShare} f)) ∗ reached ER (recvCell (peer c 9) 9) 0) := by unfold bSlot; exact payload_own_9 m ρ c
theorem npay_recv_0 (X : Dev nD) (d : Fin 10) : (rd (F := F) m ρ).payload (recvCell X 0) 0 d = ((bSlot 0).view.loc (X : Thread nD τ) ↦[(bSlot 0).view.set]{fullShare} czV m ρ X : sProp 𝕄) := by unfold bSlot; exact (payload_recv m ρ X 0 d).trans (recvPay_0 m ρ X)
theorem npay_recv_1 (X : Dev nD) (d : Fin 10) : (rd (F := F) m ρ).payload (recvCell X 1) 0 d = ((bSlot 1).view.loc (X : Thread nD τ) ↦[(bSlot 1).view.set]{fullShare} czV m ρ X : sProp 𝕄) := by unfold bSlot; exact (payload_recv m ρ X 1 d).trans (recvPay_1 m ρ X)
theorem npay_recv_2 (X : Dev nD) (d : Fin 10) : (rd (F := F) m ρ).payload (recvCell X 2) 0 d = ((bSlot 2).view.loc (X : Thread nD τ) ↦[(bSlot 2).view.set]{fullShare} czV m ρ X : sProp 𝕄) := by unfold bSlot; exact (payload_recv m ρ X 2 d).trans (recvPay_2 m ρ X)
theorem npay_recv_3 (X : Dev nD) (d : Fin 10) : (rd (F := F) m ρ).payload (recvCell X 3) 0 d = ((bSlot 3).view.loc (X : Thread nD τ) ↦[(bSlot 3).view.set]{fullShare} cpV m ρ X : sProp 𝕄) := by unfold bSlot; exact (payload_recv m ρ X 3 d).trans (recvPay_3 m ρ X)
theorem npay_recv_4 (X : Dev nD) (d : Fin 10) : (rd (F := F) m ρ).payload (recvCell X 4) 0 d = ((bSlot 4).view.loc (X : Thread nD τ) ↦[(bSlot 4).view.set]{fullShare} cpV m ρ X : sProp 𝕄) := by unfold bSlot; exact (payload_recv m ρ X 4 d).trans (recvPay_4 m ρ X)
theorem npay_recv_5 (X : Dev nD) (d : Fin 10) : (rd (F := F) m ρ).payload (recvCell X 5) 0 d = ((bSlot 5).view.loc (X : Thread nD τ) ↦[(bSlot 5).view.set]{fullShare} cpV m ρ X : sProp 𝕄) := by unfold bSlot; exact (payload_recv m ρ X 5 d).trans (recvPay_5 m ρ X)
theorem npay_recv_6 (X : Dev nD) (d : Fin 10) : (rd (F := F) m ρ).payload (recvCell X 6) 0 d = ((bSlot 6).view.loc (X : Thread nD τ) ↦[(bSlot 6).view.set]{fullShare} cpV m ρ X : sProp 𝕄) := by unfold bSlot; exact (payload_recv m ρ X 6 d).trans (recvPay_6 m ρ X)
theorem npay_recv_7 (X : Dev nD) (d : Fin 10) : (rd (F := F) m ρ).payload (recvCell X 7) 0 d = ((bSlot 7).view.loc (X : Thread nD τ) ↦[(bSlot 7).view.set]{fullShare} cpV m ρ X : sProp 𝕄) := by unfold bSlot; exact (payload_recv m ρ X 7 d).trans (recvPay_7 m ρ X)
theorem npay_recv_8 (X : Dev nD) (d : Fin 10) : (rd (F := F) m ρ).payload (recvCell X 8) 0 d = ((bSlot 8).view.loc (X : Thread nD τ) ↦[(bSlot 8).view.set]{fullShare} cpV m ρ X : sProp 𝕄) := by unfold bSlot; exact (payload_recv m ρ X 8 d).trans (recvPay_8 m ρ X)
theorem npay_recv_9 (X : Dev nD) (d : Fin 10) : (rd (F := F) m ρ).payload (recvCell X 9) 0 d = ((bSlot 9).view.loc (X : Thread nD τ) ↦[(bSlot 9).view.set]{fullShare} cpV m ρ X : sProp 𝕄) := by unfold bSlot; exact (payload_recv m ρ X 9 d).trans (recvPay_9 m ρ X)
theorem npay_send_0 (X : Dev nD) (d : Fin 10) : (rd (F := F) m ρ).payload (sendCell X 0) 0 d = (bMine.view.loc (X : Thread nD τ) ↦[bMine.view.set]{shareTok fullShare 3 0} mineV m ρ X : sProp 𝕄) := by unfold bMine; exact (payload_send m ρ X 0 d).trans (sendPay_0 m ρ X)
theorem npay_send_1 (X : Dev nD) (d : Fin 10) : (rd (F := F) m ρ).payload (sendCell X 1) 0 d = (bMine.view.loc (X : Thread nD τ) ↦[bMine.view.set]{shareTok fullShare 3 1} mineV m ρ X : sProp 𝕄) := by unfold bMine; exact (payload_send m ρ X 1 d).trans (sendPay_1 m ρ X)
theorem npay_send_2 (X : Dev nD) (d : Fin 10) : (rd (F := F) m ρ).payload (sendCell X 2) 0 d = (bMine.view.loc (X : Thread nD τ) ↦[bMine.view.set]{shareTok fullShare 3 2} mineV m ρ X : sProp 𝕄) := by unfold bMine; exact (payload_send m ρ X 2 d).trans (sendPay_2 m ρ X)
theorem npay_send_3 (X : Dev nD) (d : Fin 10) : (rd (F := F) m ρ).payload (sendCell X 3) 0 d = (bCol.view.loc (X : Thread nD τ) ↦[bCol.view.set]{shareTok fullShare 7 0} colV m ρ X : sProp 𝕄) := by unfold bCol; exact (payload_send m ρ X 3 d).trans (sendPay_3 m ρ X)
theorem npay_send_4 (X : Dev nD) (d : Fin 10) : (rd (F := F) m ρ).payload (sendCell X 4) 0 d = (bCol.view.loc (X : Thread nD τ) ↦[bCol.view.set]{shareTok fullShare 7 1} colV m ρ X : sProp 𝕄) := by unfold bCol; exact (payload_send m ρ X 4 d).trans (sendPay_4 m ρ X)
theorem npay_send_5 (X : Dev nD) (d : Fin 10) : (rd (F := F) m ρ).payload (sendCell X 5) 0 d = (bCol.view.loc (X : Thread nD τ) ↦[bCol.view.set]{shareTok fullShare 7 2} colV m ρ X : sProp 𝕄) := by unfold bCol; exact (payload_send m ρ X 5 d).trans (sendPay_5 m ρ X)
theorem npay_send_6 (X : Dev nD) (d : Fin 10) : (rd (F := F) m ρ).payload (sendCell X 6) 0 d = (bCol.view.loc (X : Thread nD τ) ↦[bCol.view.set]{shareTok fullShare 7 3} colV m ρ X : sProp 𝕄) := by unfold bCol; exact (payload_send m ρ X 6 d).trans (sendPay_6 m ρ X)
theorem npay_send_7 (X : Dev nD) (d : Fin 10) : (rd (F := F) m ρ).payload (sendCell X 7) 0 d = (bCol.view.loc (X : Thread nD τ) ↦[bCol.view.set]{shareTok fullShare 7 4} colV m ρ X : sProp 𝕄) := by unfold bCol; exact (payload_send m ρ X 7 d).trans (sendPay_7 m ρ X)
theorem npay_send_8 (X : Dev nD) (d : Fin 10) : (rd (F := F) m ρ).payload (sendCell X 8) 0 d = (bCol.view.loc (X : Thread nD τ) ↦[bCol.view.set]{shareTok fullShare 7 5} colV m ρ X : sProp 𝕄) := by unfold bCol; exact (payload_send m ρ X 8 d).trans (sendPay_8 m ρ X)
theorem npay_send_9 (X : Dev nD) (d : Fin 10) : (rd (F := F) m ρ).payload (sendCell X 9) 0 d = (bCol.view.loc (X : Thread nD τ) ↦[bCol.view.set]{shareTok fullShare 7 6} colV m ρ X : sProp 𝕄) := by unfold bCol; exact (payload_send m ρ X 9 d).trans (sendPay_9 m ρ X)
theorem xdut_send_0 (X : Dev nD) : (rd (F := F) m ρ).duties ((X : Thread nD τ), SemLoc.dma ((cc0_scratch4.slice (Rect.unit (s := S3) ![0] S1.size inb_S3_S1_0)).squeeze S_ squeezes_S1_S_).sem) 0 = {0} := duties_send m ρ X 0
theorem xamt_send_0 (X : Dev nD) : (rd (F := F) m ρ).amount ((X : Thread nD τ), SemLoc.dma ((cc0_scratch4.slice (Rect.unit (s := S3) ![0] S1.size inb_S3_S1_0)).squeeze S_ squeezes_S1_S_).sem) 0 0 = N := amount_send m ρ X 0 0
theorem xexp_send_0 (X : Dev nD) : (rd (F := F) m ρ).expect ((X : Thread nD τ), SemLoc.dma ((cc0_scratch4.slice (Rect.unit (s := S3) ![0] S1.size inb_S3_S1_0)).squeeze S_ squeezes_S1_S_).sem) 0 = N := expect_send m ρ X 0
theorem xdut_send_1 (X : Dev nD) : (rd (F := F) m ρ).duties ((X : Thread nD τ), SemLoc.dma ((cc0_scratch4.slice (Rect.unit (s := S3) ![1] S1.size inb_S3_S1_1)).squeeze S_ squeezes_S1_S_).sem) 0 = {0} := duties_send m ρ X 1
theorem xamt_send_1 (X : Dev nD) : (rd (F := F) m ρ).amount ((X : Thread nD τ), SemLoc.dma ((cc0_scratch4.slice (Rect.unit (s := S3) ![1] S1.size inb_S3_S1_1)).squeeze S_ squeezes_S1_S_).sem) 0 0 = N := amount_send m ρ X 1 0
theorem xexp_send_1 (X : Dev nD) : (rd (F := F) m ρ).expect ((X : Thread nD τ), SemLoc.dma ((cc0_scratch4.slice (Rect.unit (s := S3) ![1] S1.size inb_S3_S1_1)).squeeze S_ squeezes_S1_S_).sem) 0 = N := expect_send m ρ X 1
theorem xdut_send_2 (X : Dev nD) : (rd (F := F) m ρ).duties ((X : Thread nD τ), SemLoc.dma ((cc0_scratch4.slice (Rect.unit (s := S3) ![2] S1.size inb_S3_S1_2)).squeeze S_ squeezes_S1_S_).sem) 0 = {0} := duties_send m ρ X 2
theorem xamt_send_2 (X : Dev nD) : (rd (F := F) m ρ).amount ((X : Thread nD τ), SemLoc.dma ((cc0_scratch4.slice (Rect.unit (s := S3) ![2] S1.size inb_S3_S1_2)).squeeze S_ squeezes_S1_S_).sem) 0 0 = N := amount_send m ρ X 2 0
theorem xexp_send_2 (X : Dev nD) : (rd (F := F) m ρ).expect ((X : Thread nD τ), SemLoc.dma ((cc0_scratch4.slice (Rect.unit (s := S3) ![2] S1.size inb_S3_S1_2)).squeeze S_ squeezes_S1_S_).sem) 0 = N := expect_send m ρ X 2
theorem xdut_send_3 (X : Dev nD) : (rd (F := F) m ρ).duties ((X : Thread nD τ), SemLoc.dma ((cc0_scratch6.slice (Rect.unit (s := S7) ![0] S1.size inb_S7_S1_0)).squeeze S_ squeezes_S1_S_).sem) 0 = {0} := duties_send m ρ X 3
theorem xamt_send_3 (X : Dev nD) : (rd (F := F) m ρ).amount ((X : Thread nD τ), SemLoc.dma ((cc0_scratch6.slice (Rect.unit (s := S7) ![0] S1.size inb_S7_S1_0)).squeeze S_ squeezes_S1_S_).sem) 0 0 = N := amount_send m ρ X 3 0
theorem xexp_send_3 (X : Dev nD) : (rd (F := F) m ρ).expect ((X : Thread nD τ), SemLoc.dma ((cc0_scratch6.slice (Rect.unit (s := S7) ![0] S1.size inb_S7_S1_0)).squeeze S_ squeezes_S1_S_).sem) 0 = N := expect_send m ρ X 3
theorem xdut_send_4 (X : Dev nD) : (rd (F := F) m ρ).duties ((X : Thread nD τ), SemLoc.dma ((cc0_scratch6.slice (Rect.unit (s := S7) ![1] S1.size inb_S7_S1_1)).squeeze S_ squeezes_S1_S_).sem) 0 = {0} := duties_send m ρ X 4
theorem xamt_send_4 (X : Dev nD) : (rd (F := F) m ρ).amount ((X : Thread nD τ), SemLoc.dma ((cc0_scratch6.slice (Rect.unit (s := S7) ![1] S1.size inb_S7_S1_1)).squeeze S_ squeezes_S1_S_).sem) 0 0 = N := amount_send m ρ X 4 0
theorem xexp_send_4 (X : Dev nD) : (rd (F := F) m ρ).expect ((X : Thread nD τ), SemLoc.dma ((cc0_scratch6.slice (Rect.unit (s := S7) ![1] S1.size inb_S7_S1_1)).squeeze S_ squeezes_S1_S_).sem) 0 = N := expect_send m ρ X 4
theorem xdut_send_5 (X : Dev nD) : (rd (F := F) m ρ).duties ((X : Thread nD τ), SemLoc.dma ((cc0_scratch6.slice (Rect.unit (s := S7) ![2] S1.size inb_S7_S1_2)).squeeze S_ squeezes_S1_S_).sem) 0 = {0} := duties_send m ρ X 5
theorem xamt_send_5 (X : Dev nD) : (rd (F := F) m ρ).amount ((X : Thread nD τ), SemLoc.dma ((cc0_scratch6.slice (Rect.unit (s := S7) ![2] S1.size inb_S7_S1_2)).squeeze S_ squeezes_S1_S_).sem) 0 0 = N := amount_send m ρ X 5 0
theorem xexp_send_5 (X : Dev nD) : (rd (F := F) m ρ).expect ((X : Thread nD τ), SemLoc.dma ((cc0_scratch6.slice (Rect.unit (s := S7) ![2] S1.size inb_S7_S1_2)).squeeze S_ squeezes_S1_S_).sem) 0 = N := expect_send m ρ X 5
theorem xdut_send_6 (X : Dev nD) : (rd (F := F) m ρ).duties ((X : Thread nD τ), SemLoc.dma ((cc0_scratch6.slice (Rect.unit (s := S7) ![3] S1.size inb_S7_S1_3)).squeeze S_ squeezes_S1_S_).sem) 0 = {0} := duties_send m ρ X 6
theorem xamt_send_6 (X : Dev nD) : (rd (F := F) m ρ).amount ((X : Thread nD τ), SemLoc.dma ((cc0_scratch6.slice (Rect.unit (s := S7) ![3] S1.size inb_S7_S1_3)).squeeze S_ squeezes_S1_S_).sem) 0 0 = N := amount_send m ρ X 6 0
theorem xexp_send_6 (X : Dev nD) : (rd (F := F) m ρ).expect ((X : Thread nD τ), SemLoc.dma ((cc0_scratch6.slice (Rect.unit (s := S7) ![3] S1.size inb_S7_S1_3)).squeeze S_ squeezes_S1_S_).sem) 0 = N := expect_send m ρ X 6
theorem xdut_send_7 (X : Dev nD) : (rd (F := F) m ρ).duties ((X : Thread nD τ), SemLoc.dma ((cc0_scratch6.slice (Rect.unit (s := S7) ![4] S1.size inb_S7_S1_4)).squeeze S_ squeezes_S1_S_).sem) 0 = {0} := duties_send m ρ X 7
theorem xamt_send_7 (X : Dev nD) : (rd (F := F) m ρ).amount ((X : Thread nD τ), SemLoc.dma ((cc0_scratch6.slice (Rect.unit (s := S7) ![4] S1.size inb_S7_S1_4)).squeeze S_ squeezes_S1_S_).sem) 0 0 = N := amount_send m ρ X 7 0
theorem xexp_send_7 (X : Dev nD) : (rd (F := F) m ρ).expect ((X : Thread nD τ), SemLoc.dma ((cc0_scratch6.slice (Rect.unit (s := S7) ![4] S1.size inb_S7_S1_4)).squeeze S_ squeezes_S1_S_).sem) 0 = N := expect_send m ρ X 7
theorem xdut_send_8 (X : Dev nD) : (rd (F := F) m ρ).duties ((X : Thread nD τ), SemLoc.dma ((cc0_scratch6.slice (Rect.unit (s := S7) ![5] S1.size inb_S7_S1_5)).squeeze S_ squeezes_S1_S_).sem) 0 = {0} := duties_send m ρ X 8
theorem xamt_send_8 (X : Dev nD) : (rd (F := F) m ρ).amount ((X : Thread nD τ), SemLoc.dma ((cc0_scratch6.slice (Rect.unit (s := S7) ![5] S1.size inb_S7_S1_5)).squeeze S_ squeezes_S1_S_).sem) 0 0 = N := amount_send m ρ X 8 0
theorem xexp_send_8 (X : Dev nD) : (rd (F := F) m ρ).expect ((X : Thread nD τ), SemLoc.dma ((cc0_scratch6.slice (Rect.unit (s := S7) ![5] S1.size inb_S7_S1_5)).squeeze S_ squeezes_S1_S_).sem) 0 = N := expect_send m ρ X 8
theorem xdut_send_9 (X : Dev nD) : (rd (F := F) m ρ).duties ((X : Thread nD τ), SemLoc.dma ((cc0_scratch6.slice (Rect.unit (s := S7) ![6] S1.size inb_S7_S1_6)).squeeze S_ squeezes_S1_S_).sem) 0 = {0} := duties_send m ρ X 9
theorem xamt_send_9 (X : Dev nD) : (rd (F := F) m ρ).amount ((X : Thread nD τ), SemLoc.dma ((cc0_scratch6.slice (Rect.unit (s := S7) ![6] S1.size inb_S7_S1_6)).squeeze S_ squeezes_S1_S_).sem) 0 0 = N := amount_send m ρ X 9 0
theorem xexp_send_9 (X : Dev nD) : (rd (F := F) m ρ).expect ((X : Thread nD τ), SemLoc.dma ((cc0_scratch6.slice (Rect.unit (s := S7) ![6] S1.size inb_S7_S1_6)).squeeze S_ squeezes_S1_S_).sem) 0 = N := expect_send m ρ X 9
theorem xdut_recv_0 (X : Dev nD) : (rd (F := F) m ρ).duties ((X : Thread nD τ), SemLoc.dma ((cc0_scratch5.slice (Rect.unit (s := S3) ![0] S1.size inb_S3_S1_0)).squeeze S_ squeezes_S1_S_).sem) 0 = {0} := duties_recv m ρ X 0
theorem xamt_recv_0 (X : Dev nD) : (rd (F := F) m ρ).amount ((X : Thread nD τ), SemLoc.dma ((cc0_scratch5.slice (Rect.unit (s := S3) ![0] S1.size inb_S3_S1_0)).squeeze S_ squeezes_S1_S_).sem) 0 0 = N := amount_recv m ρ X 0 0
theorem xexp_recv_0 (X : Dev nD) : (rd (F := F) m ρ).expect ((X : Thread nD τ), SemLoc.dma ((cc0_scratch5.slice (Rect.unit (s := S3) ![0] S1.size inb_S3_S1_0)).squeeze S_ squeezes_S1_S_).sem) 0 = N := expect_recv m ρ X 0
theorem xdut_recv_1 (X : Dev nD) : (rd (F := F) m ρ).duties ((X : Thread nD τ), SemLoc.dma ((cc0_scratch5.slice (Rect.unit (s := S3) ![1] S1.size inb_S3_S1_1)).squeeze S_ squeezes_S1_S_).sem) 0 = {0} := duties_recv m ρ X 1
theorem xamt_recv_1 (X : Dev nD) : (rd (F := F) m ρ).amount ((X : Thread nD τ), SemLoc.dma ((cc0_scratch5.slice (Rect.unit (s := S3) ![1] S1.size inb_S3_S1_1)).squeeze S_ squeezes_S1_S_).sem) 0 0 = N := amount_recv m ρ X 1 0
theorem xexp_recv_1 (X : Dev nD) : (rd (F := F) m ρ).expect ((X : Thread nD τ), SemLoc.dma ((cc0_scratch5.slice (Rect.unit (s := S3) ![1] S1.size inb_S3_S1_1)).squeeze S_ squeezes_S1_S_).sem) 0 = N := expect_recv m ρ X 1
theorem xdut_recv_2 (X : Dev nD) : (rd (F := F) m ρ).duties ((X : Thread nD τ), SemLoc.dma ((cc0_scratch5.slice (Rect.unit (s := S3) ![2] S1.size inb_S3_S1_2)).squeeze S_ squeezes_S1_S_).sem) 0 = {0} := duties_recv m ρ X 2
theorem xamt_recv_2 (X : Dev nD) : (rd (F := F) m ρ).amount ((X : Thread nD τ), SemLoc.dma ((cc0_scratch5.slice (Rect.unit (s := S3) ![2] S1.size inb_S3_S1_2)).squeeze S_ squeezes_S1_S_).sem) 0 0 = N := amount_recv m ρ X 2 0
theorem xexp_recv_2 (X : Dev nD) : (rd (F := F) m ρ).expect ((X : Thread nD τ), SemLoc.dma ((cc0_scratch5.slice (Rect.unit (s := S3) ![2] S1.size inb_S3_S1_2)).squeeze S_ squeezes_S1_S_).sem) 0 = N := expect_recv m ρ X 2
theorem xdut_recv_3 (X : Dev nD) : (rd (F := F) m ρ).duties ((X : Thread nD τ), SemLoc.dma ((cc0_scratch7.slice (Rect.unit (s := S7) ![0] S1.size inb_S7_S1_0)).squeeze S_ squeezes_S1_S_).sem) 0 = {0} := duties_recv m ρ X 3
theorem xamt_recv_3 (X : Dev nD) : (rd (F := F) m ρ).amount ((X : Thread nD τ), SemLoc.dma ((cc0_scratch7.slice (Rect.unit (s := S7) ![0] S1.size inb_S7_S1_0)).squeeze S_ squeezes_S1_S_).sem) 0 0 = N := amount_recv m ρ X 3 0
theorem xexp_recv_3 (X : Dev nD) : (rd (F := F) m ρ).expect ((X : Thread nD τ), SemLoc.dma ((cc0_scratch7.slice (Rect.unit (s := S7) ![0] S1.size inb_S7_S1_0)).squeeze S_ squeezes_S1_S_).sem) 0 = N := expect_recv m ρ X 3
theorem xdut_recv_4 (X : Dev nD) : (rd (F := F) m ρ).duties ((X : Thread nD τ), SemLoc.dma ((cc0_scratch7.slice (Rect.unit (s := S7) ![1] S1.size inb_S7_S1_1)).squeeze S_ squeezes_S1_S_).sem) 0 = {0} := duties_recv m ρ X 4
theorem xamt_recv_4 (X : Dev nD) : (rd (F := F) m ρ).amount ((X : Thread nD τ), SemLoc.dma ((cc0_scratch7.slice (Rect.unit (s := S7) ![1] S1.size inb_S7_S1_1)).squeeze S_ squeezes_S1_S_).sem) 0 0 = N := amount_recv m ρ X 4 0
theorem xexp_recv_4 (X : Dev nD) : (rd (F := F) m ρ).expect ((X : Thread nD τ), SemLoc.dma ((cc0_scratch7.slice (Rect.unit (s := S7) ![1] S1.size inb_S7_S1_1)).squeeze S_ squeezes_S1_S_).sem) 0 = N := expect_recv m ρ X 4
theorem xdut_recv_5 (X : Dev nD) : (rd (F := F) m ρ).duties ((X : Thread nD τ), SemLoc.dma ((cc0_scratch7.slice (Rect.unit (s := S7) ![2] S1.size inb_S7_S1_2)).squeeze S_ squeezes_S1_S_).sem) 0 = {0} := duties_recv m ρ X 5
theorem xamt_recv_5 (X : Dev nD) : (rd (F := F) m ρ).amount ((X : Thread nD τ), SemLoc.dma ((cc0_scratch7.slice (Rect.unit (s := S7) ![2] S1.size inb_S7_S1_2)).squeeze S_ squeezes_S1_S_).sem) 0 0 = N := amount_recv m ρ X 5 0
theorem xexp_recv_5 (X : Dev nD) : (rd (F := F) m ρ).expect ((X : Thread nD τ), SemLoc.dma ((cc0_scratch7.slice (Rect.unit (s := S7) ![2] S1.size inb_S7_S1_2)).squeeze S_ squeezes_S1_S_).sem) 0 = N := expect_recv m ρ X 5
theorem xdut_recv_6 (X : Dev nD) : (rd (F := F) m ρ).duties ((X : Thread nD τ), SemLoc.dma ((cc0_scratch7.slice (Rect.unit (s := S7) ![3] S1.size inb_S7_S1_3)).squeeze S_ squeezes_S1_S_).sem) 0 = {0} := duties_recv m ρ X 6
theorem xamt_recv_6 (X : Dev nD) : (rd (F := F) m ρ).amount ((X : Thread nD τ), SemLoc.dma ((cc0_scratch7.slice (Rect.unit (s := S7) ![3] S1.size inb_S7_S1_3)).squeeze S_ squeezes_S1_S_).sem) 0 0 = N := amount_recv m ρ X 6 0
theorem xexp_recv_6 (X : Dev nD) : (rd (F := F) m ρ).expect ((X : Thread nD τ), SemLoc.dma ((cc0_scratch7.slice (Rect.unit (s := S7) ![3] S1.size inb_S7_S1_3)).squeeze S_ squeezes_S1_S_).sem) 0 = N := expect_recv m ρ X 6
theorem xdut_recv_7 (X : Dev nD) : (rd (F := F) m ρ).duties ((X : Thread nD τ), SemLoc.dma ((cc0_scratch7.slice (Rect.unit (s := S7) ![4] S1.size inb_S7_S1_4)).squeeze S_ squeezes_S1_S_).sem) 0 = {0} := duties_recv m ρ X 7
theorem xamt_recv_7 (X : Dev nD) : (rd (F := F) m ρ).amount ((X : Thread nD τ), SemLoc.dma ((cc0_scratch7.slice (Rect.unit (s := S7) ![4] S1.size inb_S7_S1_4)).squeeze S_ squeezes_S1_S_).sem) 0 0 = N := amount_recv m ρ X 7 0
theorem xexp_recv_7 (X : Dev nD) : (rd (F := F) m ρ).expect ((X : Thread nD τ), SemLoc.dma ((cc0_scratch7.slice (Rect.unit (s := S7) ![4] S1.size inb_S7_S1_4)).squeeze S_ squeezes_S1_S_).sem) 0 = N := expect_recv m ρ X 7
theorem xdut_recv_8 (X : Dev nD) : (rd (F := F) m ρ).duties ((X : Thread nD τ), SemLoc.dma ((cc0_scratch7.slice (Rect.unit (s := S7) ![5] S1.size inb_S7_S1_5)).squeeze S_ squeezes_S1_S_).sem) 0 = {0} := duties_recv m ρ X 8
theorem xamt_recv_8 (X : Dev nD) : (rd (F := F) m ρ).amount ((X : Thread nD τ), SemLoc.dma ((cc0_scratch7.slice (Rect.unit (s := S7) ![5] S1.size inb_S7_S1_5)).squeeze S_ squeezes_S1_S_).sem) 0 0 = N := amount_recv m ρ X 8 0
theorem xexp_recv_8 (X : Dev nD) : (rd (F := F) m ρ).expect ((X : Thread nD τ), SemLoc.dma ((cc0_scratch7.slice (Rect.unit (s := S7) ![5] S1.size inb_S7_S1_5)).squeeze S_ squeezes_S1_S_).sem) 0 = N := expect_recv m ρ X 8
theorem xdut_recv_9 (X : Dev nD) : (rd (F := F) m ρ).duties ((X : Thread nD τ), SemLoc.dma ((cc0_scratch7.slice (Rect.unit (s := S7) ![6] S1.size inb_S7_S1_6)).squeeze S_ squeezes_S1_S_).sem) 0 = {0} := duties_recv m ρ X 9
theorem xamt_recv_9 (X : Dev nD) : (rd (F := F) m ρ).amount ((X : Thread nD τ), SemLoc.dma ((cc0_scratch7.slice (Rect.unit (s := S7) ![6] S1.size inb_S7_S1_6)).squeeze S_ squeezes_S1_S_).sem) 0 0 = N := amount_recv m ρ X 9 0
theorem xexp_recv_9 (X : Dev nD) : (rd (F := F) m ρ).expect ((X : Thread nD τ), SemLoc.dma ((cc0_scratch7.slice (Rect.unit (s := S7) ![6] S1.size inb_S7_S1_6)).squeeze S_ squeezes_S1_S_).sem) 0 = N := expect_recv m ρ X 9
theorem xpay_recv_0 (X : Dev nD) : (rd (F := F) m ρ).payload ((X : Thread nD τ), SemLoc.dma ((cc0_scratch5.slice (Rect.unit (s := S3) ![0] S1.size inb_S3_S1_0)).squeeze S_ squeezes_S1_S_).sem) 0 0 = ((bSlot 0).view.loc (X : Thread nD τ) ↦[(bSlot 0).view.set]{fullShare} czV m ρ X : sProp 𝕄) := npay_recv_0 m ρ X 0
theorem xpay_recv_1 (X : Dev nD) : (rd (F := F) m ρ).payload ((X : Thread nD τ), SemLoc.dma ((cc0_scratch5.slice (Rect.unit (s := S3) ![1] S1.size inb_S3_S1_1)).squeeze S_ squeezes_S1_S_).sem) 0 0 = ((bSlot 1).view.loc (X : Thread nD τ) ↦[(bSlot 1).view.set]{fullShare} czV m ρ X : sProp 𝕄) := npay_recv_1 m ρ X 0
theorem xpay_recv_2 (X : Dev nD) : (rd (F := F) m ρ).payload ((X : Thread nD τ), SemLoc.dma ((cc0_scratch5.slice (Rect.unit (s := S3) ![2] S1.size inb_S3_S1_2)).squeeze S_ squeezes_S1_S_).sem) 0 0 = ((bSlot 2).view.loc (X : Thread nD τ) ↦[(bSlot 2).view.set]{fullShare} czV m ρ X : sProp 𝕄) := npay_recv_2 m ρ X 0
theorem xpay_recv_3 (X : Dev nD) : (rd (F := F) m ρ).payload ((X : Thread nD τ), SemLoc.dma ((cc0_scratch7.slice (Rect.unit (s := S7) ![0] S1.size inb_S7_S1_0)).squeeze S_ squeezes_S1_S_).sem) 0 0 = ((bSlot 3).view.loc (X : Thread nD τ) ↦[(bSlot 3).view.set]{fullShare} cpV m ρ X : sProp 𝕄) := npay_recv_3 m ρ X 0
theorem xpay_recv_4 (X : Dev nD) : (rd (F := F) m ρ).payload ((X : Thread nD τ), SemLoc.dma ((cc0_scratch7.slice (Rect.unit (s := S7) ![1] S1.size inb_S7_S1_1)).squeeze S_ squeezes_S1_S_).sem) 0 0 = ((bSlot 4).view.loc (X : Thread nD τ) ↦[(bSlot 4).view.set]{fullShare} cpV m ρ X : sProp 𝕄) := npay_recv_4 m ρ X 0
theorem xpay_recv_5 (X : Dev nD) : (rd (F := F) m ρ).payload ((X : Thread nD τ), SemLoc.dma ((cc0_scratch7.slice (Rect.unit (s := S7) ![2] S1.size inb_S7_S1_2)).squeeze S_ squeezes_S1_S_).sem) 0 0 = ((bSlot 5).view.loc (X : Thread nD τ) ↦[(bSlot 5).view.set]{fullShare} cpV m ρ X : sProp 𝕄) := npay_recv_5 m ρ X 0
theorem xpay_recv_6 (X : Dev nD) : (rd (F := F) m ρ).payload ((X : Thread nD τ), SemLoc.dma ((cc0_scratch7.slice (Rect.unit (s := S7) ![3] S1.size inb_S7_S1_3)).squeeze S_ squeezes_S1_S_).sem) 0 0 = ((bSlot 6).view.loc (X : Thread nD τ) ↦[(bSlot 6).view.set]{fullShare} cpV m ρ X : sProp 𝕄) := npay_recv_6 m ρ X 0
theorem xpay_recv_7 (X : Dev nD) : (rd (F := F) m ρ).payload ((X : Thread nD τ), SemLoc.dma ((cc0_scratch7.slice (Rect.unit (s := S7) ![4] S1.size inb_S7_S1_4)).squeeze S_ squeezes_S1_S_).sem) 0 0 = ((bSlot 7).view.loc (X : Thread nD τ) ↦[(bSlot 7).view.set]{fullShare} cpV m ρ X : sProp 𝕄) := npay_recv_7 m ρ X 0
theorem xpay_recv_8 (X : Dev nD) : (rd (F := F) m ρ).payload ((X : Thread nD τ), SemLoc.dma ((cc0_scratch7.slice (Rect.unit (s := S7) ![5] S1.size inb_S7_S1_5)).squeeze S_ squeezes_S1_S_).sem) 0 0 = ((bSlot 8).view.loc (X : Thread nD τ) ↦[(bSlot 8).view.set]{fullShare} cpV m ρ X : sProp 𝕄) := npay_recv_8 m ρ X 0
theorem xpay_recv_9 (X : Dev nD) : (rd (F := F) m ρ).payload ((X : Thread nD τ), SemLoc.dma ((cc0_scratch7.slice (Rect.unit (s := S7) ![6] S1.size inb_S7_S1_6)).squeeze S_ squeezes_S1_S_).sem) 0 0 = ((bSlot 9).view.loc (X : Thread nD τ) ↦[(bSlot 9).view.set]{fullShare} cpV m ρ X : sProp 𝕄) := npay_recv_9 m ρ X 0
theorem xpay_send_0 (X : Dev nD) : (rd (F := F) m ρ).payload ((X : Thread nD τ), SemLoc.dma ((cc0_scratch4.slice (Rect.unit (s := S3) ![0] S1.size inb_S3_S1_0)).squeeze S_ squeezes_S1_S_).sem) 0 0 = (bMine.view.loc (X : Thread nD τ) ↦[bMine.view.set]{shareTok fullShare 3 0} mineV m ρ X : sProp 𝕄) := npay_send_0 m ρ X 0
theorem xpay_send_1 (X : Dev nD) : (rd (F := F) m ρ).payload ((X : Thread nD τ), SemLoc.dma ((cc0_scratch4.slice (Rect.unit (s := S3) ![1] S1.size inb_S3_S1_1)).squeeze S_ squeezes_S1_S_).sem) 0 0 = (bMine.view.loc (X : Thread nD τ) ↦[bMine.view.set]{shareTok fullShare 3 1} mineV m ρ X : sProp 𝕄) := npay_send_1 m ρ X 0
theorem xpay_send_2 (X : Dev nD) : (rd (F := F) m ρ).payload ((X : Thread nD τ), SemLoc.dma ((cc0_scratch4.slice (Rect.unit (s := S3) ![2] S1.size inb_S3_S1_2)).squeeze S_ squeezes_S1_S_).sem) 0 0 = (bMine.view.loc (X : Thread nD τ) ↦[bMine.view.set]{shareTok fullShare 3 2} mineV m ρ X : sProp 𝕄) := npay_send_2 m ρ X 0
theorem xpay_send_3 (X : Dev nD) : (rd (F := F) m ρ).payload ((X : Thread nD τ), SemLoc.dma ((cc0_scratch6.slice (Rect.unit (s := S7) ![0] S1.size inb_S7_S1_0)).squeeze S_ squeezes_S1_S_).sem) 0 0 = (bCol.view.loc (X : Thread nD τ) ↦[bCol.view.set]{shareTok fullShare 7 0} colV m ρ X : sProp 𝕄) := npay_send_3 m ρ X 0
theorem xpay_send_4 (X : Dev nD) : (rd (F := F) m ρ).payload ((X : Thread nD τ), SemLoc.dma ((cc0_scratch6.slice (Rect.unit (s := S7) ![1] S1.size inb_S7_S1_1)).squeeze S_ squeezes_S1_S_).sem) 0 0 = (bCol.view.loc (X : Thread nD τ) ↦[bCol.view.set]{shareTok fullShare 7 1} colV m ρ X : sProp 𝕄) := npay_send_4 m ρ X 0
theorem xpay_send_5 (X : Dev nD) : (rd (F := F) m ρ).payload ((X : Thread nD τ), SemLoc.dma ((cc0_scratch6.slice (Rect.unit (s := S7) ![2] S1.size inb_S7_S1_2)).squeeze S_ squeezes_S1_S_).sem) 0 0 = (bCol.view.loc (X : Thread nD τ) ↦[bCol.view.set]{shareTok fullShare 7 2} colV m ρ X : sProp 𝕄) := npay_send_5 m ρ X 0
theorem xpay_send_6 (X : Dev nD) : (rd (F := F) m ρ).payload ((X : Thread nD τ), SemLoc.dma ((cc0_scratch6.slice (Rect.unit (s := S7) ![3] S1.size inb_S7_S1_3)).squeeze S_ squeezes_S1_S_).sem) 0 0 = (bCol.view.loc (X : Thread nD τ) ↦[bCol.view.set]{shareTok fullShare 7 3} colV m ρ X : sProp 𝕄) := npay_send_6 m ρ X 0
theorem xpay_send_7 (X : Dev nD) : (rd (F := F) m ρ).payload ((X : Thread nD τ), SemLoc.dma ((cc0_scratch6.slice (Rect.unit (s := S7) ![4] S1.size inb_S7_S1_4)).squeeze S_ squeezes_S1_S_).sem) 0 0 = (bCol.view.loc (X : Thread nD τ) ↦[bCol.view.set]{shareTok fullShare 7 4} colV m ρ X : sProp 𝕄) := npay_send_7 m ρ X 0
theorem xpay_send_8 (X : Dev nD) : (rd (F := F) m ρ).payload ((X : Thread nD τ), SemLoc.dma ((cc0_scratch6.slice (Rect.unit (s := S7) ![5] S1.size inb_S7_S1_5)).squeeze S_ squeezes_S1_S_).sem) 0 0 = (bCol.view.loc (X : Thread nD τ) ↦[bCol.view.set]{shareTok fullShare 7 5} colV m ρ X : sProp 𝕄) := npay_send_8 m ρ X 0
theorem xpay_send_9 (X : Dev nD) : (rd (F := F) m ρ).payload ((X : Thread nD τ), SemLoc.dma ((cc0_scratch6.slice (Rect.unit (s := S7) ![6] S1.size inb_S7_S1_6)).squeeze S_ squeezes_S1_S_).sem) 0 0 = (bCol.view.loc (X : Thread nD τ) ↦[bCol.view.set]{shareTok fullShare 7 6} colV m ρ X : sProp 𝕄) := npay_send_9 m ρ X 0
theorem slot_credit_0 : (bSlot 0).view.dmaCredit = N := by unfold bSlot; rfl
theorem slot_amount_0 (s : DmaSem sig) : (bSlot 0).view.amount (SemLoc.dma s) = N := by unfold bSlot; rfl
theorem slot_credit_1 : (bSlot 1).view.dmaCredit = N := by unfold bSlot; rfl
theorem slot_amount_1 (s : DmaSem sig) : (bSlot 1).view.amount (SemLoc.dma s) = N := by unfold bSlot; rfl
theorem slot_credit_2 : (bSlot 2).view.dmaCredit = N := by unfold bSlot; rfl
theorem slot_amount_2 (s : DmaSem sig) : (bSlot 2).view.amount (SemLoc.dma s) = N := by unfold bSlot; rfl
theorem slot_credit_3 : (bSlot 3).view.dmaCredit = N := by unfold bSlot; rfl
theorem slot_amount_3 (s : DmaSem sig) : (bSlot 3).view.amount (SemLoc.dma s) = N := by unfold bSlot; rfl
theorem slot_credit_4 : (bSlot 4).view.dmaCredit = N := by unfold bSlot; rfl
theorem slot_amount_4 (s : DmaSem sig) : (bSlot 4).view.amount (SemLoc.dma s) = N := by unfold bSlot; rfl
theorem slot_credit_5 : (bSlot 5).view.dmaCredit = N := by unfold bSlot; rfl
theorem slot_amount_5 (s : DmaSem sig) : (bSlot 5).view.amount (SemLoc.dma s) = N := by unfold bSlot; rfl
theorem slot_credit_6 : (bSlot 6).view.dmaCredit = N := by unfold bSlot; rfl
theorem slot_amount_6 (s : DmaSem sig) : (bSlot 6).view.amount (SemLoc.dma s) = N := by unfold bSlot; rfl
theorem slot_credit_7 : (bSlot 7).view.dmaCredit = N := by unfold bSlot; rfl
theorem slot_amount_7 (s : DmaSem sig) : (bSlot 7).view.amount (SemLoc.dma s) = N := by unfold bSlot; rfl
theorem slot_credit_8 : (bSlot 8).view.dmaCredit = N := by unfold bSlot; rfl
theorem slot_amount_8 (s : DmaSem sig) : (bSlot 8).view.amount (SemLoc.dma s) = N := by unfold bSlot; rfl
theorem slot_credit_9 : (bSlot 9).view.dmaCredit = N := by unfold bSlot; rfl
theorem slot_amount_9 (s : DmaSem sig) : (bSlot 9).view.amount (SemLoc.dma s) = N := by unfold bSlot; rfl
theorem mine_credit : bMine.view.dmaCredit = N := by unfold bMine; rfl
theorem col_credit : bCol.view.dmaCredit = N := by unfold bCol; rfl
theorem landed_0 (c : Dev nD) (fd : BufTy.Contents (Elt F) (bSlot 0).view.ty) : ((bSlot 0).view.loc (peer c 0 : Thread nD τ) ↦[(bSlot 0).view.set]{fullShare} View.write (Elt F) (bSlot 0).view fd (View.read (Elt F) bMine.view (mineV m ρ c)) Finset.univ : sProp 𝕄) ⊢ (rd (F := F) m ρ).payload (recvCell (peer c 0) 0) 0 0 := by
  have h := recvPay_of_land_0 m ρ (peer c 0) fd
  rw [src_peer] at h
  unfold bSlot bMine
  exact h.trans (Entails.of_eq (payload_recv m ρ (peer c 0) 0 0).symm)
theorem landed_1 (c : Dev nD) (fd : BufTy.Contents (Elt F) (bSlot 1).view.ty) : ((bSlot 1).view.loc (peer c 1 : Thread nD τ) ↦[(bSlot 1).view.set]{fullShare} View.write (Elt F) (bSlot 1).view fd (View.read (Elt F) bMine.view (mineV m ρ c)) Finset.univ : sProp 𝕄) ⊢ (rd (F := F) m ρ).payload (recvCell (peer c 1) 1) 0 0 := by
  have h := recvPay_of_land_1 m ρ (peer c 1) fd
  rw [src_peer] at h
  unfold bSlot bMine
  exact h.trans (Entails.of_eq (payload_recv m ρ (peer c 1) 1 0).symm)
theorem landed_2 (c : Dev nD) (fd : BufTy.Contents (Elt F) (bSlot 2).view.ty) : ((bSlot 2).view.loc (peer c 2 : Thread nD τ) ↦[(bSlot 2).view.set]{fullShare} View.write (Elt F) (bSlot 2).view fd (View.read (Elt F) bMine.view (mineV m ρ c)) Finset.univ : sProp 𝕄) ⊢ (rd (F := F) m ρ).payload (recvCell (peer c 2) 2) 0 0 := by
  have h := recvPay_of_land_2 m ρ (peer c 2) fd
  rw [src_peer] at h
  unfold bSlot bMine
  exact h.trans (Entails.of_eq (payload_recv m ρ (peer c 2) 2 0).symm)
theorem landed_3 (c : Dev nD) (fd : BufTy.Contents (Elt F) (bSlot 3).view.ty) : ((bSlot 3).view.loc (peer c 3 : Thread nD τ) ↦[(bSlot 3).view.set]{fullShare} View.write (Elt F) (bSlot 3).view fd (View.read (Elt F) bCol.view (colV m ρ c)) Finset.univ : sProp 𝕄) ⊢ (rd (F := F) m ρ).payload (recvCell (peer c 3) 3) 0 0 := by
  have h := recvPay_of_land_3 m ρ (peer c 3) fd
  rw [src_peer] at h
  unfold bSlot bCol
  exact h.trans (Entails.of_eq (payload_recv m ρ (peer c 3) 3 0).symm)
theorem landed_4 (c : Dev nD) (fd : BufTy.Contents (Elt F) (bSlot 4).view.ty) : ((bSlot 4).view.loc (peer c 4 : Thread nD τ) ↦[(bSlot 4).view.set]{fullShare} View.write (Elt F) (bSlot 4).view fd (View.read (Elt F) bCol.view (colV m ρ c)) Finset.univ : sProp 𝕄) ⊢ (rd (F := F) m ρ).payload (recvCell (peer c 4) 4) 0 0 := by
  have h := recvPay_of_land_4 m ρ (peer c 4) fd
  rw [src_peer] at h
  unfold bSlot bCol
  exact h.trans (Entails.of_eq (payload_recv m ρ (peer c 4) 4 0).symm)
theorem landed_5 (c : Dev nD) (fd : BufTy.Contents (Elt F) (bSlot 5).view.ty) : ((bSlot 5).view.loc (peer c 5 : Thread nD τ) ↦[(bSlot 5).view.set]{fullShare} View.write (Elt F) (bSlot 5).view fd (View.read (Elt F) bCol.view (colV m ρ c)) Finset.univ : sProp 𝕄) ⊢ (rd (F := F) m ρ).payload (recvCell (peer c 5) 5) 0 0 := by
  have h := recvPay_of_land_5 m ρ (peer c 5) fd
  rw [src_peer] at h
  unfold bSlot bCol
  exact h.trans (Entails.of_eq (payload_recv m ρ (peer c 5) 5 0).symm)
theorem landed_6 (c : Dev nD) (fd : BufTy.Contents (Elt F) (bSlot 6).view.ty) : ((bSlot 6).view.loc (peer c 6 : Thread nD τ) ↦[(bSlot 6).view.set]{fullShare} View.write (Elt F) (bSlot 6).view fd (View.read (Elt F) bCol.view (colV m ρ c)) Finset.univ : sProp 𝕄) ⊢ (rd (F := F) m ρ).payload (recvCell (peer c 6) 6) 0 0 := by
  have h := recvPay_of_land_6 m ρ (peer c 6) fd
  rw [src_peer] at h
  unfold bSlot bCol
  exact h.trans (Entails.of_eq (payload_recv m ρ (peer c 6) 6 0).symm)
theorem landed_7 (c : Dev nD) (fd : BufTy.Contents (Elt F) (bSlot 7).view.ty) : ((bSlot 7).view.loc (peer c 7 : Thread nD τ) ↦[(bSlot 7).view.set]{fullShare} View.write (Elt F) (bSlot 7).view fd (View.read (Elt F) bCol.view (colV m ρ c)) Finset.univ : sProp 𝕄) ⊢ (rd (F := F) m ρ).payload (recvCell (peer c 7) 7) 0 0 := by
  have h := recvPay_of_land_7 m ρ (peer c 7) fd
  rw [src_peer] at h
  unfold bSlot bCol
  exact h.trans (Entails.of_eq (payload_recv m ρ (peer c 7) 7 0).symm)
theorem landed_8 (c : Dev nD) (fd : BufTy.Contents (Elt F) (bSlot 8).view.ty) : ((bSlot 8).view.loc (peer c 8 : Thread nD τ) ↦[(bSlot 8).view.set]{fullShare} View.write (Elt F) (bSlot 8).view fd (View.read (Elt F) bCol.view (colV m ρ c)) Finset.univ : sProp 𝕄) ⊢ (rd (F := F) m ρ).payload (recvCell (peer c 8) 8) 0 0 := by
  have h := recvPay_of_land_8 m ρ (peer c 8) fd
  rw [src_peer] at h
  unfold bSlot bCol
  exact h.trans (Entails.of_eq (payload_recv m ρ (peer c 8) 8 0).symm)
theorem landed_9 (c : Dev nD) (fd : BufTy.Contents (Elt F) (bSlot 9).view.ty) : ((bSlot 9).view.loc (peer c 9 : Thread nD τ) ↦[(bSlot 9).view.set]{fullShare} View.write (Elt F) (bSlot 9).view fd (View.read (Elt F) bCol.view (colV m ρ c)) Finset.univ : sProp 𝕄) ⊢ (rd (F := F) m ρ).payload (recvCell (peer c 9) 9) 0 0 := by
  have h := recvPay_of_land_9 m ρ (peer c 9) fd
  rw [src_peer] at h
  unfold bSlot bCol
  exact h.trans (Entails.of_eq (payload_recv m ρ (peer c 9) 9 0).symm)

end Cert.KernelIdealProof

end
-- ==== Proof.KernelIdealWrites.lean ====
/-
  What the stores of the body leave in each buffer, as the list of its writes, is the canonical contents.

  A load of a whole buffer through the rectangle at the origin of the buffer's own sizes reads its contents, and a
  store through that rectangle leaves its payload; the row-sum buffer's two stores through its two halves leave the
  row sums whatever it held before.
-/
import proofs.«900767_g7700000000000768_dist_diff_adaln_cshard_i_b4_s256_c128_v7x_i32_bf16_1_alg».proof.Proof.KernelIdealNames
import proofs.«900767_g7700000000000768_dist_diff_adaln_cshard_i_b4_s256_c128_v7x_i32_bf16_1_alg».proof.Proof.KernelIdealPages
import Idealize.ShloMosaic.Lib.Writes

noncomputable section

namespace Cert.KernelIdealProof

open Cert.KernelIdeal Cert.KernelIdeal.Gen Cert.Mesh

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

theorem zeros2 : (![0, 0] : Fin 2 → ℕ) = fun _ => 0 := by decide
theorem zeros3 : (![0, 0, 0] : Fin 3 → ℕ) = fun _ => 0 := by decide

/-! ## Whole-buffer loads and stores through the rectangle at the origin -/

theorem readAt_bX (f : (cc0_stg0_0 : Ref sig .tc).ty.Contents (Elt F)) :
    View.readAt (Elt F) bX.view (Rect.unit (s := S4x256x128) ![0, 0, 0] S4x256x128.size inb_S4x256x128_S4x256x128_0_0_0).toLoadRect f = f :=
  Memref.readAt_unit_zero (Elt F) cc0_stg0_0 zeros3 inb_S4x256x128_S4x256x128_0_0_0 f

theorem writes_bX (f : (cc0_stg0_0 : Ref sig .tc).ty.Contents (Elt F)) (w : S4x256x128.Idx → Elt F .f32) :
    bX.view.writes (Elt F) f [⟨(Rect.unit (s := S4x256x128) ![0, 0, 0] S4x256x128.size inb_S4x256x128_S4x256x128_0_0_0), w⟩] = w :=
  Memref.write_access_unit_zero_univ (Elt F) cc0_stg0_0 zeros3 inb_S4x256x128_S4x256x128_0_0_0 f w

theorem readAt_bT (f : (cc0_stg1_0 : Ref sig .tc).ty.Contents (Elt F)) :
    View.readAt (Elt F) bT.view (Rect.unit (s := S4x128) ![0, 0] S4x128.size inb_S4x128_S4x128_0_0).toLoadRect f = f :=
  Memref.readAt_unit_zero (Elt F) cc0_stg1_0 zeros2 inb_S4x128_S4x128_0_0 f

theorem writes_bT (f : (cc0_stg1_0 : Ref sig .tc).ty.Contents (Elt F)) (w : S4x128.Idx → Elt F .f32) :
    bT.view.writes (Elt F) f [⟨(Rect.unit (s := S4x128) ![0, 0] S4x128.size inb_S4x128_S4x128_0_0), w⟩] = w :=
  Memref.write_access_unit_zero_univ (Elt F) cc0_stg1_0 zeros2 inb_S4x128_S4x128_0_0 f w

theorem readAt_bWs (f : (cc0_stg2_0 : Ref sig .tc).ty.Contents (Elt F)) :
    View.readAt (Elt F) bWs.view (Rect.unit (s := S128x128) ![0, 0] S128x128.size inb_S128x128_S128x128_0_0).toLoadRect f = f :=
  Memref.readAt_unit_zero (Elt F) cc0_stg2_0 zeros2 inb_S128x128_S128x128_0_0 f

theorem writes_bWs (f : (cc0_stg2_0 : Ref sig .tc).ty.Contents (Elt F)) (w : S128x128.Idx → Elt F .f32) :
    bWs.view.writes (Elt F) f [⟨(Rect.unit (s := S128x128) ![0, 0] S128x128.size inb_S128x128_S128x128_0_0), w⟩] = w :=
  Memref.write_access_unit_zero_univ (Elt F) cc0_stg2_0 zeros2 inb_S128x128_S128x128_0_0 f w

theorem readAt_bWsh (f : (cc0_stg3_0 : Ref sig .tc).ty.Contents (Elt F)) :
    View.readAt (Elt F) bWsh.view (Rect.unit (s := S128x128) ![0, 0] S128x128.size inb_S128x128_S128x128_0_0).toLoadRect f = f :=
  Memref.readAt_unit_zero (Elt F) cc0_stg3_0 zeros2 inb_S128x128_S128x128_0_0 f

theorem writes_bWsh (f : (cc0_stg3_0 : Ref sig .tc).ty.Contents (Elt F)) (w : S128x128.Idx → Elt F .f32) :
    bWsh.view.writes (Elt F) f [⟨(Rect.unit (s := S128x128) ![0, 0] S128x128.size inb_S128x128_S128x128_0_0), w⟩] = w :=
  Memref.write_access_unit_zero_univ (Elt F) cc0_stg3_0 zeros2 inb_S128x128_S128x128_0_0 f w

theorem readAt_bO (f : (cc0_stg4_0 : Ref sig .tc).ty.Contents (Elt F)) :
    View.readAt (Elt F) bO.view (Rect.unit (s := S4x256x128) ![0, 0, 0] S4x256x128.size inb_S4x256x128_S4x256x128_0_0_0).toLoadRect f = f :=
  Memref.readAt_unit_zero (Elt F) cc0_stg4_0 zeros3 inb_S4x256x128_S4x256x128_0_0_0 f

theorem writes_bO (f : (cc0_stg4_0 : Ref sig .tc).ty.Contents (Elt F)) (w : S4x256x128.Idx → Elt F .f32) :
    bO.view.writes (Elt F) f [⟨(Rect.unit (s := S4x256x128) ![0, 0, 0] S4x256x128.size inb_S4x256x128_S4x256x128_0_0_0), w⟩] = w :=
  Memref.write_access_unit_zero_univ (Elt F) cc0_stg4_0 zeros3 inb_S4x256x128_S4x256x128_0_0_0 f w

theorem readAt_bMine (f : (cc0_scratch0 : Ref sig .tc).ty.Contents (Elt F)) :
    View.readAt (Elt F) bMine.view (Rect.unit (s := S8x256) ![0, 0] S8x256.size inb_S8x256_S8x256_0_0).toLoadRect f = f :=
  Memref.readAt_unit_zero (Elt F) cc0_scratch0 zeros2 inb_S8x256_S8x256_0_0 f

theorem writes_bMine (f : (cc0_scratch0 : Ref sig .tc).ty.Contents (Elt F)) (w : S8x256.Idx → Elt F .f32) :
    bMine.view.writes (Elt F) f [⟨(Rect.unit (s := S8x256) ![0, 0] S8x256.size inb_S8x256_S8x256_0_0), w⟩] = w :=
  Memref.write_access_unit_zero_univ (Elt F) cc0_scratch0 zeros2 inb_S8x256_S8x256_0_0 f w

theorem readAt_bCol (f : (cc0_scratch1 : Ref sig .tc).ty.Contents (Elt F)) :
    View.readAt (Elt F) bCol.view (Rect.unit (s := S8x256) ![0, 0] S8x256.size inb_S8x256_S8x256_0_0).toLoadRect f = f :=
  Memref.readAt_unit_zero (Elt F) cc0_scratch1 zeros2 inb_S8x256_S8x256_0_0 f

theorem writes_bCol (f : (cc0_scratch1 : Ref sig .tc).ty.Contents (Elt F)) (w : S8x256.Idx → Elt F .f32) :
    bCol.view.writes (Elt F) f [⟨(Rect.unit (s := S8x256) ![0, 0] S8x256.size inb_S8x256_S8x256_0_0), w⟩] = w :=
  Memref.write_access_unit_zero_univ (Elt F) cc0_scratch1 zeros2 inb_S8x256_S8x256_0_0 f w

theorem readAt_bCz (f : (cc0_scratch2 : Ref sig .tc).ty.Contents (Elt F)) :
    View.readAt (Elt F) bCz.view (Rect.unit (s := S3x8x256) ![0, 0, 0] S3x8x256.size inb_S3x8x256_S3x8x256_0_0_0).toLoadRect f = f :=
  Memref.readAt_unit_zero (Elt F) cc0_scratch2 zeros3 inb_S3x8x256_S3x8x256_0_0_0 f

theorem writes_bCz (f : (cc0_scratch2 : Ref sig .tc).ty.Contents (Elt F)) (w : S3x8x256.Idx → Elt F .f32) :
    bCz.view.writes (Elt F) f [⟨(Rect.unit (s := S3x8x256) ![0, 0, 0] S3x8x256.size inb_S3x8x256_S3x8x256_0_0_0), w⟩] = w :=
  Memref.write_access_unit_zero_univ (Elt F) cc0_scratch2 zeros3 inb_S3x8x256_S3x8x256_0_0_0 f w

theorem readAt_bCp (f : (cc0_scratch3 : Ref sig .tc).ty.Contents (Elt F)) :
    View.readAt (Elt F) bCp.view (Rect.unit (s := S7x8x256) ![0, 0, 0] S7x8x256.size inb_S7x8x256_S7x8x256_0_0_0).toLoadRect f = f :=
  Memref.readAt_unit_zero (Elt F) cc0_scratch3 zeros3 inb_S7x8x256_S7x8x256_0_0_0 f

theorem writes_bCp (f : (cc0_scratch3 : Ref sig .tc).ty.Contents (Elt F)) (w : S7x8x256.Idx → Elt F .f32) :
    bCp.view.writes (Elt F) f [⟨(Rect.unit (s := S7x8x256) ![0, 0, 0] S7x8x256.size inb_S7x8x256_S7x8x256_0_0_0), w⟩] = w :=
  Memref.write_access_unit_zero_univ (Elt F) cc0_scratch3 zeros3 inb_S7x8x256_S7x8x256_0_0_0 f w

variable (m : (ℓ : Loc nD τ sig) → Buf (Elt F) ℓ) (ρ : Dev nD → PrngReg)

/-! ## The three stored buffers -/

/-- The row-sum buffer after its two stores, over whatever it held. -/
theorem mine_writes (c : Dev nD) (f0 : Buf (Elt F) ((c : Thread nD τ).loc cc0_scratch0)) :
    bMine.view.writes (Elt F) f0
      [⟨Rect.unit (s := S8x256) ![4, 0] S4x256.size inb_S8x256_S4x256_4_0, k0_pay3 (View.readAt (Elt F) bX.view (Rect.unit (s := S4x256x128) ![0, 0, 0] S4x256x128.size inb_S4x256x128_S4x256x128_0_0_0).toLoadRect (xb m ρ c))⟩,
       ⟨Rect.unit (s := S8x256) ![0, 0] S4x256.size inb_S8x256_S4x256_0_0, k0_pay2 (View.readAt (Elt F) bX.view (Rect.unit (s := S4x256x128) ![0, 0, 0] S4x256x128.size inb_S4x256x128_S4x256x128_0_0_0).toLoadRect (xb m ρ c))⟩]
      = mineV m ρ c := by
  rw [readAt_bX]
  exact mineOf_eq_mineV m ρ f0 c

/-- The column-group sums after their store. -/
theorem col_writes (c : Dev nD) (f1 : Buf (Elt F) ((c : Thread nD τ).loc cc0_scratch1)) :
    bCol.view.writes (Elt F) f1
      [⟨Rect.unit (s := S8x256) ![0, 0] S8x256.size inb_S8x256_S8x256_0_0,
        k0_pay7 (View.readAt (Elt F) bMine.view (Rect.unit (s := S8x256) ![0, 0] S8x256.size inb_S8x256_S8x256_0_0).toLoadRect (mineV m ρ c)) (View.readAt (Elt F) bCz.view (Rect.unit (s := S3x8x256) ![0, 0, 0] S3x8x256.size inb_S3x8x256_S3x8x256_0_0_0).toLoadRect (czV m ρ c))⟩]
      = colV m ρ c := by
  rw [readAt_bMine, readAt_bCz]
  exact writes_bCol f1 _

/-- The result block after its store. -/
theorem out_writes (c : Dev nD) (g4 : Buf (Elt F) ((c : Thread nD τ).loc cc0_stg4_0)) :
    bO.view.writes (Elt F) g4
      [⟨Rect.unit (s := S4x256x128) ![0, 0, 0] S4x256x128.size inb_S4x256x128_S4x256x128_0_0_0,
        k0_pay11 (k0_pay1 (View.readAt (Elt F) bX.view (Rect.unit (s := S4x256x128) ![0, 0, 0] S4x256x128.size inb_S4x256x128_S4x256x128_0_0_0).toLoadRect (xb m ρ c))) (k0_pay5 (View.readAt (Elt F) bT.view (Rect.unit (s := S4x128) ![0, 0] S4x128.size inb_S4x128_S4x128_0_0).toLoadRect (tb m ρ c)) (View.readAt (Elt F) bWs.view (Rect.unit (s := S128x128) ![0, 0] S128x128.size inb_S128x128_S128x128_0_0).toLoadRect (wsb m ρ c)))
          (k0_pay6 (View.readAt (Elt F) bT.view (Rect.unit (s := S4x128) ![0, 0] S4x128.size inb_S4x128_S4x128_0_0).toLoadRect (tb m ρ c)) (View.readAt (Elt F) bWsh.view (Rect.unit (s := S128x128) ![0, 0] S128x128.size inb_S128x128_S128x128_0_0).toLoadRect (wshb m ρ c)))
          (k0_pay9 (View.readAt (Elt F) bCol.view (Rect.unit (s := S8x256) ![0, 0] S8x256.size inb_S8x256_S8x256_0_0).toLoadRect (colV m ρ c)) (View.readAt (Elt F) bCp.view (Rect.unit (s := S7x8x256) ![0, 0, 0] S7x8x256.size inb_S7x8x256_S7x8x256_0_0_0).toLoadRect (cpV m ρ c)))
          (k0_pay10 (View.readAt (Elt F) bCol.view (Rect.unit (s := S8x256) ![0, 0] S8x256.size inb_S8x256_S8x256_0_0).toLoadRect (colV m ρ c)) (View.readAt (Elt F) bCp.view (Rect.unit (s := S7x8x256) ![0, 0, 0] S7x8x256.size inb_S7x8x256_S7x8x256_0_0_0).toLoadRect (cpV m ρ c))) (Scalar.ofBits .f32 0x45800000#32)⟩]
      = outV m ρ c := by
  rw [readAt_bX, readAt_bT, readAt_bWs, readAt_bWsh, readAt_bCol, readAt_bCp]
  exact writes_bO g4 _

/-- info: 'Cert.KernelIdealProof.mine_writes' depends on axioms: [propext, Classical.choice, Quot.sound] -/
#guard_msgs in #print axioms mine_writes
/-- info: 'Cert.KernelIdealProof.col_writes' depends on axioms: [propext, Classical.choice, Quot.sound] -/
#guard_msgs in #print axioms col_writes
/-- info: 'Cert.KernelIdealProof.out_writes' depends on axioms: [propext, Classical.choice, Quot.sound] -/
#guard_msgs in #print axioms out_writes

end Cert.KernelIdealProof

end
-- ==== Proof.KernelIdealBody.lean ====
/-
  One device's body under the protocol: ten barrier signals, the row sums, the barrier wait, the column
  group's three copies and their landings, the column-group sums, the row group's seven copies and their
  landings, the normalised and modulated block, and the ten read-out waits.
-/
import proofs.«900767_g7700000000000768_dist_diff_adaln_cshard_i_b4_s256_c128_v7x_i32_bf16_1_alg».proof.Proof.KernelIdealSched
import proofs.«900767_g7700000000000768_dist_diff_adaln_cshard_i_b4_s256_c128_v7x_i32_bf16_1_alg».proof.Proof.KernelIdealRdTables
import proofs.«900767_g7700000000000768_dist_diff_adaln_cshard_i_b4_s256_c128_v7x_i32_bf16_1_alg».proof.Proof.KernelIdealNames
import proofs.«900767_g7700000000000768_dist_diff_adaln_cshard_i_b4_s256_c128_v7x_i32_bf16_1_alg».proof.Proof.KernelIdealPages
import proofs.«900767_g7700000000000768_dist_diff_adaln_cshard_i_b4_s256_c128_v7x_i32_bf16_1_alg».proof.Proof.KernelIdealWrites
import Idealize.ShloMosaic.Lib.Pipeline.Launch
import Idealize.ShloMosaic.Lib.Pipeline.Kit
import Idealize.ShloMosaic.Lib.Transfers
import Idealize.ShloMosaic.Lib.Tactic

noncomputable section

namespace Cert.KernelIdealProof
namespace Body

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

theorem bigSep_fin10 (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem bigSep_fin20 (Φ : Fin 20 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- What device c owes at launch, summand by summand. -/
theorem OR_eq (c : Dev nD) : OR c = tallyAt (recvCell (peer c 0) 0) () N + (tallyAt (recvCell (peer c 1) 1) () N + (tallyAt (recvCell (peer c 2) 2) () N
    + (tallyAt (recvCell (peer c 3) 3) () N + (tallyAt (recvCell (peer c 4) 4) () N + (tallyAt (recvCell (peer c 5) 5) () N + (tallyAt (recvCell (peer c 6) 6) () N
    + (tallyAt (recvCell (peer c 7) 7) () N + (tallyAt (recvCell (peer c 8) 8) () N + tallyAt (recvCell (peer c 9) 9) () N)))))))) := by
  unfold OR
  simp only [Fin.sum_univ_succ, Fin.sum_univ_zero, add_zero]
  rfl
theorem OS_eq (c : Dev nD) : OS c = tallyAt (barCell (peer c 0)) () 1 + (tallyAt (barCell (peer c 1)) () 1 + (tallyAt (barCell (peer c 2)) () 1
    + (tallyAt (barCell (peer c 3)) () 1 + (tallyAt (barCell (peer c 4)) () 1 + (tallyAt (barCell (peer c 5)) () 1 + (tallyAt (barCell (peer c 6)) () 1
    + (tallyAt (barCell (peer c 7)) () 1 + (tallyAt (barCell (peer c 8)) () 1 + tallyAt (barCell (peer c 9)) () 1)))))))) := by
  unfold OS
  simp only [Fin.sum_univ_succ, Fin.sum_univ_zero, add_zero]
  rfl

/-! ## The invariants and open-round facts one device's body uses -/

theorem csem_ixS : ∀ i : Fin 10, csem (ixS i) = .dma (sendS i).sem := by decide
theorem csem_ixR : ∀ i : Fin 10, csem (ixR i) = .dma (recvS i).sem := by decide
theorem kcell_B (c : Dev nD) : kcell (c, ixB) = barCell c := rfl
theorem kcell_S (c : Dev nD) (i : Fin 10) : kcell (c, ixS i) = sendCell c i := by
  show ((c : Thread nD τ), csem (ixS i)) = _; rw [csem_ixS]
theorem kcell_R (c : Dev nD) (i : Fin 10) : kcell (c, ixR i) = recvCell c i := by
  show ((c : Thread nD τ), csem (ixR i)) = _; rw [csem_ixR]

theorem inv_at (K : Dev nD × Fin 21 → ℕ) (ck : Dev nD × Fin 21) :
    (bigSep Finset.univ fun ck : Dev nD × Fin 21 => (cellInv ER (rd m ρ) (K ck) (kcell ck) : sProp 𝕄)) ⊢ cellInv ER (rd m ρ) (K ck) (kcell ck) :=
  bigSep_elim (Finset.mem_univ ck)
theorem reached_at (ck : Dev nD × Fin 21) :
    (bigSep Finset.univ fun ck : Dev nD × Fin 21 => (reached ER (kcell ck) 0 : sProp 𝕄)) ⊢ reached ER (kcell ck) 0 :=
  bigSep_elim (Finset.mem_univ ck)

theorem inv_of (K : Dev nD × Fin 21 → ℕ) (ck : Dev nD × Fin 21) (g : GSem nD τ sig) (hg : kcell ck = g) :
    records m ρ K ⊢ cellInv ER (rd m ρ) (K ck) g := by
  subst hg; unfold records
  iintro ⟨#HI, -⟩
  iapply (inv_at m ρ K ck); iexact HI
theorem reached_of (K : Dev nD × Fin 21 → ℕ) (ck : Dev nD × Fin 21) (g : GSem nD τ sig) (hg : kcell ck = g) :
    records m ρ K ⊢ reached ER g 0 := by
  subst hg; unfold records
  iintro ⟨-, #HR⟩
  iapply (reached_at (F := F) ck); iexact HR

def invsOf (K : Dev nD × Fin 21 → ℕ) (c : Dev nD) : sProp 𝕄 :=
  iprop(cellInv ER (rd m ρ) (K (c, ixB)) (barCell c)
    ∗ (bigSep Finset.univ fun i : Fin 10 => cellInv ER (rd m ρ) (K (c, ixS i)) (sendCell c i))
    ∗ (bigSep Finset.univ fun i : Fin 10 => cellInv ER (rd m ρ) (K (c, ixR i)) (recvCell c i))
    ∗ (bigSep Finset.univ fun i : Fin 10 => cellInv ER (rd m ρ) (K (peer c i, ixB)) (barCell (peer c i)))
    ∗ (bigSep Finset.univ fun i : Fin 10 => cellInv ER (rd m ρ) (K (peer c i, ixR i)) (recvCell (peer c i) i))
    ∗ (bigSep Finset.univ fun i : Fin 10 => reached ER (sendCell c i) 0)
    ∗ (bigSep Finset.univ fun i : Fin 10 => reached ER (recvCell c i) 0)
    ∗ (bigSep Finset.univ fun i : Fin 10 => reached ER (barCell (peer c i)) 0)
    ∗ (bigSep Finset.univ fun i : Fin 10 => reached ER (recvCell (peer c i) i) 0))

theorem records_elim (K : Dev nD × Fin 21 → ℕ) (c : Dev nD) : records m ρ K ⊢ invsOf m ρ K c := by
  unfold invsOf
  iintro #H
  isplitr; · iapply (inv_of m ρ K (c, ixB) _ (kcell_B c)); iexact H
  isplitr; · iapply (BI.bigSep_intro_persistent fun i _ => inv_of m ρ K (c, ixS i) _ (kcell_S c i)); iexact H
  isplitr; · iapply (BI.bigSep_intro_persistent fun i _ => inv_of m ρ K (c, ixR i) _ (kcell_R c i)); iexact H
  isplitr; · iapply (BI.bigSep_intro_persistent fun i _ => inv_of m ρ K (peer c i, ixB) _ (kcell_B (peer c i))); iexact H
  isplitr; · iapply (BI.bigSep_intro_persistent fun i _ => inv_of m ρ K (peer c i, ixR i) _ (kcell_R (peer c i) i)); iexact H
  isplitr; · iapply (BI.bigSep_intro_persistent fun i _ => reached_of m ρ K (c, ixS i) _ (kcell_S c i)); iexact H
  isplitr; · iapply (BI.bigSep_intro_persistent fun i _ => reached_of m ρ K (c, ixR i) _ (kcell_R c i)); iexact H
  isplitr; · iapply (BI.bigSep_intro_persistent fun i _ => reached_of m ρ K (peer c i, ixB) _ (kcell_B (peer c i))); iexact H
  iapply (BI.bigSep_intro_persistent fun i _ => reached_of m ρ K (peer c i, ixR i) _ (kcell_R (peer c i) i)); iexact H

/-- A whole buffer's points-to, read through its memref's view (the form the symbolic run holds buffers in). -/
theorem pts_view (c : Dev nD) (b : Ref sig .tc) (f : Buf (Elt F) ((c : Thread nD τ).loc b)) :
    ((((c : Thread nD τ).loc b) ↦{fullShare} f : sProp 𝕄))
      = ((Memref.whole b).view.loc (c : Thread nD τ) ↦[(Memref.whole b).view.set]{fullShare} f) := by
  rw [View.set_whole]

/-! ## What is left to pay -/

/-- Device c's payments in REVERSE program order: the landing of copy 9 first, …, the landing of copy 0,
    then the signal to peer 9, …, the signal to peer 0 last. -/
def payRev (c : Dev nD) : ℕ → CellTallies nD τ sig Unit
  | 0 => tallyAt (recvCell (peer c 9) 9) () N
  | 1 => tallyAt (recvCell (peer c 8) 8) () N
  | 2 => tallyAt (recvCell (peer c 7) 7) () N
  | 3 => tallyAt (recvCell (peer c 6) 6) () N
  | 4 => tallyAt (recvCell (peer c 5) 5) () N
  | 5 => tallyAt (recvCell (peer c 4) 4) () N
  | 6 => tallyAt (recvCell (peer c 3) 3) () N
  | 7 => tallyAt (recvCell (peer c 2) 2) () N
  | 8 => tallyAt (recvCell (peer c 1) 1) () N
  | 9 => tallyAt (recvCell (peer c 0) 0) () N
  | 10 => tallyAt (barCell (peer c 9)) () 1
  | 11 => tallyAt (barCell (peer c 8)) () 1
  | 12 => tallyAt (barCell (peer c 7)) () 1
  | 13 => tallyAt (barCell (peer c 6)) () 1
  | 14 => tallyAt (barCell (peer c 5)) () 1
  | 15 => tallyAt (barCell (peer c 4)) () 1
  | 16 => tallyAt (barCell (peer c 3)) () 1
  | 17 => tallyAt (barCell (peer c 2)) () 1
  | 18 => tallyAt (barCell (peer c 1)) () 1
  | 19 => tallyAt (barCell (peer c 0)) () 1
  | _ + 20 => 0

/-- What device c owes while its last n payments are still to come: n = 20 at launch, 10 after the ten signals,
    7 after the column group's copies, 0 at the end. -/
def owe (c : Dev nD) : ℕ → CellTallies nD τ sig Unit
  | 0 => 0
  | n + 1 => owe c n + payRev c n

theorem owe_10 (c : Dev nD) : owe c 10 = OR c := by
  have h : owe c 10 = 0 + tallyAt (recvCell (peer c 9) 9) () N + tallyAt (recvCell (peer c 8) 8) () N + tallyAt (recvCell (peer c 7) 7) () N
      + tallyAt (recvCell (peer c 6) 6) () N + tallyAt (recvCell (peer c 5) 5) () N + tallyAt (recvCell (peer c 4) 4) () N + tallyAt (recvCell (peer c 3) 3) () N
      + tallyAt (recvCell (peer c 2) 2) () N + tallyAt (recvCell (peer c 1) 1) () N + tallyAt (recvCell (peer c 0) 0) () N := rfl
  rw [h, OR_eq]; abel
theorem owe_20 (c : Dev nD) : O₀ c = owe c 20 := by
  have h : owe c 20 = owe c 10 + tallyAt (barCell (peer c 9)) () 1 + tallyAt (barCell (peer c 8)) () 1 + tallyAt (barCell (peer c 7)) () 1
      + tallyAt (barCell (peer c 6)) () 1 + tallyAt (barCell (peer c 5)) () 1 + tallyAt (barCell (peer c 4)) () 1 + tallyAt (barCell (peer c 3)) () 1
      + tallyAt (barCell (peer c 2)) () 1 + tallyAt (barCell (peer c 1)) () 1 + tallyAt (barCell (peer c 0)) () 1 := rfl
  rw [h, owe_10]; unfold O₀; rw [OS_eq]; abel
theorem owe_7_pos {c : Dev nD} {g : GSem nD τ sig} {u : Unit} (h : 0 < owe c 7 g u) : ∃ i : Fin 10, 3 ≤ i.val ∧ g = recvCell (peer c i) i := by
  have e : owe c 7 = 0 + tallyAt (recvCell (peer c 9) 9) () N + tallyAt (recvCell (peer c 8) 8) () N + tallyAt (recvCell (peer c 7) 7) () N
      + tallyAt (recvCell (peer c 6) 6) () N + tallyAt (recvCell (peer c 5) 5) () N + tallyAt (recvCell (peer c 4) 4) () N + tallyAt (recvCell (peer c 3) 3) () N := rfl
  rw [e] at h
  rcases Pipeline.add_pos_cases h with h | h
  · rcases Pipeline.add_pos_cases h with h | h
    · rcases Pipeline.add_pos_cases h with h | h
      · rcases Pipeline.add_pos_cases h with h | h
        · rcases Pipeline.add_pos_cases h with h | h
          · rcases Pipeline.add_pos_cases h with h | h
            · rcases Pipeline.add_pos_cases h with h | h
              · exact absurd h (Nat.lt_irrefl 0)
              · exact ⟨9, by decide, tallyAt_pos h⟩
            · exact ⟨8, by decide, tallyAt_pos h⟩
          · exact ⟨7, by decide, tallyAt_pos h⟩
        · exact ⟨6, by decide, tallyAt_pos h⟩
      · exact ⟨5, by decide, tallyAt_pos h⟩
    · exact ⟨4, by decide, tallyAt_pos h⟩
  · exact ⟨3, by decide, tallyAt_pos h⟩

theorem mayWait_bar' (c : Dev nD) : (levAts L lv : sProp 𝕄) ⊢ MayWait (c : Thread nD τ) (.reg barS) () (owe c 10) := by
  rw [owe_10]; exact mayWait_bar c
/-- A wait on any DMA cell of level at most 2 while only the row group's landings are owed. -/
theorem mayWait_low (c : Dev nD) (s : DmaSem sig) (hs : lv ((c : Thread nD τ), SemLoc.dma s) () ≤ 2) :
    (levAts L lv : sProp 𝕄) ⊢ MayWait (c : Thread nD τ) (.dma s) () (owe c 7) :=
  mayWait_cut c _ _ 2 hs fun g u hg => by
    obtain ⟨j, hj, rfl⟩ := owe_7_pos hg
    refine ⟨rfl, ?_⟩
    rw [lv_recv, if_neg (by omega)]; decide

/-- Each payment in turn, peeled off what is owed. -/
theorem peelB0 (c : Dev nD) : owe c 20 = owe c 19 + tallyAt (barCell (peer c 0)) () 1 := rfl
theorem peelB1 (c : Dev nD) : owe c 19 = owe c 18 + tallyAt (barCell (peer c 1)) () 1 := rfl
theorem peelB2 (c : Dev nD) : owe c 18 = owe c 17 + tallyAt (barCell (peer c 2)) () 1 := rfl
theorem peelB3 (c : Dev nD) : owe c 17 = owe c 16 + tallyAt (barCell (peer c 3)) () 1 := rfl
theorem peelB4 (c : Dev nD) : owe c 16 = owe c 15 + tallyAt (barCell (peer c 4)) () 1 := rfl
theorem peelB5 (c : Dev nD) : owe c 15 = owe c 14 + tallyAt (barCell (peer c 5)) () 1 := rfl
theorem peelB6 (c : Dev nD) : owe c 14 = owe c 13 + tallyAt (barCell (peer c 6)) () 1 := rfl
theorem peelB7 (c : Dev nD) : owe c 13 = owe c 12 + tallyAt (barCell (peer c 7)) () 1 := rfl
theorem peelB8 (c : Dev nD) : owe c 12 = owe c 11 + tallyAt (barCell (peer c 8)) () 1 := rfl
theorem peelB9 (c : Dev nD) : owe c 11 = owe c 10 + tallyAt (barCell (peer c 9)) () 1 := rfl
theorem peelR0 (c : Dev nD) : owe c 10 = owe c 9 + tallyAt (recvCell (peer c 0) 0) () N := rfl
theorem peelR1 (c : Dev nD) : owe c 9 = owe c 8 + tallyAt (recvCell (peer c 1) 1) () N := rfl
theorem peelR2 (c : Dev nD) : owe c 8 = owe c 7 + tallyAt (recvCell (peer c 2) 2) () N := rfl
theorem peelR3 (c : Dev nD) : owe c 7 = owe c 6 + tallyAt (recvCell (peer c 3) 3) () N := rfl
theorem peelR4 (c : Dev nD) : owe c 6 = owe c 5 + tallyAt (recvCell (peer c 4) 4) () N := rfl
theorem peelR5 (c : Dev nD) : owe c 5 = owe c 4 + tallyAt (recvCell (peer c 5) 5) () N := rfl
theorem peelR6 (c : Dev nD) : owe c 4 = owe c 3 + tallyAt (recvCell (peer c 6) 6) () N := rfl
theorem peelR7 (c : Dev nD) : owe c 3 = owe c 2 + tallyAt (recvCell (peer c 7) 7) () N := rfl
theorem peelR8 (c : Dev nD) : owe c 2 = owe c 1 + tallyAt (recvCell (peer c 8) 8) () N := rfl
theorem peelR9 (c : Dev nD) : owe c 1 = 0 + tallyAt (recvCell (peer c 9) 9) () N := rfl

/-- The column group's landing buffer, whole again from its three pages at their final contents. -/
theorem join_cz (c : Dev nD) :
    iprop(((bSlot 0).view.loc (c : Thread nD τ) ↦[(bSlot 0).view.set]{fullShare} czV m ρ c)
        ∗ ((bSlot 1).view.loc (c : Thread nD τ) ↦[(bSlot 1).view.set]{fullShare} czV m ρ c)
        ∗ ((bSlot 2).view.loc (c : Thread nD τ) ↦[(bSlot 2).view.set]{fullShare} czV m ρ c))
      ⊢ (bCz.view.loc (c : Thread nD τ) ↦[bCz.view.set]{fullShare} czV m ρ c : sProp 𝕄) := by
  rw [← pts_slot_0, ← pts_slot_1, ← pts_slot_2, ← recvPay_0, ← recvPay_1, ← recvPay_2, ← pts_bCz]
  exact (cz_join m ρ c).1
/-- The row group's landing buffer, whole again from its seven pages. -/
theorem join_cp (c : Dev nD) :
    iprop(((bSlot 3).view.loc (c : Thread nD τ) ↦[(bSlot 3).view.set]{fullShare} cpV m ρ c)
        ∗ ((bSlot 4).view.loc (c : Thread nD τ) ↦[(bSlot 4).view.set]{fullShare} cpV m ρ c)
        ∗ ((bSlot 5).view.loc (c : Thread nD τ) ↦[(bSlot 5).view.set]{fullShare} cpV m ρ c)
        ∗ ((bSlot 6).view.loc (c : Thread nD τ) ↦[(bSlot 6).view.set]{fullShare} cpV m ρ c)
        ∗ ((bSlot 7).view.loc (c : Thread nD τ) ↦[(bSlot 7).view.set]{fullShare} cpV m ρ c)
        ∗ ((bSlot 8).view.loc (c : Thread nD τ) ↦[(bSlot 8).view.set]{fullShare} cpV m ρ c)
        ∗ ((bSlot 9).view.loc (c : Thread nD τ) ↦[(bSlot 9).view.set]{fullShare} cpV m ρ c))
      ⊢ (bCp.view.loc (c : Thread nD τ) ↦[bCp.view.set]{fullShare} cpV m ρ c : sProp 𝕄) := by
  rw [← pts_slot_3, ← pts_slot_4, ← pts_slot_5, ← pts_slot_6, ← pts_slot_7, ← pts_slot_8, ← pts_slot_9,
    ← recvPay_3, ← recvPay_4, ← recvPay_5, ← recvPay_6, ← recvPay_7, ← recvPay_8, ← recvPay_9, ← pts_bCp]
  exact (cp_join m ρ c).1

/-- Three read shares of the row sums for the three copies, the rest kept for the loads; and back. -/
theorem split_mine (c : Dev nD) :
    (bMine.view.loc (c : Thread nD τ) ↦[bMine.view.set]{fullShare} mineV m ρ c : sProp 𝕄)
      ⊢ iprop((bMine.view.loc (c : Thread nD τ) ↦[bMine.view.set]{shareDrop fullShare 3} mineV m ρ c)
          ∗ (bMine.view.loc (c : Thread nD τ) ↦[bMine.view.set]{shareTok fullShare 3 0} mineV m ρ c)
          ∗ (bMine.view.loc (c : Thread nD τ) ↦[bMine.view.set]{shareTok fullShare 3 1} mineV m ρ c)
          ∗ (bMine.view.loc (c : Thread nD τ) ↦[bMine.view.set]{shareTok fullShare 3 2} mineV m ρ c)) := by
  refine (Transfers.pointsTo_toks_split fullShare 3).trans (Entails.of_eq ?_)
  rw [bigSep_fin3]
theorem join_mine (c : Dev nD) :
    iprop((bMine.view.loc (c : Thread nD τ) ↦[bMine.view.set]{shareDrop fullShare 3} mineV m ρ c)
        ∗ (bMine.view.loc (c : Thread nD τ) ↦[bMine.view.set]{shareTok fullShare 3 0} mineV m ρ c)
        ∗ (bMine.view.loc (c : Thread nD τ) ↦[bMine.view.set]{shareTok fullShare 3 1} mineV m ρ c)
        ∗ (bMine.view.loc (c : Thread nD τ) ↦[bMine.view.set]{shareTok fullShare 3 2} mineV m ρ c))
      ⊢ (((c : Thread nD τ).loc cc0_scratch0) ↦{fullShare} mineV m ρ c : sProp 𝕄) := by
  rw [pts_bMine]
  refine (Entails.of_eq ?_).trans (Transfers.pointsTo_toks_join fullShare 3)
  rw [bigSep_fin3]
/-- Seven read shares of the column-group sums for the seven copies, the rest kept for the loads; and back. -/
theorem split_col (c : Dev nD) :
    (bCol.view.loc (c : Thread nD τ) ↦[bCol.view.set]{fullShare} colV m ρ c : sProp 𝕄)
      ⊢ iprop((bCol.view.loc (c : Thread nD τ) ↦[bCol.view.set]{shareDrop fullShare 7} colV m ρ c)
          ∗ (bCol.view.loc (c : Thread nD τ) ↦[bCol.view.set]{shareTok fullShare 7 0} colV m ρ c)
          ∗ (bCol.view.loc (c : Thread nD τ) ↦[bCol.view.set]{shareTok fullShare 7 1} colV m ρ c)
          ∗ (bCol.view.loc (c : Thread nD τ) ↦[bCol.view.set]{shareTok fullShare 7 2} colV m ρ c)
          ∗ (bCol.view.loc (c : Thread nD τ) ↦[bCol.view.set]{shareTok fullShare 7 3} colV m ρ c)
          ∗ (bCol.view.loc (c : Thread nD τ) ↦[bCol.view.set]{shareTok fullShare 7 4} colV m ρ c)
          ∗ (bCol.view.loc (c : Thread nD τ) ↦[bCol.view.set]{shareTok fullShare 7 5} colV m ρ c)
          ∗ (bCol.view.loc (c : Thread nD τ) ↦[bCol.view.set]{shareTok fullShare 7 6} colV m ρ c)) := by
  refine (Transfers.pointsTo_toks_split fullShare 7).trans (Entails.of_eq ?_)
  rw [bigSep_fin7]
theorem join_col (c : Dev nD) :
    iprop((bCol.view.loc (c : Thread nD τ) ↦[bCol.view.set]{shareDrop fullShare 7} colV m ρ c)
        ∗ (bCol.view.loc (c : Thread nD τ) ↦[bCol.view.set]{shareTok fullShare 7 0} colV m ρ c)
        ∗ (bCol.view.loc (c : Thread nD τ) ↦[bCol.view.set]{shareTok fullShare 7 1} colV m ρ c)
        ∗ (bCol.view.loc (c : Thread nD τ) ↦[bCol.view.set]{shareTok fullShare 7 2} colV m ρ c)
        ∗ (bCol.view.loc (c : Thread nD τ) ↦[bCol.view.set]{shareTok fullShare 7 3} colV m ρ c)
        ∗ (bCol.view.loc (c : Thread nD τ) ↦[bCol.view.set]{shareTok fullShare 7 4} colV m ρ c)
        ∗ (bCol.view.loc (c : Thread nD τ) ↦[bCol.view.set]{shareTok fullShare 7 5} colV m ρ c)
        ∗ (bCol.view.loc (c : Thread nD τ) ↦[bCol.view.set]{shareTok fullShare 7 6} colV m ρ c))
      ⊢ (((c : Thread nD τ).loc cc0_scratch1) ↦{fullShare} colV m ρ c : sProp 𝕄) := by
  rw [pts_bCol]
  refine (Entails.of_eq ?_).trans (Transfers.pointsTo_toks_join fullShare 7)
  rw [bigSep_fin7]

/-- The payloads of a round with the one duty 0, as that duty's payload. -/
theorem one_payload_recv (c : Dev nD) (i : Fin 10) :
    (bigSep ((rd (F := F) m ρ).duties (recvCell c i) 0 \ ∅) fun d => (rd (F := F) m ρ).payload (recvCell c i) 0 d)
      ⊢ (rd (F := F) m ρ).payload (recvCell c i) 0 0 := by
  rw [duties_recv, Finset.sdiff_empty, BI.bigSep_singleton]
theorem one_payload_send (c : Dev nD) (i : Fin 10) :
    (bigSep ((rd (F := F) m ρ).duties (sendCell c i) 0 \ ∅) fun d => (rd (F := F) m ρ).payload (sendCell c i) 0 d)
      ⊢ (rd (F := F) m ρ).payload (sendCell c i) 0 0 := by
  rw [duties_send, Finset.sdiff_empty, BI.bigSep_singleton]

/-! ## The body -/

attribute [local sl_rounds] duties_bar amount_bar expect_bar
  npay_own_0 npay_own_1 npay_own_2 npay_own_3 npay_own_4 npay_own_5 npay_own_6 npay_own_7 npay_own_8 npay_own_9
  xdut_send_0 xdut_send_1 xdut_send_2 xdut_send_3 xdut_send_4 xdut_send_5 xdut_send_6 xdut_send_7 xdut_send_8 xdut_send_9
  xamt_send_0 xamt_send_1 xamt_send_2 xamt_send_3 xamt_send_4 xamt_send_5 xamt_send_6 xamt_send_7 xamt_send_8 xamt_send_9
  xexp_send_0 xexp_send_1 xexp_send_2 xexp_send_3 xexp_send_4 xexp_send_5 xexp_send_6 xexp_send_7 xexp_send_8 xexp_send_9
  xdut_recv_0 xdut_recv_1 xdut_recv_2 xdut_recv_3 xdut_recv_4 xdut_recv_5 xdut_recv_6 xdut_recv_7 xdut_recv_8 xdut_recv_9
  xamt_recv_0 xamt_recv_1 xamt_recv_2 xamt_recv_3 xamt_recv_4 xamt_recv_5 xamt_recv_6 xamt_recv_7 xamt_recv_8 xamt_recv_9
  xexp_recv_0 xexp_recv_1 xexp_recv_2 xexp_recv_3 xexp_recv_4 xexp_recv_5 xexp_recv_6 xexp_recv_7 xexp_recv_8 xexp_recv_9
  xpay_recv_0 xpay_recv_1 xpay_recv_2 xpay_recv_3 xpay_recv_4 xpay_recv_5 xpay_recv_6 xpay_recv_7 xpay_recv_8 xpay_recv_9
  xpay_send_0 xpay_send_1 xpay_send_2 xpay_send_3 xpay_send_4 xpay_send_5 xpay_send_6 xpay_send_7 xpay_send_8 xpay_send_9

attribute [local sl_rounds high] npay_sig_0 npay_sig_1 npay_sig_2 npay_sig_3 npay_sig_4 npay_sig_5 npay_sig_6 npay_sig_7 npay_sig_8 npay_sig_9

attribute [local irreducible] bSlot Cert.Mesh.peer Cert.Mesh.src owe payRev

attribute [local sl_canon] dev1_eq dev2_eq dev3_eq dev4_eq dev5_eq dev6_eq dev7_eq dev8_eq dev9_eq dev10_eq
  canon_bX canon_bT canon_bWs canon_bWsh canon_bO canon_bMine canon_bCol canon_bCz canon_bCp
  canon_slot_0 canon_slot_1 canon_slot_2 canon_slot_3 canon_slot_4 canon_slot_5 canon_slot_6 canon_slot_7 canon_slot_8 canon_slot_9

set_option hygiene false in
/-- One copy by the addressed-transfer rule of the rounds discipline: device c lends the read share `hTok` of its
    source, hands over the peer's landing slot (held at contents `fd` since the barrier), pays the landing's tally off
    what it owes, and keeps a credit for the read-out. The two cells' invariants are read off the records for the
    step and dropped after it. The side facts are the schedule's tables at this index; that what lands is the receive
    cell's payload is the landing lemma. -/
local macro "copy_step " deq:ident dk:ident dlt:ident src:ident i:num q:term:max fs:term:max fd:ident
    xds:ident xdr:ident xas:ident xar:ident xps:ident lnd:ident amt:ident rest:term:max
    hTok:ident hD:ident hTS:ident hRS:ident hTR:ident hRR:ident hC:ident : tactic =>
  `(tactic| (
    ihave #HcIS := (inv_of m ρ K (c, ixS $i) _ (kcell_S c $i)) $$ HRec
    ihave #HcIR := (inv_of m ρ K (peer c $i, ixR $i) _ (kcell_R (peer c $i) $i)) $$ HRec
    rw [← $deq c]
    iapply (Rounds.wp_send_pointsTo 𝒱₀ ER (rd m ρ) (c : Thread nD τ) none
        (c' := ((⟨$dk c, $dlt c⟩ : Dev nD) : Thread nD τ)) (src := $src) (dst := bSlot $i) (q := $q)
        (fs := $fs) (fd := $fd) (r₁ := 0) (r₂ := 0) (d₁ := 0) (d₂ := 0)
        (by rw [$xds:ident]; exact Finset.mem_singleton_self _) (by rw [$xdr:ident]; exact Finset.mem_singleton_self _)
        () () N ($amt _) ($xas m ρ c) ($xar m ρ _) $rest rfl
        (Entails.of_eq ($xps m ρ c).symm) (by rw [$deq c]; exact $lnd m ρ c $fd)) $$ [$hTok:ident $hD:ident HO $hTS:ident $hTR:ident]
    · isplitr; · iexact HcIS
      isplitr; · iexact HcIR
      isplitl [$hTok:ident]; · iexact $hTok
      isplitl [$hD:ident]; · iexact $hD
      isplitl [HO]; · iexact HO
      isplitl [$hTS:ident]; · iexact $hTS
      isplitr; · iexact $hRS
      isplitl [$hTR:ident]; · iexact $hTR
      iexact $hRR
    iintro ⟨$hC:ident, HO⟩
    iclear HcIS HcIR
    rw [$deq c]))

set_option hygiene false in
/-- One wait for a DMA cell's whole round by the rounds discipline's wait rule: device c hands in the credit for
    the round's units and its position, shows (by `mw`) that the cell lies below everything it still owes, and comes
    back with the round's one payload `hP`, read through the schedule's tables. The cell's invariant is read off the
    records for the step and dropped after it. -/
local macro "wait_step " kix:term:max kc:term:max sem:term:max xexp:term:max onep:term:max xpay:term:max cred:ident O:term:max
    hC:ident hAt:ident hP:ident " by " mw:tacticSeq : tactic =>
  `(tactic| (
    ihave #HwI := (inv_of m ρ K $kix _ $kc) $$ HRec
    iapply (Rounds.wp_wait_rest_token 𝒱₀ ER (rd m ρ) (c : Thread nD τ) none (κ := K $kix) (sm := SemLoc.dma $sem)
        (wpE_waitDma2_eq 𝒱₀ (c : Thread nD τ) none Set.univ) (Set.mem_univ _) () (O := $O) (R := 0) (m := 0) (T := ∅)
        (by rw [Nat.zero_add, $xexp:term] <;> exact $cred)) $$ [$hC:ident HO $hAt:ident]
    · isplitr; · iexact HwI
      isplitl [$hC:ident]; · iexact $hC
      isplitl [HO]; · iexact HO
      isplitr; · ($mw)
      iexact $hAt
    iintro ⟨HO, $hAt:ident, -, $hP:ident⟩
    ihave $hP:ident := ($onep) $$ $hP:ident
    ihave $hP:ident := (Entails.of_eq $xpay) $$ $hP:ident
    iclear HwI))

set_option hygiene false in
/-- One of the device's own cells closed after its one round: from its invariant (read off the records) and the
    position at round 1, the counter back at zero. -/
local macro "close_step " kix:term:max kc:term:max cell:term:max hAt:ident hZ:ident : tactic =>
  `(tactic| (
    ihave #HxI := (inv_of m ρ K $kix _ $kc) $$ HRec
    imod (Rounds.cell_close ER (rd m ρ) (Set.mem_univ (K $kix)) (fun h => h) (R := 0 + 1) (duties_later m ρ $cell)) $$ [$hAt:ident] with $hZ:ident
    · isplitr; · iexact HxI
      iexact $hAt
    iclear HxI))

set_option maxHeartbeats 4000000 in
set_option maxRecDepth 16384 in
theorem sound_body : BodySound (F := F) m ρ := by
  intro c Kt
  unfold bodyPre Φ₀ start ghost creds scr positions payToks
  iintro ⟨⟨⟨⟨⟨⟨%K, #HRec⟩, HatPos, HtTok⟩, HcCred, #Hlev⟩, Hscr⟩, Ho, ⟨%d0, %g0, %hg0, Hx⟩, ⟨%d1, %g1, %hg1, Ht⟩, ⟨%d2, %g2, %hg2, Hws⟩, ⟨%d3, %g3, %hg3, Hwsh⟩, ⟨%d4, %g4, %hg4, Hout⟩⟩, Hk⟩
  ihave #HI := (records_elim m ρ K c) $$ HRec
  unfold invsOf
  simp only [bigSep_fin10, inv_0, inv_1, inv_2, inv_3, inv_4, inv_5, inv_6, inv_7, inv_8, inv_9]
  -- of the invariants only the barrier cells' stay in the context; the send and receive cells' are read off the records at each step
  icases HI with ⟨#HIB, -, -,
    ⟨#HIPB0, #HIPB1, #HIPB2, #HIPB3, #HIPB4, #HIPB5, #HIPB6, #HIPB7, #HIPB8, #HIPB9⟩, -,
    ⟨#HrS0, #HrS1, #HrS2, #HrS3, #HrS4, #HrS5, #HrS6, #HrS7, #HrS8, #HrS9⟩, ⟨#HrR0, #HrR1, #HrR2, #HrR3, #HrR4, #HrR5, #HrR6, #HrR7, #HrR8, #HrR9⟩,
    ⟨#HrPB0, #HrPB1, #HrPB2, #HrPB3, #HrPB4, #HrPB5, #HrPB6, #HrPB7, #HrPB8, #HrPB9⟩, ⟨#HrPR0, #HrPR1, #HrPR2, #HrPR3, #HrPR4, #HrPR5, #HrPR6, #HrPR7, #HrPR8, #HrPR9⟩⟩
  icases HatPos with ⟨HatB, ⟨HatS0, HatS1, HatS2, HatS3, HatS4, HatS5, HatS6, HatS7, HatS8, HatS9⟩, ⟨HatR0, HatR1, HatR2, HatR3, HatR4, HatR5, HatR6, HatR7, HatR8, HatR9⟩⟩
  icases HtTok with ⟨⟨HtB0, HtB1, HtB2, HtB3, HtB4, HtB5, HtB6, HtB7, HtB8, HtB9⟩, ⟨HtS0, HtS1, HtS2, HtS3, HtS4, HtS5, HtS6, HtS7, HtS8, HtS9⟩, ⟨HtR0, HtR1, HtR2, HtR3, HtR4, HtR5, HtR6, HtR7, HtR8, HtR9⟩⟩
  icases HcCred with ⟨HcB, ⟨HcR0, HcR1, HcR2, HcR3, HcR4, HcR5, HcR6, HcR7, HcR8, HcR9⟩⟩
  icases Hscr with ⟨⟨%f0, Hmine⟩, ⟨%f1, Hcol⟩, ⟨%f2, Hcz⟩, ⟨%f3, Hcp⟩⟩
  -- what the device owes, behind its name with the ten signals' tallies spelt out; the staged blocks by name
  unfold Dat.owesAt Pipeline.owesWithin
  icases Ho with ⟨%W, %hW, HO⟩
  rw [show (dats m ρ 0 c).owed t₀.castSucc = O₀ c from rfl, owe_20, peelB0, peelB1, peelB2, peelB3, peelB4, peelB5, peelB6, peelB7, peelB8, peelB9]
  have hx : g0 = xb m ρ c := by rw [hg0]; unfold Dat.before; rw [if_pos (fetch0_0 t₀)]; rfl
  have ht : g1 = tb m ρ c := by rw [hg1]; unfold Dat.before; rw [if_pos (fetch0_1 t₀)]; rfl
  have hws : g2 = wsb m ρ c := by rw [hg2]; unfold Dat.before; rw [if_pos (fetch0_2 t₀)]; rfl
  have hwsh : g3 = wshb m ρ c := by rw [hg3]; unfold Dat.before; rw [if_pos (fetch0_3 t₀)]; rfl
  subst hx ht hws hwsh
  -- the two landing buffers page by page: each page goes to the peer whose copy lands there
  ihave Hz := ((cz_pages (F := F) c f2).1) $$ Hcz
  icases Hz with ⟨Hsl0, Hsl1, Hsl2⟩
  ihave Hp := ((cp_pages (F := F) c f3).1) $$ Hcp
  icases Hp with ⟨Hsl3, Hsl4, Hsl5, Hsl6, Hsl7, Hsl8, Hsl9⟩
  -- every buffer held through its name
  ihave Hx := (Entails.of_eq (pts_bX c _)) $$ Hx
  ihave Ht := (Entails.of_eq (pts_bT c _)) $$ Ht
  ihave Hws := (Entails.of_eq (pts_bWs c _)) $$ Hws
  ihave Hwsh := (Entails.of_eq (pts_bWsh c _)) $$ Hwsh
  ihave Hout := (Entails.of_eq (pts_bO c _)) $$ Hout
  ihave Hmine := (Entails.of_eq (pts_bMine c _)) $$ Hmine
  ihave Hcol := (Entails.of_eq (pts_bCol c _)) $$ Hcol
  ihave Hsl0 := (Entails.of_eq (pts_slot_0 c fullShare f2)) $$ Hsl0
  ihave Hsl1 := (Entails.of_eq (pts_slot_1 c fullShare f2)) $$ Hsl1
  ihave Hsl2 := (Entails.of_eq (pts_slot_2 c fullShare f2)) $$ Hsl2
  ihave Hsl3 := (Entails.of_eq (pts_slot_3 c fullShare f3)) $$ Hsl3
  ihave Hsl4 := (Entails.of_eq (pts_slot_4 c fullShare f3)) $$ Hsl4
  ihave Hsl5 := (Entails.of_eq (pts_slot_5 c fullShare f3)) $$ Hsl5
  ihave Hsl6 := (Entails.of_eq (pts_slot_6 c fullShare f3)) $$ Hsl6
  ihave Hsl7 := (Entails.of_eq (pts_slot_7 c fullShare f3)) $$ Hsl7
  ihave Hsl8 := (Entails.of_eq (pts_slot_8 c fullShare f3)) $$ Hsl8
  ihave Hsl9 := (Entails.of_eq (pts_slot_9 c fullShare f3)) $$ Hsl9
  have hmwB := mayWait_bar' (F := F) c
  unfold bodyProg
  simp only [cc0_body_eq_skeleton]; unfold cc0_body_skel
  -- the ten signals, the row sums, the barrier wait
  sl_exec_parts
  -- the barrier's ten payloads: each peer's landing slot (over some contents), and that its receive cell is open
  ihave Hpay := (Entails.of_eq (bigSep_fin10 _)) $$ HatB_pay1
  simp only [npay_own_0, npay_own_1, npay_own_2, npay_own_3, npay_own_4, npay_own_5, npay_own_6, npay_own_7, npay_own_8, npay_own_9]
  icases Hpay with ⟨⟨⟨%e0, Hd0⟩, -⟩, ⟨⟨%e1, Hd1⟩, -⟩, ⟨⟨%e2, Hd2⟩, -⟩, ⟨⟨%e3, Hd3⟩, -⟩, ⟨⟨%e4, Hd4⟩, -⟩, ⟨⟨%e5, Hd5⟩, -⟩, ⟨⟨%e6, Hd6⟩, -⟩, ⟨⟨%e7, Hd7⟩, -⟩, ⟨⟨%e8, Hd8⟩, -⟩, ⟨⟨%e9, Hd9⟩, -⟩⟩
  -- the column group's three landings are what is paid next
  rw [peelR0, peelR1, peelR2]
  -- the row sums, by value; three read shares of them for the three copies, the rest kept for the loads
  have hmineC := mine_writes m ρ c f0
  delta sound_body.sl.Hmine_2
  beta_reduce
  rw [hmineC]
  ihave Hm := (split_mine m ρ c) $$ Hmine
  icases Hm with ⟨Hmine, Hmt0, Hmt1, Hmt2⟩
  -- the column group: three copies, three landings
  copy_step dev11_eq k0_dev11 k0_dev11_lt bMine 0 (shareTok fullShare 3 0) (mineV m ρ c) e0 xdut_send_0 xdut_recv_0 xamt_send_0 xamt_recv_0 xpay_send_0 landed_0 slot_amount_0 (owe c 7 + tallyAt (recvCell (peer c 2) 2) () N + tallyAt (recvCell (peer c 1) 1) () N) Hmt0 Hd0 HtS0 HrS0 HtR0 HrPR0 HcS0
  try sl_exec_parts
  copy_step dev12_eq k0_dev12 k0_dev12_lt bMine 1 (shareTok fullShare 3 1) (mineV m ρ c) e1 xdut_send_1 xdut_recv_1 xamt_send_1 xamt_recv_1 xpay_send_1 landed_1 slot_amount_1 (owe c 7 + tallyAt (recvCell (peer c 2) 2) () N) Hmt1 Hd1 HtS1 HrS1 HtR1 HrPR1 HcS1
  try sl_exec_parts
  copy_step dev13_eq k0_dev13 k0_dev13_lt bMine 2 (shareTok fullShare 3 2) (mineV m ρ c) e2 xdut_send_2 xdut_recv_2 xamt_send_2 xamt_recv_2 xpay_send_2 landed_2 slot_amount_2 (owe c 7) Hmt2 Hd2 HtS2 HrS2 HtR2 HrPR2 HcS2
  try sl_exec_parts
  wait_step (c, ixR 0) (kcell_R c 0) (recvS 0).sem (expect_recv m ρ c 0) (one_payload_recv m ρ c 0) (npay_recv_0 m ρ c 0) slot_credit_0 (owe c 7) HcR0 HatR0 Hq0 by iapply (mayWait_low (F := F) c _ (by rw [lv_recv]; decide)); iexact Hlev
  try sl_exec_parts
  wait_step (c, ixR 1) (kcell_R c 1) (recvS 1).sem (expect_recv m ρ c 1) (one_payload_recv m ρ c 1) (npay_recv_1 m ρ c 0) slot_credit_1 (owe c 7) HcR1 HatR1 Hq1 by iapply (mayWait_low (F := F) c _ (by rw [lv_recv]; decide)); iexact Hlev
  try sl_exec_parts
  wait_step (c, ixR 2) (kcell_R c 2) (recvS 2).sem (expect_recv m ρ c 2) (one_payload_recv m ρ c 2) (npay_recv_2 m ρ c 0) slot_credit_2 (owe c 7) HcR2 HatR2 Hq2 by iapply (mayWait_low (F := F) c _ (by rw [lv_recv]; decide)); iexact Hlev
  -- the three pages have landed: the landing buffer is whole again, at its final contents
  ihave Hcz := (join_cz m ρ c) $$ [Hq0 Hq1 Hq2]
  · isplitl [Hq0]; · iexact Hq0
    isplitl [Hq1]; · iexact Hq1
    iexact Hq2
  -- the column-group sums
  sl_exec_parts
  -- the row group's seven landings are what is paid next; after them nothing is owed
  rw [peelR3, peelR4, peelR5, peelR6, peelR7, peelR8, peelR9]
  -- the column-group sums, by value; seven read shares of them for the seven copies, the rest kept for the loads
  have hcolC := col_writes m ρ c f1
  delta sound_body.sl.Hcol_1
  beta_reduce
  rw [hcolC]
  ihave Hc := (split_col m ρ c) $$ Hcol
  icases Hc with ⟨Hcol, Hct0, Hct1, Hct2, Hct3, Hct4, Hct5, Hct6⟩
  -- the row group: seven copies, seven landings
  copy_step dev14_eq k0_dev14 k0_dev14_lt bCol 3 (shareTok fullShare 7 0) (colV m ρ c) e3 xdut_send_3 xdut_recv_3 xamt_send_3 xamt_recv_3 xpay_send_3 landed_3 slot_amount_3 (0 + tallyAt (recvCell (peer c 9) 9) () N + tallyAt (recvCell (peer c 8) 8) () N + tallyAt (recvCell (peer c 7) 7) () N + tallyAt (recvCell (peer c 6) 6) () N + tallyAt (recvCell (peer c 5) 5) () N + tallyAt (recvCell (peer c 4) 4) () N) Hct0 Hd3 HtS3 HrS3 HtR3 HrPR3 HcS3
  try sl_exec_parts
  copy_step dev15_eq k0_dev15 k0_dev15_lt bCol 4 (shareTok fullShare 7 1) (colV m ρ c) e4 xdut_send_4 xdut_recv_4 xamt_send_4 xamt_recv_4 xpay_send_4 landed_4 slot_amount_4 (0 + tallyAt (recvCell (peer c 9) 9) () N + tallyAt (recvCell (peer c 8) 8) () N + tallyAt (recvCell (peer c 7) 7) () N + tallyAt (recvCell (peer c 6) 6) () N + tallyAt (recvCell (peer c 5) 5) () N) Hct1 Hd4 HtS4 HrS4 HtR4 HrPR4 HcS4
  try sl_exec_parts
  copy_step dev16_eq k0_dev16 k0_dev16_lt bCol 5 (shareTok fullShare 7 2) (colV m ρ c) e5 xdut_send_5 xdut_recv_5 xamt_send_5 xamt_recv_5 xpay_send_5 landed_5 slot_amount_5 (0 + tallyAt (recvCell (peer c 9) 9) () N + tallyAt (recvCell (peer c 8) 8) () N + tallyAt (recvCell (peer c 7) 7) () N + tallyAt (recvCell (peer c 6) 6) () N) Hct2 Hd5 HtS5 HrS5 HtR5 HrPR5 HcS5
  try sl_exec_parts
  copy_step dev17_eq k0_dev17 k0_dev17_lt bCol 6 (shareTok fullShare 7 3) (colV m ρ c) e6 xdut_send_6 xdut_recv_6 xamt_send_6 xamt_recv_6 xpay_send_6 landed_6 slot_amount_6 (0 + tallyAt (recvCell (peer c 9) 9) () N + tallyAt (recvCell (peer c 8) 8) () N + tallyAt (recvCell (peer c 7) 7) () N) Hct3 Hd6 HtS6 HrS6 HtR6 HrPR6 HcS6
  try sl_exec_parts
  copy_step dev18_eq k0_dev18 k0_dev18_lt bCol 7 (shareTok fullShare 7 4) (colV m ρ c) e7 xdut_send_7 xdut_recv_7 xamt_send_7 xamt_recv_7 xpay_send_7 landed_7 slot_amount_7 (0 + tallyAt (recvCell (peer c 9) 9) () N + tallyAt (recvCell (peer c 8) 8) () N) Hct4 Hd7 HtS7 HrS7 HtR7 HrPR7 HcS7
  try sl_exec_parts
  copy_step dev19_eq k0_dev19 k0_dev19_lt bCol 8 (shareTok fullShare 7 5) (colV m ρ c) e8 xdut_send_8 xdut_recv_8 xamt_send_8 xamt_recv_8 xpay_send_8 landed_8 slot_amount_8 (0 + tallyAt (recvCell (peer c 9) 9) () N) Hct5 Hd8 HtS8 HrS8 HtR8 HrPR8 HcS8
  try sl_exec_parts
  copy_step dev20_eq k0_dev20 k0_dev20_lt bCol 9 (shareTok fullShare 7 6) (colV m ρ c) e9 xdut_send_9 xdut_recv_9 xamt_send_9 xamt_recv_9 xpay_send_9 landed_9 slot_amount_9 0 Hct6 Hd9 HtS9 HrS9 HtR9 HrPR9 HcS9
  try sl_exec_parts
  wait_step (c, ixR 3) (kcell_R c 3) (recvS 3).sem (expect_recv m ρ c 3) (one_payload_recv m ρ c 3) (npay_recv_3 m ρ c 0) slot_credit_3 0 HcR3 HatR3 Hq3 by rw [MayWait_zero]; iempintro
  try sl_exec_parts
  wait_step (c, ixR 4) (kcell_R c 4) (recvS 4).sem (expect_recv m ρ c 4) (one_payload_recv m ρ c 4) (npay_recv_4 m ρ c 0) slot_credit_4 0 HcR4 HatR4 Hq4 by rw [MayWait_zero]; iempintro
  try sl_exec_parts
  wait_step (c, ixR 5) (kcell_R c 5) (recvS 5).sem (expect_recv m ρ c 5) (one_payload_recv m ρ c 5) (npay_recv_5 m ρ c 0) slot_credit_5 0 HcR5 HatR5 Hq5 by rw [MayWait_zero]; iempintro
  try sl_exec_parts
  wait_step (c, ixR 6) (kcell_R c 6) (recvS 6).sem (expect_recv m ρ c 6) (one_payload_recv m ρ c 6) (npay_recv_6 m ρ c 0) slot_credit_6 0 HcR6 HatR6 Hq6 by rw [MayWait_zero]; iempintro
  try sl_exec_parts
  wait_step (c, ixR 7) (kcell_R c 7) (recvS 7).sem (expect_recv m ρ c 7) (one_payload_recv m ρ c 7) (npay_recv_7 m ρ c 0) slot_credit_7 0 HcR7 HatR7 Hq7 by rw [MayWait_zero]; iempintro
  try sl_exec_parts
  wait_step (c, ixR 8) (kcell_R c 8) (recvS 8).sem (expect_recv m ρ c 8) (one_payload_recv m ρ c 8) (npay_recv_8 m ρ c 0) slot_credit_8 0 HcR8 HatR8 Hq8 by rw [MayWait_zero]; iempintro
  try sl_exec_parts
  wait_step (c, ixR 9) (kcell_R c 9) (recvS 9).sem (expect_recv m ρ c 9) (one_payload_recv m ρ c 9) (npay_recv_9 m ρ c 0) slot_credit_9 0 HcR9 HatR9 Hq9 by rw [MayWait_zero]; iempintro
  -- the seven pages have landed: the landing buffer is whole again, at its final contents
  ihave Hcp := (join_cp m ρ c) $$ [Hq3 Hq4 Hq5 Hq6 Hq7 Hq8 Hq9]
  · isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    iexact Hq9
  -- the totals, the normalised and modulated block, stored to the result's staging buffer
  sl_exec_parts
  -- the result block, by value
  have houtC : bO.view.writes (Elt F) g4
      [⟨Rect.unit (s := S4x256x128) ![0, 0, 0] S4x256x128.size inb_S4x256x128_S4x256x128_0_0_0,
        k0_pay11 (sound_body.sl.r m ρ c) (sound_body.sl.r_1 m ρ c) (sound_body.sl.r_2 m ρ c) (sound_body.sl.r_4 m ρ c)
          (sound_body.sl.r_5 m ρ c) sound_body.sl.cst_364⟩] = outV m ρ c := out_writes m ρ c g4
  rw [houtC]
  -- the ten read-outs: each hands back the read share it was lent
  wait_step (c, ixS 0) (kcell_S c 0) (sendS 0).sem (expect_send m ρ c 0) (one_payload_send m ρ c 0) (npay_send_0 m ρ c 0) mine_credit 0 HcS0 HatS0 Hs0 by rw [MayWait_zero]; iempintro
  try sl_exec_parts
  wait_step (c, ixS 1) (kcell_S c 1) (sendS 1).sem (expect_send m ρ c 1) (one_payload_send m ρ c 1) (npay_send_1 m ρ c 0) mine_credit 0 HcS1 HatS1 Hs1 by rw [MayWait_zero]; iempintro
  try sl_exec_parts
  wait_step (c, ixS 2) (kcell_S c 2) (sendS 2).sem (expect_send m ρ c 2) (one_payload_send m ρ c 2) (npay_send_2 m ρ c 0) mine_credit 0 HcS2 HatS2 Hs2 by rw [MayWait_zero]; iempintro
  try sl_exec_parts
  wait_step (c, ixS 3) (kcell_S c 3) (sendS 3).sem (expect_send m ρ c 3) (one_payload_send m ρ c 3) (npay_send_3 m ρ c 0) col_credit 0 HcS3 HatS3 Hs3 by rw [MayWait_zero]; iempintro
  try sl_exec_parts
  wait_step (c, ixS 4) (kcell_S c 4) (sendS 4).sem (expect_send m ρ c 4) (one_payload_send m ρ c 4) (npay_send_4 m ρ c 0) col_credit 0 HcS4 HatS4 Hs4 by rw [MayWait_zero]; iempintro
  try sl_exec_parts
  wait_step (c, ixS 5) (kcell_S c 5) (sendS 5).sem (expect_send m ρ c 5) (one_payload_send m ρ c 5) (npay_send_5 m ρ c 0) col_credit 0 HcS5 HatS5 Hs5 by rw [MayWait_zero]; iempintro
  try sl_exec_parts
  wait_step (c, ixS 6) (kcell_S c 6) (sendS 6).sem (expect_send m ρ c 6) (one_payload_send m ρ c 6) (npay_send_6 m ρ c 0) col_credit 0 HcS6 HatS6 Hs6 by rw [MayWait_zero]; iempintro
  try sl_exec_parts
  wait_step (c, ixS 7) (kcell_S c 7) (sendS 7).sem (expect_send m ρ c 7) (one_payload_send m ρ c 7) (npay_send_7 m ρ c 0) col_credit 0 HcS7 HatS7 Hs7 by rw [MayWait_zero]; iempintro
  try sl_exec_parts
  wait_step (c, ixS 8) (kcell_S c 8) (sendS 8).sem (expect_send m ρ c 8) (one_payload_send m ρ c 8) (npay_send_8 m ρ c 0) col_credit 0 HcS8 HatS8 Hs8 by rw [MayWait_zero]; iempintro
  try sl_exec_parts
  wait_step (c, ixS 9) (kcell_S c 9) (sendS 9).sem (expect_send m ρ c 9) (one_payload_send m ρ c 9) (npay_send_9 m ρ c 0) col_credit 0 HcS9 HatS9 Hs9 by rw [MayWait_zero]; iempintro
  try sl_exec_parts
  -- the twenty own cells are closed: their counters are back at zero
  close_step (c, ixS 0) (kcell_S c 0) (sendCell c 0) HatS0 Hz0
  close_step (c, ixS 1) (kcell_S c 1) (sendCell c 1) HatS1 Hz1
  close_step (c, ixS 2) (kcell_S c 2) (sendCell c 2) HatS2 Hz2
  close_step (c, ixS 3) (kcell_S c 3) (sendCell c 3) HatS3 Hz3
  close_step (c, ixS 4) (kcell_S c 4) (sendCell c 4) HatS4 Hz4
  close_step (c, ixS 5) (kcell_S c 5) (sendCell c 5) HatS5 Hz5
  close_step (c, ixS 6) (kcell_S c 6) (sendCell c 6) HatS6 Hz6
  close_step (c, ixS 7) (kcell_S c 7) (sendCell c 7) HatS7 Hz7
  close_step (c, ixS 8) (kcell_S c 8) (sendCell c 8) HatS8 Hz8
  close_step (c, ixS 9) (kcell_S c 9) (sendCell c 9) HatS9 Hz9
  close_step (c, ixR 0) (kcell_R c 0) (recvCell c 0) HatR0 Hz10
  close_step (c, ixR 1) (kcell_R c 1) (recvCell c 1) HatR1 Hz11
  close_step (c, ixR 2) (kcell_R c 2) (recvCell c 2) HatR2 Hz12
  close_step (c, ixR 3) (kcell_R c 3) (recvCell c 3) HatR3 Hz13
  close_step (c, ixR 4) (kcell_R c 4) (recvCell c 4) HatR4 Hz14
  close_step (c, ixR 5) (kcell_R c 5) (recvCell c 5) HatR5 Hz15
  close_step (c, ixR 6) (kcell_R c 6) (recvCell c 6) HatR6 Hz16
  close_step (c, ixR 7) (kcell_R c 7) (recvCell c 7) HatR7 Hz17
  close_step (c, ixR 8) (kcell_R c 8) (recvCell c 8) HatR8 Hz18
  close_step (c, ixR 9) (kcell_R c 9) (recvCell c 9) HatR9 Hz19
  -- the read shares rejoin; every buffer back in its plain form
  ihave Hmine := (join_mine m ρ c) $$ [Hmine Hs0 Hs1 Hs2]
  · isplitl [Hmine]; · iexact Hmine
    isplitl [Hs0]; · iexact Hs0
    isplitl [Hs1]; · iexact Hs1
    iexact Hs2
  ihave Hcol := (join_col m ρ c) $$ [Hcol Hs3 Hs4 Hs5 Hs6 Hs7 Hs8 Hs9]
  · isplitl [Hcol]; · iexact Hcol
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact Hs9
  ihave Hcz := (Entails.of_eq (pts_bCz c _).symm) $$ Hcz
  ihave Hcp := (Entails.of_eq (pts_bCp c _).symm) $$ Hcp
  ihave Hx := (Entails.of_eq (pts_bX c _).symm) $$ Hx
  ihave Ht := (Entails.of_eq (pts_bT c _).symm) $$ Ht
  ihave Hws := (Entails.of_eq (pts_bWs c _).symm) $$ Hws
  ihave Hwsh := (Entails.of_eq (pts_bWsh c _).symm) $$ Hwsh
  ihave Hout := (Entails.of_eq (pts_bO c _).symm) $$ Hout
  -- the return, and the post reassembled
  first | sl_step | (simp only [Prog.bind]; sl_step) | (sl_exec; sl_step)
  iapply Hk
  unfold bodyPost Φ₁ scr
  rw [bigSep_fin20]
  isplitl [Hmine Hcol Hcz Hcp Hz0 Hz1 Hz2 Hz3 Hz4 Hz5 Hz6 Hz7 Hz8 Hz9 Hz10 Hz11 Hz12 Hz13 Hz14 Hz15 Hz16 Hz17 Hz18 Hz19]
  · isplitl [Hmine Hcol Hcz Hcp]
    · isplitl [Hmine]; · iexists _; iexact Hmine
      isplitl [Hcol]; · iexists _; iexact Hcol
      isplitl [Hcz]; · iexists _; iexact Hcz
      iexists _; iexact Hcp
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      isplitl [Hz12]; · iexact Hz12
      isplitl [Hz13]; · iexact Hz13
      isplitl [Hz14]; · iexact Hz14
      isplitl [Hz15]; · iexact Hz15
      isplitl [Hz16]; · iexact Hz16
      isplitl [Hz17]; · iexact Hz17
      isplitl [Hz18]; · iexact Hz18
      iexact Hz19
  isplitl [HO]
  · unfold Dat.owesAt Pipeline.owesWithin
    iexists _
    isplitr
    rotate_left
    · iexact HO
    · ipureintro; exact fun _ _ => Or.inl trivial
  isplitl [Hx]
  · iexists _
    isplitr; · ipureintro; rfl
    iexact Hx
  isplitl [Ht]
  · iexists _
    isplitr; · ipureintro; rfl
    iexact Ht
  isplitl [Hws]
  · iexists _
    isplitr; · ipureintro; rfl
    iexact Hws
  isplitl [Hwsh]
  · iexists _
    isplitr; · ipureintro; rfl
    iexact Hwsh
  iexists _
  isplitr; · ipureintro; rfl
  iexact Hout

end Body
end Cert.KernelIdealProof

end
-- ==== Proof.lean ====
/-
  The certificate: the five conjuncts of the claim from the two body lemmas — the word-level program's and the
  idealised one's — through the launch on the 32 devices, the reference's run, the kernel's result block read as the
  reference's block, and finiteness from the precondition.
-/
import proofs.«900767_g7700000000000768_dist_diff_adaln_cshard_i_b4_s256_c128_v7x_i32_bf16_1_alg».proof.Defs
import proofs.«900767_g7700000000000768_dist_diff_adaln_cshard_i_b4_s256_c128_v7x_i32_bf16_1_alg».proof.Proof.Assembly
import proofs.«900767_g7700000000000768_dist_diff_adaln_cshard_i_b4_s256_c128_v7x_i32_bf16_1_alg».proof.Proof.KernelBody
import proofs.«900767_g7700000000000768_dist_diff_adaln_cshard_i_b4_s256_c128_v7x_i32_bf16_1_alg».proof.Proof.KernelIdealBody

namespace Cert.Proof

theorem claim : Cert.Claim :=
  Cert.Assembly.claim_of (fun m ρ => Cert.KernelProof.Body.sound_body m ρ) (fun m ρ => Cert.KernelIdealProof.Body.sound_body m ρ)

end Cert.Proof
